-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S512x256 : Shape := ⟨2, ![512, 256]⟩
abbrev S1x256 : Shape := ⟨2, ![1, 256]⟩
abbrev S31x1x256 : Shape := ⟨3, ![31, 1, 256]⟩
abbrev S31 : Shape := ⟨1, ![31]⟩
abbrev S_ : Shape := ⟨0, ![]⟩
abbrev S256 : Shape := ⟨1, ![256]⟩
abbrev S1 : Shape := ⟨1, ![1]⟩
abbrev S1x1x256 : Shape := ⟨3, ![1, 1, 256]⟩
abbrev S31x256 : Shape := ⟨2, ![31, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S31x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 32 := Scalar.addi v2 c0_i32
  let c1_i32_0 : BitVec 32 := 1#32
  let v5 : BitVec 32 := Scalar.addi v4 c1_i32_0
  let c32_i32_1 : BitVec 32 := 32#32
  let c0_i32_2 : BitVec 32 := 0#32
  let v6 : BitVec 1 := Scalar.cmpi .eq c32_i32_1 c0_i32_2
  let c1_i32_3 : BitVec 32 := 1#32
  let v7 : BitVec 32 := Scalar.select v6 c1_i32_3 c32_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_10 : BitVec 32 := 1#32
  let v18 : BitVec 32 := Scalar.addi v2 c1_i32_10
  let c1_i32_11 : BitVec 32 := 1#32
  let v19 : BitVec 32 := Scalar.addi v18 c1_i32_11
  let c32_i32_12 : BitVec 32 := 32#32
  let c0_i32_13 : BitVec 32 := 0#32
  let v20 : BitVec 1 := Scalar.cmpi .eq c32_i32_12 c0_i32_13
  let c1_i32_14 : BitVec 32 := 1#32
  let v21 : BitVec 32 := Scalar.select v20 c1_i32_14 c32_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v32 : BitVec 32 := Scalar.addi v2 c2_i32
  let c1_i32_21 : BitVec 32 := 1#32
  let v33 : BitVec 32 := Scalar.addi v32 c1_i32_21
  let c32_i32_22 : BitVec 32 := 32#32
  let c0_i32_23 : BitVec 32 := 0#32
  let v34 : BitVec 1 := Scalar.cmpi .eq c32_i32_22 c0_i32_23
  let c1_i32_24 : BitVec 32 := 1#32
  let v35 : BitVec 32 := Scalar.select v34 c1_i32_24 c32_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v46 : BitVec 32 := Scalar.addi v2 c3_i32
  let c1_i32_31 : BitVec 32 := 1#32
  let v47 : BitVec 32 := Scalar.addi v46 c1_i32_31
  let c32_i32_32 : BitVec 32 := 32#32
  let c0_i32_33 : BitVec 32 := 0#32
  let v48 : BitVec 1 := Scalar.cmpi .eq c32_i32_32 c0_i32_33
  let c1_i32_34 : BitVec 32 := 1#32
  let v49 : BitVec 32 := Scalar.select v48 c1_i32_34 c32_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v60 : BitVec 32 := Scalar.addi v2 c4_i32
  let c1_i32_41 : BitVec 32 := 1#32
  let v61 : BitVec 32 := Scalar.addi v60 c1_i32_41
  let c32_i32_42 : BitVec 32 := 32#32
  let c0_i32_43 : BitVec 32 := 0#32
  let v62 : BitVec 1 := Scalar.cmpi .eq c32_i32_42 c0_i32_43
  let c1_i32_44 : BitVec 32 := 1#32
  let v63 : BitVec 32 := Scalar.select v62 c1_i32_44 c32_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v74 : BitVec 32 := Scalar.addi v2 c5_i32
  let c1_i32_51 : BitVec 32 := 1#32
  let v75 : BitVec 32 := Scalar.addi v74 c1_i32_51
  let c32_i32_52 : BitVec 32 := 32#32
  let c0_i32_53 : BitVec 32 := 0#32
  let v76 : BitVec 1 := Scalar.cmpi .eq c32_i32_52 c0_i32_53
  let c1_i32_54 : BitVec 32 := 1#32
  let v77 : BitVec 32 := Scalar.select v76 c1_i32_54 c32_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v88 : BitVec 32 := Scalar.addi v2 c6_i32
  let c1_i32_61 : BitVec 32 := 1#32
  let v89 : BitVec 32 := Scalar.addi v88 c1_i32_61
  let c32_i32_62 : BitVec 32 := 32#32
  let c0_i32_63 : BitVec 32 := 0#32
  let v90 : BitVec 1 := Scalar.cmpi .eq c32_i32_62 c0_i32_63
  let c1_i32_64 : BitVec 32 := 1#32
  let v91 : BitVec 32 := Scalar.select v90 c1_i32_64 c32_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v102 : BitVec 32 := Scalar.addi v2 c7_i32
  let c1_i32_71 : BitVec 32 := 1#32
  let v103 : BitVec 32 := Scalar.addi v102 c1_i32_71
  let c32_i32_72 : BitVec 32 := 32#32
  let c0_i32_73 : BitVec 32 := 0#32
  let v104 : BitVec 1 := Scalar.cmpi .eq c32_i32_72 c0_i32_73
  let c1_i32_74 : BitVec 32 := 1#32
  let v105 : BitVec 32 := Scalar.select v104 c1_i32_74 c32_i32_72
  let v106 : BitVec 32 := Scalar.remsi v103 v105
  let c0_i32_76 : BitVec 32 := 0#32
  let v108 : BitVec 1 := Scalar.cmpi .slt v106 c0_i32_76
  let c0_i32_77 : BitVec 32 := 0#32
  let v109 : BitVec 1 := Scalar.cmpi .slt v105 c0_i32_77
  let v110 : BitVec 1 := Scalar.xori v108 v109
  let c0_i32_75 : BitVec 32 := 0#32
  let v107 : BitVec 1 := Scalar.cmpi .ne v106 c0_i32_75
  let v111 : BitVec 1 := Scalar.andi v110 v107
  let v112 : BitVec 32 := Scalar.addi v106 v105
  let v113 : BitVec 32 := Scalar.select v111 v112 v106
  let c1_i32_79 : BitVec 32 := 1#32
  let v114 : BitVec 32 := Scalar.muli v113 c1_i32_79
  let v115 : BitVec 32 := Scalar.addi c0_i32_80 v114
  v115.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v116 : BitVec 32 := Scalar.addi v2 c8_i32
  let c1_i32_81 : BitVec 32 := 1#32
  let v117 : BitVec 32 := Scalar.addi v116 c1_i32_81
  let c32_i32_82 : BitVec 32 := 32#32
  let c0_i32_83 : BitVec 32 := 0#32
  let v118 : BitVec 1 := Scalar.cmpi .eq c32_i32_82 c0_i32_83
  let c1_i32_84 : BitVec 32 := 1#32
  let v119 : BitVec 32 := Scalar.select v118 c1_i32_84 c32_i32_82
  let v120 : BitVec 32 := Scalar.remsi v117 v119
  let c0_i32_86 : BitVec 32 := 0#32
  let v122 : BitVec 1 := Scalar.cmpi .slt v120 c0_i32_86
  let c0_i32_87 : BitVec 32 := 0#32
  let v123 : BitVec 1 := Scalar.cmpi .slt v119 c0_i32_87
  let v124 : BitVec 1 := Scalar.xori v122 v123
  let c0_i32_85 : BitVec 32 := 0#32
  let v121 : BitVec 1 := Scalar.cmpi .ne v120 c0_i32_85
  let v125 : BitVec 1 := Scalar.andi v124 v121
  let v126 : BitVec 32 := Scalar.addi v120 v119
  let v127 : BitVec 32 := Scalar.select v125 v126 v120
  let c1_i32_89 : BitVec 32 := 1#32
  let v128 : BitVec 32 := Scalar.muli v127 c1_i32_89
  let v129 : BitVec 32 := Scalar.addi c0_i32_90 v128
  v129.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v130 : BitVec 32 := Scalar.addi v2 c9_i32
  let c1_i32_91 : BitVec 32 := 1#32
  let v131 : BitVec 32 := Scalar.addi v130 c1_i32_91
  let c32_i32_92 : BitVec 32 := 32#32
  let c0_i32_93 : BitVec 32 := 0#32
  let v132 : BitVec 1 := Scalar.cmpi .eq c32_i32_92 c0_i32_93
  let c1_i32_94 : BitVec 32 := 1#32
  let v133 : BitVec 32 := Scalar.select v132 c1_i32_94 c32_i32_92
  let v134 : BitVec 32 := Scalar.remsi v131 v133
  let c0_i32_96 : BitVec 32 := 0#32
  let v136 : BitVec 1 := Scalar.cmpi .slt v134 c0_i32_96
  let c0_i32_97 : BitVec 32 := 0#32
  let v137 : BitVec 1 := Scalar.cmpi .slt v133 c0_i32_97
  let v138 : BitVec 1 := Scalar.xori v136 v137
  let c0_i32_95 : BitVec 32 := 0#32
  let v135 : BitVec 1 := Scalar.cmpi .ne v134 c0_i32_95
  let v139 : BitVec 1 := Scalar.andi v138 v135
  let v140 : BitVec 32 := Scalar.addi v134 v133
  let v141 : BitVec 32 := Scalar.select v139 v140 v134
  let c1_i32_99 : BitVec 32 := 1#32
  let v142 : BitVec 32 := Scalar.muli v141 c1_i32_99
  let v143 : BitVec 32 := Scalar.addi c0_i32_100 v142
  v143.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v144 : BitVec 32 := Scalar.addi v2 c10_i32
  let c1_i32_101 : BitVec 32 := 1#32
  let v145 : BitVec 32 := Scalar.addi v144 c1_i32_101
  let c32_i32_102 : BitVec 32 := 32#32
  let c0_i32_103 : BitVec 32 := 0#32
  let v146 : BitVec 1 := Scalar.cmpi .eq c32_i32_102 c0_i32_103
  let c1_i32_104 : BitVec 32 := 1#32
  let v147 : BitVec 32 := Scalar.select v146 c1_i32_104 c32_i32_102
  let v148 : BitVec 32 := Scalar.remsi v145 v147
  let c0_i32_106 : BitVec 32 := 0#32
  let v150 : BitVec 1 := Scalar.cmpi .slt v148 c0_i32_106
  let c0_i32_107 : BitVec 32 := 0#32
  let v151 : BitVec 1 := Scalar.cmpi .slt v147 c0_i32_107
  let v152 : BitVec 1 := Scalar.xori v150 v151
  let c0_i32_105 : BitVec 32 := 0#32
  let v149 : BitVec 1 := Scalar.cmpi .ne v148 c0_i32_105
  let v153 : BitVec 1 := Scalar.andi v152 v149
  let v154 : BitVec 32 := Scalar.addi v148 v147
  let v155 : BitVec 32 := Scalar.select v153 v154 v148
  let c1_i32_109 : BitVec 32 := 1#32
  let v156 : BitVec 32 := Scalar.muli v155 c1_i32_109
  let v157 : BitVec 32 := Scalar.addi c0_i32_110 v156
  v157.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v158 : BitVec 32 := Scalar.addi v2 c11_i32
  let c1_i32_111 : BitVec 32 := 1#32
  let v159 : BitVec 32 := Scalar.addi v158 c1_i32_111
  let c32_i32_112 : BitVec 32 := 32#32
  let c0_i32_113 : BitVec 32 := 0#32
  let v160 : BitVec 1 := Scalar.cmpi .eq c32_i32_112 c0_i32_113
  let c1_i32_114 : BitVec 32 := 1#32
  let v161 : BitVec 32 := Scalar.select v160 c1_i32_114 c32_i32_112
  let v162 : BitVec 32 := Scalar.remsi v159 v161
  let c0_i32_116 : BitVec 32 := 0#32
  let v164 : BitVec 1 := Scalar.cmpi .slt v162 c0_i32_116
  let c0_i32_117 : BitVec 32 := 0#32
  let v165 : BitVec 1 := Scalar.cmpi .slt v161 c0_i32_117
  let v166 : BitVec 1 := Scalar.xori v164 v165
  let c0_i32_115 : BitVec 32 := 0#32
  let v163 : BitVec 1 := Scalar.cmpi .ne v162 c0_i32_115
  let v167 : BitVec 1 := Scalar.andi v166 v163
  let v168 : BitVec 32 := Scalar.addi v162 v161
  let v169 : BitVec 32 := Scalar.select v167 v168 v162
  let c1_i32_119 : BitVec 32 := 1#32
  let v170 : BitVec 32 := Scalar.muli v169 c1_i32_119
  let v171 : BitVec 32 := Scalar.addi c0_i32_120 v170
  v171.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v172 : BitVec 32 := Scalar.addi v2 c12_i32
  let c1_i32_121 : BitVec 32 := 1#32
  let v173 : BitVec 32 := Scalar.addi v172 c1_i32_121
  let c32_i32_122 : BitVec 32 := 32#32
  let c0_i32_123 : BitVec 32 := 0#32
  let v174 : BitVec 1 := Scalar.cmpi .eq c32_i32_122 c0_i32_123
  let c1_i32_124 : BitVec 32 := 1#32
  let v175 : BitVec 32 := Scalar.select v174 c1_i32_124 c32_i32_122
  let v176 : BitVec 32 := Scalar.remsi v173 v175
  let c0_i32_126 : BitVec 32 := 0#32
  let v178 : BitVec 1 := Scalar.cmpi .slt v176 c0_i32_126
  let c0_i32_127 : BitVec 32 := 0#32
  let v179 : BitVec 1 := Scalar.cmpi .slt v175 c0_i32_127
  let v180 : BitVec 1 := Scalar.xori v178 v179
  let c0_i32_125 : BitVec 32 := 0#32
  let v177 : BitVec 1 := Scalar.cmpi .ne v176 c0_i32_125
  let v181 : BitVec 1 := Scalar.andi v180 v177
  let v182 : BitVec 32 := Scalar.addi v176 v175
  let v183 : BitVec 32 := Scalar.select v181 v182 v176
  let c1_i32_129 : BitVec 32 := 1#32
  let v184 : BitVec 32 := Scalar.muli v183 c1_i32_129
  let v185 : BitVec 32 := Scalar.addi c0_i32_130 v184
  v185.toNat
def k0_dev14 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v186 : BitVec 32 := Scalar.addi v2 c13_i32
  let c1_i32_131 : BitVec 32 := 1#32
  let v187 : BitVec 32 := Scalar.addi v186 c1_i32_131
  let c32_i32_132 : BitVec 32 := 32#32
  let c0_i32_133 : BitVec 32 := 0#32
  let v188 : BitVec 1 := Scalar.cmpi .eq c32_i32_132 c0_i32_133
  let c1_i32_134 : BitVec 32 := 1#32
  let v189 : BitVec 32 := Scalar.select v188 c1_i32_134 c32_i32_132
  let v190 : BitVec 32 := Scalar.remsi v187 v189
  let c0_i32_136 : BitVec 32 := 0#32
  let v192 : BitVec 1 := Scalar.cmpi .slt v190 c0_i32_136
  let c0_i32_137 : BitVec 32 := 0#32
  let v193 : BitVec 1 := Scalar.cmpi .slt v189 c0_i32_137
  let v194 : BitVec 1 := Scalar.xori v192 v193
  let c0_i32_135 : BitVec 32 := 0#32
  let v191 : BitVec 1 := Scalar.cmpi .ne v190 c0_i32_135
  let v195 : BitVec 1 := Scalar.andi v194 v191
  let v196 : BitVec 32 := Scalar.addi v190 v189
  let v197 : BitVec 32 := Scalar.select v195 v196 v190
  let c1_i32_139 : BitVec 32 := 1#32
  let v198 : BitVec 32 := Scalar.muli v197 c1_i32_139
  let v199 : BitVec 32 := Scalar.addi c0_i32_140 v198
  v199.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v200 : BitVec 32 := Scalar.addi v2 c14_i32
  let c1_i32_141 : BitVec 32 := 1#32
  let v201 : BitVec 32 := Scalar.addi v200 c1_i32_141
  let c32_i32_142 : BitVec 32 := 32#32
  let c0_i32_143 : BitVec 32 := 0#32
  let v202 : BitVec 1 := Scalar.cmpi .eq c32_i32_142 c0_i32_143
  let c1_i32_144 : BitVec 32 := 1#32
  let v203 : BitVec 32 := Scalar.select v202 c1_i32_144 c32_i32_142
  let v204 : BitVec 32 := Scalar.remsi v201 v203
  let c0_i32_146 : BitVec 32 := 0#32
  let v206 : BitVec 1 := Scalar.cmpi .slt v204 c0_i32_146
  let c0_i32_147 : BitVec 32 := 0#32
  let v207 : BitVec 1 := Scalar.cmpi .slt v203 c0_i32_147
  let v208 : BitVec 1 := Scalar.xori v206 v207
  let c0_i32_145 : BitVec 32 := 0#32
  let v205 : BitVec 1 := Scalar.cmpi .ne v204 c0_i32_145
  let v209 : BitVec 1 := Scalar.andi v208 v205
  let v210 : BitVec 32 := Scalar.addi v204 v203
  let v211 : BitVec 32 := Scalar.select v209 v210 v204
  let c1_i32_149 : BitVec 32 := 1#32
  let v212 : BitVec 32 := Scalar.muli v211 c1_i32_149
  let v213 : BitVec 32 := Scalar.addi c0_i32_150 v212
  v213.toNat
def k0_dev16 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v214 : BitVec 32 := Scalar.addi v2 c15_i32
  let c1_i32_151 : BitVec 32 := 1#32
  let v215 : BitVec 32 := Scalar.addi v214 c1_i32_151
  let c32_i32_152 : BitVec 32 := 32#32
  let c0_i32_153 : BitVec 32 := 0#32
  let v216 : BitVec 1 := Scalar.cmpi .eq c32_i32_152 c0_i32_153
  let c1_i32_154 : BitVec 32 := 1#32
  let v217 : BitVec 32 := Scalar.select v216 c1_i32_154 c32_i32_152
  let v218 : BitVec 32 := Scalar.remsi v215 v217
  let c0_i32_156 : BitVec 32 := 0#32
  let v220 : BitVec 1 := Scalar.cmpi .slt v218 c0_i32_156
  let c0_i32_157 : BitVec 32 := 0#32
  let v221 : BitVec 1 := Scalar.cmpi .slt v217 c0_i32_157
  let v222 : BitVec 1 := Scalar.xori v220 v221
  let c0_i32_155 : BitVec 32 := 0#32
  let v219 : BitVec 1 := Scalar.cmpi .ne v218 c0_i32_155
  let v223 : BitVec 1 := Scalar.andi v222 v219
  let v224 : BitVec 32 := Scalar.addi v218 v217
  let v225 : BitVec 32 := Scalar.select v223 v224 v218
  let c1_i32_159 : BitVec 32 := 1#32
  let v226 : BitVec 32 := Scalar.muli v225 c1_i32_159
  let v227 : BitVec 32 := Scalar.addi c0_i32_160 v226
  v227.toNat
def k0_dev17 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v228 : BitVec 32 := Scalar.addi v2 c16_i32
  let c1_i32_161 : BitVec 32 := 1#32
  let v229 : BitVec 32 := Scalar.addi v228 c1_i32_161
  let c32_i32_162 : BitVec 32 := 32#32
  let c0_i32_163 : BitVec 32 := 0#32
  let v230 : BitVec 1 := Scalar.cmpi .eq c32_i32_162 c0_i32_163
  let c1_i32_164 : BitVec 32 := 1#32
  let v231 : BitVec 32 := Scalar.select v230 c1_i32_164 c32_i32_162
  let v232 : BitVec 32 := Scalar.remsi v229 v231
  let c0_i32_166 : BitVec 32 := 0#32
  let v234 : BitVec 1 := Scalar.cmpi .slt v232 c0_i32_166
  let c0_i32_167 : BitVec 32 := 0#32
  let v235 : BitVec 1 := Scalar.cmpi .slt v231 c0_i32_167
  let v236 : BitVec 1 := Scalar.xori v234 v235
  let c0_i32_165 : BitVec 32 := 0#32
  let v233 : BitVec 1 := Scalar.cmpi .ne v232 c0_i32_165
  let v237 : BitVec 1 := Scalar.andi v236 v233
  let v238 : BitVec 32 := Scalar.addi v232 v231
  let v239 : BitVec 32 := Scalar.select v237 v238 v232
  let c1_i32_169 : BitVec 32 := 1#32
  let v240 : BitVec 32 := Scalar.muli v239 c1_i32_169
  let v241 : BitVec 32 := Scalar.addi c0_i32_170 v240
  v241.toNat
def k0_dev18 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v242 : BitVec 32 := Scalar.addi v2 c17_i32
  let c1_i32_171 : BitVec 32 := 1#32
  let v243 : BitVec 32 := Scalar.addi v242 c1_i32_171
  let c32_i32_172 : BitVec 32 := 32#32
  let c0_i32_173 : BitVec 32 := 0#32
  let v244 : BitVec 1 := Scalar.cmpi .eq c32_i32_172 c0_i32_173
  let c1_i32_174 : BitVec 32 := 1#32
  let v245 : BitVec 32 := Scalar.select v244 c1_i32_174 c32_i32_172
  let v246 : BitVec 32 := Scalar.remsi v243 v245
  let c0_i32_176 : BitVec 32 := 0#32
  let v248 : BitVec 1 := Scalar.cmpi .slt v246 c0_i32_176
  let c0_i32_177 : BitVec 32 := 0#32
  let v249 : BitVec 1 := Scalar.cmpi .slt v245 c0_i32_177
  let v250 : BitVec 1 := Scalar.xori v248 v249
  let c0_i32_175 : BitVec 32 := 0#32
  let v247 : BitVec 1 := Scalar.cmpi .ne v246 c0_i32_175
  let v251 : BitVec 1 := Scalar.andi v250 v247
  let v252 : BitVec 32 := Scalar.addi v246 v245
  let v253 : BitVec 32 := Scalar.select v251 v252 v246
  let c1_i32_179 : BitVec 32 := 1#32
  let v254 : BitVec 32 := Scalar.muli v253 c1_i32_179
  let v255 : BitVec 32 := Scalar.addi c0_i32_180 v254
  v255.toNat
def k0_dev19 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v256 : BitVec 32 := Scalar.addi v2 c18_i32
  let c1_i32_181 : BitVec 32 := 1#32
  let v257 : BitVec 32 := Scalar.addi v256 c1_i32_181
  let c32_i32_182 : BitVec 32 := 32#32
  let c0_i32_183 : BitVec 32 := 0#32
  let v258 : BitVec 1 := Scalar.cmpi .eq c32_i32_182 c0_i32_183
  let c1_i32_184 : BitVec 32 := 1#32
  let v259 : BitVec 32 := Scalar.select v258 c1_i32_184 c32_i32_182
  let v260 : BitVec 32 := Scalar.remsi v257 v259
  let c0_i32_186 : BitVec 32 := 0#32
  let v262 : BitVec 1 := Scalar.cmpi .slt v260 c0_i32_186
  let c0_i32_187 : BitVec 32 := 0#32
  let v263 : BitVec 1 := Scalar.cmpi .slt v259 c0_i32_187
  let v264 : BitVec 1 := Scalar.xori v262 v263
  let c0_i32_185 : BitVec 32 := 0#32
  let v261 : BitVec 1 := Scalar.cmpi .ne v260 c0_i32_185
  let v265 : BitVec 1 := Scalar.andi v264 v261
  let v266 : BitVec 32 := Scalar.addi v260 v259
  let v267 : BitVec 32 := Scalar.select v265 v266 v260
  let c1_i32_189 : BitVec 32 := 1#32
  let v268 : BitVec 32 := Scalar.muli v267 c1_i32_189
  let v269 : BitVec 32 := Scalar.addi c0_i32_190 v268
  v269.toNat
def k0_dev20 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v270 : BitVec 32 := Scalar.addi v2 c19_i32
  let c1_i32_191 : BitVec 32 := 1#32
  let v271 : BitVec 32 := Scalar.addi v270 c1_i32_191
  let c32_i32_192 : BitVec 32 := 32#32
  let c0_i32_193 : BitVec 32 := 0#32
  let v272 : BitVec 1 := Scalar.cmpi .eq c32_i32_192 c0_i32_193
  let c1_i32_194 : BitVec 32 := 1#32
  let v273 : BitVec 32 := Scalar.select v272 c1_i32_194 c32_i32_192
  let v274 : BitVec 32 := Scalar.remsi v271 v273
  let c0_i32_196 : BitVec 32 := 0#32
  let v276 : BitVec 1 := Scalar.cmpi .slt v274 c0_i32_196
  let c0_i32_197 : BitVec 32 := 0#32
  let v277 : BitVec 1 := Scalar.cmpi .slt v273 c0_i32_197
  let v278 : BitVec 1 := Scalar.xori v276 v277
  let c0_i32_195 : BitVec 32 := 0#32
  let v275 : BitVec 1 := Scalar.cmpi .ne v274 c0_i32_195
  let v279 : BitVec 1 := Scalar.andi v278 v275
  let v280 : BitVec 32 := Scalar.addi v274 v273
  let v281 : BitVec 32 := Scalar.select v279 v280 v274
  let c1_i32_199 : BitVec 32 := 1#32
  let v282 : BitVec 32 := Scalar.muli v281 c1_i32_199
  let v283 : BitVec 32 := Scalar.addi c0_i32_200 v282
  v283.toNat
def k0_dev21 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v284 : BitVec 32 := Scalar.addi v2 c20_i32
  let c1_i32_201 : BitVec 32 := 1#32
  let v285 : BitVec 32 := Scalar.addi v284 c1_i32_201
  let c32_i32_202 : BitVec 32 := 32#32
  let c0_i32_203 : BitVec 32 := 0#32
  let v286 : BitVec 1 := Scalar.cmpi .eq c32_i32_202 c0_i32_203
  let c1_i32_204 : BitVec 32 := 1#32
  let v287 : BitVec 32 := Scalar.select v286 c1_i32_204 c32_i32_202
  let v288 : BitVec 32 := Scalar.remsi v285 v287
  let c0_i32_206 : BitVec 32 := 0#32
  let v290 : BitVec 1 := Scalar.cmpi .slt v288 c0_i32_206
  let c0_i32_207 : BitVec 32 := 0#32
  let v291 : BitVec 1 := Scalar.cmpi .slt v287 c0_i32_207
  let v292 : BitVec 1 := Scalar.xori v290 v291
  let c0_i32_205 : BitVec 32 := 0#32
  let v289 : BitVec 1 := Scalar.cmpi .ne v288 c0_i32_205
  let v293 : BitVec 1 := Scalar.andi v292 v289
  let v294 : BitVec 32 := Scalar.addi v288 v287
  let v295 : BitVec 32 := Scalar.select v293 v294 v288
  let c1_i32_209 : BitVec 32 := 1#32
  let v296 : BitVec 32 := Scalar.muli v295 c1_i32_209
  let v297 : BitVec 32 := Scalar.addi c0_i32_210 v296
  v297.toNat
def k0_dev22 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v298 : BitVec 32 := Scalar.addi v2 c21_i32
  let c1_i32_211 : BitVec 32 := 1#32
  let v299 : BitVec 32 := Scalar.addi v298 c1_i32_211
  let c32_i32_212 : BitVec 32 := 32#32
  let c0_i32_213 : BitVec 32 := 0#32
  let v300 : BitVec 1 := Scalar.cmpi .eq c32_i32_212 c0_i32_213
  let c1_i32_214 : BitVec 32 := 1#32
  let v301 : BitVec 32 := Scalar.select v300 c1_i32_214 c32_i32_212
  let v302 : BitVec 32 := Scalar.remsi v299 v301
  let c0_i32_216 : BitVec 32 := 0#32
  let v304 : BitVec 1 := Scalar.cmpi .slt v302 c0_i32_216
  let c0_i32_217 : BitVec 32 := 0#32
  let v305 : BitVec 1 := Scalar.cmpi .slt v301 c0_i32_217
  let v306 : BitVec 1 := Scalar.xori v304 v305
  let c0_i32_215 : BitVec 32 := 0#32
  let v303 : BitVec 1 := Scalar.cmpi .ne v302 c0_i32_215
  let v307 : BitVec 1 := Scalar.andi v306 v303
  let v308 : BitVec 32 := Scalar.addi v302 v301
  let v309 : BitVec 32 := Scalar.select v307 v308 v302
  let c1_i32_219 : BitVec 32 := 1#32
  let v310 : BitVec 32 := Scalar.muli v309 c1_i32_219
  let v311 : BitVec 32 := Scalar.addi c0_i32_220 v310
  v311.toNat
def k0_dev23 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v312 : BitVec 32 := Scalar.addi v2 c22_i32
  let c1_i32_221 : BitVec 32 := 1#32
  let v313 : BitVec 32 := Scalar.addi v312 c1_i32_221
  let c32_i32_222 : BitVec 32 := 32#32
  let c0_i32_223 : BitVec 32 := 0#32
  let v314 : BitVec 1 := Scalar.cmpi .eq c32_i32_222 c0_i32_223
  let c1_i32_224 : BitVec 32 := 1#32
  let v315 : BitVec 32 := Scalar.select v314 c1_i32_224 c32_i32_222
  let v316 : BitVec 32 := Scalar.remsi v313 v315
  let c0_i32_226 : BitVec 32 := 0#32
  let v318 : BitVec 1 := Scalar.cmpi .slt v316 c0_i32_226
  let c0_i32_227 : BitVec 32 := 0#32
  let v319 : BitVec 1 := Scalar.cmpi .slt v315 c0_i32_227
  let v320 : BitVec 1 := Scalar.xori v318 v319
  let c0_i32_225 : BitVec 32 := 0#32
  let v317 : BitVec 1 := Scalar.cmpi .ne v316 c0_i32_225
  let v321 : BitVec 1 := Scalar.andi v320 v317
  let v322 : BitVec 32 := Scalar.addi v316 v315
  let v323 : BitVec 32 := Scalar.select v321 v322 v316
  let c1_i32_229 : BitVec 32 := 1#32
  let v324 : BitVec 32 := Scalar.muli v323 c1_i32_229
  let v325 : BitVec 32 := Scalar.addi c0_i32_230 v324
  v325.toNat
def k0_dev24 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v326 : BitVec 32 := Scalar.addi v2 c23_i32
  let c1_i32_231 : BitVec 32 := 1#32
  let v327 : BitVec 32 := Scalar.addi v326 c1_i32_231
  let c32_i32_232 : BitVec 32 := 32#32
  let c0_i32_233 : BitVec 32 := 0#32
  let v328 : BitVec 1 := Scalar.cmpi .eq c32_i32_232 c0_i32_233
  let c1_i32_234 : BitVec 32 := 1#32
  let v329 : BitVec 32 := Scalar.select v328 c1_i32_234 c32_i32_232
  let v330 : BitVec 32 := Scalar.remsi v327 v329
  let c0_i32_236 : BitVec 32 := 0#32
  let v332 : BitVec 1 := Scalar.cmpi .slt v330 c0_i32_236
  let c0_i32_237 : BitVec 32 := 0#32
  let v333 : BitVec 1 := Scalar.cmpi .slt v329 c0_i32_237
  let v334 : BitVec 1 := Scalar.xori v332 v333
  let c0_i32_235 : BitVec 32 := 0#32
  let v331 : BitVec 1 := Scalar.cmpi .ne v330 c0_i32_235
  let v335 : BitVec 1 := Scalar.andi v334 v331
  let v336 : BitVec 32 := Scalar.addi v330 v329
  let v337 : BitVec 32 := Scalar.select v335 v336 v330
  let c1_i32_239 : BitVec 32 := 1#32
  let v338 : BitVec 32 := Scalar.muli v337 c1_i32_239
  let v339 : BitVec 32 := Scalar.addi c0_i32_240 v338
  v339.toNat
def k0_dev25 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v340 : BitVec 32 := Scalar.addi v2 c24_i32
  let c1_i32_241 : BitVec 32 := 1#32
  let v341 : BitVec 32 := Scalar.addi v340 c1_i32_241
  let c32_i32_242 : BitVec 32 := 32#32
  let c0_i32_243 : BitVec 32 := 0#32
  let v342 : BitVec 1 := Scalar.cmpi .eq c32_i32_242 c0_i32_243
  let c1_i32_244 : BitVec 32 := 1#32
  let v343 : BitVec 32 := Scalar.select v342 c1_i32_244 c32_i32_242
  let v344 : BitVec 32 := Scalar.remsi v341 v343
  let c0_i32_246 : BitVec 32 := 0#32
  let v346 : BitVec 1 := Scalar.cmpi .slt v344 c0_i32_246
  let c0_i32_247 : BitVec 32 := 0#32
  let v347 : BitVec 1 := Scalar.cmpi .slt v343 c0_i32_247
  let v348 : BitVec 1 := Scalar.xori v346 v347
  let c0_i32_245 : BitVec 32 := 0#32
  let v345 : BitVec 1 := Scalar.cmpi .ne v344 c0_i32_245
  let v349 : BitVec 1 := Scalar.andi v348 v345
  let v350 : BitVec 32 := Scalar.addi v344 v343
  let v351 : BitVec 32 := Scalar.select v349 v350 v344
  let c1_i32_249 : BitVec 32 := 1#32
  let v352 : BitVec 32 := Scalar.muli v351 c1_i32_249
  let v353 : BitVec 32 := Scalar.addi c0_i32_250 v352
  v353.toNat
def k0_dev26 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v354 : BitVec 32 := Scalar.addi v2 c25_i32
  let c1_i32_251 : BitVec 32 := 1#32
  let v355 : BitVec 32 := Scalar.addi v354 c1_i32_251
  let c32_i32_252 : BitVec 32 := 32#32
  let c0_i32_253 : BitVec 32 := 0#32
  let v356 : BitVec 1 := Scalar.cmpi .eq c32_i32_252 c0_i32_253
  let c1_i32_254 : BitVec 32 := 1#32
  let v357 : BitVec 32 := Scalar.select v356 c1_i32_254 c32_i32_252
  let v358 : BitVec 32 := Scalar.remsi v355 v357
  let c0_i32_256 : BitVec 32 := 0#32
  let v360 : BitVec 1 := Scalar.cmpi .slt v358 c0_i32_256
  let c0_i32_257 : BitVec 32 := 0#32
  let v361 : BitVec 1 := Scalar.cmpi .slt v357 c0_i32_257
  let v362 : BitVec 1 := Scalar.xori v360 v361
  let c0_i32_255 : BitVec 32 := 0#32
  let v359 : BitVec 1 := Scalar.cmpi .ne v358 c0_i32_255
  let v363 : BitVec 1 := Scalar.andi v362 v359
  let v364 : BitVec 32 := Scalar.addi v358 v357
  let v365 : BitVec 32 := Scalar.select v363 v364 v358
  let c1_i32_259 : BitVec 32 := 1#32
  let v366 : BitVec 32 := Scalar.muli v365 c1_i32_259
  let v367 : BitVec 32 := Scalar.addi c0_i32_260 v366
  v367.toNat
def k0_dev27 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v368 : BitVec 32 := Scalar.addi v2 c26_i32
  let c1_i32_261 : BitVec 32 := 1#32
  let v369 : BitVec 32 := Scalar.addi v368 c1_i32_261
  let c32_i32_262 : BitVec 32 := 32#32
  let c0_i32_263 : BitVec 32 := 0#32
  let v370 : BitVec 1 := Scalar.cmpi .eq c32_i32_262 c0_i32_263
  let c1_i32_264 : BitVec 32 := 1#32
  let v371 : BitVec 32 := Scalar.select v370 c1_i32_264 c32_i32_262
  let v372 : BitVec 32 := Scalar.remsi v369 v371
  let c0_i32_266 : BitVec 32 := 0#32
  let v374 : BitVec 1 := Scalar.cmpi .slt v372 c0_i32_266
  let c0_i32_267 : BitVec 32 := 0#32
  let v375 : BitVec 1 := Scalar.cmpi .slt v371 c0_i32_267
  let v376 : BitVec 1 := Scalar.xori v374 v375
  let c0_i32_265 : BitVec 32 := 0#32
  let v373 : BitVec 1 := Scalar.cmpi .ne v372 c0_i32_265
  let v377 : BitVec 1 := Scalar.andi v376 v373
  let v378 : BitVec 32 := Scalar.addi v372 v371
  let v379 : BitVec 32 := Scalar.select v377 v378 v372
  let c1_i32_269 : BitVec 32 := 1#32
  let v380 : BitVec 32 := Scalar.muli v379 c1_i32_269
  let v381 : BitVec 32 := Scalar.addi c0_i32_270 v380
  v381.toNat
def k0_dev28 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v382 : BitVec 32 := Scalar.addi v2 c27_i32
  let c1_i32_271 : BitVec 32 := 1#32
  let v383 : BitVec 32 := Scalar.addi v382 c1_i32_271
  let c32_i32_272 : BitVec 32 := 32#32
  let c0_i32_273 : BitVec 32 := 0#32
  let v384 : BitVec 1 := Scalar.cmpi .eq c32_i32_272 c0_i32_273
  let c1_i32_274 : BitVec 32 := 1#32
  let v385 : BitVec 32 := Scalar.select v384 c1_i32_274 c32_i32_272
  let v386 : BitVec 32 := Scalar.remsi v383 v385
  let c0_i32_276 : BitVec 32 := 0#32
  let v388 : BitVec 1 := Scalar.cmpi .slt v386 c0_i32_276
  let c0_i32_277 : BitVec 32 := 0#32
  let v389 : BitVec 1 := Scalar.cmpi .slt v385 c0_i32_277
  let v390 : BitVec 1 := Scalar.xori v388 v389
  let c0_i32_275 : BitVec 32 := 0#32
  let v387 : BitVec 1 := Scalar.cmpi .ne v386 c0_i32_275
  let v391 : BitVec 1 := Scalar.andi v390 v387
  let v392 : BitVec 32 := Scalar.addi v386 v385
  let v393 : BitVec 32 := Scalar.select v391 v392 v386
  let c1_i32_279 : BitVec 32 := 1#32
  let v394 : BitVec 32 := Scalar.muli v393 c1_i32_279
  let v395 : BitVec 32 := Scalar.addi c0_i32_280 v394
  v395.toNat
def k0_dev29 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v396 : BitVec 32 := Scalar.addi v2 c28_i32
  let c1_i32_281 : BitVec 32 := 1#32
  let v397 : BitVec 32 := Scalar.addi v396 c1_i32_281
  let c32_i32_282 : BitVec 32 := 32#32
  let c0_i32_283 : BitVec 32 := 0#32
  let v398 : BitVec 1 := Scalar.cmpi .eq c32_i32_282 c0_i32_283
  let c1_i32_284 : BitVec 32 := 1#32
  let v399 : BitVec 32 := Scalar.select v398 c1_i32_284 c32_i32_282
  let v400 : BitVec 32 := Scalar.remsi v397 v399
  let c0_i32_286 : BitVec 32 := 0#32
  let v402 : BitVec 1 := Scalar.cmpi .slt v400 c0_i32_286
  let c0_i32_287 : BitVec 32 := 0#32
  let v403 : BitVec 1 := Scalar.cmpi .slt v399 c0_i32_287
  let v404 : BitVec 1 := Scalar.xori v402 v403
  let c0_i32_285 : BitVec 32 := 0#32
  let v401 : BitVec 1 := Scalar.cmpi .ne v400 c0_i32_285
  let v405 : BitVec 1 := Scalar.andi v404 v401
  let v406 : BitVec 32 := Scalar.addi v400 v399
  let v407 : BitVec 32 := Scalar.select v405 v406 v400
  let c1_i32_289 : BitVec 32 := 1#32
  let v408 : BitVec 32 := Scalar.muli v407 c1_i32_289
  let v409 : BitVec 32 := Scalar.addi c0_i32_290 v408
  v409.toNat
def k0_dev30 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v410 : BitVec 32 := Scalar.addi v2 c29_i32
  let c1_i32_291 : BitVec 32 := 1#32
  let v411 : BitVec 32 := Scalar.addi v410 c1_i32_291
  let c32_i32_292 : BitVec 32 := 32#32
  let c0_i32_293 : BitVec 32 := 0#32
  let v412 : BitVec 1 := Scalar.cmpi .eq c32_i32_292 c0_i32_293
  let c1_i32_294 : BitVec 32 := 1#32
  let v413 : BitVec 32 := Scalar.select v412 c1_i32_294 c32_i32_292
  let v414 : BitVec 32 := Scalar.remsi v411 v413
  let c0_i32_296 : BitVec 32 := 0#32
  let v416 : BitVec 1 := Scalar.cmpi .slt v414 c0_i32_296
  let c0_i32_297 : BitVec 32 := 0#32
  let v417 : BitVec 1 := Scalar.cmpi .slt v413 c0_i32_297
  let v418 : BitVec 1 := Scalar.xori v416 v417
  let c0_i32_295 : BitVec 32 := 0#32
  let v415 : BitVec 1 := Scalar.cmpi .ne v414 c0_i32_295
  let v419 : BitVec 1 := Scalar.andi v418 v415
  let v420 : BitVec 32 := Scalar.addi v414 v413
  let v421 : BitVec 32 := Scalar.select v419 v420 v414
  let c1_i32_299 : BitVec 32 := 1#32
  let v422 : BitVec 32 := Scalar.muli v421 c1_i32_299
  let v423 : BitVec 32 := Scalar.addi c0_i32_300 v422
  v423.toNat
def k0_dev31 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v424 : BitVec 32 := Scalar.addi v2 c30_i32
  let c1_i32_301 : BitVec 32 := 1#32
  let v425 : BitVec 32 := Scalar.addi v424 c1_i32_301
  let c32_i32_302 : BitVec 32 := 32#32
  let c0_i32_303 : BitVec 32 := 0#32
  let v426 : BitVec 1 := Scalar.cmpi .eq c32_i32_302 c0_i32_303
  let c1_i32_304 : BitVec 32 := 1#32
  let v427 : BitVec 32 := Scalar.select v426 c1_i32_304 c32_i32_302
  let v428 : BitVec 32 := Scalar.remsi v425 v427
  let c0_i32_306 : BitVec 32 := 0#32
  let v430 : BitVec 1 := Scalar.cmpi .slt v428 c0_i32_306
  let c0_i32_307 : BitVec 32 := 0#32
  let v431 : BitVec 1 := Scalar.cmpi .slt v427 c0_i32_307
  let v432 : BitVec 1 := Scalar.xori v430 v431
  let c0_i32_305 : BitVec 32 := 0#32
  let v429 : BitVec 1 := Scalar.cmpi .ne v428 c0_i32_305
  let v433 : BitVec 1 := Scalar.andi v432 v429
  let v434 : BitVec 32 := Scalar.addi v428 v427
  let v435 : BitVec 32 := Scalar.select v433 v434 v428
  let c1_i32_309 : BitVec 32 := 1#32
  let v436 : BitVec 32 := Scalar.muli v435 c1_i32_309
  let v437 : BitVec 32 := Scalar.addi c0_i32_310 v436
  v437.toNat
def k0_dev32 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_314 : BitVec 32 := 0#32
  let v445 : BitVec 32 := Scalar.addi v2 c0_i32_314
  let c1_i32_315 : BitVec 32 := 1#32
  let v446 : BitVec 32 := Scalar.addi v445 c1_i32_315
  let c32_i32_316 : BitVec 32 := 32#32
  let c0_i32_317 : BitVec 32 := 0#32
  let v447 : BitVec 1 := Scalar.cmpi .eq c32_i32_316 c0_i32_317
  let c1_i32_318 : BitVec 32 := 1#32
  let v448 : BitVec 32 := Scalar.select v447 c1_i32_318 c32_i32_316
  let v449 : BitVec 32 := Scalar.remsi v446 v448
  let c0_i32_320 : BitVec 32 := 0#32
  let v451 : BitVec 1 := Scalar.cmpi .slt v449 c0_i32_320
  let c0_i32_321 : BitVec 32 := 0#32
  let v452 : BitVec 1 := Scalar.cmpi .slt v448 c0_i32_321
  let v453 : BitVec 1 := Scalar.xori v451 v452
  let c0_i32_319 : BitVec 32 := 0#32
  let v450 : BitVec 1 := Scalar.cmpi .ne v449 c0_i32_319
  let v454 : BitVec 1 := Scalar.andi v453 v450
  let v455 : BitVec 32 := Scalar.addi v449 v448
  let v456 : BitVec 32 := Scalar.select v454 v455 v449
  let c1_i32_325 : BitVec 32 := 1#32
  let v457 : BitVec 32 := Scalar.muli v456 c1_i32_325
  let v458 : BitVec 32 := Scalar.addi c0_i32_326 v457
  v458.toNat
def k0_dev33 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_329 : BitVec 32 := 1#32
  let v465 : BitVec 32 := Scalar.addi v2 c1_i32_329
  let c1_i32_330 : BitVec 32 := 1#32
  let v466 : BitVec 32 := Scalar.addi v465 c1_i32_330
  let c32_i32_331 : BitVec 32 := 32#32
  let c0_i32_332 : BitVec 32 := 0#32
  let v467 : BitVec 1 := Scalar.cmpi .eq c32_i32_331 c0_i32_332
  let c1_i32_333 : BitVec 32 := 1#32
  let v468 : BitVec 32 := Scalar.select v467 c1_i32_333 c32_i32_331
  let v469 : BitVec 32 := Scalar.remsi v466 v468
  let c0_i32_335 : BitVec 32 := 0#32
  let v471 : BitVec 1 := Scalar.cmpi .slt v469 c0_i32_335
  let c0_i32_336 : BitVec 32 := 0#32
  let v472 : BitVec 1 := Scalar.cmpi .slt v468 c0_i32_336
  let v473 : BitVec 1 := Scalar.xori v471 v472
  let c0_i32_334 : BitVec 32 := 0#32
  let v470 : BitVec 1 := Scalar.cmpi .ne v469 c0_i32_334
  let v474 : BitVec 1 := Scalar.andi v473 v470
  let v475 : BitVec 32 := Scalar.addi v469 v468
  let v476 : BitVec 32 := Scalar.select v474 v475 v469
  let c1_i32_340 : BitVec 32 := 1#32
  let v477 : BitVec 32 := Scalar.muli v476 c1_i32_340
  let v478 : BitVec 32 := Scalar.addi c0_i32_341 v477
  v478.toNat
def k0_dev34 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_344 : BitVec 32 := 2#32
  let v485 : BitVec 32 := Scalar.addi v2 c2_i32_344
  let c1_i32_345 : BitVec 32 := 1#32
  let v486 : BitVec 32 := Scalar.addi v485 c1_i32_345
  let c32_i32_346 : BitVec 32 := 32#32
  let c0_i32_347 : BitVec 32 := 0#32
  let v487 : BitVec 1 := Scalar.cmpi .eq c32_i32_346 c0_i32_347
  let c1_i32_348 : BitVec 32 := 1#32
  let v488 : BitVec 32 := Scalar.select v487 c1_i32_348 c32_i32_346
  let v489 : BitVec 32 := Scalar.remsi v486 v488
  let c0_i32_350 : BitVec 32 := 0#32
  let v491 : BitVec 1 := Scalar.cmpi .slt v489 c0_i32_350
  let c0_i32_351 : BitVec 32 := 0#32
  let v492 : BitVec 1 := Scalar.cmpi .slt v488 c0_i32_351
  let v493 : BitVec 1 := Scalar.xori v491 v492
  let c0_i32_349 : BitVec 32 := 0#32
  let v490 : BitVec 1 := Scalar.cmpi .ne v489 c0_i32_349
  let v494 : BitVec 1 := Scalar.andi v493 v490
  let v495 : BitVec 32 := Scalar.addi v489 v488
  let v496 : BitVec 32 := Scalar.select v494 v495 v489
  let c1_i32_355 : BitVec 32 := 1#32
  let v497 : BitVec 32 := Scalar.muli v496 c1_i32_355
  let v498 : BitVec 32 := Scalar.addi c0_i32_356 v497
  v498.toNat
def k0_dev35 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_359 : BitVec 32 := 3#32
  let v505 : BitVec 32 := Scalar.addi v2 c3_i32_359
  let c1_i32_360 : BitVec 32 := 1#32
  let v506 : BitVec 32 := Scalar.addi v505 c1_i32_360
  let c32_i32_361 : BitVec 32 := 32#32
  let c0_i32_362 : BitVec 32 := 0#32
  let v507 : BitVec 1 := Scalar.cmpi .eq c32_i32_361 c0_i32_362
  let c1_i32_363 : BitVec 32 := 1#32
  let v508 : BitVec 32 := Scalar.select v507 c1_i32_363 c32_i32_361
  let v509 : BitVec 32 := Scalar.remsi v506 v508
  let c0_i32_365 : BitVec 32 := 0#32
  let v511 : BitVec 1 := Scalar.cmpi .slt v509 c0_i32_365
  let c0_i32_366 : BitVec 32 := 0#32
  let v512 : BitVec 1 := Scalar.cmpi .slt v508 c0_i32_366
  let v513 : BitVec 1 := Scalar.xori v511 v512
  let c0_i32_364 : BitVec 32 := 0#32
  let v510 : BitVec 1 := Scalar.cmpi .ne v509 c0_i32_364
  let v514 : BitVec 1 := Scalar.andi v513 v510
  let v515 : BitVec 32 := Scalar.addi v509 v508
  let v516 : BitVec 32 := Scalar.select v514 v515 v509
  let c1_i32_370 : BitVec 32 := 1#32
  let v517 : BitVec 32 := Scalar.muli v516 c1_i32_370
  let v518 : BitVec 32 := Scalar.addi c0_i32_371 v517
  v518.toNat
def k0_dev36 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_374 : BitVec 32 := 4#32
  let v525 : BitVec 32 := Scalar.addi v2 c4_i32_374
  let c1_i32_375 : BitVec 32 := 1#32
  let v526 : BitVec 32 := Scalar.addi v525 c1_i32_375
  let c32_i32_376 : BitVec 32 := 32#32
  let c0_i32_377 : BitVec 32 := 0#32
  let v527 : BitVec 1 := Scalar.cmpi .eq c32_i32_376 c0_i32_377
  let c1_i32_378 : BitVec 32 := 1#32
  let v528 : BitVec 32 := Scalar.select v527 c1_i32_378 c32_i32_376
  let v529 : BitVec 32 := Scalar.remsi v526 v528
  let c0_i32_380 : BitVec 32 := 0#32
  let v531 : BitVec 1 := Scalar.cmpi .slt v529 c0_i32_380
  let c0_i32_381 : BitVec 32 := 0#32
  let v532 : BitVec 1 := Scalar.cmpi .slt v528 c0_i32_381
  let v533 : BitVec 1 := Scalar.xori v531 v532
  let c0_i32_379 : BitVec 32 := 0#32
  let v530 : BitVec 1 := Scalar.cmpi .ne v529 c0_i32_379
  let v534 : BitVec 1 := Scalar.andi v533 v530
  let v535 : BitVec 32 := Scalar.addi v529 v528
  let v536 : BitVec 32 := Scalar.select v534 v535 v529
  let c1_i32_385 : BitVec 32 := 1#32
  let v537 : BitVec 32 := Scalar.muli v536 c1_i32_385
  let v538 : BitVec 32 := Scalar.addi c0_i32_386 v537
  v538.toNat
def k0_dev37 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_389 : BitVec 32 := 5#32
  let v545 : BitVec 32 := Scalar.addi v2 c5_i32_389
  let c1_i32_390 : BitVec 32 := 1#32
  let v546 : BitVec 32 := Scalar.addi v545 c1_i32_390
  let c32_i32_391 : BitVec 32 := 32#32
  let c0_i32_392 : BitVec 32 := 0#32
  let v547 : BitVec 1 := Scalar.cmpi .eq c32_i32_391 c0_i32_392
  let c1_i32_393 : BitVec 32 := 1#32
  let v548 : BitVec 32 := Scalar.select v547 c1_i32_393 c32_i32_391
  let v549 : BitVec 32 := Scalar.remsi v546 v548
  let c0_i32_395 : BitVec 32 := 0#32
  let v551 : BitVec 1 := Scalar.cmpi .slt v549 c0_i32_395
  let c0_i32_396 : BitVec 32 := 0#32
  let v552 : BitVec 1 := Scalar.cmpi .slt v548 c0_i32_396
  let v553 : BitVec 1 := Scalar.xori v551 v552
  let c0_i32_394 : BitVec 32 := 0#32
  let v550 : BitVec 1 := Scalar.cmpi .ne v549 c0_i32_394
  let v554 : BitVec 1 := Scalar.andi v553 v550
  let v555 : BitVec 32 := Scalar.addi v549 v548
  let v556 : BitVec 32 := Scalar.select v554 v555 v549
  let c1_i32_400 : BitVec 32 := 1#32
  let v557 : BitVec 32 := Scalar.muli v556 c1_i32_400
  let v558 : BitVec 32 := Scalar.addi c0_i32_401 v557
  v558.toNat
def k0_dev38 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_404 : BitVec 32 := 6#32
  let v565 : BitVec 32 := Scalar.addi v2 c6_i32_404
  let c1_i32_405 : BitVec 32 := 1#32
  let v566 : BitVec 32 := Scalar.addi v565 c1_i32_405
  let c32_i32_406 : BitVec 32 := 32#32
  let c0_i32_407 : BitVec 32 := 0#32
  let v567 : BitVec 1 := Scalar.cmpi .eq c32_i32_406 c0_i32_407
  let c1_i32_408 : BitVec 32 := 1#32
  let v568 : BitVec 32 := Scalar.select v567 c1_i32_408 c32_i32_406
  let v569 : BitVec 32 := Scalar.remsi v566 v568
  let c0_i32_410 : BitVec 32 := 0#32
  let v571 : BitVec 1 := Scalar.cmpi .slt v569 c0_i32_410
  let c0_i32_411 : BitVec 32 := 0#32
  let v572 : BitVec 1 := Scalar.cmpi .slt v568 c0_i32_411
  let v573 : BitVec 1 := Scalar.xori v571 v572
  let c0_i32_409 : BitVec 32 := 0#32
  let v570 : BitVec 1 := Scalar.cmpi .ne v569 c0_i32_409
  let v574 : BitVec 1 := Scalar.andi v573 v570
  let v575 : BitVec 32 := Scalar.addi v569 v568
  let v576 : BitVec 32 := Scalar.select v574 v575 v569
  let c1_i32_415 : BitVec 32 := 1#32
  let v577 : BitVec 32 := Scalar.muli v576 c1_i32_415
  let v578 : BitVec 32 := Scalar.addi c0_i32_416 v577
  v578.toNat
def k0_dev39 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_419 : BitVec 32 := 7#32
  let v585 : BitVec 32 := Scalar.addi v2 c7_i32_419
  let c1_i32_420 : BitVec 32 := 1#32
  let v586 : BitVec 32 := Scalar.addi v585 c1_i32_420
  let c32_i32_421 : BitVec 32 := 32#32
  let c0_i32_422 : BitVec 32 := 0#32
  let v587 : BitVec 1 := Scalar.cmpi .eq c32_i32_421 c0_i32_422
  let c1_i32_423 : BitVec 32 := 1#32
  let v588 : BitVec 32 := Scalar.select v587 c1_i32_423 c32_i32_421
  let v589 : BitVec 32 := Scalar.remsi v586 v588
  let c0_i32_425 : BitVec 32 := 0#32
  let v591 : BitVec 1 := Scalar.cmpi .slt v589 c0_i32_425
  let c0_i32_426 : BitVec 32 := 0#32
  let v592 : BitVec 1 := Scalar.cmpi .slt v588 c0_i32_426
  let v593 : BitVec 1 := Scalar.xori v591 v592
  let c0_i32_424 : BitVec 32 := 0#32
  let v590 : BitVec 1 := Scalar.cmpi .ne v589 c0_i32_424
  let v594 : BitVec 1 := Scalar.andi v593 v590
  let v595 : BitVec 32 := Scalar.addi v589 v588
  let v596 : BitVec 32 := Scalar.select v594 v595 v589
  let c1_i32_430 : BitVec 32 := 1#32
  let v597 : BitVec 32 := Scalar.muli v596 c1_i32_430
  let v598 : BitVec 32 := Scalar.addi c0_i32_431 v597
  v598.toNat
def k0_dev40 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_434 : BitVec 32 := 8#32
  let v605 : BitVec 32 := Scalar.addi v2 c8_i32_434
  let c1_i32_435 : BitVec 32 := 1#32
  let v606 : BitVec 32 := Scalar.addi v605 c1_i32_435
  let c32_i32_436 : BitVec 32 := 32#32
  let c0_i32_437 : BitVec 32 := 0#32
  let v607 : BitVec 1 := Scalar.cmpi .eq c32_i32_436 c0_i32_437
  let c1_i32_438 : BitVec 32 := 1#32
  let v608 : BitVec 32 := Scalar.select v607 c1_i32_438 c32_i32_436
  let v609 : BitVec 32 := Scalar.remsi v606 v608
  let c0_i32_440 : BitVec 32 := 0#32
  let v611 : BitVec 1 := Scalar.cmpi .slt v609 c0_i32_440
  let c0_i32_441 : BitVec 32 := 0#32
  let v612 : BitVec 1 := Scalar.cmpi .slt v608 c0_i32_441
  let v613 : BitVec 1 := Scalar.xori v611 v612
  let c0_i32_439 : BitVec 32 := 0#32
  let v610 : BitVec 1 := Scalar.cmpi .ne v609 c0_i32_439
  let v614 : BitVec 1 := Scalar.andi v613 v610
  let v615 : BitVec 32 := Scalar.addi v609 v608
  let v616 : BitVec 32 := Scalar.select v614 v615 v609
  let c1_i32_445 : BitVec 32 := 1#32
  let v617 : BitVec 32 := Scalar.muli v616 c1_i32_445
  let v618 : BitVec 32 := Scalar.addi c0_i32_446 v617
  v618.toNat
def k0_dev41 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_449 : BitVec 32 := 9#32
  let v625 : BitVec 32 := Scalar.addi v2 c9_i32_449
  let c1_i32_450 : BitVec 32 := 1#32
  let v626 : BitVec 32 := Scalar.addi v625 c1_i32_450
  let c32_i32_451 : BitVec 32 := 32#32
  let c0_i32_452 : BitVec 32 := 0#32
  let v627 : BitVec 1 := Scalar.cmpi .eq c32_i32_451 c0_i32_452
  let c1_i32_453 : BitVec 32 := 1#32
  let v628 : BitVec 32 := Scalar.select v627 c1_i32_453 c32_i32_451
  let v629 : BitVec 32 := Scalar.remsi v626 v628
  let c0_i32_455 : BitVec 32 := 0#32
  let v631 : BitVec 1 := Scalar.cmpi .slt v629 c0_i32_455
  let c0_i32_456 : BitVec 32 := 0#32
  let v632 : BitVec 1 := Scalar.cmpi .slt v628 c0_i32_456
  let v633 : BitVec 1 := Scalar.xori v631 v632
  let c0_i32_454 : BitVec 32 := 0#32
  let v630 : BitVec 1 := Scalar.cmpi .ne v629 c0_i32_454
  let v634 : BitVec 1 := Scalar.andi v633 v630
  let v635 : BitVec 32 := Scalar.addi v629 v628
  let v636 : BitVec 32 := Scalar.select v634 v635 v629
  let c1_i32_460 : BitVec 32 := 1#32
  let v637 : BitVec 32 := Scalar.muli v636 c1_i32_460
  let v638 : BitVec 32 := Scalar.addi c0_i32_461 v637
  v638.toNat
def k0_dev42 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_464 : BitVec 32 := 10#32
  let v645 : BitVec 32 := Scalar.addi v2 c10_i32_464
  let c1_i32_465 : BitVec 32 := 1#32
  let v646 : BitVec 32 := Scalar.addi v645 c1_i32_465
  let c32_i32_466 : BitVec 32 := 32#32
  let c0_i32_467 : BitVec 32 := 0#32
  let v647 : BitVec 1 := Scalar.cmpi .eq c32_i32_466 c0_i32_467
  let c1_i32_468 : BitVec 32 := 1#32
  let v648 : BitVec 32 := Scalar.select v647 c1_i32_468 c32_i32_466
  let v649 : BitVec 32 := Scalar.remsi v646 v648
  let c0_i32_470 : BitVec 32 := 0#32
  let v651 : BitVec 1 := Scalar.cmpi .slt v649 c0_i32_470
  let c0_i32_471 : BitVec 32 := 0#32
  let v652 : BitVec 1 := Scalar.cmpi .slt v648 c0_i32_471
  let v653 : BitVec 1 := Scalar.xori v651 v652
  let c0_i32_469 : BitVec 32 := 0#32
  let v650 : BitVec 1 := Scalar.cmpi .ne v649 c0_i32_469
  let v654 : BitVec 1 := Scalar.andi v653 v650
  let v655 : BitVec 32 := Scalar.addi v649 v648
  let v656 : BitVec 32 := Scalar.select v654 v655 v649
  let c1_i32_475 : BitVec 32 := 1#32
  let v657 : BitVec 32 := Scalar.muli v656 c1_i32_475
  let v658 : BitVec 32 := Scalar.addi c0_i32_476 v657
  v658.toNat
def k0_dev43 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_479 : BitVec 32 := 11#32
  let v665 : BitVec 32 := Scalar.addi v2 c11_i32_479
  let c1_i32_480 : BitVec 32 := 1#32
  let v666 : BitVec 32 := Scalar.addi v665 c1_i32_480
  let c32_i32_481 : BitVec 32 := 32#32
  let c0_i32_482 : BitVec 32 := 0#32
  let v667 : BitVec 1 := Scalar.cmpi .eq c32_i32_481 c0_i32_482
  let c1_i32_483 : BitVec 32 := 1#32
  let v668 : BitVec 32 := Scalar.select v667 c1_i32_483 c32_i32_481
  let v669 : BitVec 32 := Scalar.remsi v666 v668
  let c0_i32_485 : BitVec 32 := 0#32
  let v671 : BitVec 1 := Scalar.cmpi .slt v669 c0_i32_485
  let c0_i32_486 : BitVec 32 := 0#32
  let v672 : BitVec 1 := Scalar.cmpi .slt v668 c0_i32_486
  let v673 : BitVec 1 := Scalar.xori v671 v672
  let c0_i32_484 : BitVec 32 := 0#32
  let v670 : BitVec 1 := Scalar.cmpi .ne v669 c0_i32_484
  let v674 : BitVec 1 := Scalar.andi v673 v670
  let v675 : BitVec 32 := Scalar.addi v669 v668
  let v676 : BitVec 32 := Scalar.select v674 v675 v669
  let c1_i32_490 : BitVec 32 := 1#32
  let v677 : BitVec 32 := Scalar.muli v676 c1_i32_490
  let v678 : BitVec 32 := Scalar.addi c0_i32_491 v677
  v678.toNat
def k0_dev44 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_494 : BitVec 32 := 12#32
  let v685 : BitVec 32 := Scalar.addi v2 c12_i32_494
  let c1_i32_495 : BitVec 32 := 1#32
  let v686 : BitVec 32 := Scalar.addi v685 c1_i32_495
  let c32_i32_496 : BitVec 32 := 32#32
  let c0_i32_497 : BitVec 32 := 0#32
  let v687 : BitVec 1 := Scalar.cmpi .eq c32_i32_496 c0_i32_497
  let c1_i32_498 : BitVec 32 := 1#32
  let v688 : BitVec 32 := Scalar.select v687 c1_i32_498 c32_i32_496
  let v689 : BitVec 32 := Scalar.remsi v686 v688
  let c0_i32_500 : BitVec 32 := 0#32
  let v691 : BitVec 1 := Scalar.cmpi .slt v689 c0_i32_500
  let c0_i32_501 : BitVec 32 := 0#32
  let v692 : BitVec 1 := Scalar.cmpi .slt v688 c0_i32_501
  let v693 : BitVec 1 := Scalar.xori v691 v692
  let c0_i32_499 : BitVec 32 := 0#32
  let v690 : BitVec 1 := Scalar.cmpi .ne v689 c0_i32_499
  let v694 : BitVec 1 := Scalar.andi v693 v690
  let v695 : BitVec 32 := Scalar.addi v689 v688
  let v696 : BitVec 32 := Scalar.select v694 v695 v689
  let c1_i32_505 : BitVec 32 := 1#32
  let v697 : BitVec 32 := Scalar.muli v696 c1_i32_505
  let v698 : BitVec 32 := Scalar.addi c0_i32_506 v697
  v698.toNat
def k0_dev45 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_509 : BitVec 32 := 13#32
  let v705 : BitVec 32 := Scalar.addi v2 c13_i32_509
  let c1_i32_510 : BitVec 32 := 1#32
  let v706 : BitVec 32 := Scalar.addi v705 c1_i32_510
  let c32_i32_511 : BitVec 32 := 32#32
  let c0_i32_512 : BitVec 32 := 0#32
  let v707 : BitVec 1 := Scalar.cmpi .eq c32_i32_511 c0_i32_512
  let c1_i32_513 : BitVec 32 := 1#32
  let v708 : BitVec 32 := Scalar.select v707 c1_i32_513 c32_i32_511
  let v709 : BitVec 32 := Scalar.remsi v706 v708
  let c0_i32_515 : BitVec 32 := 0#32
  let v711 : BitVec 1 := Scalar.cmpi .slt v709 c0_i32_515
  let c0_i32_516 : BitVec 32 := 0#32
  let v712 : BitVec 1 := Scalar.cmpi .slt v708 c0_i32_516
  let v713 : BitVec 1 := Scalar.xori v711 v712
  let c0_i32_514 : BitVec 32 := 0#32
  let v710 : BitVec 1 := Scalar.cmpi .ne v709 c0_i32_514
  let v714 : BitVec 1 := Scalar.andi v713 v710
  let v715 : BitVec 32 := Scalar.addi v709 v708
  let v716 : BitVec 32 := Scalar.select v714 v715 v709
  let c1_i32_520 : BitVec 32 := 1#32
  let v717 : BitVec 32 := Scalar.muli v716 c1_i32_520
  let v718 : BitVec 32 := Scalar.addi c0_i32_521 v717
  v718.toNat
def k0_dev46 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_524 : BitVec 32 := 14#32
  let v725 : BitVec 32 := Scalar.addi v2 c14_i32_524
  let c1_i32_525 : BitVec 32 := 1#32
  let v726 : BitVec 32 := Scalar.addi v725 c1_i32_525
  let c32_i32_526 : BitVec 32 := 32#32
  let c0_i32_527 : BitVec 32 := 0#32
  let v727 : BitVec 1 := Scalar.cmpi .eq c32_i32_526 c0_i32_527
  let c1_i32_528 : BitVec 32 := 1#32
  let v728 : BitVec 32 := Scalar.select v727 c1_i32_528 c32_i32_526
  let v729 : BitVec 32 := Scalar.remsi v726 v728
  let c0_i32_530 : BitVec 32 := 0#32
  let v731 : BitVec 1 := Scalar.cmpi .slt v729 c0_i32_530
  let c0_i32_531 : BitVec 32 := 0#32
  let v732 : BitVec 1 := Scalar.cmpi .slt v728 c0_i32_531
  let v733 : BitVec 1 := Scalar.xori v731 v732
  let c0_i32_529 : BitVec 32 := 0#32
  let v730 : BitVec 1 := Scalar.cmpi .ne v729 c0_i32_529
  let v734 : BitVec 1 := Scalar.andi v733 v730
  let v735 : BitVec 32 := Scalar.addi v729 v728
  let v736 : BitVec 32 := Scalar.select v734 v735 v729
  let c1_i32_535 : BitVec 32 := 1#32
  let v737 : BitVec 32 := Scalar.muli v736 c1_i32_535
  let v738 : BitVec 32 := Scalar.addi c0_i32_536 v737
  v738.toNat
def k0_dev47 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_539 : BitVec 32 := 15#32
  let v745 : BitVec 32 := Scalar.addi v2 c15_i32_539
  let c1_i32_540 : BitVec 32 := 1#32
  let v746 : BitVec 32 := Scalar.addi v745 c1_i32_540
  let c32_i32_541 : BitVec 32 := 32#32
  let c0_i32_542 : BitVec 32 := 0#32
  let v747 : BitVec 1 := Scalar.cmpi .eq c32_i32_541 c0_i32_542
  let c1_i32_543 : BitVec 32 := 1#32
  let v748 : BitVec 32 := Scalar.select v747 c1_i32_543 c32_i32_541
  let v749 : BitVec 32 := Scalar.remsi v746 v748
  let c0_i32_545 : BitVec 32 := 0#32
  let v751 : BitVec 1 := Scalar.cmpi .slt v749 c0_i32_545
  let c0_i32_546 : BitVec 32 := 0#32
  let v752 : BitVec 1 := Scalar.cmpi .slt v748 c0_i32_546
  let v753 : BitVec 1 := Scalar.xori v751 v752
  let c0_i32_544 : BitVec 32 := 0#32
  let v750 : BitVec 1 := Scalar.cmpi .ne v749 c0_i32_544
  let v754 : BitVec 1 := Scalar.andi v753 v750
  let v755 : BitVec 32 := Scalar.addi v749 v748
  let v756 : BitVec 32 := Scalar.select v754 v755 v749
  let c1_i32_550 : BitVec 32 := 1#32
  let v757 : BitVec 32 := Scalar.muli v756 c1_i32_550
  let v758 : BitVec 32 := Scalar.addi c0_i32_551 v757
  v758.toNat
def k0_dev48 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_554 : BitVec 32 := 16#32
  let v765 : BitVec 32 := Scalar.addi v2 c16_i32_554
  let c1_i32_555 : BitVec 32 := 1#32
  let v766 : BitVec 32 := Scalar.addi v765 c1_i32_555
  let c32_i32_556 : BitVec 32 := 32#32
  let c0_i32_557 : BitVec 32 := 0#32
  let v767 : BitVec 1 := Scalar.cmpi .eq c32_i32_556 c0_i32_557
  let c1_i32_558 : BitVec 32 := 1#32
  let v768 : BitVec 32 := Scalar.select v767 c1_i32_558 c32_i32_556
  let v769 : BitVec 32 := Scalar.remsi v766 v768
  let c0_i32_560 : BitVec 32 := 0#32
  let v771 : BitVec 1 := Scalar.cmpi .slt v769 c0_i32_560
  let c0_i32_561 : BitVec 32 := 0#32
  let v772 : BitVec 1 := Scalar.cmpi .slt v768 c0_i32_561
  let v773 : BitVec 1 := Scalar.xori v771 v772
  let c0_i32_559 : BitVec 32 := 0#32
  let v770 : BitVec 1 := Scalar.cmpi .ne v769 c0_i32_559
  let v774 : BitVec 1 := Scalar.andi v773 v770
  let v775 : BitVec 32 := Scalar.addi v769 v768
  let v776 : BitVec 32 := Scalar.select v774 v775 v769
  let c1_i32_565 : BitVec 32 := 1#32
  let v777 : BitVec 32 := Scalar.muli v776 c1_i32_565
  let v778 : BitVec 32 := Scalar.addi c0_i32_566 v777
  v778.toNat
def k0_dev49 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_569 : BitVec 32 := 17#32
  let v785 : BitVec 32 := Scalar.addi v2 c17_i32_569
  let c1_i32_570 : BitVec 32 := 1#32
  let v786 : BitVec 32 := Scalar.addi v785 c1_i32_570
  let c32_i32_571 : BitVec 32 := 32#32
  let c0_i32_572 : BitVec 32 := 0#32
  let v787 : BitVec 1 := Scalar.cmpi .eq c32_i32_571 c0_i32_572
  let c1_i32_573 : BitVec 32 := 1#32
  let v788 : BitVec 32 := Scalar.select v787 c1_i32_573 c32_i32_571
  let v789 : BitVec 32 := Scalar.remsi v786 v788
  let c0_i32_575 : BitVec 32 := 0#32
  let v791 : BitVec 1 := Scalar.cmpi .slt v789 c0_i32_575
  let c0_i32_576 : BitVec 32 := 0#32
  let v792 : BitVec 1 := Scalar.cmpi .slt v788 c0_i32_576
  let v793 : BitVec 1 := Scalar.xori v791 v792
  let c0_i32_574 : BitVec 32 := 0#32
  let v790 : BitVec 1 := Scalar.cmpi .ne v789 c0_i32_574
  let v794 : BitVec 1 := Scalar.andi v793 v790
  let v795 : BitVec 32 := Scalar.addi v789 v788
  let v796 : BitVec 32 := Scalar.select v794 v795 v789
  let c1_i32_580 : BitVec 32 := 1#32
  let v797 : BitVec 32 := Scalar.muli v796 c1_i32_580
  let v798 : BitVec 32 := Scalar.addi c0_i32_581 v797
  v798.toNat
def k0_dev50 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_584 : BitVec 32 := 18#32
  let v805 : BitVec 32 := Scalar.addi v2 c18_i32_584
  let c1_i32_585 : BitVec 32 := 1#32
  let v806 : BitVec 32 := Scalar.addi v805 c1_i32_585
  let c32_i32_586 : BitVec 32 := 32#32
  let c0_i32_587 : BitVec 32 := 0#32
  let v807 : BitVec 1 := Scalar.cmpi .eq c32_i32_586 c0_i32_587
  let c1_i32_588 : BitVec 32 := 1#32
  let v808 : BitVec 32 := Scalar.select v807 c1_i32_588 c32_i32_586
  let v809 : BitVec 32 := Scalar.remsi v806 v808
  let c0_i32_590 : BitVec 32 := 0#32
  let v811 : BitVec 1 := Scalar.cmpi .slt v809 c0_i32_590
  let c0_i32_591 : BitVec 32 := 0#32
  let v812 : BitVec 1 := Scalar.cmpi .slt v808 c0_i32_591
  let v813 : BitVec 1 := Scalar.xori v811 v812
  let c0_i32_589 : BitVec 32 := 0#32
  let v810 : BitVec 1 := Scalar.cmpi .ne v809 c0_i32_589
  let v814 : BitVec 1 := Scalar.andi v813 v810
  let v815 : BitVec 32 := Scalar.addi v809 v808
  let v816 : BitVec 32 := Scalar.select v814 v815 v809
  let c1_i32_595 : BitVec 32 := 1#32
  let v817 : BitVec 32 := Scalar.muli v816 c1_i32_595
  let v818 : BitVec 32 := Scalar.addi c0_i32_596 v817
  v818.toNat
def k0_dev51 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_599 : BitVec 32 := 19#32
  let v825 : BitVec 32 := Scalar.addi v2 c19_i32_599
  let c1_i32_600 : BitVec 32 := 1#32
  let v826 : BitVec 32 := Scalar.addi v825 c1_i32_600
  let c32_i32_601 : BitVec 32 := 32#32
  let c0_i32_602 : BitVec 32 := 0#32
  let v827 : BitVec 1 := Scalar.cmpi .eq c32_i32_601 c0_i32_602
  let c1_i32_603 : BitVec 32 := 1#32
  let v828 : BitVec 32 := Scalar.select v827 c1_i32_603 c32_i32_601
  let v829 : BitVec 32 := Scalar.remsi v826 v828
  let c0_i32_605 : BitVec 32 := 0#32
  let v831 : BitVec 1 := Scalar.cmpi .slt v829 c0_i32_605
  let c0_i32_606 : BitVec 32 := 0#32
  let v832 : BitVec 1 := Scalar.cmpi .slt v828 c0_i32_606
  let v833 : BitVec 1 := Scalar.xori v831 v832
  let c0_i32_604 : BitVec 32 := 0#32
  let v830 : BitVec 1 := Scalar.cmpi .ne v829 c0_i32_604
  let v834 : BitVec 1 := Scalar.andi v833 v830
  let v835 : BitVec 32 := Scalar.addi v829 v828
  let v836 : BitVec 32 := Scalar.select v834 v835 v829
  let c1_i32_610 : BitVec 32 := 1#32
  let v837 : BitVec 32 := Scalar.muli v836 c1_i32_610
  let v838 : BitVec 32 := Scalar.addi c0_i32_611 v837
  v838.toNat
def k0_dev52 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_614 : BitVec 32 := 20#32
  let v845 : BitVec 32 := Scalar.addi v2 c20_i32_614
  let c1_i32_615 : BitVec 32 := 1#32
  let v846 : BitVec 32 := Scalar.addi v845 c1_i32_615
  let c32_i32_616 : BitVec 32 := 32#32
  let c0_i32_617 : BitVec 32 := 0#32
  let v847 : BitVec 1 := Scalar.cmpi .eq c32_i32_616 c0_i32_617
  let c1_i32_618 : BitVec 32 := 1#32
  let v848 : BitVec 32 := Scalar.select v847 c1_i32_618 c32_i32_616
  let v849 : BitVec 32 := Scalar.remsi v846 v848
  let c0_i32_620 : BitVec 32 := 0#32
  let v851 : BitVec 1 := Scalar.cmpi .slt v849 c0_i32_620
  let c0_i32_621 : BitVec 32 := 0#32
  let v852 : BitVec 1 := Scalar.cmpi .slt v848 c0_i32_621
  let v853 : BitVec 1 := Scalar.xori v851 v852
  let c0_i32_619 : BitVec 32 := 0#32
  let v850 : BitVec 1 := Scalar.cmpi .ne v849 c0_i32_619
  let v854 : BitVec 1 := Scalar.andi v853 v850
  let v855 : BitVec 32 := Scalar.addi v849 v848
  let v856 : BitVec 32 := Scalar.select v854 v855 v849
  let c1_i32_625 : BitVec 32 := 1#32
  let v857 : BitVec 32 := Scalar.muli v856 c1_i32_625
  let v858 : BitVec 32 := Scalar.addi c0_i32_626 v857
  v858.toNat
def k0_dev53 (d0 : Dev nD) : Nat :=
  let c0_i32_641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_629 : BitVec 32 := 21#32
  let v865 : BitVec 32 := Scalar.addi v2 c21_i32_629
  let c1_i32_630 : BitVec 32 := 1#32
  let v866 : BitVec 32 := Scalar.addi v865 c1_i32_630
  let c32_i32_631 : BitVec 32 := 32#32
  let c0_i32_632 : BitVec 32 := 0#32
  let v867 : BitVec 1 := Scalar.cmpi .eq c32_i32_631 c0_i32_632
  let c1_i32_633 : BitVec 32 := 1#32
  let v868 : BitVec 32 := Scalar.select v867 c1_i32_633 c32_i32_631
  let v869 : BitVec 32 := Scalar.remsi v866 v868
  let c0_i32_635 : BitVec 32 := 0#32
  let v871 : BitVec 1 := Scalar.cmpi .slt v869 c0_i32_635
  let c0_i32_636 : BitVec 32 := 0#32
  let v872 : BitVec 1 := Scalar.cmpi .slt v868 c0_i32_636
  let v873 : BitVec 1 := Scalar.xori v871 v872
  let c0_i32_634 : BitVec 32 := 0#32
  let v870 : BitVec 1 := Scalar.cmpi .ne v869 c0_i32_634
  let v874 : BitVec 1 := Scalar.andi v873 v870
  let v875 : BitVec 32 := Scalar.addi v869 v868
  let v876 : BitVec 32 := Scalar.select v874 v875 v869
  let c1_i32_640 : BitVec 32 := 1#32
  let v877 : BitVec 32 := Scalar.muli v876 c1_i32_640
  let v878 : BitVec 32 := Scalar.addi c0_i32_641 v877
  v878.toNat
def k0_dev54 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_644 : BitVec 32 := 22#32
  let v885 : BitVec 32 := Scalar.addi v2 c22_i32_644
  let c1_i32_645 : BitVec 32 := 1#32
  let v886 : BitVec 32 := Scalar.addi v885 c1_i32_645
  let c32_i32_646 : BitVec 32 := 32#32
  let c0_i32_647 : BitVec 32 := 0#32
  let v887 : BitVec 1 := Scalar.cmpi .eq c32_i32_646 c0_i32_647
  let c1_i32_648 : BitVec 32 := 1#32
  let v888 : BitVec 32 := Scalar.select v887 c1_i32_648 c32_i32_646
  let v889 : BitVec 32 := Scalar.remsi v886 v888
  let c0_i32_650 : BitVec 32 := 0#32
  let v891 : BitVec 1 := Scalar.cmpi .slt v889 c0_i32_650
  let c0_i32_651 : BitVec 32 := 0#32
  let v892 : BitVec 1 := Scalar.cmpi .slt v888 c0_i32_651
  let v893 : BitVec 1 := Scalar.xori v891 v892
  let c0_i32_649 : BitVec 32 := 0#32
  let v890 : BitVec 1 := Scalar.cmpi .ne v889 c0_i32_649
  let v894 : BitVec 1 := Scalar.andi v893 v890
  let v895 : BitVec 32 := Scalar.addi v889 v888
  let v896 : BitVec 32 := Scalar.select v894 v895 v889
  let c1_i32_655 : BitVec 32 := 1#32
  let v897 : BitVec 32 := Scalar.muli v896 c1_i32_655
  let v898 : BitVec 32 := Scalar.addi c0_i32_656 v897
  v898.toNat
def k0_dev55 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_659 : BitVec 32 := 23#32
  let v905 : BitVec 32 := Scalar.addi v2 c23_i32_659
  let c1_i32_660 : BitVec 32 := 1#32
  let v906 : BitVec 32 := Scalar.addi v905 c1_i32_660
  let c32_i32_661 : BitVec 32 := 32#32
  let c0_i32_662 : BitVec 32 := 0#32
  let v907 : BitVec 1 := Scalar.cmpi .eq c32_i32_661 c0_i32_662
  let c1_i32_663 : BitVec 32 := 1#32
  let v908 : BitVec 32 := Scalar.select v907 c1_i32_663 c32_i32_661
  let v909 : BitVec 32 := Scalar.remsi v906 v908
  let c0_i32_665 : BitVec 32 := 0#32
  let v911 : BitVec 1 := Scalar.cmpi .slt v909 c0_i32_665
  let c0_i32_666 : BitVec 32 := 0#32
  let v912 : BitVec 1 := Scalar.cmpi .slt v908 c0_i32_666
  let v913 : BitVec 1 := Scalar.xori v911 v912
  let c0_i32_664 : BitVec 32 := 0#32
  let v910 : BitVec 1 := Scalar.cmpi .ne v909 c0_i32_664
  let v914 : BitVec 1 := Scalar.andi v913 v910
  let v915 : BitVec 32 := Scalar.addi v909 v908
  let v916 : BitVec 32 := Scalar.select v914 v915 v909
  let c1_i32_670 : BitVec 32 := 1#32
  let v917 : BitVec 32 := Scalar.muli v916 c1_i32_670
  let v918 : BitVec 32 := Scalar.addi c0_i32_671 v917
  v918.toNat
def k0_dev56 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_674 : BitVec 32 := 24#32
  let v925 : BitVec 32 := Scalar.addi v2 c24_i32_674
  let c1_i32_675 : BitVec 32 := 1#32
  let v926 : BitVec 32 := Scalar.addi v925 c1_i32_675
  let c32_i32_676 : BitVec 32 := 32#32
  let c0_i32_677 : BitVec 32 := 0#32
  let v927 : BitVec 1 := Scalar.cmpi .eq c32_i32_676 c0_i32_677
  let c1_i32_678 : BitVec 32 := 1#32
  let v928 : BitVec 32 := Scalar.select v927 c1_i32_678 c32_i32_676
  let v929 : BitVec 32 := Scalar.remsi v926 v928
  let c0_i32_680 : BitVec 32 := 0#32
  let v931 : BitVec 1 := Scalar.cmpi .slt v929 c0_i32_680
  let c0_i32_681 : BitVec 32 := 0#32
  let v932 : BitVec 1 := Scalar.cmpi .slt v928 c0_i32_681
  let v933 : BitVec 1 := Scalar.xori v931 v932
  let c0_i32_679 : BitVec 32 := 0#32
  let v930 : BitVec 1 := Scalar.cmpi .ne v929 c0_i32_679
  let v934 : BitVec 1 := Scalar.andi v933 v930
  let v935 : BitVec 32 := Scalar.addi v929 v928
  let v936 : BitVec 32 := Scalar.select v934 v935 v929
  let c1_i32_685 : BitVec 32 := 1#32
  let v937 : BitVec 32 := Scalar.muli v936 c1_i32_685
  let v938 : BitVec 32 := Scalar.addi c0_i32_686 v937
  v938.toNat
def k0_dev57 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_689 : BitVec 32 := 25#32
  let v945 : BitVec 32 := Scalar.addi v2 c25_i32_689
  let c1_i32_690 : BitVec 32 := 1#32
  let v946 : BitVec 32 := Scalar.addi v945 c1_i32_690
  let c32_i32_691 : BitVec 32 := 32#32
  let c0_i32_692 : BitVec 32 := 0#32
  let v947 : BitVec 1 := Scalar.cmpi .eq c32_i32_691 c0_i32_692
  let c1_i32_693 : BitVec 32 := 1#32
  let v948 : BitVec 32 := Scalar.select v947 c1_i32_693 c32_i32_691
  let v949 : BitVec 32 := Scalar.remsi v946 v948
  let c0_i32_695 : BitVec 32 := 0#32
  let v951 : BitVec 1 := Scalar.cmpi .slt v949 c0_i32_695
  let c0_i32_696 : BitVec 32 := 0#32
  let v952 : BitVec 1 := Scalar.cmpi .slt v948 c0_i32_696
  let v953 : BitVec 1 := Scalar.xori v951 v952
  let c0_i32_694 : BitVec 32 := 0#32
  let v950 : BitVec 1 := Scalar.cmpi .ne v949 c0_i32_694
  let v954 : BitVec 1 := Scalar.andi v953 v950
  let v955 : BitVec 32 := Scalar.addi v949 v948
  let v956 : BitVec 32 := Scalar.select v954 v955 v949
  let c1_i32_700 : BitVec 32 := 1#32
  let v957 : BitVec 32 := Scalar.muli v956 c1_i32_700
  let v958 : BitVec 32 := Scalar.addi c0_i32_701 v957
  v958.toNat
def k0_dev58 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_704 : BitVec 32 := 26#32
  let v965 : BitVec 32 := Scalar.addi v2 c26_i32_704
  let c1_i32_705 : BitVec 32 := 1#32
  let v966 : BitVec 32 := Scalar.addi v965 c1_i32_705
  let c32_i32_706 : BitVec 32 := 32#32
  let c0_i32_707 : BitVec 32 := 0#32
  let v967 : BitVec 1 := Scalar.cmpi .eq c32_i32_706 c0_i32_707
  let c1_i32_708 : BitVec 32 := 1#32
  let v968 : BitVec 32 := Scalar.select v967 c1_i32_708 c32_i32_706
  let v969 : BitVec 32 := Scalar.remsi v966 v968
  let c0_i32_710 : BitVec 32 := 0#32
  let v971 : BitVec 1 := Scalar.cmpi .slt v969 c0_i32_710
  let c0_i32_711 : BitVec 32 := 0#32
  let v972 : BitVec 1 := Scalar.cmpi .slt v968 c0_i32_711
  let v973 : BitVec 1 := Scalar.xori v971 v972
  let c0_i32_709 : BitVec 32 := 0#32
  let v970 : BitVec 1 := Scalar.cmpi .ne v969 c0_i32_709
  let v974 : BitVec 1 := Scalar.andi v973 v970
  let v975 : BitVec 32 := Scalar.addi v969 v968
  let v976 : BitVec 32 := Scalar.select v974 v975 v969
  let c1_i32_715 : BitVec 32 := 1#32
  let v977 : BitVec 32 := Scalar.muli v976 c1_i32_715
  let v978 : BitVec 32 := Scalar.addi c0_i32_716 v977
  v978.toNat
def k0_dev59 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_719 : BitVec 32 := 27#32
  let v985 : BitVec 32 := Scalar.addi v2 c27_i32_719
  let c1_i32_720 : BitVec 32 := 1#32
  let v986 : BitVec 32 := Scalar.addi v985 c1_i32_720
  let c32_i32_721 : BitVec 32 := 32#32
  let c0_i32_722 : BitVec 32 := 0#32
  let v987 : BitVec 1 := Scalar.cmpi .eq c32_i32_721 c0_i32_722
  let c1_i32_723 : BitVec 32 := 1#32
  let v988 : BitVec 32 := Scalar.select v987 c1_i32_723 c32_i32_721
  let v989 : BitVec 32 := Scalar.remsi v986 v988
  let c0_i32_725 : BitVec 32 := 0#32
  let v991 : BitVec 1 := Scalar.cmpi .slt v989 c0_i32_725
  let c0_i32_726 : BitVec 32 := 0#32
  let v992 : BitVec 1 := Scalar.cmpi .slt v988 c0_i32_726
  let v993 : BitVec 1 := Scalar.xori v991 v992
  let c0_i32_724 : BitVec 32 := 0#32
  let v990 : BitVec 1 := Scalar.cmpi .ne v989 c0_i32_724
  let v994 : BitVec 1 := Scalar.andi v993 v990
  let v995 : BitVec 32 := Scalar.addi v989 v988
  let v996 : BitVec 32 := Scalar.select v994 v995 v989
  let c1_i32_730 : BitVec 32 := 1#32
  let v997 : BitVec 32 := Scalar.muli v996 c1_i32_730
  let v998 : BitVec 32 := Scalar.addi c0_i32_731 v997
  v998.toNat
def k0_dev60 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_734 : BitVec 32 := 28#32
  let v1005 : BitVec 32 := Scalar.addi v2 c28_i32_734
  let c1_i32_735 : BitVec 32 := 1#32
  let v1006 : BitVec 32 := Scalar.addi v1005 c1_i32_735
  let c32_i32_736 : BitVec 32 := 32#32
  let c0_i32_737 : BitVec 32 := 0#32
  let v1007 : BitVec 1 := Scalar.cmpi .eq c32_i32_736 c0_i32_737
  let c1_i32_738 : BitVec 32 := 1#32
  let v1008 : BitVec 32 := Scalar.select v1007 c1_i32_738 c32_i32_736
  let v1009 : BitVec 32 := Scalar.remsi v1006 v1008
  let c0_i32_740 : BitVec 32 := 0#32
  let v1011 : BitVec 1 := Scalar.cmpi .slt v1009 c0_i32_740
  let c0_i32_741 : BitVec 32 := 0#32
  let v1012 : BitVec 1 := Scalar.cmpi .slt v1008 c0_i32_741
  let v1013 : BitVec 1 := Scalar.xori v1011 v1012
  let c0_i32_739 : BitVec 32 := 0#32
  let v1010 : BitVec 1 := Scalar.cmpi .ne v1009 c0_i32_739
  let v1014 : BitVec 1 := Scalar.andi v1013 v1010
  let v1015 : BitVec 32 := Scalar.addi v1009 v1008
  let v1016 : BitVec 32 := Scalar.select v1014 v1015 v1009
  let c1_i32_745 : BitVec 32 := 1#32
  let v1017 : BitVec 32 := Scalar.muli v1016 c1_i32_745
  let v1018 : BitVec 32 := Scalar.addi c0_i32_746 v1017
  v1018.toNat
def k0_dev61 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_749 : BitVec 32 := 29#32
  let v1025 : BitVec 32 := Scalar.addi v2 c29_i32_749
  let c1_i32_750 : BitVec 32 := 1#32
  let v1026 : BitVec 32 := Scalar.addi v1025 c1_i32_750
  let c32_i32_751 : BitVec 32 := 32#32
  let c0_i32_752 : BitVec 32 := 0#32
  let v1027 : BitVec 1 := Scalar.cmpi .eq c32_i32_751 c0_i32_752
  let c1_i32_753 : BitVec 32 := 1#32
  let v1028 : BitVec 32 := Scalar.select v1027 c1_i32_753 c32_i32_751
  let v1029 : BitVec 32 := Scalar.remsi v1026 v1028
  let c0_i32_755 : BitVec 32 := 0#32
  let v1031 : BitVec 1 := Scalar.cmpi .slt v1029 c0_i32_755
  let c0_i32_756 : BitVec 32 := 0#32
  let v1032 : BitVec 1 := Scalar.cmpi .slt v1028 c0_i32_756
  let v1033 : BitVec 1 := Scalar.xori v1031 v1032
  let c0_i32_754 : BitVec 32 := 0#32
  let v1030 : BitVec 1 := Scalar.cmpi .ne v1029 c0_i32_754
  let v1034 : BitVec 1 := Scalar.andi v1033 v1030
  let v1035 : BitVec 32 := Scalar.addi v1029 v1028
  let v1036 : BitVec 32 := Scalar.select v1034 v1035 v1029
  let c1_i32_760 : BitVec 32 := 1#32
  let v1037 : BitVec 32 := Scalar.muli v1036 c1_i32_760
  let v1038 : BitVec 32 := Scalar.addi c0_i32_761 v1037
  v1038.toNat
def k0_dev62 (d0 : Dev nD) : Nat :=
  let c0_i32_776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_764 : BitVec 32 := 30#32
  let v1045 : BitVec 32 := Scalar.addi v2 c30_i32_764
  let c1_i32_765 : BitVec 32 := 1#32
  let v1046 : BitVec 32 := Scalar.addi v1045 c1_i32_765
  let c32_i32_766 : BitVec 32 := 32#32
  let c0_i32_767 : BitVec 32 := 0#32
  let v1047 : BitVec 1 := Scalar.cmpi .eq c32_i32_766 c0_i32_767
  let c1_i32_768 : BitVec 32 := 1#32
  let v1048 : BitVec 32 := Scalar.select v1047 c1_i32_768 c32_i32_766
  let v1049 : BitVec 32 := Scalar.remsi v1046 v1048
  let c0_i32_770 : BitVec 32 := 0#32
  let v1051 : BitVec 1 := Scalar.cmpi .slt v1049 c0_i32_770
  let c0_i32_771 : BitVec 32 := 0#32
  let v1052 : BitVec 1 := Scalar.cmpi .slt v1048 c0_i32_771
  let v1053 : BitVec 1 := Scalar.xori v1051 v1052
  let c0_i32_769 : BitVec 32 := 0#32
  let v1050 : BitVec 1 := Scalar.cmpi .ne v1049 c0_i32_769
  let v1054 : BitVec 1 := Scalar.andi v1053 v1050
  let v1055 : BitVec 32 := Scalar.addi v1049 v1048
  let v1056 : BitVec 32 := Scalar.select v1054 v1055 v1049
  let c1_i32_775 : BitVec 32 := 1#32
  let v1057 : BitVec 32 := Scalar.muli v1056 c1_i32_775
  let v1058 : BitVec 32 := Scalar.addi c0_i32_776 v1057
  v1058.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_31 : (31#32 : BitVec 32).msb = false
  inb_S31_S1_0 : ∀ a, (![0] : Fin 1 → Nat) a + S1.size a ≤ S31.size a
  squeezes_S1_S_ : S1.Squeezes S_
  inb_S31x1x256_S1x1x256_0_0_0 : ∀ a, (![0, 0, 0] : Fin 3 → Nat) a + S1x1x256.size a ≤ S31x1x256.size a
  squeezes_S1x1x256_S1x256 : S1x1x256.Squeezes S1x256
  inb_S31_S1_1 : ∀ a, (![1] : Fin 1 → Nat) a + S1.size a ≤ S31.size a
  inb_S31x1x256_S1x1x256_1_0_0 : ∀ a, (![1, 0, 0] : Fin 3 → Nat) a + S1x1x256.size a ≤ S31x1x256.size a
  inb_S31_S1_2 : ∀ a, (![2] : Fin 1 → Nat) a + S1.size a ≤ S31.size a
  inb_S31x1x256_S1x1x256_2_0_0 : ∀ a, (![2, 0, 0] : Fin 3 → Nat) a + S1x1x256.size a ≤ S31x1x256.size a
  inb_S31_S1_3 : ∀ a, (![3] : Fin 1 → Nat) a + S1.size a ≤ S31.size a
  inb_S31x1x256_S1x1x256_3_0_0 : ∀ a, (![3, 0, 0] : Fin 3 → Nat) a + S1x1x256.size a ≤ S31x1x256.size a
  inb_S31_S1_4 : ∀ a, (![4] : Fin 1 → Nat) a + S1.size a ≤ S31.size a
  inb_S31x1x256_S1x1x256_4_0_0 : ∀ a, (![4, 0, 0] : Fin 3 → Nat) a + S1x1x256.size a ≤ S31x1x256.size a
  inb_S31_S1_5 : ∀ a, (![5] : Fin 1 → Nat) a + S1.size a ≤ S31.size a
  inb_S31x1x256_S1x1x256_5_0_0 : ∀ a, (![5, 0, 0] : Fin 3 → Nat) a + S1x1x256.size a ≤ S31x1x256.size a
  inb_S31_S1_6 : ∀ a, (![6] : Fin 1 → Nat) a + S1.size a ≤ S31.size a
  inb_S31x1x256_S1x1x256_6_0_0 : ∀ a, (![6, 0, 0] : Fin 3 → Nat) a + S1x1x256.size a ≤ S31x1x256.size a
  inb_S31_S1_7 : ∀ a, (![7] : Fin 1 → Nat) a + S1.size a ≤ S31.size a
  inb_S31x1x256_S1x1x256_7_0_0 : ∀ a, (![7, 0, 0] : Fin 3 → Nat) a + S1x1x256.size a ≤ S31x1x256.size a
  inb_S31_S1_8 : ∀ a, (![8] : Fin 1 → Nat) a + S1.size a ≤ S31.size a
  inb_S31x1x256_S1x1x256_8_0_0 : ∀ a, (![8, 0, 0] : Fin 3 → Nat) a + S1x1x256.size a ≤ S31x1x256.size a
  inb_S31_S1_9 : ∀ a, (![9] : Fin 1 → Nat) a + S1.size a ≤ S31.size a
  inb_S31x1x256_S1x1x256_9_0_0 : ∀ a, (![9, 0, 0] : Fin 3 → Nat) a + S1x1x256.size a ≤ S31x1x256.size a
  inb_S31_S1_10 : ∀ a, (![10] : Fin 1 → Nat) a + S1.size a ≤ S31.size a
  inb_S31x1x256_S1x1x256_10_0_0 : ∀ a, (![10, 0, 0] : Fin 3 → Nat) a + S1x1x256.size a ≤ S31x1x256.size a
  inb_S31_S1_11 : ∀ a, (![11] : Fin 1 → Nat) a + S1.size a ≤ S31.size a
  inb_S31x1x256_S1x1x256_11_0_0 : ∀ a, (![11, 0, 0] : Fin 3 → Nat) a + S1x1x256.size a ≤ S31x1x256.size a
  inb_S31_S1_12 : ∀ a, (![12] : Fin 1 → Nat) a + S1.size a ≤ S31.size a
  inb_S31x1x256_S1x1x256_12_0_0 : ∀ a, (![12, 0, 0] : Fin 3 → Nat) a + S1x1x256.size a ≤ S31x1x256.size a
  inb_S31_S1_13 : ∀ a, (![13] : Fin 1 → Nat) a + S1.size a ≤ S31.size a
  inb_S31x1x256_S1x1x256_13_0_0 : ∀ a, (![13, 0, 0] : Fin 3 → Nat) a + S1x1x256.size a ≤ S31x1x256.size a
  inb_S31_S1_14 : ∀ a, (![14] : Fin 1 → Nat) a + S1.size a ≤ S31.size a
  inb_S31x1x256_S1x1x256_14_0_0 : ∀ a, (![14, 0, 0] : Fin 3 → Nat) a + S1x1x256.size a ≤ S31x1x256.size a
  inb_S31_S1_15 : ∀ a, (![15] : Fin 1 → Nat) a + S1.size a ≤ S31.size a
  inb_S31x1x256_S1x1x256_15_0_0 : ∀ a, (![15, 0, 0] : Fin 3 → Nat) a + S1x1x256.size a ≤ S31x1x256.size a
  inb_S31_S1_16 : ∀ a, (![16] : Fin 1 → Nat) a + S1.size a ≤ S31.size a
  inb_S31x1x256_S1x1x256_16_0_0 : ∀ a, (![16, 0, 0] : Fin 3 → Nat) a + S1x1x256.size a ≤ S31x1x256.size a
  inb_S31_S1_17 : ∀ a, (![17] : Fin 1 → Nat) a + S1.size a ≤ S31.size a
  inb_S31x1x256_S1x1x256_17_0_0 : ∀ a, (![17, 0, 0] : Fin 3 → Nat) a + S1x1x256.size a ≤ S31x1x256.size a
  inb_S31_S1_18 : ∀ a, (![18] : Fin 1 → Nat) a + S1.size a ≤ S31.size a
  inb_S31x1x256_S1x1x256_18_0_0 : ∀ a, (![18, 0, 0] : Fin 3 → Nat) a + S1x1x256.size a ≤ S31x1x256.size a
  inb_S31_S1_19 : ∀ a, (![19] : Fin 1 → Nat) a + S1.size a ≤ S31.size a
  inb_S31x1x256_S1x1x256_19_0_0 : ∀ a, (![19, 0, 0] : Fin 3 → Nat) a + S1x1x256.size a ≤ S31x1x256.size a
  inb_S31_S1_20 : ∀ a, (![20] : Fin 1 → Nat) a + S1.size a ≤ S31.size a
  inb_S31x1x256_S1x1x256_20_0_0 : ∀ a, (![20, 0, 0] : Fin 3 → Nat) a + S1x1x256.size a ≤ S31x1x256.size a
  inb_S31_S1_21 : ∀ a, (![21] : Fin 1 → Nat) a + S1.size a ≤ S31.size a
  inb_S31x1x256_S1x1x256_21_0_0 : ∀ a, (![21, 0, 0] : Fin 3 → Nat) a + S1x1x256.size a ≤ S31x1x256.size a
  inb_S31_S1_22 : ∀ a, (![22] : Fin 1 → Nat) a + S1.size a ≤ S31.size a
  inb_S31x1x256_S1x1x256_22_0_0 : ∀ a, (![22, 0, 0] : Fin 3 → Nat) a + S1x1x256.size a ≤ S31x1x256.size a
  inb_S31_S1_23 : ∀ a, (![23] : Fin 1 → Nat) a + S1.size a ≤ S31.size a
  inb_S31x1x256_S1x1x256_23_0_0 : ∀ a, (![23, 0, 0] : Fin 3 → Nat) a + S1x1x256.size a ≤ S31x1x256.size a
  inb_S31_S1_24 : ∀ a, (![24] : Fin 1 → Nat) a + S1.size a ≤ S31.size a
  inb_S31x1x256_S1x1x256_24_0_0 : ∀ a, (![24, 0, 0] : Fin 3 → Nat) a + S1x1x256.size a ≤ S31x1x256.size a
  inb_S31_S1_25 : ∀ a, (![25] : Fin 1 → Nat) a + S1.size a ≤ S31.size a
  inb_S31x1x256_S1x1x256_25_0_0 : ∀ a, (![25, 0, 0] : Fin 3 → Nat) a + S1x1x256.size a ≤ S31x1x256.size a
  inb_S31_S1_26 : ∀ a, (![26] : Fin 1 → Nat) a + S1.size a ≤ S31.size a
  inb_S31x1x256_S1x1x256_26_0_0 : ∀ a, (![26, 0, 0] : Fin 3 → Nat) a + S1x1x256.size a ≤ S31x1x256.size a
  inb_S31_S1_27 : ∀ a, (![27] : Fin 1 → Nat) a + S1.size a ≤ S31.size a
  inb_S31x1x256_S1x1x256_27_0_0 : ∀ a, (![27, 0, 0] : Fin 3 → Nat) a + S1x1x256.size a ≤ S31x1x256.size a
  inb_S31_S1_28 : ∀ a, (![28] : Fin 1 → Nat) a + S1.size a ≤ S31.size a
  inb_S31x1x256_S1x1x256_28_0_0 : ∀ a, (![28, 0, 0] : Fin 3 → Nat) a + S1x1x256.size a ≤ S31x1x256.size a
  inb_S31_S1_29 : ∀ a, (![29] : Fin 1 → Nat) a + S1.size a ≤ S31.size a
  inb_S31x1x256_S1x1x256_29_0_0 : ∀ a, (![29, 0, 0] : Fin 3 → Nat) a + S1x1x256.size a ≤ S31x1x256.size a
  inb_S31_S1_30 : ∀ a, (![30] : Fin 1 → Nat) a + S1.size a ≤ S31.size a
  inb_S31x1x256_S1x1x256_30_0_0 : ∀ a, (![30, 0, 0] : Fin 3 → Nat) a + S1x1x256.size a ≤ S31x1x256.size a
  inb_S31x1x256_S31x1x256_0_0_0 : ∀ a, (![0, 0, 0] : Fin 3 → Nat) a + S31x1x256.size a ≤ S31x1x256.size a
  h_S31x1x256 : 0 < S31x1x256.numel
  shapeCasts_S31x1x256_S31x256 : S31x1x256.ShapeCasts S31x256
  reduces_S31x256_S256 : S31x256.Reduces [0] S256
  hcc0_scratch2 : 2 + S31.numel ≤ 64
  hcc0_scratch3 : 33 + S31.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole

variable [Facts₀]

abbrev cc0_scratch2 : DmaSems sig S31 := SemArray.consecutive 2 S31 hcc0_scratch2
abbrev cc0_scratch3 : DmaSems sig S31 := SemArray.consecutive 33 S31 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x256 : Shape := ⟨2, ![16384, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S256, .f32⟩
  | .hbm, ⟨3, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x256_S256_d0 : S16384x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Kernel.Peers.lean ====
/-
  The all-to-all pattern of the kernel on the ring of 32 devices: device `c`'s `j`-th peer is `c + j + 1` (mod 32), for
  `j = 0 … 30` — every other device exactly once —, and the device whose `j`-th peer is `c` is `c - j - 1` (mod 32).
-/
import proofs.«900925_g7700000000000926_dist_max_ax0_shard0_i_m512_n256_v7x_i32_f32_1_alg».proof.Kernel

namespace Cert.Kernel.Hand

open Cert.Kernel
open Idealize.ShloMosaic

/-- The `j`-th device after `c` on the ring, `j = 0 … 30`: the device `c` signals `j`-th and copies to `j`-th. -/
def peer (c : Dev nD) (j : Fin 31) : Dev nD := ⟨(c.val + j.val + 1) % 32, Nat.mod_lt _ (by decide)⟩

/-- The device whose `j`-th peer is `c`: the one whose copy lands in `c`'s slot `j`. -/
def srcOf (c : Dev nD) (j : Fin 31) : Dev nD := ⟨(c.val + 31 - j.val) % 32, Nat.mod_lt _ (by decide)⟩

/-- The index at which `peer c j` counts `c` among ITS peers: `c = peer (peer c j) (30 - j)`. -/
def back (j : Fin 31) : Fin 31 := ⟨30 - j.val, by omega⟩

theorem srcOf_peer (c : Dev nD) (j : Fin 31) : srcOf (peer c j) j = c := by
  apply Fin.ext; show ((c.val + j.val + 1) % 32 + 31 - j.val) % 32 = c.val
  have hc : c.val < 32 := c.isLt; have := j.isLt; omega
theorem peer_srcOf (c : Dev nD) (j : Fin 31) : peer (srcOf c j) j = c := by
  apply Fin.ext; show ((c.val + 31 - j.val) % 32 + j.val + 1) % 32 = c.val
  have hc : c.val < 32 := c.isLt; have := j.isLt; omega
theorem peer_back (c : Dev nD) (j : Fin 31) : peer (peer c j) (back j) = c := by
  apply Fin.ext; show ((c.val + j.val + 1) % 32 + (30 - j.val) + 1) % 32 = c.val
  have hc : c.val < 32 := c.isLt; have := j.isLt; omega
theorem srcOf_eq_peer_back (c : Dev nD) (j : Fin 31) : srcOf c j = peer c (back j) := by
  apply Fin.ext; show (c.val + 31 - j.val) % 32 = (c.val + (30 - j.val) + 1) % 32
  have hc : c.val < 32 := c.isLt; have := j.isLt; omega
theorem back_back (j : Fin 31) : back (back j) = j := by
  apply Fin.ext; show 30 - (30 - j.val) = j.val; have := j.isLt; omega
theorem peer_ne (c : Dev nD) (j : Fin 31) : peer c j ≠ c := by
  intro h; have := congrArg Fin.val h
  change (c.val + j.val + 1) % 32 = c.val at this
  have hc : c.val < 32 := c.isLt; have := j.isLt; omega
theorem peer_injective (c : Dev nD) : Function.Injective (peer c) := by
  intro j j' h; have := congrArg Fin.val h
  change (c.val + j.val + 1) % 32 = (c.val + j'.val + 1) % 32 at this
  apply Fin.ext; have hc : c.val < 32 := c.isLt; have := j.isLt; have := j'.isLt; omega
theorem peer_eq_iff (c d : Dev nD) (j : Fin 31) : peer d j = c ↔ d = srcOf c j :=
  ⟨fun h => by rw [← h, srcOf_peer], fun h => by rw [h, peer_srcOf]⟩
/-- Every device other than `c` is exactly one of `c`'s peers. -/
theorem exists_peer (c d : Dev nD) (h : d ≠ c) : ∃ j : Fin 31, peer c j = d := by
  have hc : c.val < 32 := c.isLt; have hd : d.val < 32 := d.isLt
  have hne : d.val ≠ c.val := fun e => h (Fin.ext e)
  refine ⟨⟨(d.val + 31 - c.val) % 32, ?_⟩, ?_⟩
  · show (d.val + 31 - c.val) % 32 < 31; omega
  · apply Fin.ext; show (c.val + (d.val + 31 - c.val) % 32 + 1) % 32 = d.val; omega

end Cert.Kernel.Hand
-- ==== Proof.Kernel.DevTable.lean ====
import proofs.«900925_g7700000000000926_dist_max_ax0_shard0_i_m512_n256_v7x_i32_f32_1_alg».proof.Proof.Kernel.Peers
import proofs.«900925_g7700000000000926_dist_max_ax0_shard0_i_m512_n256_v7x_i32_f32_1_alg».proof.Proof.Gen.Kernel
import Idealize.ShloMosaic.Lib.Decide

namespace Cert.Kernel.Hand

open Cert.Kernel Cert.Kernel.Gen
open Idealize.ShloMosaic

/-! The closed form of each printed device chain, decided over the 32 devices: the n-th signal and the n-th copy both address the n-th peer. -/
theorem dev1_val : ∀ c : Dev nD, k0_dev1 c = (c.val + 0 + 1) % 32 := by decide +kernel
theorem dev1_eq (c : Dev nD) : (⟨k0_dev1 c, k0_dev1_lt c⟩ : Dev nD) = peer c ⟨0, by decide⟩ := Fin.ext (dev1_val c)
theorem dev2_val : ∀ c : Dev nD, k0_dev2 c = (c.val + 1 + 1) % 32 := by decide +kernel
theorem dev2_eq (c : Dev nD) : (⟨k0_dev2 c, k0_dev2_lt c⟩ : Dev nD) = peer c ⟨1, by decide⟩ := Fin.ext (dev2_val c)
theorem dev3_val : ∀ c : Dev nD, k0_dev3 c = (c.val + 2 + 1) % 32 := by decide +kernel
theorem dev3_eq (c : Dev nD) : (⟨k0_dev3 c, k0_dev3_lt c⟩ : Dev nD) = peer c ⟨2, by decide⟩ := Fin.ext (dev3_val c)
theorem dev4_val : ∀ c : Dev nD, k0_dev4 c = (c.val + 3 + 1) % 32 := by decide +kernel
theorem dev4_eq (c : Dev nD) : (⟨k0_dev4 c, k0_dev4_lt c⟩ : Dev nD) = peer c ⟨3, by decide⟩ := Fin.ext (dev4_val c)
theorem dev5_val : ∀ c : Dev nD, k0_dev5 c = (c.val + 4 + 1) % 32 := by decide +kernel
theorem dev5_eq (c : Dev nD) : (⟨k0_dev5 c, k0_dev5_lt c⟩ : Dev nD) = peer c ⟨4, by decide⟩ := Fin.ext (dev5_val c)
theorem dev6_val : ∀ c : Dev nD, k0_dev6 c = (c.val + 5 + 1) % 32 := by decide +kernel
theorem dev6_eq (c : Dev nD) : (⟨k0_dev6 c, k0_dev6_lt c⟩ : Dev nD) = peer c ⟨5, by decide⟩ := Fin.ext (dev6_val c)
theorem dev7_val : ∀ c : Dev nD, k0_dev7 c = (c.val + 6 + 1) % 32 := by decide +kernel
theorem dev7_eq (c : Dev nD) : (⟨k0_dev7 c, k0_dev7_lt c⟩ : Dev nD) = peer c ⟨6, by decide⟩ := Fin.ext (dev7_val c)
theorem dev8_val : ∀ c : Dev nD, k0_dev8 c = (c.val + 7 + 1) % 32 := by decide +kernel
theorem dev8_eq (c : Dev nD) : (⟨k0_dev8 c, k0_dev8_lt c⟩ : Dev nD) = peer c ⟨7, by decide⟩ := Fin.ext (dev8_val c)
theorem dev9_val : ∀ c : Dev nD, k0_dev9 c = (c.val + 8 + 1) % 32 := by decide +kernel
theorem dev9_eq (c : Dev nD) : (⟨k0_dev9 c, k0_dev9_lt c⟩ : Dev nD) = peer c ⟨8, by decide⟩ := Fin.ext (dev9_val c)
theorem dev10_val : ∀ c : Dev nD, k0_dev10 c = (c.val + 9 + 1) % 32 := by decide +kernel
theorem dev10_eq (c : Dev nD) : (⟨k0_dev10 c, k0_dev10_lt c⟩ : Dev nD) = peer c ⟨9, by decide⟩ := Fin.ext (dev10_val c)
theorem dev11_val : ∀ c : Dev nD, k0_dev11 c = (c.val + 10 + 1) % 32 := by decide +kernel
theorem dev11_eq (c : Dev nD) : (⟨k0_dev11 c, k0_dev11_lt c⟩ : Dev nD) = peer c ⟨10, by decide⟩ := Fin.ext (dev11_val c)
theorem dev12_val : ∀ c : Dev nD, k0_dev12 c = (c.val + 11 + 1) % 32 := by decide +kernel
theorem dev12_eq (c : Dev nD) : (⟨k0_dev12 c, k0_dev12_lt c⟩ : Dev nD) = peer c ⟨11, by decide⟩ := Fin.ext (dev12_val c)
theorem dev13_val : ∀ c : Dev nD, k0_dev13 c = (c.val + 12 + 1) % 32 := by decide +kernel
theorem dev13_eq (c : Dev nD) : (⟨k0_dev13 c, k0_dev13_lt c⟩ : Dev nD) = peer c ⟨12, by decide⟩ := Fin.ext (dev13_val c)
theorem dev14_val : ∀ c : Dev nD, k0_dev14 c = (c.val + 13 + 1) % 32 := by decide +kernel
theorem dev14_eq (c : Dev nD) : (⟨k0_dev14 c, k0_dev14_lt c⟩ : Dev nD) = peer c ⟨13, by decide⟩ := Fin.ext (dev14_val c)
theorem dev15_val : ∀ c : Dev nD, k0_dev15 c = (c.val + 14 + 1) % 32 := by decide +kernel
theorem dev15_eq (c : Dev nD) : (⟨k0_dev15 c, k0_dev15_lt c⟩ : Dev nD) = peer c ⟨14, by decide⟩ := Fin.ext (dev15_val c)
theorem dev16_val : ∀ c : Dev nD, k0_dev16 c = (c.val + 15 + 1) % 32 := by decide +kernel
theorem dev16_eq (c : Dev nD) : (⟨k0_dev16 c, k0_dev16_lt c⟩ : Dev nD) = peer c ⟨15, by decide⟩ := Fin.ext (dev16_val c)
theorem dev17_val : ∀ c : Dev nD, k0_dev17 c = (c.val + 16 + 1) % 32 := by decide +kernel
theorem dev17_eq (c : Dev nD) : (⟨k0_dev17 c, k0_dev17_lt c⟩ : Dev nD) = peer c ⟨16, by decide⟩ := Fin.ext (dev17_val c)
theorem dev18_val : ∀ c : Dev nD, k0_dev18 c = (c.val + 17 + 1) % 32 := by decide +kernel
theorem dev18_eq (c : Dev nD) : (⟨k0_dev18 c, k0_dev18_lt c⟩ : Dev nD) = peer c ⟨17, by decide⟩ := Fin.ext (dev18_val c)
theorem dev19_val : ∀ c : Dev nD, k0_dev19 c = (c.val + 18 + 1) % 32 := by decide +kernel
theorem dev19_eq (c : Dev nD) : (⟨k0_dev19 c, k0_dev19_lt c⟩ : Dev nD) = peer c ⟨18, by decide⟩ := Fin.ext (dev19_val c)
theorem dev20_val : ∀ c : Dev nD, k0_dev20 c = (c.val + 19 + 1) % 32 := by decide +kernel
theorem dev20_eq (c : Dev nD) : (⟨k0_dev20 c, k0_dev20_lt c⟩ : Dev nD) = peer c ⟨19, by decide⟩ := Fin.ext (dev20_val c)
theorem dev21_val : ∀ c : Dev nD, k0_dev21 c = (c.val + 20 + 1) % 32 := by decide +kernel
theorem dev21_eq (c : Dev nD) : (⟨k0_dev21 c, k0_dev21_lt c⟩ : Dev nD) = peer c ⟨20, by decide⟩ := Fin.ext (dev21_val c)
theorem dev22_val : ∀ c : Dev nD, k0_dev22 c = (c.val + 21 + 1) % 32 := by decide +kernel
theorem dev22_eq (c : Dev nD) : (⟨k0_dev22 c, k0_dev22_lt c⟩ : Dev nD) = peer c ⟨21, by decide⟩ := Fin.ext (dev22_val c)
theorem dev23_val : ∀ c : Dev nD, k0_dev23 c = (c.val + 22 + 1) % 32 := by decide +kernel
theorem dev23_eq (c : Dev nD) : (⟨k0_dev23 c, k0_dev23_lt c⟩ : Dev nD) = peer c ⟨22, by decide⟩ := Fin.ext (dev23_val c)
theorem dev24_val : ∀ c : Dev nD, k0_dev24 c = (c.val + 23 + 1) % 32 := by decide +kernel
theorem dev24_eq (c : Dev nD) : (⟨k0_dev24 c, k0_dev24_lt c⟩ : Dev nD) = peer c ⟨23, by decide⟩ := Fin.ext (dev24_val c)
theorem dev25_val : ∀ c : Dev nD, k0_dev25 c = (c.val + 24 + 1) % 32 := by decide +kernel
theorem dev25_eq (c : Dev nD) : (⟨k0_dev25 c, k0_dev25_lt c⟩ : Dev nD) = peer c ⟨24, by decide⟩ := Fin.ext (dev25_val c)
theorem dev26_val : ∀ c : Dev nD, k0_dev26 c = (c.val + 25 + 1) % 32 := by decide +kernel
theorem dev26_eq (c : Dev nD) : (⟨k0_dev26 c, k0_dev26_lt c⟩ : Dev nD) = peer c ⟨25, by decide⟩ := Fin.ext (dev26_val c)
theorem dev27_val : ∀ c : Dev nD, k0_dev27 c = (c.val + 26 + 1) % 32 := by decide +kernel
theorem dev27_eq (c : Dev nD) : (⟨k0_dev27 c, k0_dev27_lt c⟩ : Dev nD) = peer c ⟨26, by decide⟩ := Fin.ext (dev27_val c)
theorem dev28_val : ∀ c : Dev nD, k0_dev28 c = (c.val + 27 + 1) % 32 := by decide +kernel
theorem dev28_eq (c : Dev nD) : (⟨k0_dev28 c, k0_dev28_lt c⟩ : Dev nD) = peer c ⟨27, by decide⟩ := Fin.ext (dev28_val c)
theorem dev29_val : ∀ c : Dev nD, k0_dev29 c = (c.val + 28 + 1) % 32 := by decide +kernel
theorem dev29_eq (c : Dev nD) : (⟨k0_dev29 c, k0_dev29_lt c⟩ : Dev nD) = peer c ⟨28, by decide⟩ := Fin.ext (dev29_val c)
theorem dev30_val : ∀ c : Dev nD, k0_dev30 c = (c.val + 29 + 1) % 32 := by decide +kernel
theorem dev30_eq (c : Dev nD) : (⟨k0_dev30 c, k0_dev30_lt c⟩ : Dev nD) = peer c ⟨29, by decide⟩ := Fin.ext (dev30_val c)
theorem dev31_val : ∀ c : Dev nD, k0_dev31 c = (c.val + 30 + 1) % 32 := by decide +kernel
theorem dev31_eq (c : Dev nD) : (⟨k0_dev31 c, k0_dev31_lt c⟩ : Dev nD) = peer c ⟨30, by decide⟩ := Fin.ext (dev31_val c)
theorem dev32_val : ∀ c : Dev nD, k0_dev32 c = (c.val + 0 + 1) % 32 := by decide +kernel
theorem dev32_eq (c : Dev nD) : (⟨k0_dev32 c, k0_dev32_lt c⟩ : Dev nD) = peer c ⟨0, by decide⟩ := Fin.ext (dev32_val c)
theorem dev33_val : ∀ c : Dev nD, k0_dev33 c = (c.val + 1 + 1) % 32 := by decide +kernel
theorem dev33_eq (c : Dev nD) : (⟨k0_dev33 c, k0_dev33_lt c⟩ : Dev nD) = peer c ⟨1, by decide⟩ := Fin.ext (dev33_val c)
theorem dev34_val : ∀ c : Dev nD, k0_dev34 c = (c.val + 2 + 1) % 32 := by decide +kernel
theorem dev34_eq (c : Dev nD) : (⟨k0_dev34 c, k0_dev34_lt c⟩ : Dev nD) = peer c ⟨2, by decide⟩ := Fin.ext (dev34_val c)
theorem dev35_val : ∀ c : Dev nD, k0_dev35 c = (c.val + 3 + 1) % 32 := by decide +kernel
theorem dev35_eq (c : Dev nD) : (⟨k0_dev35 c, k0_dev35_lt c⟩ : Dev nD) = peer c ⟨3, by decide⟩ := Fin.ext (dev35_val c)
theorem dev36_val : ∀ c : Dev nD, k0_dev36 c = (c.val + 4 + 1) % 32 := by decide +kernel
theorem dev36_eq (c : Dev nD) : (⟨k0_dev36 c, k0_dev36_lt c⟩ : Dev nD) = peer c ⟨4, by decide⟩ := Fin.ext (dev36_val c)
theorem dev37_val : ∀ c : Dev nD, k0_dev37 c = (c.val + 5 + 1) % 32 := by decide +kernel
theorem dev37_eq (c : Dev nD) : (⟨k0_dev37 c, k0_dev37_lt c⟩ : Dev nD) = peer c ⟨5, by decide⟩ := Fin.ext (dev37_val c)
theorem dev38_val : ∀ c : Dev nD, k0_dev38 c = (c.val + 6 + 1) % 32 := by decide +kernel
theorem dev38_eq (c : Dev nD) : (⟨k0_dev38 c, k0_dev38_lt c⟩ : Dev nD) = peer c ⟨6, by decide⟩ := Fin.ext (dev38_val c)
theorem dev39_val : ∀ c : Dev nD, k0_dev39 c = (c.val + 7 + 1) % 32 := by decide +kernel
theorem dev39_eq (c : Dev nD) : (⟨k0_dev39 c, k0_dev39_lt c⟩ : Dev nD) = peer c ⟨7, by decide⟩ := Fin.ext (dev39_val c)
theorem dev40_val : ∀ c : Dev nD, k0_dev40 c = (c.val + 8 + 1) % 32 := by decide +kernel
theorem dev40_eq (c : Dev nD) : (⟨k0_dev40 c, k0_dev40_lt c⟩ : Dev nD) = peer c ⟨8, by decide⟩ := Fin.ext (dev40_val c)
theorem dev41_val : ∀ c : Dev nD, k0_dev41 c = (c.val + 9 + 1) % 32 := by decide +kernel
theorem dev41_eq (c : Dev nD) : (⟨k0_dev41 c, k0_dev41_lt c⟩ : Dev nD) = peer c ⟨9, by decide⟩ := Fin.ext (dev41_val c)
theorem dev42_val : ∀ c : Dev nD, k0_dev42 c = (c.val + 10 + 1) % 32 := by decide +kernel
theorem dev42_eq (c : Dev nD) : (⟨k0_dev42 c, k0_dev42_lt c⟩ : Dev nD) = peer c ⟨10, by decide⟩ := Fin.ext (dev42_val c)
theorem dev43_val : ∀ c : Dev nD, k0_dev43 c = (c.val + 11 + 1) % 32 := by decide +kernel
theorem dev43_eq (c : Dev nD) : (⟨k0_dev43 c, k0_dev43_lt c⟩ : Dev nD) = peer c ⟨11, by decide⟩ := Fin.ext (dev43_val c)
theorem dev44_val : ∀ c : Dev nD, k0_dev44 c = (c.val + 12 + 1) % 32 := by decide +kernel
theorem dev44_eq (c : Dev nD) : (⟨k0_dev44 c, k0_dev44_lt c⟩ : Dev nD) = peer c ⟨12, by decide⟩ := Fin.ext (dev44_val c)
theorem dev45_val : ∀ c : Dev nD, k0_dev45 c = (c.val + 13 + 1) % 32 := by decide +kernel
theorem dev45_eq (c : Dev nD) : (⟨k0_dev45 c, k0_dev45_lt c⟩ : Dev nD) = peer c ⟨13, by decide⟩ := Fin.ext (dev45_val c)
theorem dev46_val : ∀ c : Dev nD, k0_dev46 c = (c.val + 14 + 1) % 32 := by decide +kernel
theorem dev46_eq (c : Dev nD) : (⟨k0_dev46 c, k0_dev46_lt c⟩ : Dev nD) = peer c ⟨14, by decide⟩ := Fin.ext (dev46_val c)
theorem dev47_val : ∀ c : Dev nD, k0_dev47 c = (c.val + 15 + 1) % 32 := by decide +kernel
theorem dev47_eq (c : Dev nD) : (⟨k0_dev47 c, k0_dev47_lt c⟩ : Dev nD) = peer c ⟨15, by decide⟩ := Fin.ext (dev47_val c)
theorem dev48_val : ∀ c : Dev nD, k0_dev48 c = (c.val + 16 + 1) % 32 := by decide +kernel
theorem dev48_eq (c : Dev nD) : (⟨k0_dev48 c, k0_dev48_lt c⟩ : Dev nD) = peer c ⟨16, by decide⟩ := Fin.ext (dev48_val c)
theorem dev49_val : ∀ c : Dev nD, k0_dev49 c = (c.val + 17 + 1) % 32 := by decide +kernel
theorem dev49_eq (c : Dev nD) : (⟨k0_dev49 c, k0_dev49_lt c⟩ : Dev nD) = peer c ⟨17, by decide⟩ := Fin.ext (dev49_val c)
theorem dev50_val : ∀ c : Dev nD, k0_dev50 c = (c.val + 18 + 1) % 32 := by decide +kernel
theorem dev50_eq (c : Dev nD) : (⟨k0_dev50 c, k0_dev50_lt c⟩ : Dev nD) = peer c ⟨18, by decide⟩ := Fin.ext (dev50_val c)
theorem dev51_val : ∀ c : Dev nD, k0_dev51 c = (c.val + 19 + 1) % 32 := by decide +kernel
theorem dev51_eq (c : Dev nD) : (⟨k0_dev51 c, k0_dev51_lt c⟩ : Dev nD) = peer c ⟨19, by decide⟩ := Fin.ext (dev51_val c)
theorem dev52_val : ∀ c : Dev nD, k0_dev52 c = (c.val + 20 + 1) % 32 := by decide +kernel
theorem dev52_eq (c : Dev nD) : (⟨k0_dev52 c, k0_dev52_lt c⟩ : Dev nD) = peer c ⟨20, by decide⟩ := Fin.ext (dev52_val c)
theorem dev53_val : ∀ c : Dev nD, k0_dev53 c = (c.val + 21 + 1) % 32 := by decide +kernel
theorem dev53_eq (c : Dev nD) : (⟨k0_dev53 c, k0_dev53_lt c⟩ : Dev nD) = peer c ⟨21, by decide⟩ := Fin.ext (dev53_val c)
theorem dev54_val : ∀ c : Dev nD, k0_dev54 c = (c.val + 22 + 1) % 32 := by decide +kernel
theorem dev54_eq (c : Dev nD) : (⟨k0_dev54 c, k0_dev54_lt c⟩ : Dev nD) = peer c ⟨22, by decide⟩ := Fin.ext (dev54_val c)
theorem dev55_val : ∀ c : Dev nD, k0_dev55 c = (c.val + 23 + 1) % 32 := by decide +kernel
theorem dev55_eq (c : Dev nD) : (⟨k0_dev55 c, k0_dev55_lt c⟩ : Dev nD) = peer c ⟨23, by decide⟩ := Fin.ext (dev55_val c)
theorem dev56_val : ∀ c : Dev nD, k0_dev56 c = (c.val + 24 + 1) % 32 := by decide +kernel
theorem dev56_eq (c : Dev nD) : (⟨k0_dev56 c, k0_dev56_lt c⟩ : Dev nD) = peer c ⟨24, by decide⟩ := Fin.ext (dev56_val c)
theorem dev57_val : ∀ c : Dev nD, k0_dev57 c = (c.val + 25 + 1) % 32 := by decide +kernel
theorem dev57_eq (c : Dev nD) : (⟨k0_dev57 c, k0_dev57_lt c⟩ : Dev nD) = peer c ⟨25, by decide⟩ := Fin.ext (dev57_val c)
theorem dev58_val : ∀ c : Dev nD, k0_dev58 c = (c.val + 26 + 1) % 32 := by decide +kernel
theorem dev58_eq (c : Dev nD) : (⟨k0_dev58 c, k0_dev58_lt c⟩ : Dev nD) = peer c ⟨26, by decide⟩ := Fin.ext (dev58_val c)
theorem dev59_val : ∀ c : Dev nD, k0_dev59 c = (c.val + 27 + 1) % 32 := by decide +kernel
theorem dev59_eq (c : Dev nD) : (⟨k0_dev59 c, k0_dev59_lt c⟩ : Dev nD) = peer c ⟨27, by decide⟩ := Fin.ext (dev59_val c)
theorem dev60_val : ∀ c : Dev nD, k0_dev60 c = (c.val + 28 + 1) % 32 := by decide +kernel
theorem dev60_eq (c : Dev nD) : (⟨k0_dev60 c, k0_dev60_lt c⟩ : Dev nD) = peer c ⟨28, by decide⟩ := Fin.ext (dev60_val c)
theorem dev61_val : ∀ c : Dev nD, k0_dev61 c = (c.val + 29 + 1) % 32 := by decide +kernel
theorem dev61_eq (c : Dev nD) : (⟨k0_dev61 c, k0_dev61_lt c⟩ : Dev nD) = peer c ⟨29, by decide⟩ := Fin.ext (dev61_val c)
theorem dev62_val : ∀ c : Dev nD, k0_dev62 c = (c.val + 30 + 1) % 32 := by decide +kernel
theorem dev62_eq (c : Dev nD) : (⟨k0_dev62 c, k0_dev62_lt c⟩ : Dev nD) = peer c ⟨30, by decide⟩ := Fin.ext (dev62_val c)

end Cert.Kernel.Hand
-- ==== Proof.Kernel.Cells.lean ====
/-
  The all-to-all maximum on 32 devices: the names its proof is written over.
  Every device `c` holds its row-maximum `accV c` (a 1×256 row) in its accumulator, tells each of the 31 other devices
  — through their barrier cell — that its landing slots exist, waits to be told so by all 31, copies the accumulator into
  slot `j` of device `peer c j`, waits for its own 31 slots to be filled (slot `j` by device `srcOf c j`), and takes the
  maximum of its accumulator and the 31 slots.
  Cells (semaphores seen through rounds): a device's barrier cell has the 31 duties `d : Fin 31` of one unit each, duty `d`
  paid by `peer c d` and handing over that device's slot `d`; its `j`-th send cell and `j`-th receive cell have one duty
  each, of the row's transfer credit, handing back a share of the accumulator and the filled slot.
-/
import proofs.«900925_g7700000000000926_dist_max_ax0_shard0_i_m512_n256_v7x_i32_f32_1_alg».proof.Proof.Kernel.DevTable
import proofs.«900925_g7700000000000926_dist_max_ax0_shard0_i_m512_n256_v7x_i32_f32_1_alg».proof.Proof.Gen.Kernel.Skeleton
import proofs.«900925_g7700000000000926_dist_max_ax0_shard0_i_m512_n256_v7x_i32_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, semaphores, cells -/

abbrev xM : Memref sig .tc .vmem S512x256 .f32 := Memref.whole cc0_stg0_0
abbrev oM : Memref sig .tc .vmem S1x256 .f32 := Memref.whole cc0_stg1_0
/-- the accumulator (the row-maximum of the device's block) -/
abbrev aM : Memref sig .tc .vmem S1x256 .f32 := Memref.whole cc0_scratch0
/-- the 31 landing slots -/
abbrev cM : Memref sig .tc .vmem S31x1x256 .f32 := Memref.whole cc0_scratch1

theorem slot_inb (j : Fin 31) : ∀ a, (![j.val, 0, 0] : Fin 3 → Nat) a + S1x1x256.size a ≤ S31x1x256.size a := by
  intro a; have := j.isLt; fin_cases a <;> simp [Shape.size] <;> try omega
theorem sem_inb (j : Fin 31) : ∀ a, (![j.val] : Fin 1 → Nat) a + S1.size a ≤ S31.size a := by
  intro a; have := j.isLt; fin_cases a <;> simp [Shape.size] <;> try omega

/-- Landing slot `j`, as the body names it: row `j` of the slots' buffer as a 1×256 memref. -/
abbrev slotM (j : Fin 31) : Memref sig .tc .vmem S1x256 .f32 :=
  ((cM : Memref sig .tc .vmem S31x1x256 .f32).slice (Rect.unit (s := S31x1x256) ![j.val, 0, 0] S1x1x256.size (slot_inb j)) (fun _ => rfl)).squeeze S1x256 squeezes_S1x1x256_S1x256

abbrev barS : Sem sig := (SemArray.scalar (sig.barrier 0 rfl) : Sems sig S_).sem
abbrev sendS (j : Fin 31) : DmaSem sig := ((cc0_scratch2.slice (Rect.unit (s := S31) ![j.val] S1.size (sem_inb j))).squeeze S_ squeezes_S1_S_).sem
abbrev recvS (j : Fin 31) : DmaSem sig := ((cc0_scratch3.slice (Rect.unit (s := S31) ![j.val] S1.size (sem_inb j))).squeeze S_ squeezes_S1_S_).sem

abbrev barCell (c : Dev nD) : GSem nD τ sig := ((c : Thread nD τ), .reg barS)
abbrev sendCell (c : Dev nD) (j : Fin 31) : GSem nD τ sig := ((c : Thread nD τ), .dma (sendS j))
abbrev recvCell (c : Dev nD) (j : Fin 31) : GSem nD τ sig := ((c : Thread nD τ), .dma (recvS j))

/-- The transfer credit of one 1×256 row. -/
abbrev N : ℕ := (aM : Memref sig .tc .vmem S1x256 .f32).view.dmaCredit
theorem N_pos : 0 < N := View.dmaCredit_pos _ (by decide)

/-- Which slot a DMA semaphore serves: `(false, j)` the `j`-th send semaphore, `(true, j)` the `j`-th receive semaphore. -/
def slotOf (q : DmaSem sig) : Option (Bool × Fin 31) :=
  if h : 2 ≤ q.val ∧ q.val < 33 then some (false, ⟨q.val - 2, by omega⟩)
  else if h' : 33 ≤ q.val ∧ q.val < 64 then some (true, ⟨q.val - 33, by omega⟩) else none

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s row-maximum: what its accumulator holds from the first store on. -/
def accV (c : Dev nD) : (cc0_scratch0 : Ref sig .tc).ty.Contents (Elt F) := k0_pay1 (xstg m ρ c)

/-- What device `c`'s 31 slots hold once all have landed: slot `j` the row-maximum of `srcOf c j`. -/
def commV (c : Dev nD) : (cc0_scratch1 : Ref sig .tc).ty.Contents (Elt F) :=
  fun i => accV m ρ (srcOf c (i 0)) (ValueIdx.ix2 (0 : Fin 1) (i 2))

/-- The kernel's result on device `c`. -/
def outAt (c : Dev nD) : (cc0_stg1_0 : Ref sig .tc).ty.Contents (Elt F) := k0_pay2 (accV m ρ c) (commV m ρ c)

/-! ## Points-tos -/

/-- slot `j` of device `c` at contents `f` (a valuation of the whole slots' buffer, read on the slot's elements only) -/
def slotPts (c : Dev nD) (j : Fin 31) (f : Buf (Elt F) ((slotM j).view.loc (c : Thread nD τ))) : sProp 𝕄 :=
  (slotM j).view.loc (c : Thread nD τ) ↦[(slotM j).view.set]{fullShare} f
/-- the accumulator of device `c` holding its row-maximum, at share `q` -/
def accPts (c : Dev nD) (q : PosShare TreeShare) : sProp 𝕄 :=
  (aM : Memref sig .tc .vmem S1x256 .f32).view.loc (c : Thread nD τ) ↦[(aM : Memref sig .tc .vmem S1x256 .f32).view.set]{q} accV m ρ c
/-- the share of the accumulator lent to the `j`-th copy -/
abbrev accShare (j : Fin 31) : PosShare TreeShare := Transfers.shareTok fullShare 31 j
/-- the share of the accumulator the device keeps while its 31 copies read it -/
abbrev accKeep : PosShare TreeShare := Transfers.shareDrop fullShare 31

/-! ## The schedule -/

/-- Duty `d` of `c`'s barrier cell, paid by `peer c d`: that device's slot `d` (at any contents) and that it has reached
    round 0 of its `d`-th receive cell — what `c`'s `d`-th copy needs. -/
def barPay (c : Dev nD) (d : Fin 31) : sProp 𝕄 :=
  iprop((∃ f, slotPts (F := F) (peer c d) d f) ∗ reached ER (recvCell (peer c d) d) 0)
/-- What the landing in slot `j` hands `c`: the slot holding `srcOf c j`'s row-maximum. -/
def recvPay (c : Dev nD) (j : Fin 31) : sProp 𝕄 := slotPts c j (commV m ρ c)
/-- What the `j`-th copy's departure hands back: its share of the accumulator. -/
def sendPay (c : Dev nD) (j : Fin 31) : sProp 𝕄 := accPts m ρ c (accShare j)

/-- One round, round 0: a barrier cell has the 31 duties of one unit each; a send or receive cell one duty (named 0) of a
    row's credit. -/
def Rd : Rounds.Schedule (GSem nD τ sig) (Fin 31) 𝕄 where
  duties g r :=
    if r = 0 ∧ g.1.2 = .tc then
      (match g.2 with
       | .reg s => if s = barS then Finset.univ else ∅
       | .dma q => if (slotOf q).isSome then {0} else ∅)
    else ∅
  unitless _ := False
  amount g _ _ := match g.2 with | .reg _ => 1 | .dma _ => N
  payload g _ d := match g.2 with
    | .reg _ => barPay g.1.1 d
    | .dma q => match slotOf q with
      | some (false, j) => sendPay m ρ g.1.1 j
      | some (true, j) => recvPay m ρ g.1.1 j
      | none => iprop(emp)
  amount_pos g _ _ _ := by
    cases g.2 with
    | reg _ => exact Nat.one_pos
    | dma _ => exact N_pos

/-! ## What each device owes at launch, and the levels -/

/-- After its first `k` signals device `c` still owes the barrier cells of its peers `k … 30` one unit each, -/
def owedBar (c : Dev nD) (k : ℕ) : CellTallies nD τ sig Unit :=
  ((Finset.univ.filter fun j : Fin 31 => k ≤ j.val).sum fun j => tallyAt (barCell (peer c j)) () 1)
/-- and after its first `k` copies the receive cells `k … 30` of the peers a row's credit each. -/
def owedRecv (c : Dev nD) (k : ℕ) : CellTallies nD τ sig Unit :=
  ((Finset.univ.filter fun j : Fin 31 => k ≤ j.val).sum fun j => tallyAt (recvCell (peer c j) j) () N)
def O₀ (c : Dev nD) : CellTallies nD τ sig Unit := owedRecv c 0 + owedBar c 0

def L (g : GSem nD τ sig) : Finset Unit := if g.1.2 = .tc then {()} else ∅
/-- barrier cells at 1, receive cells at 2, everything else (staging, send) at 0. -/
def lv (g : GSem nD τ sig) (_ : Unit) : ℕ :=
  match g.2 with
  | .reg s => if s = barS then 1 else 0
  | .dma q => match slotOf q with | some (true, _) => 2 | _ => 0

end Cert.Kernel.Hand

end
-- ==== Proof.Kernel.Data.lean ====
/-
  The ghost state of the all-to-all maximum and the pipeline's proof data for its one grid point.
  Every device is given ALL the cells' invariants and that every cell has reached round 0 (persistent facts), its own
  positions in its 63 cells, and the tokens of the 93 duties it pays: one duty of each peer's barrier cell, its own 31
  send duties, and the receive duty of slot `j` of its `j`-th peer.
-/
import proofs.«900925_g7700000000000926_dist_max_ax0_shard0_i_m512_n256_v7x_i32_f32_1_alg».proof.Proof.Kernel.Cells

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state -/

/-- The invariants of all cells under the names they were allocated at, and that each has reached round 0. -/
def records (Kb : Dev nD → ℕ) (Ks Kr : Dev nD × Fin 31 → ℕ) : sProp 𝕄 :=
  iprop((bigSep Finset.univ fun c : Dev nD => cellInv ER (Rd m ρ) (Kb c) (barCell c))
    ∗ (bigSep Finset.univ fun cj : Dev nD × Fin 31 => cellInv ER (Rd m ρ) (Ks cj) (sendCell cj.1 cj.2))
    ∗ (bigSep Finset.univ fun cj : Dev nD × Fin 31 => cellInv ER (Rd m ρ) (Kr cj) (recvCell cj.1 cj.2))
    ∗ (bigSep Finset.univ fun c : Dev nD => reached ER (barCell c) 0)
    ∗ (bigSep Finset.univ fun cj : Dev nD × Fin 31 => reached ER (sendCell cj.1 cj.2) 0)
    ∗ (bigSep Finset.univ fun cj : Dev nD × Fin 31 => reached ER (recvCell cj.1 cj.2) 0))

instance records_persistent (Kb : Dev nD → ℕ) (Ks Kr : Dev nD × Fin 31 → ℕ) : BI.Persistent (records m ρ Kb Ks Kr) := by
  unfold records; infer_instance

/-- The duty tokens device `c` pays with: duty `back j` of its `j`-th peer's barrier cell, its own `j`-th send duty, the
    receive duty of slot `j` of its `j`-th peer. -/
def payToks (c : Dev nD) : sProp 𝕄 :=
  iprop((bigSep Finset.univ fun j : Fin 31 => dutyTok ER (barCell (peer c j)) 0 (back j))
    ∗ (bigSep Finset.univ fun j : Fin 31 => dutyTok ER (sendCell c j) 0 (0 : Fin 31))
    ∗ (bigSep Finset.univ fun j : Fin 31 => dutyTok ER (recvCell (peer c j) j) 0 (0 : Fin 31)))

/-- Device `c`'s positions: round 0, nothing taken, of its barrier cell and its 31 + 31 transfer cells. -/
def positions (c : Dev nD) : sProp 𝕄 :=
  iprop(atPos ER (barCell c) 0 ∅ 0
    ∗ (bigSep Finset.univ fun j : Fin 31 => atPos ER (sendCell c j) 0 ∅ 0)
    ∗ (bigSep Finset.univ fun j : Fin 31 => atPos ER (recvCell c j) 0 ∅ 0))

def ghost (Kb : Dev nD → ℕ) (Ks Kr : Dev nD × Fin 31 → ℕ) (c : Dev nD) : sProp 𝕄 :=
  iprop(records m ρ Kb Ks Kr ∗ positions c ∗ payToks c)

/-- The credit device `c` is launched with: the 31 units of its barrier cell and a row's credit on each receive cell. -/
def creds (c : Dev nD) : sProp 𝕄 :=
  iprop(cred (tallyAt (barCell c) () 31) ∗ bigSep Finset.univ fun j : Fin 31 => cred (tallyAt (recvCell c j) () N))

/-- What device `c`'s body starts from, beside its buffers. -/
def start (c : Dev nD) : sProp 𝕄 :=
  iprop((∃ Kb Ks Kr, ghost m ρ Kb Ks Kr c) ∗ creds c ∗ levAts L lv)

abbrev accBuf (c : Dev nD) (f : Buf (Elt F) ((c : Thread nD τ).loc cc0_scratch0)) : sProp 𝕄 := ((c : Thread nD τ).loc cc0_scratch0) ↦{fullShare} f
abbrev commBuf (c : Dev nD) (f : Buf (Elt F) ((c : Thread nD τ).loc cc0_scratch1)) : sProp 𝕄 := ((c : Thread nD τ).loc cc0_scratch1) ↦{fullShare} f

def Φ₀ (c : Dev nD) : sProp 𝕄 := iprop(start m ρ c ∗ (∃ f, accBuf c f) ∗ (∃ f, commBuf c f))
/-- After the point: the accumulator at the row-maximum, the slots at the peers' row-maxima, the 62 own cells at zero. -/
def Φ₁ (c : Dev nD) : sProp 𝕄 :=
  iprop(accBuf c (accV m ρ c) ∗ commBuf c (commV m ρ c)
    ∗ (bigSep Finset.univ fun j : Fin 31 => semVal (sendCell c j) 0) ∗ (bigSep Finset.univ fun j : Fin 31 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- The kernel's own (scoped) semaphores as the launch theorem indexes them: the 31 send, then the 31 receive semaphores. -/
abbrev osem : Fin 62 → SemLoc sig := fun i =>
  if h : i.val < 31 then .dma (sendS ⟨i.val, h⟩) else .dma (recvS ⟨i.val - 31, by have := i.isLt; omega⟩)

end Cert.Kernel.Hand

end
-- ==== Proof.Kernel.Tables.lean ====
/-
  The schedule of the all-to-all maximum read cell by cell: which duties each cell has at round 0, their amounts and payloads.
-/
import proofs.«900925_g7700000000000926_dist_max_ax0_shard0_i_m512_n256_v7x_i32_f32_1_alg».proof.Proof.Kernel.Cells

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot a semaphore serves -/

/-- The `j`-th send semaphore is semaphore `2 + j`, -/
theorem sendS_val (j : Fin 31) : (sendS j).val = 2 + j.val := by revert j; decide
/-- and the `j`-th receive semaphore is semaphore `33 + j`. -/
theorem recvS_val (j : Fin 31) : (recvS j).val = 33 + j.val := by revert j; decide

theorem slotOf_send (j : Fin 31) : slotOf (sendS j) = some (false, j) := by
  have hv := sendS_val j; have hj := j.isLt
  unfold slotOf
  rw [dif_pos (by omega)]
  exact congrArg some (Prod.ext rfl (Fin.ext (by show (sendS j).val - 2 = j.val; omega)))
theorem slotOf_recv (j : Fin 31) : slotOf (recvS j) = some (true, j) := by
  have hv := recvS_val j; have hj := j.isLt
  unfold slotOf
  rw [dif_neg (by omega), dif_pos (by omega)]
  exact congrArg some (Prod.ext rfl (Fin.ext (by show (recvS j).val - 33 = j.val; omega)))
theorem sendS_injective : Function.Injective sendS := by
  intro j j' h
  have := congrArg Fin.val h
  rw [sendS_val, sendS_val] at this
  exact Fin.ext (by omega)
theorem recvS_injective : Function.Injective recvS := by
  intro j j' h
  have := congrArg Fin.val h
  rw [recvS_val, recvS_val] at this
  exact Fin.ext (by omega)
theorem send_ne_recv (j j' : Fin 31) : (SemLoc.dma (sendS j) : SemLoc sig) ≠ .dma (recvS j') := by
  intro h
  have h' : sendS j = recvS j' := by injection h
  have := congrArg Fin.val h'
  rw [sendS_val, recvS_val] at this
  have := j.isLt; omega
theorem send_ne_bar (j : Fin 31) : (SemLoc.dma (sendS j) : SemLoc sig) ≠ .reg barS := fun h => by cases h
theorem recv_ne_bar (j : Fin 31) : (SemLoc.dma (recvS j) : SemLoc sig) ≠ .reg barS := fun h => by cases h

instance Rd_payload_storable (g : GSem nD τ sig) (r : ℕ) (d : Fin 31) :
    BI.Storable (upEmb : UEmb _ 𝕄) ((Rd (F := F) m ρ).payload g r d) := by
  obtain ⟨t, s⟩ := g
  cases s with
  | reg s => show BI.Storable upEmb (barPay t.1 d); unfold barPay slotPts; infer_instance
  | dma q =>
    show BI.Storable upEmb (match slotOf q with
      | some (false, j) => sendPay m ρ t.1 j
      | some (true, j) => recvPay m ρ t.1 j
      | none => iprop(emp))
    unfold sendPay recvPay accPts slotPts
    split <;> infer_instance

section Sched
variable (c : Dev nD) (j : Fin 31)

theorem duties_bar : (Rd (F := F) m ρ).duties (barCell c) 0 = Finset.univ := by
  show (if (0 : ℕ) = 0 ∧ ((c : Thread nD τ)).2 = .tc then (if barS = barS then (Finset.univ : Finset (Fin 31)) else ∅) else ∅) = Finset.univ
  rw [if_pos ⟨rfl, rfl⟩, if_pos rfl]
theorem duties_send : (Rd (F := F) m ρ).duties (sendCell c j) 0 = {0} := by
  show (if (0 : ℕ) = 0 ∧ ((c : Thread nD τ)).2 = .tc then (if (slotOf (sendS j)).isSome then ({0} : Finset (Fin 31)) else ∅) else ∅) = {0}
  rw [if_pos ⟨rfl, rfl⟩, slotOf_send]; exact if_pos rfl
theorem duties_recv : (Rd (F := F) m ρ).duties (recvCell c j) 0 = {0} := by
  show (if (0 : ℕ) = 0 ∧ ((c : Thread nD τ)).2 = .tc then (if (slotOf (recvS j)).isSome then ({0} : Finset (Fin 31)) else ∅) else ∅) = {0}
  rw [if_pos ⟨rfl, rfl⟩, slotOf_recv]; exact if_pos rfl
theorem duties_later (g : GSem nD τ sig) : ∀ r, 1 ≤ r → (Rd (F := F) m ρ).duties g r = ∅ :=
  fun r hr => by dsimp only [Rd]; rw [if_neg fun h => by omega]

theorem amount_bar (d : Fin 31) : (Rd (F := F) m ρ).amount (barCell c) 0 d = 1 := rfl
theorem amount_send (d : Fin 31) : (Rd (F := F) m ρ).amount (sendCell c j) 0 d = N := rfl
theorem amount_recv (d : Fin 31) : (Rd (F := F) m ρ).amount (recvCell c j) 0 d = N := rfl

theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : Fin 31) : (Rd (F := F) m ρ).payload (barCell c) 0 d = barPay c d := rfl
theorem payload_send (d : Fin 31) : (Rd (F := F) m ρ).payload (sendCell c j) 0 d = sendPay m ρ c j := by
  show (match slotOf (sendS j) with
      | some (false, j) => sendPay m ρ c j
      | some (true, j) => recvPay m ρ c j
      | none => iprop(emp)) = sendPay m ρ c j
  rw [slotOf_send]
theorem payload_recv (d : Fin 31) : (Rd (F := F) m ρ).payload (recvCell c j) 0 d = recvPay m ρ c j := by
  show (match slotOf (recvS j) with
      | some (false, j) => sendPay m ρ c j
      | some (true, j) => recvPay m ρ c j
      | none => iprop(emp)) = recvPay m ρ c j
  rw [slotOf_recv]

/-- The rest of a barrier cell's round with no duty taken: all 31 peers' slots. -/
theorem rest_bar : bigSep ((Rd (F := F) m ρ).duties (barCell c) 0 \ ∅) (fun d => (Rd (F := F) m ρ).payload (barCell c) 0 d)
    = bigSep Finset.univ (fun d : Fin 31 => barPay (F := F) c d) := by
  rw [Finset.sdiff_empty, duties_bar]
  exact bigSep_congr fun d _ => payload_bar m ρ c d
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

end Sched

end Cert.Kernel.Hand

end
-- ==== Proof.Kernel.Slots.lean ====
/-
  The slots' buffer by slots and the accumulator by shares: splitting and joining the two scratch buffers of a device, and
  what a landed row makes of a slot.
-/
import proofs.«900925_g7700000000000926_dist_max_ax0_shard0_i_m512_n256_v7x_i32_f32_1_alg».proof.Proof.Kernel.Cells
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A slot's view lives in the slots' buffer. -/
theorem slot_loc (c : Dev nD) (j : Fin 31) : (slotM j).view.loc (c : Thread nD τ) = (c : Thread nD τ).loc cc0_scratch1 := rfl

/-- The elements of slot `j` are the unit-stride rectangle of row `j` of the slots' buffer (a squeeze keeps the elements). -/
theorem slot_set (j : Fin 31) :
    ((slotM j).view.set : Finset S31x1x256.Idx) = (Rect.unit (s := S31x1x256) ![j.val, 0, 0] S1x1x256.size (slot_inb j)).set := by
  exact (View.set_reshape _ _).trans (View.set_slice_whole cc0_scratch1 _)

/-- An element of the slots' buffer lies in slot `j` exactly when its first coordinate is `j`. -/
theorem mem_slot_set (j : Fin 31) (i : S31x1x256.Idx) :
    i ∈ ((slotM j).view.set : Finset S31x1x256.Idx) ↔ (i 0).val = j.val := by
  rw [slot_set, Rect.mem_set_unit]
  constructor
  · intro h
    have h0 : j.val ≤ (i 0).val ∧ (i 0).val < j.val + 1 := h 0
    omega
  · intro h a
    fin_cases a
    · show j.val ≤ (i 0).val ∧ (i 0).val < j.val + 1
      omega
    · have h1 : (i 1).val < 1 := (i 1).isLt
      show 0 ≤ (i 1).val ∧ (i 1).val < 0 + 1
      omega
    · have h2 : (i 2).val < 256 := (i 2).isLt
      show 0 ≤ (i 2).val ∧ (i 2).val < 0 + 256
      omega

/-- Different slots share no element. -/
theorem slot_disjoint (j j' : Fin 31) (h : j ≠ j') :
    Disjoint ((slotM j).view.set : Finset S31x1x256.Idx) ((slotM j').view.set : Finset S31x1x256.Idx) := by
  rw [Finset.disjoint_left]
  intro i hi hi'
  rw [mem_slot_set] at hi hi'
  exact h (Fin.ext (hi.symm.trans hi'))

/-- Every element of the slots' buffer lies in a slot: the one its first coordinate names. -/
theorem slot_cover : (Finset.univ : Finset S31x1x256.Idx)
    = Finset.univ.biUnion (fun j : Fin 31 => ((slotM j).view.set : Finset S31x1x256.Idx)) := by
  ext i
  simp only [Finset.mem_univ, Finset.mem_biUnion, true_and, true_iff]
  exact ⟨⟨(i 0).val, (i 0).isLt⟩, (mem_slot_set _ i).mpr rfl⟩

/-- The slots' buffer at full share is its 31 slots (their element sets tile the buffer). -/
theorem comm_split (c : Dev nD) (f : Buf (Elt F) ((c : Thread nD τ).loc cc0_scratch1)) :
    ((((c : Thread nD τ).loc cc0_scratch1) ↦{fullShare} f) : sProp 𝕄) ⊣⊢ bigSep Finset.univ (fun j : Fin 31 => slotPts (F := F) c j f) := by
  have hb : ((((c : Thread nD τ).loc cc0_scratch1)
        ↦[Finset.univ.biUnion (fun j : Fin 31 => ((slotM j).view.set : Finset S31x1x256.Idx))]{fullShare} f) : sProp 𝕄)
      = bigSep Finset.univ (fun j : Fin 31 => (((c : Thread nD τ).loc cc0_scratch1) ↦[((slotM j).view.set : Finset S31x1x256.Idx)]{fullShare} f)) :=
    pointsTo_biUnion Finset.univ _ (fun j _ j' _ h => slot_disjoint j j' h)
  rw [← slot_cover] at hb
  exact ⟨Entails.of_eq hb, Entails.of_eq hb.symm⟩

/-- Row-major matching of a `1×256` index with the `1×1×256` shape keeps the column. -/
theorem squeeze_col (h : S1x256.numel = S1x1x256.numel) (y : S1x256.Idx) :
    ((Shape.reshapeEquiv h y) 2).val = (y 1).val := by
  have e := Shape.rowMajor_reshapeEquiv h y
  rw [Shape.rowMajor_val_three, Shape.rowMajor_val_two] at e
  have h0 : ((Shape.reshapeEquiv h y) 0).val < 1 := (Shape.reshapeEquiv h y 0).isLt
  have h1 : ((Shape.reshapeEquiv h y) 1).val < 1 := (Shape.reshapeEquiv h y 1).isLt
  have h2 : (y 0).val < 1 := (y 0).isLt
  have e' : (((Shape.reshapeEquiv h y) 0).val * 1 + ((Shape.reshapeEquiv h y) 1).val) * 256 + ((Shape.reshapeEquiv h y) 2).val
      = (y 0).val * 256 + (y 1).val := e
  omega

/-- Index `y` of slot `j` sits in row `j` of the slots' buffer. -/
theorem slot_emb_row (j : Fin 31) (y : S1x256.Idx) : (((slotM j).view.emb y : S31x1x256.Idx) 0).val = j.val :=
  (mem_slot_set j _).mp ((slotM j).view.emb_mem_set y)

/-- Index `y` of slot `j` sits at column `y 1` of the slots' buffer. -/
theorem slot_emb_col (j : Fin 31) (y : S1x256.Idx) : (((slotM j).view.emb y : S31x1x256.Idx) 2).val = (y 1).val := by
  show (0 + 1 * ((Shape.reshapeEquiv squeezes_S1x1x256_S1x256.numel_eq y) 2).val) = (y 1).val
  rw [squeeze_col]; omega

omit [FloatOps F] in
/-- A row `g` written through slot `j` is read back, at the element under the slot's index `y`, as `g y`. -/
theorem slot_write_emb (j : Fin 31) (fd : (slotM j).view.ty.Contents (Elt F)) (g : (cc0_scratch0 : Ref sig .tc).ty.Contents (Elt F))
    (y : S1x256.Idx) :
    (slotM j).view.write (Elt F) fd ((aM : Memref sig .tc .vmem S1x256 .f32).view.read (Elt F) g) Finset.univ ((slotM j).view.emb y) = g y := by
  rw [View.write_emb_of_mem _ _ (Finset.mem_univ y)]
  rfl

/-- A row-maximum copied into slot `j` of `c`, whatever the buffer held: on the slot's elements the buffer now reads as `commV c`
    if the row came from `srcOf c j`. -/
theorem slot_landed (c : Dev nD) (j : Fin 31) (fd : Buf (Elt F) ((slotM j).view.loc (c : Thread nD τ))) :
    slotPts c j ((slotM j).view.write (Elt F) fd ((aM : Memref sig .tc .vmem S1x256 .f32).view.read (Elt F) (accV m ρ (srcOf c j))) Finset.univ)
      = slotPts c j (commV m ρ c) := by
  unfold slotPts
  refine pointsTo_congr fun i hi => ?_
  obtain ⟨y, rfl⟩ := View.exists_emb_of_mem_set _ hi
  refine (slot_write_emb j fd _ y).trans ?_
  have hrow : ((slotM j).view.emb y : S31x1x256.Idx) 0 = j := Fin.ext (slot_emb_row j y)
  have hcol : (((slotM j).view.emb y : S31x1x256.Idx) 2 : Fin 256) = (y 1 : Fin 256) := Fin.ext (slot_emb_col j y)
  have hy : ValueIdx.ix2 (n0 := 1) (n1 := 256) (0 : Fin 1) (y 1) = y := by
    refine (ValueIdx.eq_ix2 y).symm ▸ ?_
    congr 1; exact Subsingleton.elim _ _
  show _ = accV m ρ (srcOf c (((slotM j).view.emb y : S31x1x256.Idx) 0)) (ValueIdx.ix2 (0 : Fin 1) (((slotM j).view.emb y : S31x1x256.Idx) 2))
  rw [hrow, hcol, hy]

/-- A slot's transfer credit is a row's. -/
theorem slot_credit (j : Fin 31) : (slotM j).view.dmaCredit = N := rfl

/-- The accumulator whole is the kept share and the 31 lent shares. -/
theorem acc_split (c : Dev nD) :
    ((((c : Thread nD τ).loc cc0_scratch0) ↦{fullShare} accV m ρ c) : sProp 𝕄)
      ⊣⊢ iprop(accPts m ρ c accKeep ∗ bigSep Finset.univ (fun j : Fin 31 => accPts m ρ c (accShare j))) := by
  have hs : (aM : Memref sig .tc .vmem S1x256 .f32).view.set = Finset.univ := View.set_whole _
  unfold accPts
  rw [hs]
  exact Transfers.pointsTo_toks fullShare 31

/-! ## Whole-buffer reads and writes of the body's loads and stores -/

abbrev rX : Rect S512x256 := Rect.unit (s := S512x256) ![0, 0] S512x256.size inb_S512x256_S512x256_0_0
abbrev rA : Rect S1x256 := Rect.unit (s := S1x256) ![0, 0] S1x256.size inb_S1x256_S1x256_0_0
abbrev rC : Rect S31x1x256 := Rect.unit (s := S31x1x256) ![0, 0, 0] S31x1x256.size inb_S31x1x256_S31x1x256_0_0_0

theorem zero2 : (![0, 0] : Fin 2 → Nat) = fun _ => 0 := funext fun a => by fin_cases a <;> rfl
theorem zero3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 zero2 _ f
omit [FloatOps F] in
theorem read_acc (f : (cc0_scratch0 : Ref sig .tc).ty.Contents (Elt F)) : (aM : Memref sig .tc .vmem S1x256 .f32).view.readAt (Elt F) rA.toLoadRect f = f :=
  Memref.readAt_unit_zero (Elt F) cc0_scratch0 zero2 _ f
omit [FloatOps F] in
theorem read_comm (f : (cc0_scratch1 : Ref sig .tc).ty.Contents (Elt F)) : (cM : Memref sig .tc .vmem S31x1x256 .f32).view.readAt (Elt F) rC.toLoadRect f = f :=
  Memref.readAt_unit_zero (Elt F) cc0_scratch1 zero3 _ f
omit [FloatOps F] in
theorem read_out (f : (cc0_stg1_0 : Ref sig .tc).ty.Contents (Elt F)) : (oM : Memref sig .tc .vmem S1x256 .f32).view.readAt (Elt F) rA.toLoadRect f = f :=
  Memref.readAt_unit_zero (Elt F) cc0_stg1_0 zero2 _ f
omit [FloatOps F] in
theorem write_acc (f w : (cc0_scratch0 : Ref sig .tc).ty.Contents (Elt F)) :
    ((aM : Memref sig .tc .vmem S1x256 .f32).access rA : View sig .tc _ _ _).write (Elt F) f w Finset.univ = w :=
  Memref.write_access_unit_zero_univ (Elt F) cc0_scratch0 zero2 _ f w
omit [FloatOps F] in
theorem write_out (f w : (cc0_stg1_0 : Ref sig .tc).ty.Contents (Elt F)) :
    ((oM : Memref sig .tc .vmem S1x256 .f32).access rA : View sig .tc _ _ _).write (Elt F) f w Finset.univ = w :=
  Memref.write_access_unit_zero_univ (Elt F) cc0_stg1_0 zero2 _ f w

/-- info: 'Cert.Kernel.Hand.comm_split' depends on axioms: [propext, Classical.choice, Quot.sound] -/
#guard_msgs in #print axioms comm_split
/-- info: 'Cert.Kernel.Hand.slot_landed' depends on axioms: [propext, Classical.choice, Quot.sound] -/
#guard_msgs in #print axioms slot_landed
/-- info: 'Cert.Kernel.Hand.acc_split' depends on axioms: [propext, Classical.choice, Quot.sound] -/
#guard_msgs in #print axioms acc_split

end Cert.Kernel.Hand

end
-- ==== Proof.Kernel.Levels.lean ====
/-
  Why no wait of the all-to-all maximum can deadlock: barrier cells sit at level 1, receive cells at level 2, staging and send
  cells at level 0, and a device waits on a cell only while everything it still owes sits strictly higher. And the credit
  each device is launched with: what the others owe its cells.
-/
import proofs.«900925_g7700000000000926_dist_max_ax0_shard0_i_m512_n256_v7x_i32_f32_1_alg».proof.Proof.Kernel.Data
import proofs.«900925_g7700000000000926_dist_max_ax0_shard0_i_m512_n256_v7x_i32_f32_1_alg».proof.Proof.Kernel.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## What is owed, summand by summand -/

theorem owedBar_apply (c : Dev nD) (k : ℕ) (g : GSem nD τ sig) (u : Unit) :
    owedBar c k g u = ∑ j ∈ Finset.univ.filter (fun j : Fin 31 => k ≤ j.val), tallyAt (barCell (peer c j)) () 1 g u := by
  unfold owedBar; rw [Finset.sum_apply, Finsupp.finsetSum_apply]
theorem owedRecv_apply (c : Dev nD) (k : ℕ) (g : GSem nD τ sig) (u : Unit) :
    owedRecv c k g u = ∑ j ∈ Finset.univ.filter (fun j : Fin 31 => k ≤ j.val), tallyAt (recvCell (peer c j) j) () N g u := by
  unfold owedRecv; rw [Finset.sum_apply, Finsupp.finsetSum_apply]

/-- A barrier due is owed to a peer's barrier cell, -/
theorem owedBar_pos {c : Dev nD} {k : ℕ} {g : GSem nD τ sig} {u : Unit} (h : 0 < owedBar c k g u) : ∃ j : Fin 31, g = barCell (peer c j) := by
  rw [owedBar_apply] at h
  obtain ⟨j, _, hj⟩ := Finset.exists_ne_zero_of_sum_ne_zero (Nat.pos_iff_ne_zero.mp h)
  rw [tallyAt_apply] at hj
  by_cases hg : g = barCell (peer c j) ∧ u = ()
  · exact ⟨j, hg.1⟩
  · rw [if_neg hg] at hj; exact absurd rfl hj
/-- and a transfer due to slot `j`'s receive cell of the `j`-th peer. -/
theorem owedRecv_pos {c : Dev nD} {k : ℕ} {g : GSem nD τ sig} {u : Unit} (h : 0 < owedRecv c k g u) : ∃ j : Fin 31, g = recvCell (peer c j) j := by
  rw [owedRecv_apply] at h
  obtain ⟨j, _, hj⟩ := Finset.exists_ne_zero_of_sum_ne_zero (Nat.pos_iff_ne_zero.mp h)
  rw [tallyAt_apply] at hj
  by_cases hg : g = recvCell (peer c j) j ∧ u = ()
  · exact ⟨j, hg.1⟩
  · rw [if_neg hg] at hj; exact absurd rfl hj

theorem O₀_pos {c : Dev nD} {g : GSem nD τ sig} {u : Unit} (h : 0 < O₀ c g u) :
    (∃ j : Fin 31, g = recvCell (peer c j) j) ∨ ∃ j : Fin 31, g = barCell (peer c j) := by
  unfold O₀ at h
  rw [Pi.add_apply, Finsupp.add_apply] at h
  rcases (show 0 < owedRecv c 0 g u ∨ 0 < owedBar c 0 g u by omega) with h | h
  · exact .inl (owedRecv_pos h)
  · exact .inr (owedBar_pos h)

theorem filter_31 : (Finset.univ.filter fun j : Fin 31 => 31 ≤ j.val) = ∅ :=
  Finset.filter_false_of_mem fun j _ => by have := j.isLt; omega
theorem filter_succ (k : ℕ) (hk : k < 31) :
    (Finset.univ.filter fun j : Fin 31 => k ≤ j.val) = insert ⟨k, hk⟩ (Finset.univ.filter fun j : Fin 31 => k + 1 ≤ j.val) := by
  ext j
  simp only [Finset.mem_filter, Finset.mem_univ, true_and, Finset.mem_insert]
  constructor
  · intro h
    by_cases e : j.val = k
    · exact .inl (Fin.ext e)
    · exact .inr (by omega)
  · rintro (rfl | h)
    · exact Nat.le_refl _
    · omega
theorem not_mem_filter_succ (k : ℕ) (hk : k < 31) : (⟨k, hk⟩ : Fin 31) ∉ Finset.univ.filter fun j : Fin 31 => k + 1 ≤ j.val := by
  simp only [Finset.mem_filter, Finset.mem_univ, true_and]; omega

theorem owedBar_31 (c : Dev nD) : owedBar c 31 = 0 := by
  unfold owedBar; rw [filter_31, Finset.sum_empty]
theorem owedRecv_31 (c : Dev nD) : owedRecv c 31 = 0 := by
  unfold owedRecv; rw [filter_31, Finset.sum_empty]
/-- Peeling the `k`-th summand: what is owed from `k` on is what is owed from `k + 1` on and the `k`-th peer's due. -/
theorem owedBar_succ (c : Dev nD) (k : ℕ) (hk : k < 31) : owedBar c k = owedBar c (k + 1) + tallyAt (barCell (peer c ⟨k, hk⟩)) () 1 := by
  unfold owedBar; rw [filter_succ k hk, Finset.sum_insert (not_mem_filter_succ k hk), add_comm]
theorem owedRecv_succ (c : Dev nD) (k : ℕ) (hk : k < 31) : owedRecv c k = owedRecv c (k + 1) + tallyAt (recvCell (peer c ⟨k, hk⟩) ⟨k, hk⟩) () N := by
  unfold owedRecv; rw [filter_succ k hk, Finset.sum_insert (not_mem_filter_succ k hk), add_comm]

/-! ## The levels of the cells -/

theorem lv_bar (c : Dev nD) : lv (barCell c) () = 1 := by
  show (if barS = barS then 1 else 0) = 1
  rw [if_pos rfl]
theorem lv_recv (c : Dev nD) (j : Fin 31) : lv (recvCell c j) () = 2 := by
  show (match slotOf (recvS j) with | some (true, _) => 2 | _ => 0) = 2
  rw [slotOf_recv]
theorem lv_stage (c : Dev nD) (q : DmaSem sig) (hq : slotOf q = none) : lv ((c : Thread nD τ), .dma q) () = 0 := by
  show (match slotOf q with | some (true, _) => 2 | _ => 0) = 0
  rw [hq]

/-- A wait on a staging semaphore (level 0), owing everything or nothing. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ <;> exact Finset.mem_singleton_self _)
      (fun p hp => by rw [Finset.mem_singleton.mp hp, lv_stage c q hq])
      (fun g u hg => by
        rcases O₀_pos hg with ⟨j, rfl⟩ | ⟨j, rfl⟩
        · rw [lv_recv]; decide
        · rw [lv_bar]; decide)
  · rw [MayWait_zero]; iintro -; iempintro

/-- At its barrier wait (level 1) a device owes its peers' receive cells only (level 2). -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by
      obtain ⟨j, rfl⟩ := owedRecv_pos hg
      exact Finset.mem_singleton_self _)
    (fun p hp => by rw [Finset.mem_singleton.mp hp]; exact le_of_eq (lv_bar c))
    (fun g u hg => by
      obtain ⟨j, rfl⟩ := owedRecv_pos hg
      rw [lv_recv]; decide)

/-! ## The launch credit -/

theorem barCell_eq_iff {a b : Dev nD} : barCell a = barCell b ↔ a = b :=
  ⟨fun h => Fin.ext (congrArg (fun g : GSem nD τ sig => g.1.1.val) h), fun h => h ▸ rfl⟩
theorem recvCell_eq_iff {a b : Dev nD} {j j' : Fin 31} : recvCell a j = recvCell b j' ↔ a = b ∧ j = j' :=
  ⟨fun h => ⟨Fin.ext (congrArg (fun g : GSem nD τ sig => g.1.1.val) h),
      recvS_injective (by have h2 : (SemLoc.dma (recvS j) : SemLoc sig) = .dma (recvS j') := congrArg Prod.snd h; injection h2)⟩,
    fun h => by rw [h.1, h.2]⟩
theorem recvCell_ne_barCell (a b : Dev nD) (j : Fin 31) : recvCell a j ≠ barCell b := fun h => recv_ne_bar j (congrArg Prod.snd h)

/-- What device `d` owes device `c`'s barrier cell: one unit unless `d = c` (`c` is exactly one of `d`'s peers). -/
theorem owed_bar (d c : Dev nD) : O₀ d (barCell c) () = if d = c then 0 else 1 := by
  unfold O₀
  rw [Pi.add_apply, Finsupp.add_apply, owedRecv_apply, owedBar_apply,
    Finset.sum_eq_zero (fun j _ => by rw [tallyAt_ne_cell (recvCell_ne_barCell _ _ _).symm]; rfl), Nat.zero_add]
  by_cases h : d = c
  · subst h
    rw [if_pos rfl]
    exact Finset.sum_eq_zero fun j _ => by rw [tallyAt_apply, if_neg (fun h' => peer_ne d j (barCell_eq_iff.mp h'.1).symm)]
  · rw [if_neg h]
    obtain ⟨j₀, hj₀⟩ := exists_peer d c (Ne.symm h)
    rw [Finset.sum_eq_single_of_mem j₀ (Finset.mem_filter.mpr ⟨Finset.mem_univ _, Nat.zero_le _⟩)
      (fun j _ hne => by rw [tallyAt_apply, if_neg (fun h' => hne (peer_injective d ((barCell_eq_iff.mp h'.1).symm.trans hj₀.symm)))]),
      tallyAt_apply, if_pos ⟨by rw [hj₀], rfl⟩]

/-- What device `d` owes the receive cell of device `c`'s slot `j`: a row's credit if `c` is `d`'s `j`-th peer. -/
theorem owed_recv (d c : Dev nD) (j : Fin 31) : O₀ d (recvCell c j) () = if d = srcOf c j then N else 0 := by
  unfold O₀
  rw [Pi.add_apply, Finsupp.add_apply, owedRecv_apply, owedBar_apply,
    Finset.sum_eq_zero (s := Finset.univ.filter fun j : Fin 31 => 0 ≤ j.val) (f := fun j' => tallyAt (barCell (peer d j')) () 1 (recvCell c j) ())
      (fun j' _ => by rw [tallyAt_ne_cell (recvCell_ne_barCell _ _ _)]; rfl), Nat.add_zero,
    Finset.sum_eq_single_of_mem j (Finset.mem_filter.mpr ⟨Finset.mem_univ _, Nat.zero_le _⟩)
      (fun j' _ hne => by rw [tallyAt_apply, if_neg (fun h' => hne (recvCell_eq_iff.mp h'.1).2.symm)]), tallyAt_apply]
  by_cases h : d = srcOf c j
  · rw [if_pos h, if_pos ⟨by rw [h, peer_srcOf], rfl⟩]
  · rw [if_neg h, if_neg (fun h' => h ((peer_eq_iff c d j).mp (recvCell_eq_iff.mp h'.1).1.symm))]

theorem card_others (c : Dev nD) : (∑ d : Dev nD, if d = c then 0 else 1) = 31 := by revert c; decide

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, card_others]

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (srcOf c j) fun _ => N, if_pos (Finset.mem_univ _)]

/-- The 31 receive semaphores among a device's semaphores. -/
def recvSems : Finset (SemLoc sig) := Finset.univ.map ⟨fun j : Fin 31 => SemLoc.dma (recvS j), fun j j' h => recvS_injective (by injection h)⟩

/-- The launch credit: 31 units on the barrier cell (one from each peer), a row's credit on each receive cell. -/
theorem launch_creds (c : Dev nD) : (Pipeline.launchCred O₀ c : sProp 𝕄) ⊢ creds (F := F) c := by
  unfold Pipeline.launchCred creds
  rw [bigSep_univ_at _ (SemLoc.reg barS), launch_bar]
  refine sep_mono_right ?_
  refine (bigSep_subset (t := recvSems) fun sm hsm => ?_).trans ?_
  · obtain ⟨j, _, rfl⟩ := Finset.mem_map.mp hsm
    exact Finset.mem_erase.mpr ⟨recv_ne_bar j, Finset.mem_univ _⟩
  · unfold recvSems
    rw [bigSep_map]
    exact Entails.of_eq (bigSep_congr fun j _ => by rw [← launch_recv]; rfl)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.Kernel.Hand

end
-- ==== Proof.Kernel.Steps.lean ====
/-
  One step of each kind of the all-to-all maximum's protocol, stated over what is left to do: after `k` of the 31 steps of a
  phase the device holds the resources of the peers `k … 30` (and what the steps `0 … k-1` gave it), and a step moves `k` on.
-/
import proofs.«900925_g7700000000000926_dist_max_ax0_shard0_i_m512_n256_v7x_i32_f32_1_alg».proof.Proof.Kernel.Data
import proofs.«900925_g7700000000000926_dist_max_ax0_shard0_i_m512_n256_v7x_i32_f32_1_alg».proof.Proof.Kernel.Tables
import proofs.«900925_g7700000000000926_dist_max_ax0_shard0_i_m512_n256_v7x_i32_f32_1_alg».proof.Proof.Kernel.Slots
import proofs.«900925_g7700000000000926_dist_max_ax0_shard0_i_m512_n256_v7x_i32_f32_1_alg».proof.Proof.Kernel.Levels

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers from `k` on, and those below `k` -/

def fromK (k : ℕ) : Finset (Fin 31) := Finset.univ.filter fun j : Fin 31 => k ≤ j.val
def belowK (k : ℕ) : Finset (Fin 31) := Finset.univ.filter fun j : Fin 31 => j.val < k

theorem fromK_zero : fromK 0 = Finset.univ := by ext j; simp [fromK]
theorem fromK_31 : fromK 31 = ∅ := by
  ext j; have := j.isLt; simp only [fromK, Finset.mem_filter, Finset.mem_univ, true_and, Finset.notMem_empty, iff_false]; omega
theorem belowK_zero : belowK 0 = ∅ := by ext j; simp [belowK]
theorem belowK_31 : belowK 31 = Finset.univ := by
  ext j; have := j.isLt; simp only [belowK, Finset.mem_filter, Finset.mem_univ, true_and, iff_true]; omega
theorem fromK_succ (k : ℕ) (hk : k < 31) : fromK k = insert (⟨k, hk⟩ : Fin 31) (fromK (k + 1)) := by
  ext j; simp only [fromK, Finset.mem_filter, Finset.mem_univ, true_and, Finset.mem_insert, Fin.ext_iff]; omega
theorem belowK_succ (k : ℕ) (hk : k < 31) : belowK (k + 1) = insert (⟨k, hk⟩ : Fin 31) (belowK k) := by
  ext j; simp only [belowK, Finset.mem_filter, Finset.mem_univ, true_and, Finset.mem_insert, Fin.ext_iff]; omega
theorem notMem_fromK (k : ℕ) (hk : k < 31) : (⟨k, hk⟩ : Fin 31) ∉ fromK (k + 1) := by
  simp only [fromK, Finset.mem_filter, Finset.mem_univ, true_and]; omega
theorem notMem_belowK (k : ℕ) (hk : k < 31) : (⟨k, hk⟩ : Fin 31) ∉ belowK k := by
  simp only [belowK, Finset.mem_filter, Finset.mem_univ, true_and]; omega

omit [FloatOps F] in
theorem bigSep_fromK_succ (k : ℕ) (hk : k < 31) (Φ : Fin 31 → sProp 𝕄) :
    bigSep (fromK k) Φ = iprop(Φ ⟨k, hk⟩ ∗ bigSep (fromK (k + 1)) Φ) := by
  rw [fromK_succ k hk, BI.bigSep_insert (notMem_fromK k hk)]; rfl
omit [FloatOps F] in
theorem bigSep_belowK_succ (k : ℕ) (hk : k < 31) (Φ : Fin 31 → sProp 𝕄) :
    bigSep (belowK (k + 1)) Φ = iprop(Φ ⟨k, hk⟩ ∗ bigSep (belowK k) Φ) := by
  rw [belowK_succ k hk, BI.bigSep_insert (notMem_belowK k hk)]; rfl

/-! ## Reading the records -/

section Records
variable (Kb : Dev nD → ℕ) (Ks Kr : Dev nD × Fin 31 → ℕ)

omit [FloatOps F] in
theorem univ_at {I : Type} [Fintype I] [DecidableEq I] (Φ : I → sProp 𝕄) (i : I) : (bigSep Finset.univ Φ : sProp 𝕄) ⊢ Φ i :=
  bigSep_elim (Finset.mem_univ i)

theorem rec_bar (c : Dev nD) : records m ρ Kb Ks Kr ⊢ cellInv ER (Rd m ρ) (Kb c) (barCell c) := by
  unfold records; iintro ⟨H1, -⟩
  iapply (univ_at (F := F) (fun c : Dev nD => cellInv ER (Rd m ρ) (Kb c) (barCell c)) c); iexact H1
theorem rec_send (c : Dev nD) (j : Fin 31) : records m ρ Kb Ks Kr ⊢ cellInv ER (Rd m ρ) (Ks (c, j)) (sendCell c j) := by
  unfold records; iintro ⟨-, H2, -⟩
  iapply (univ_at (F := F) (fun cj : Dev nD × Fin 31 => cellInv ER (Rd m ρ) (Ks cj) (sendCell cj.1 cj.2)) (c, j)); iexact H2
theorem rec_recv (c : Dev nD) (j : Fin 31) : records m ρ Kb Ks Kr ⊢ cellInv ER (Rd m ρ) (Kr (c, j)) (recvCell c j) := by
  unfold records; iintro ⟨-, -, H3, -⟩
  iapply (univ_at (F := F) (fun cj : Dev nD × Fin 31 => cellInv ER (Rd m ρ) (Kr cj) (recvCell cj.1 cj.2)) (c, j)); iexact H3
theorem rec_rbar (c : Dev nD) : records m ρ Kb Ks Kr ⊢ reached ER (barCell c) 0 := by
  unfold records; iintro ⟨-, -, -, H4, -⟩
  iapply (univ_at (F := F) (fun c : Dev nD => (reached ER (barCell c) 0 : sProp 𝕄)) c); iexact H4
theorem rec_rsend (c : Dev nD) (j : Fin 31) : records m ρ Kb Ks Kr ⊢ reached ER (sendCell c j) 0 := by
  unfold records; iintro ⟨-, -, -, -, H5, -⟩
  iapply (univ_at (F := F) (fun cj : Dev nD × Fin 31 => (reached ER (sendCell cj.1 cj.2) 0 : sProp 𝕄)) (c, j)); iexact H5
theorem rec_rrecv (c : Dev nD) (j : Fin 31) : records m ρ Kb Ks Kr ⊢ reached ER (recvCell c j) 0 := by
  unfold records; iintro ⟨-, -, -, -, -, H6⟩
  iapply (univ_at (F := F) (fun cj : Dev nD × Fin 31 => (reached ER (recvCell cj.1 cj.2) 0 : sProp 𝕄)) (c, j)); iexact H6

/-! ## The signals -/

/-- After `k` signals: what is still owed, the tokens of the barrier duties still to pay, and the slots still to hand over
    (the `j`-th signal hands over slot `back j`). -/
def SigSt (c : Dev nD) (k : ℕ) (W : Waits sig Unit) (f : Buf (Elt F) ((c : Thread nD τ).loc cc0_scratch1)) : sProp 𝕄 :=
  iprop(owes (c : Thread nD τ) (owedRecv c 0 + owedBar c k) W
    ∗ bigSep (fromK k) (fun j => dutyTok ER (barCell (peer c j)) 0 (back j))
    ∗ bigSep (fromK k) (fun j => slotPts (F := F) c (back j) f))

theorem sig_step (c : Dev nD) (k : ℕ) (hk : k < 31) (W : Waits sig Unit) (f : Buf (Elt F) ((c : Thread nD τ).loc cc0_scratch1))
    {α : Type} {Q : α → sProp 𝕄} {kont : PUnit → Prog (TpuEff nD τ sig (Elt F) Λ₀ .tc) α} :
    iprop(records m ρ Kb Ks Kr ∗ SigSt c k W f)
      ⊢ iprop((SigSt c (k + 1) W f -∗ wp frame (wpE (defs₀ (F := F)) 𝒱₀ c none) Set.univ (kont ⟨⟩) Q)
          -∗ wp frame (wpE (defs₀ (F := F)) 𝒱₀ c none) Set.univ
              (.op (.semSignal ((peer c ⟨k, hk⟩ : Dev nD) : Thread nD τ) barS (1#32).toNat) kont) Q) := by
  unfold SigSt
  rw [bigSep_fromK_succ k hk, bigSep_fromK_succ k hk]
  iintro ⟨#HR, HO, ⟨Ht, Hts⟩, ⟨Hs, Hss⟩⟩ Hk
  iapply (Rounds.wp_signal 𝒱₀ ER (Rd m ρ) (c : Thread nD τ) none (dst := ((peer c ⟨k, hk⟩ : Dev nD) : Thread nD τ)) (κ := Kb (peer c ⟨k, hk⟩))
      (d := back ⟨k, hk⟩) (by rw [duties_bar]; exact Finset.mem_univ _) ((amount_bar m ρ (peer c ⟨k, hk⟩) _).trans (by decide)) ()
      (O₀ := owedRecv c 0 + owedBar c k) (owedRecv c 0 + owedBar c (k + 1)) (by rw [owedBar_succ c k hk, ← add_assoc]; rfl)) $$ [HO Ht Hs]
  · isplitr; · iapply (rec_bar m ρ Kb Ks Kr (peer c ⟨k, hk⟩)); iexact HR
    isplitl [HO]; · iexact HO
    isplitl [Ht]; · iexact Ht
    isplitl [Hs]
    · rw [payload_bar]; unfold barPay; rw [peer_back]
      isplitl [Hs]; · iexists f; iexact Hs
      iapply (rec_rrecv m ρ Kb Ks Kr c (back ⟨k, hk⟩)); iexact HR
    · iapply (rec_rbar m ρ Kb Ks Kr (peer c ⟨k, hk⟩)); iexact HR
  iintro HO
  iapply Hk
  isplitl [HO]; · iexact HO
  isplitl [Hts]; · iexact Hts
  iexact Hss

/-! ## The copies -/

/-- After `k` copies: what is still owed (the receive cells of the peers `k … 30`), those peers' slots, the accumulator's shares
    still to lend, the send and receive duty tokens still to pay, and the departure credit of the copies made. -/
def SendSt (c : Dev nD) (k : ℕ) (W : Waits sig Unit) : sProp 𝕄 :=
  iprop(owes (c : Thread nD τ) (owedRecv c k) W
    ∗ bigSep (fromK k) (fun j => barPay (F := F) c j)
    ∗ bigSep (fromK k) (fun j => accPts m ρ c (accShare j))
    ∗ bigSep (fromK k) (fun j => dutyTok ER (sendCell c j) 0 (0 : Fin 31))
    ∗ bigSep (fromK k) (fun j => dutyTok ER (recvCell (peer c j) j) 0 (0 : Fin 31))
    ∗ bigSep (belowK k) (fun j => cred (tallyAt (sendCell c j) () N)))

set_option maxHeartbeats 1600000 in
theorem send_step (c : Dev nD) (k : ℕ) (hk : k < 31) (W : Waits sig Unit) (n : Dev nD) (hn : n = peer c ⟨k, hk⟩)
    {hsc : (slotM ⟨k, hk⟩ : Memref sig (Dev.tc n : Thread nD τ).2.kind .vmem S1x256 .f32).view.ref.isScScratch = false}
    {hsrc : (aM : Memref sig .tc .vmem S1x256 .f32).view.WordExact} {hdst : (slotM ⟨k, hk⟩ : Memref sig .tc .vmem S1x256 .f32).view.WordExact}
    {hsem : DmaTarget.Typed .vmem (.dma (recvS ⟨k, hk⟩)) (.remote (Dev.tc n : Thread nD τ) (slotM ⟨k, hk⟩ : Memref sig .tc .vmem S1x256 .f32) (.dma (sendS ⟨k, hk⟩)) hsc)}
    {α : Type} {Q : α → sProp 𝕄} {kont : PUnit → Prog (TpuEff nD τ sig (Elt F) Λ₀ .tc) α} :
    iprop(records m ρ Kb Ks Kr ∗ SendSt m ρ c k W)
      ⊢ iprop((SendSt m ρ c (k + 1) W -∗ wp frame (wpE (defs₀ (F := F)) 𝒱₀ c none) Set.univ (kont ⟨⟩) Q)
          -∗ wp frame (wpE (defs₀ (F := F)) 𝒱₀ c none) Set.univ
              (.op (.enqueueDma aM (.remote (Dev.tc n : Thread nD τ) (slotM ⟨k, hk⟩) (.dma (sendS ⟨k, hk⟩)) hsc) (.dma (recvS ⟨k, hk⟩)) hsrc hdst hsem) kont) Q) := by
  subst hn
  unfold SendSt
  rw [bigSep_fromK_succ k hk, bigSep_fromK_succ k hk, bigSep_fromK_succ k hk, bigSep_fromK_succ k hk, bigSep_belowK_succ k hk]
  iintro ⟨#HR, HO, ⟨Hb, Hbs⟩, ⟨Ha, Has⟩, ⟨Hts, Htss⟩, ⟨Htr, Htrs⟩, Hcs⟩ Hk
  unfold barPay
  icases Hb with ⟨⟨%fn, Hslot⟩, #Hreach⟩
  unfold slotPts accPts
  iapply (Rounds.wp_send_pointsTo 𝒱₀ ER (Rd m ρ) (c : Thread nD τ) none (c' := ((peer c ⟨k, hk⟩ : Dev nD) : Thread nD τ)) (κ₁ := Ks (c, ⟨k, hk⟩)) (κ₂ := Kr (peer c ⟨k, hk⟩, ⟨k, hk⟩))
      (r₁ := 0) (r₂ := 0) (d₁ := 0) (d₂ := 0) (fd := fn) (q := accShare ⟨k, hk⟩)
      (src := (aM : Memref sig .tc .vmem S1x256 .f32)) (dst := (slotM ⟨k, hk⟩ : Memref sig .tc .vmem S1x256 .f32)) (sS := .dma (sendS ⟨k, hk⟩)) (sem := .dma (recvS ⟨k, hk⟩))
      (by rw [duties_send]; exact Finset.mem_singleton_self _) (by rw [duties_recv]; exact Finset.mem_singleton_self _)
      () () N (slot_credit ⟨k, hk⟩) (amount_send m ρ c ⟨k, hk⟩ 0) (amount_recv m ρ (peer c ⟨k, hk⟩) ⟨k, hk⟩ 0)
      (owedRecv c (k + 1)) (owedRecv_succ c k hk) (W := W)
      (by rw [payload_send]; unfold sendPay accPts; exact BI.Entails.refl _)
      (by
        rw [payload_recv]; unfold recvPay
        have h := slot_landed m ρ (peer c ⟨k, hk⟩) ⟨k, hk⟩ fn
        rw [srcOf_peer] at h
        unfold slotPts at h
        rw [h]; exact BI.Entails.refl _)) $$ [HO Ha Hslot Hts Htr]
  · isplitr; · iapply (rec_send m ρ Kb Ks Kr c ⟨k, hk⟩); iexact HR
    isplitr; · iapply (rec_recv m ρ Kb Ks Kr (peer c ⟨k, hk⟩) ⟨k, hk⟩); iexact HR
    isplitl [Ha]; · iexact Ha
    isplitl [Hslot]; · iexact Hslot
    isplitl [HO]; · iexact HO
    isplitl [Hts]; · iexact Hts
    isplitr; · iapply (rec_rsend m ρ Kb Ks Kr c ⟨k, hk⟩); iexact HR
    isplitl [Htr]; · iexact Htr
    iexact Hreach
  iintro ⟨Hc, HO⟩
  iapply Hk
  isplitl [HO]; · iexact HO
  isplitl [Hbs]; · iexact Hbs
  isplitl [Has]; · iexact Has
  isplitl [Htss]; · iexact Htss
  isplitl [Htrs]; · iexact Htrs
  isplitl [Hc]; · iexact Hc
  iexact Hcs

/-! ## The waits on the receive cells -/

/-- After `k` receive waits: the credit and positions of the receive cells `k … 30`, the slots `0 … k-1` filled, those cells
    past their round. The device owes nothing. -/
def RecvSt (c : Dev nD) (k : ℕ) : sProp 𝕄 :=
  iprop((∃ W : Waits sig Unit, owes (c : Thread nD τ) 0 W)
    ∗ bigSep (fromK k) (fun j => cred (tallyAt (recvCell c j) () N))
    ∗ bigSep (fromK k) (fun j => atPos ER (recvCell c j) 0 ∅ 0)
    ∗ bigSep (belowK k) (fun j => slotPts c j (commV m ρ c))
    ∗ bigSep (belowK k) (fun j => atPos ER (recvCell c j) (0 + 1) ∅ 0))

theorem recv_step (c : Dev nD) (k : ℕ) (hk : k < 31)
    {hsrc : (aM : Memref sig .tc .vmem S1x256 .f32).view.WordExact} {hdst : (slotM ⟨k, hk⟩ : Memref sig .tc .vmem S1x256 .f32).view.WordExact}
    {α : Type} {Q : α → sProp 𝕄} {kont : PUnit → Prog (TpuEff nD τ sig (Elt F) Λ₀ .tc) α} :
    iprop(records m ρ Kb Ks Kr ∗ RecvSt m ρ c k)
      ⊢ iprop((RecvSt m ρ c (k + 1) -∗ wp frame (wpE (defs₀ (F := F)) 𝒱₀ c none) Set.univ (kont ⟨⟩) Q)
          -∗ wp frame (wpE (defs₀ (F := F)) 𝒱₀ c none) Set.univ
              (.op (.waitDma2 (recvS ⟨k, hk⟩) aM (slotM ⟨k, hk⟩) hsrc hdst) kont) Q) := by
  unfold RecvSt
  rw [bigSep_fromK_succ k hk, bigSep_fromK_succ k hk, bigSep_belowK_succ k hk, bigSep_belowK_succ k hk]
  iintro ⟨#HR, ⟨%W, HO⟩, ⟨Hc, Hcs⟩, ⟨Hat, Hats⟩, Hsl, Hps⟩ Hk
  ihave Hc' := (Entails.of_eq (show (cred (tallyAt (recvCell c ⟨k, hk⟩) () N) : sProp 𝕄)
      = cred (tallyAt (recvCell c ⟨k, hk⟩) () (slotM ⟨k, hk⟩ : Memref sig .tc .vmem S1x256 .f32).view.dmaCredit) by rw [slot_credit])) $$ Hc
  iapply (Rounds.wp_wait_rest_token 𝒱₀ ER (Rd m ρ) (c : Thread nD τ) none (κ := Kr (c, ⟨k, hk⟩))
      (wpE_waitDma2_eq 𝒱₀ (c : Thread nD τ) none Set.univ) (Set.mem_univ _) () (O := 0) (W := W) (R := 0) (m := 0) (T := ∅)
      (by rw [Nat.zero_add, expect_recv, slot_credit])) $$ [Hc' HO Hat]
  · isplitr; · iapply (rec_recv m ρ Kb Ks Kr c ⟨k, hk⟩); iexact HR
    isplitl [Hc']; · iexact Hc'
    isplitl [HO]; · iexact HO
    isplitr; · rw [MayWait_zero]; iempintro
    iexact Hat
  iintro ⟨HO, Hat, -, Hpay⟩
  ihave Hslot := (Entails.of_eq (rest_recv m ρ c ⟨k, hk⟩)) $$ Hpay
  unfold recvPay
  iapply Hk
  isplitl [HO]; · iexists _; iexact HO
  isplitl [Hcs]; · iexact Hcs
  isplitl [Hats]; · iexact Hats
  isplitl [Hslot Hsl]
  · isplitl [Hslot]; · iexact Hslot
    iexact Hsl
  isplitl [Hat]; · iexact Hat
  iexact Hps

/-! ## The waits on the send cells -/

/-- After `k` send waits: the departure credit and positions of the send cells `k … 30`, the lent shares `0 … k-1` of the
    accumulator back, those cells past their round. -/
def SendwSt (c : Dev nD) (k : ℕ) : sProp 𝕄 :=
  iprop((∃ W : Waits sig Unit, owes (c : Thread nD τ) 0 W)
    ∗ bigSep (fromK k) (fun j => cred (tallyAt (sendCell c j) () N))
    ∗ bigSep (fromK k) (fun j => atPos ER (sendCell c j) 0 ∅ 0)
    ∗ bigSep (belowK k) (fun j => accPts m ρ c (accShare j))
    ∗ bigSep (belowK k) (fun j => atPos ER (sendCell c j) (0 + 1) ∅ 0))

theorem sendw_step (c : Dev nD) (k : ℕ) (hk : k < 31)
    {hsrc : (slotM ⟨k, hk⟩ : Memref sig .tc .vmem S1x256 .f32).view.WordExact} {hdst : (aM : Memref sig .tc .vmem S1x256 .f32).view.WordExact}
    {α : Type} {Q : α → sProp 𝕄} {kont : PUnit → Prog (TpuEff nD τ sig (Elt F) Λ₀ .tc) α} :
    iprop(records m ρ Kb Ks Kr ∗ SendwSt m ρ c k)
      ⊢ iprop((SendwSt m ρ c (k + 1) -∗ wp frame (wpE (defs₀ (F := F)) 𝒱₀ c none) Set.univ (kont ⟨⟩) Q)
          -∗ wp frame (wpE (defs₀ (F := F)) 𝒱₀ c none) Set.univ
              (.op (.waitDma2 (sendS ⟨k, hk⟩) (slotM ⟨k, hk⟩) aM hsrc hdst) kont) Q) := by
  unfold SendwSt
  rw [bigSep_fromK_succ k hk, bigSep_fromK_succ k hk, bigSep_belowK_succ k hk, bigSep_belowK_succ k hk]
  iintro ⟨#HR, ⟨%W, HO⟩, ⟨Hc, Hcs⟩, ⟨Hat, Hats⟩, Hsl, Hps⟩ Hk
  iapply (Rounds.wp_wait_rest_token 𝒱₀ ER (Rd m ρ) (c : Thread nD τ) none (κ := Ks (c, ⟨k, hk⟩))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (rec_send m ρ Kb Ks Kr c ⟨k, hk⟩); iexact HR
    isplitl [Hc]; · iexact Hc
    isplitl [HO]; · iexact HO
    isplitr; · rw [MayWait_zero]; iempintro
    iexact Hat
  iintro ⟨HO, Hat, -, Hpay⟩
  ihave Hacc := (Entails.of_eq (rest_send m ρ c ⟨k, hk⟩)) $$ Hpay
  unfold sendPay
  iapply Hk
  isplitl [HO]; · iexists _; iexact HO
  isplitl [Hcs]; · iexact Hcs
  isplitl [Hats]; · iexact Hats
  isplitl [Hacc Hsl]
  · isplitl [Hacc]; · iexact Hacc
    iexact Hsl
  isplitl [Hat]; · iexact Hat
  iexact Hps

end Records

end Cert.Kernel.Hand

end
-- ==== Proof.Kernel.Close.lean ====
/-
  After its waits a device's 31 send cells and 31 receive cells are past their only round: each closes, and its counter at
  zero is the device's again.
-/
import proofs.«900925_g7700000000000926_dist_max_ax0_shard0_i_m512_n256_v7x_i32_f32_1_alg».proof.Proof.Kernel.Steps

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (Kb : Dev nD → ℕ) (Ks Kr : Dev nD × Fin 31 → ℕ)

/-- One send cell past its only round closes: with the cell's invariant from the records, its counter at zero is the owner's. -/
theorem close_send (c : Dev nD) (j : Fin 31) :
    iprop(records m ρ Kb Ks Kr ∗ atPos ER (sendCell c j) (0 + 1) ∅ 0) ⊢ (|={Set.univ}=> semVal (sendCell c j) 0 : sProp 𝕄) := by
  iintro ⟨#HR, Hat⟩
  iapply (Rounds.cell_close ER (Rd m ρ) (κ := Ks (c, j)) (Set.mem_univ _) (fun h => h) (R := 0 + 1) (duties_later m ρ (sendCell c j)))
  isplitr
  · iapply (rec_send m ρ Kb Ks Kr c j); iexact HR
  · iexact Hat

/-- One receive cell past its only round closes likewise. -/
theorem close_recv (c : Dev nD) (j : Fin 31) :
    iprop(records m ρ Kb Ks Kr ∗ atPos ER (recvCell c j) (0 + 1) ∅ 0) ⊢ (|={Set.univ}=> semVal (recvCell c j) 0 : sProp 𝕄) := by
  iintro ⟨#HR, Hat⟩
  iapply (Rounds.cell_close ER (Rd m ρ) (κ := Kr (c, j)) (Set.mem_univ _) (fun h => h) (R := 0 + 1) (duties_later m ρ (recvCell c j)))
  isplitr
  · iapply (rec_recv m ρ Kb Ks Kr c j); iexact HR
  · iexact Hat

/-- The persistent records beside a family of 31 assertions stand beside each member. -/
theorem records_each (Φ : Fin 31 → sProp 𝕄) :
    iprop(records m ρ Kb Ks Kr ∗ bigSep Finset.univ Φ) ⊢ bigSep Finset.univ (fun j : Fin 31 => iprop(records m ρ Kb Ks Kr ∗ Φ j)) := by
  rw [bigSep_sep']
  iintro ⟨#HR, HΦ⟩
  isplitr
  · iapply (bigSep_of_persistent Finset.univ (records m ρ Kb Ks Kr)); iexact HR
  · iexact HΦ

theorem close_sends (c : Dev nD) :
    iprop(records m ρ Kb Ks Kr ∗ bigSep Finset.univ (fun j : Fin 31 => atPos ER (sendCell c j) (0 + 1) ∅ 0))
      ⊢ (|={Set.univ}=> bigSep Finset.univ (fun j : Fin 31 => semVal (sendCell c j) 0) : sProp 𝕄) :=
  ((records_each m ρ Kb Ks Kr _).trans (bigSep_mono fun j _ => close_send m ρ Kb Ks Kr c j)).trans (bigSep_fupd Finset.univ _)

theorem close_recvs (c : Dev nD) :
    iprop(records m ρ Kb Ks Kr ∗ bigSep Finset.univ (fun j : Fin 31 => atPos ER (recvCell c j) (0 + 1) ∅ 0))
      ⊢ (|={Set.univ}=> bigSep Finset.univ (fun j : Fin 31 => semVal (recvCell c j) 0) : sProp 𝕄) :=
  ((records_each m ρ Kb Ks Kr _).trans (bigSep_mono fun j _ => close_recv m ρ Kb Ks Kr c j)).trans (bigSep_fupd Finset.univ _)

end

/-- info: 'Cert.Kernel.Hand.close_sends' depends on axioms: [propext, Classical.choice, Quot.sound] -/
#guard_msgs in #print axioms close_sends
/-- info: 'Cert.Kernel.Hand.close_recvs' depends on axioms: [propext, Classical.choice, Quot.sound] -/
#guard_msgs in #print axioms close_recvs

end Cert.Kernel.Hand

end
-- ==== Proof.Kernel.Body.lean ====
/-
  One device's body of the all-to-all maximum, run from its ghost state: the 31 signals, the row-maximum, the barrier wait, the
  31 copies, the 31 receive waits, the maximum over the accumulator and the slots, the 31 send waits; and the pipeline's
  body obligation from it.
-/
import proofs.«900925_g7700000000000926_dist_max_ax0_shard0_i_m512_n256_v7x_i32_f32_1_alg».proof.Proof.Kernel.Steps
import proofs.«900925_g7700000000000926_dist_max_ax0_shard0_i_m512_n256_v7x_i32_f32_1_alg».proof.Proof.Kernel.Close

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (Kb : Dev nD → ℕ) (Ks Kr : Dev nD × Fin 31 → ℕ)

/-- `back` as a permutation of the 31 peer indices (it is its own inverse). -/
def backEquiv : Fin 31 ≃ Fin 31 := ⟨back, back, back_back, back_back⟩

omit [FloatOps F] in
/-- Using an entailment forwards on a hypothesis matched up to unfolding. -/
theorem use_ent {A B G : sProp 𝕄} (h : A ⊢ B) : A ⊢ iprop((B -∗ G) -∗ G) := by
  iintro HA HG; iapply HG; iapply h; iexact HA

/-! ## Entering and leaving the four phases -/

theorem sigSt_intro (c : Dev nD) (W : Waits sig Unit) (f : Buf (Elt F) ((c : Thread nD τ).loc cc0_scratch1)) :
    iprop(owes (c : Thread nD τ) (O₀ c) W ∗ (bigSep Finset.univ fun j : Fin 31 => dutyTok ER (barCell (peer c j)) 0 (back j))
        ∗ (bigSep Finset.univ fun j : Fin 31 => slotPts (F := F) c j f))
      ⊢ SigSt (F := F) c 0 W f := by
  unfold SigSt O₀; rw [fromK_zero, bigSep_univ_equiv backEquiv (fun j => slotPts (F := F) c j f)]
  exact BI.Entails.refl _

theorem sigSt_elim (c : Dev nD) (W : Waits sig Unit) (f : Buf (Elt F) ((c : Thread nD τ).loc cc0_scratch1)) :
    SigSt (F := F) c 31 W f ⊢ owes (c : Thread nD τ) (owedRecv c 0) W := by
  unfold SigSt; rw [owedBar_31, add_zero]
  iintro ⟨HO, -⟩; iexact HO

theorem sendSt_intro (c : Dev nD) (W : Waits sig Unit) :
    iprop(owes (c : Thread nD τ) (owedRecv c 0) W ∗ (bigSep Finset.univ fun j : Fin 31 => barPay (F := F) c j)
        ∗ (bigSep Finset.univ fun j : Fin 31 => accPts m ρ c (accShare j))
        ∗ (bigSep Finset.univ fun j : Fin 31 => dutyTok ER (sendCell c j) 0 (0 : Fin 31))
        ∗ (bigSep Finset.univ fun j : Fin 31 => dutyTok ER (recvCell (peer c j) j) 0 (0 : Fin 31)))
      ⊢ SendSt m ρ c 0 W := by
  unfold SendSt; rw [fromK_zero, belowK_zero, bigSep_empty]
  iintro ⟨H1, H2, H3, H4, H5⟩
  isplitl [H1]; · iexact H1
  isplitl [H2]; · iexact H2
  isplitl [H3]; · iexact H3
  isplitl [H4]; · iexact H4
  isplitl [H5]; · iexact H5
  iempintro

theorem sendSt_elim (c : Dev nD) (W : Waits sig Unit) :
    SendSt m ρ c 31 W ⊢ iprop(owes (c : Thread nD τ) 0 W ∗ bigSep Finset.univ fun j : Fin 31 => cred (tallyAt (sendCell c j) () N)) := by
  unfold SendSt; rw [owedRecv_31, belowK_31]
  iintro ⟨HO, -, -, -, -, Hc⟩
  isplitl [HO]; · iexact HO
  iexact Hc

theorem recvSt_intro (c : Dev nD) (W : Waits sig Unit) :
    iprop(owes (c : Thread nD τ) 0 W ∗ (bigSep Finset.univ fun j : Fin 31 => cred (tallyAt (recvCell c j) () N))
        ∗ (bigSep Finset.univ fun j : Fin 31 => atPos ER (recvCell c j) 0 ∅ 0))
      ⊢ RecvSt m ρ c 0 := by
  unfold RecvSt; rw [fromK_zero, belowK_zero, bigSep_empty, bigSep_empty]
  iintro ⟨H1, H2, H3⟩
  isplitl [H1]; · iexists W; iexact H1
  isplitl [H2]; · iexact H2
  isplitl [H3]; · iexact H3
  isplitl; · iempintro
  iempintro

theorem recvSt_elim (c : Dev nD) :
    RecvSt m ρ c 31 ⊢ iprop((∃ W : Waits sig Unit, owes (c : Thread nD τ) 0 W)
      ∗ (bigSep Finset.univ fun j : Fin 31 => slotPts c j (commV m ρ c))
      ∗ (bigSep Finset.univ fun j : Fin 31 => atPos ER (recvCell c j) (0 + 1) ∅ 0)) := by
  unfold RecvSt; rw [belowK_31]
  iintro ⟨H1, -, -, H4, H5⟩
  isplitl [H1]; · iexact H1
  isplitl [H4]; · iexact H4
  iexact H5

theorem sendwSt_intro (c : Dev nD) :
    iprop((∃ W : Waits sig Unit, owes (c : Thread nD τ) 0 W) ∗ (bigSep Finset.univ fun j : Fin 31 => cred (tallyAt (sendCell c j) () N))
        ∗ (bigSep Finset.univ fun j : Fin 31 => atPos ER (sendCell c j) 0 ∅ 0))
      ⊢ SendwSt m ρ c 0 := by
  unfold SendwSt; rw [fromK_zero, belowK_zero, bigSep_empty, bigSep_empty]
  iintro ⟨H1, H2, H3⟩
  isplitl [H1]; · iexact H1
  isplitl [H2]; · iexact H2
  isplitl [H3]; · iexact H3
  isplitl; · iempintro
  iempintro

theorem sendwSt_elim (c : Dev nD) :
    SendwSt m ρ c 31 ⊢ iprop((∃ W : Waits sig Unit, owes (c : Thread nD τ) 0 W)
      ∗ (bigSep Finset.univ fun j : Fin 31 => accPts m ρ c (accShare j))
      ∗ (bigSep Finset.univ fun j : Fin 31 => atPos ER (sendCell c j) (0 + 1) ∅ 0)) := by
  unfold SendwSt; rw [belowK_31]
  iintro ⟨H1, -, -, H4, H5⟩
  isplitl [H1]; · iexact H1
  isplitl [H4]; · iexact H4
  iexact H5

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := by rw [fin_N t]; rfl

def bodyPre (c : Dev nD) : sProp 𝕄 :=
  iprop((ghost m ρ Kb Ks Kr c ∗ creds c ∗ levAts L lv ∗ (∃ f, accBuf c f) ∗ (∃ f, commBuf c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 100000 in
set_option maxHeartbeats 16000000 in
/-- The body, from `bodyPre` to `bodyPost`: each of its 125 protocol steps one instance of a step of Steps.lean. -/
theorem sound_body (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part46_eq_skeleton]; unfold k0_part46_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c]
  unfold bodyPre ghost positions payToks creds
  iintro ⟨⟨⟨⟨#HR, ⟨HatB, HatS, HatV⟩, ⟨HtB, HtS, HtV⟩⟩, ⟨HcB, HcV⟩, #Hlev, ⟨%fa, Hacc⟩, ⟨%fc, Hcomm⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the slots' buffer by slots, and the 31 signals
  ihave Hsl := (comm_split (F := F) c fc).1 $$ Hcomm
  ihave HSt := (sigSt_intro (F := F) c W fc) $$ [HO HtB Hsl]
  · isplitl [HO]; · iexact HO
    isplitl [HtB]; · iexact HtB
    iexact Hsl
  iapply (sig_step m ρ Kb Ks Kr c 0 (show (0 : ℕ) < 31 by decide) W fc) $$ [HSt]
  · isplitr; · iexact HR
    iexact HSt
  iintro HSt
  iapply (sig_step m ρ Kb Ks Kr c 1 (show (1 : ℕ) < 31 by decide) W fc) $$ [HSt]
  · isplitr; · iexact HR
    iexact HSt
  iintro HSt
  iapply (sig_step m ρ Kb Ks Kr c 2 (show (2 : ℕ) < 31 by decide) W fc) $$ [HSt]
  · isplitr; · iexact HR
    iexact HSt
  iintro HSt
  iapply (sig_step m ρ Kb Ks Kr c 3 (show (3 : ℕ) < 31 by decide) W fc) $$ [HSt]
  · isplitr; · iexact HR
    iexact HSt
  iintro HSt
  iapply (sig_step m ρ Kb Ks Kr c 4 (show (4 : ℕ) < 31 by decide) W fc) $$ [HSt]
  · isplitr; · iexact HR
    iexact HSt
  iintro HSt
  iapply (sig_step m ρ Kb Ks Kr c 5 (show (5 : ℕ) < 31 by decide) W fc) $$ [HSt]
  · isplitr; · iexact HR
    iexact HSt
  iintro HSt
  iapply (sig_step m ρ Kb Ks Kr c 6 (show (6 : ℕ) < 31 by decide) W fc) $$ [HSt]
  · isplitr; · iexact HR
    iexact HSt
  iintro HSt
  iapply (sig_step m ρ Kb Ks Kr c 7 (show (7 : ℕ) < 31 by decide) W fc) $$ [HSt]
  · isplitr; · iexact HR
    iexact HSt
  iintro HSt
  iapply (sig_step m ρ Kb Ks Kr c 8 (show (8 : ℕ) < 31 by decide) W fc) $$ [HSt]
  · isplitr; · iexact HR
    iexact HSt
  iintro HSt
  iapply (sig_step m ρ Kb Ks Kr c 9 (show (9 : ℕ) < 31 by decide) W fc) $$ [HSt]
  · isplitr; · iexact HR
    iexact HSt
  iintro HSt
  iapply (sig_step m ρ Kb Ks Kr c 10 (show (10 : ℕ) < 31 by decide) W fc) $$ [HSt]
  · isplitr; · iexact HR
    iexact HSt
  iintro HSt
  iapply (sig_step m ρ Kb Ks Kr c 11 (show (11 : ℕ) < 31 by decide) W fc) $$ [HSt]
  · isplitr; · iexact HR
    iexact HSt
  iintro HSt
  iapply (sig_step m ρ Kb Ks Kr c 12 (show (12 : ℕ) < 31 by decide) W fc) $$ [HSt]
  · isplitr; · iexact HR
    iexact HSt
  iintro HSt
  iapply (sig_step m ρ Kb Ks Kr c 13 (show (13 : ℕ) < 31 by decide) W fc) $$ [HSt]
  · isplitr; · iexact HR
    iexact HSt
  iintro HSt
  iapply (sig_step m ρ Kb Ks Kr c 14 (show (14 : ℕ) < 31 by decide) W fc) $$ [HSt]
  · isplitr; · iexact HR
    iexact HSt
  iintro HSt
  iapply (sig_step m ρ Kb Ks Kr c 15 (show (15 : ℕ) < 31 by decide) W fc) $$ [HSt]
  · isplitr; · iexact HR
    iexact HSt
  iintro HSt
  iapply (sig_step m ρ Kb Ks Kr c 16 (show (16 : ℕ) < 31 by decide) W fc) $$ [HSt]
  · isplitr; · iexact HR
    iexact HSt
  iintro HSt
  iapply (sig_step m ρ Kb Ks Kr c 17 (show (17 : ℕ) < 31 by decide) W fc) $$ [HSt]
  · isplitr; · iexact HR
    iexact HSt
  iintro HSt
  iapply (sig_step m ρ Kb Ks Kr c 18 (show (18 : ℕ) < 31 by decide) W fc) $$ [HSt]
  · isplitr; · iexact HR
    iexact HSt
  iintro HSt
  iapply (sig_step m ρ Kb Ks Kr c 19 (show (19 : ℕ) < 31 by decide) W fc) $$ [HSt]
  · isplitr; · iexact HR
    iexact HSt
  iintro HSt
  iapply (sig_step m ρ Kb Ks Kr c 20 (show (20 : ℕ) < 31 by decide) W fc) $$ [HSt]
  · isplitr; · iexact HR
    iexact HSt
  iintro HSt
  iapply (sig_step m ρ Kb Ks Kr c 21 (show (21 : ℕ) < 31 by decide) W fc) $$ [HSt]
  · isplitr; · iexact HR
    iexact HSt
  iintro HSt
  iapply (sig_step m ρ Kb Ks Kr c 22 (show (22 : ℕ) < 31 by decide) W fc) $$ [HSt]
  · isplitr; · iexact HR
    iexact HSt
  iintro HSt
  iapply (sig_step m ρ Kb Ks Kr c 23 (show (23 : ℕ) < 31 by decide) W fc) $$ [HSt]
  · isplitr; · iexact HR
    iexact HSt
  iintro HSt
  iapply (sig_step m ρ Kb Ks Kr c 24 (show (24 : ℕ) < 31 by decide) W fc) $$ [HSt]
  · isplitr; · iexact HR
    iexact HSt
  iintro HSt
  iapply (sig_step m ρ Kb Ks Kr c 25 (show (25 : ℕ) < 31 by decide) W fc) $$ [HSt]
  · isplitr; · iexact HR
    iexact HSt
  iintro HSt
  iapply (sig_step m ρ Kb Ks Kr c 26 (show (26 : ℕ) < 31 by decide) W fc) $$ [HSt]
  · isplitr; · iexact HR
    iexact HSt
  iintro HSt
  iapply (sig_step m ρ Kb Ks Kr c 27 (show (27 : ℕ) < 31 by decide) W fc) $$ [HSt]
  · isplitr; · iexact HR
    iexact HSt
  iintro HSt
  iapply (sig_step m ρ Kb Ks Kr c 28 (show (28 : ℕ) < 31 by decide) W fc) $$ [HSt]
  · isplitr; · iexact HR
    iexact HSt
  iintro HSt
  iapply (sig_step m ρ Kb Ks Kr c 29 (show (29 : ℕ) < 31 by decide) W fc) $$ [HSt]
  · isplitr; · iexact HR
    iexact HSt
  iintro HSt
  iapply (sig_step m ρ Kb Ks Kr c 30 (show (30 : ℕ) < 31 by decide) W fc) $$ [HSt]
  · isplitr; · iexact HR
    iexact HSt
  iintro HSt
  ihave HO := (sigSt_elim (F := F) c W fc) $$ HSt
  -- the row-maximum into the accumulator
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Hacc; iintro Hacc
  iapply (wp_store 𝒱₀ (c : Thread nD τ) none Set.univ (m := aM) (r := rA) (Mk := Finset.univ) (Finset.subset_univ _)) $$ Hacc; iintro Hacc
  rw [write_acc]
  -- the barrier wait: every peer's slot comes with it
  iapply (Rounds.wp_wait_rest_token 𝒱₀ ER (Rd m ρ) (c : Thread nD τ) none (κ := Kb c)
      (wpE_semWait_eq 𝒱₀ (c : Thread nD τ) none Set.univ) (Set.mem_univ _) () (O := owedRecv c 0) (W := W) (R := 0) (m := 0) (T := ∅)
      (by rw [expect_bar]; decide)) $$ [HcB HO HatB]
  · isplitr; · iapply (rec_bar m ρ Kb Ks Kr c); iexact HR
    isplitl [HcB]; · iexact HcB
    isplitl [HO]; · iexact HO
    isplitr; · iapply (mayWait_bar (F := F) c); iexact Hlev
    iexact HatB
  iintro ⟨HO, HatB, -, Hpay⟩
  ihave Hbp := (Entails.of_eq (rest_bar m ρ c)) $$ Hpay
  -- the accumulator by shares, and the 31 copies
  iapply (use_ent (acc_split m ρ c).1) $$ [Hacc]
  · iexact Hacc
  iintro ⟨Hkeep, Hshares⟩
  ihave HSt := (sendSt_intro m ρ c (insert (SemLoc.reg barS, ()) W)) $$ [HO Hbp Hshares HtS HtV]
  · isplitl [HO]; · iexact HO
    isplitl [Hbp]; · iexact Hbp
    isplitl [Hshares]; · iexact Hshares
    isplitl [HtS]; · iexact HtS
    iexact HtV
  iapply (send_step m ρ Kb Ks Kr c 0 (show (0 : ℕ) < 31 by decide) (insert (SemLoc.reg barS, ()) W) _ (dev32_eq c)) $$ [HSt]
  · isplitr; · iexact HR
    iexact HSt
  iintro HSt
  iapply (send_step m ρ Kb Ks Kr c 1 (show (1 : ℕ) < 31 by decide) (insert (SemLoc.reg barS, ()) W) _ (dev33_eq c)) $$ [HSt]
  · isplitr; · iexact HR
    iexact HSt
  iintro HSt
  iapply (send_step m ρ Kb Ks Kr c 2 (show (2 : ℕ) < 31 by decide) (insert (SemLoc.reg barS, ()) W) _ (dev34_eq c)) $$ [HSt]
  · isplitr; · iexact HR
    iexact HSt
  iintro HSt
  iapply (send_step m ρ Kb Ks Kr c 3 (show (3 : ℕ) < 31 by decide) (insert (SemLoc.reg barS, ()) W) _ (dev35_eq c)) $$ [HSt]
  · isplitr; · iexact HR
    iexact HSt
  iintro HSt
  iapply (send_step m ρ Kb Ks Kr c 4 (show (4 : ℕ) < 31 by decide) (insert (SemLoc.reg barS, ()) W) _ (dev36_eq c)) $$ [HSt]
  · isplitr; · iexact HR
    iexact HSt
  iintro HSt
  iapply (send_step m ρ Kb Ks Kr c 5 (show (5 : ℕ) < 31 by decide) (insert (SemLoc.reg barS, ()) W) _ (dev37_eq c)) $$ [HSt]
  · isplitr; · iexact HR
    iexact HSt
  iintro HSt
  iapply (send_step m ρ Kb Ks Kr c 6 (show (6 : ℕ) < 31 by decide) (insert (SemLoc.reg barS, ()) W) _ (dev38_eq c)) $$ [HSt]
  · isplitr; · iexact HR
    iexact HSt
  iintro HSt
  iapply (send_step m ρ Kb Ks Kr c 7 (show (7 : ℕ) < 31 by decide) (insert (SemLoc.reg barS, ()) W) _ (dev39_eq c)) $$ [HSt]
  · isplitr; · iexact HR
    iexact HSt
  iintro HSt
  iapply (send_step m ρ Kb Ks Kr c 8 (show (8 : ℕ) < 31 by decide) (insert (SemLoc.reg barS, ()) W) _ (dev40_eq c)) $$ [HSt]
  · isplitr; · iexact HR
    iexact HSt
  iintro HSt
  iapply (send_step m ρ Kb Ks Kr c 9 (show (9 : ℕ) < 31 by decide) (insert (SemLoc.reg barS, ()) W) _ (dev41_eq c)) $$ [HSt]
  · isplitr; · iexact HR
    iexact HSt
  iintro HSt
  iapply (send_step m ρ Kb Ks Kr c 10 (show (10 : ℕ) < 31 by decide) (insert (SemLoc.reg barS, ()) W) _ (dev42_eq c)) $$ [HSt]
  · isplitr; · iexact HR
    iexact HSt
  iintro HSt
  iapply (send_step m ρ Kb Ks Kr c 11 (show (11 : ℕ) < 31 by decide) (insert (SemLoc.reg barS, ()) W) _ (dev43_eq c)) $$ [HSt]
  · isplitr; · iexact HR
    iexact HSt
  iintro HSt
  iapply (send_step m ρ Kb Ks Kr c 12 (show (12 : ℕ) < 31 by decide) (insert (SemLoc.reg barS, ()) W) _ (dev44_eq c)) $$ [HSt]
  · isplitr; · iexact HR
    iexact HSt
  iintro HSt
  iapply (send_step m ρ Kb Ks Kr c 13 (show (13 : ℕ) < 31 by decide) (insert (SemLoc.reg barS, ()) W) _ (dev45_eq c)) $$ [HSt]
  · isplitr; · iexact HR
    iexact HSt
  iintro HSt
  iapply (send_step m ρ Kb Ks Kr c 14 (show (14 : ℕ) < 31 by decide) (insert (SemLoc.reg barS, ()) W) _ (dev46_eq c)) $$ [HSt]
  · isplitr; · iexact HR
    iexact HSt
  iintro HSt
  iapply (send_step m ρ Kb Ks Kr c 15 (show (15 : ℕ) < 31 by decide) (insert (SemLoc.reg barS, ()) W) _ (dev47_eq c)) $$ [HSt]
  · isplitr; · iexact HR
    iexact HSt
  iintro HSt
  iapply (send_step m ρ Kb Ks Kr c 16 (show (16 : ℕ) < 31 by decide) (insert (SemLoc.reg barS, ()) W) _ (dev48_eq c)) $$ [HSt]
  · isplitr; · iexact HR
    iexact HSt
  iintro HSt
  iapply (send_step m ρ Kb Ks Kr c 17 (show (17 : ℕ) < 31 by decide) (insert (SemLoc.reg barS, ()) W) _ (dev49_eq c)) $$ [HSt]
  · isplitr; · iexact HR
    iexact HSt
  iintro HSt
  iapply (send_step m ρ Kb Ks Kr c 18 (show (18 : ℕ) < 31 by decide) (insert (SemLoc.reg barS, ()) W) _ (dev50_eq c)) $$ [HSt]
  · isplitr; · iexact HR
    iexact HSt
  iintro HSt
  iapply (send_step m ρ Kb Ks Kr c 19 (show (19 : ℕ) < 31 by decide) (insert (SemLoc.reg barS, ()) W) _ (dev51_eq c)) $$ [HSt]
  · isplitr; · iexact HR
    iexact HSt
  iintro HSt
  iapply (send_step m ρ Kb Ks Kr c 20 (show (20 : ℕ) < 31 by decide) (insert (SemLoc.reg barS, ()) W) _ (dev52_eq c)) $$ [HSt]
  · isplitr; · iexact HR
    iexact HSt
  iintro HSt
  iapply (send_step m ρ Kb Ks Kr c 21 (show (21 : ℕ) < 31 by decide) (insert (SemLoc.reg barS, ()) W) _ (dev53_eq c)) $$ [HSt]
  · isplitr; · iexact HR
    iexact HSt
  iintro HSt
  iapply (send_step m ρ Kb Ks Kr c 22 (show (22 : ℕ) < 31 by decide) (insert (SemLoc.reg barS, ()) W) _ (dev54_eq c)) $$ [HSt]
  · isplitr; · iexact HR
    iexact HSt
  iintro HSt
  iapply (send_step m ρ Kb Ks Kr c 23 (show (23 : ℕ) < 31 by decide) (insert (SemLoc.reg barS, ()) W) _ (dev55_eq c)) $$ [HSt]
  · isplitr; · iexact HR
    iexact HSt
  iintro HSt
  iapply (send_step m ρ Kb Ks Kr c 24 (show (24 : ℕ) < 31 by decide) (insert (SemLoc.reg barS, ()) W) _ (dev56_eq c)) $$ [HSt]
  · isplitr; · iexact HR
    iexact HSt
  iintro HSt
  iapply (send_step m ρ Kb Ks Kr c 25 (show (25 : ℕ) < 31 by decide) (insert (SemLoc.reg barS, ()) W) _ (dev57_eq c)) $$ [HSt]
  · isplitr; · iexact HR
    iexact HSt
  iintro HSt
  iapply (send_step m ρ Kb Ks Kr c 26 (show (26 : ℕ) < 31 by decide) (insert (SemLoc.reg barS, ()) W) _ (dev58_eq c)) $$ [HSt]
  · isplitr; · iexact HR
    iexact HSt
  iintro HSt
  iapply (send_step m ρ Kb Ks Kr c 27 (show (27 : ℕ) < 31 by decide) (insert (SemLoc.reg barS, ()) W) _ (dev59_eq c)) $$ [HSt]
  · isplitr; · iexact HR
    iexact HSt
  iintro HSt
  iapply (send_step m ρ Kb Ks Kr c 28 (show (28 : ℕ) < 31 by decide) (insert (SemLoc.reg barS, ()) W) _ (dev60_eq c)) $$ [HSt]
  · isplitr; · iexact HR
    iexact HSt
  iintro HSt
  iapply (send_step m ρ Kb Ks Kr c 29 (show (29 : ℕ) < 31 by decide) (insert (SemLoc.reg barS, ()) W) _ (dev61_eq c)) $$ [HSt]
  · isplitr; · iexact HR
    iexact HSt
  iintro HSt
  iapply (send_step m ρ Kb Ks Kr c 30 (show (30 : ℕ) < 31 by decide) (insert (SemLoc.reg barS, ()) W) _ (dev62_eq c)) $$ [HSt]
  · isplitr; · iexact HR
    iexact HSt
  iintro HSt
  ihave Hse := (sendSt_elim m ρ c (insert (SemLoc.reg barS, ()) W)) $$ HSt
  icases Hse with ⟨HO, HcS⟩
  -- the 31 receive waits
  ihave HSt := (recvSt_intro m ρ c (insert (SemLoc.reg barS, ()) W)) $$ [HO HcV HatV]
  · isplitl [HO]; · iexact HO
    isplitl [HcV]; · iexact HcV
    iexact HatV
  iapply (recv_step m ρ Kb Ks Kr c 0 (show (0 : ℕ) < 31 by decide)) $$ [HSt]
  · isplitr; · iexact HR
    iexact HSt
  iintro HSt
  iapply (recv_step m ρ Kb Ks Kr c 1 (show (1 : ℕ) < 31 by decide)) $$ [HSt]
  · isplitr; · iexact HR
    iexact HSt
  iintro HSt
  iapply (recv_step m ρ Kb Ks Kr c 2 (show (2 : ℕ) < 31 by decide)) $$ [HSt]
  · isplitr; · iexact HR
    iexact HSt
  iintro HSt
  iapply (recv_step m ρ Kb Ks Kr c 3 (show (3 : ℕ) < 31 by decide)) $$ [HSt]
  · isplitr; · iexact HR
    iexact HSt
  iintro HSt
  iapply (recv_step m ρ Kb Ks Kr c 4 (show (4 : ℕ) < 31 by decide)) $$ [HSt]
  · isplitr; · iexact HR
    iexact HSt
  iintro HSt
  iapply (recv_step m ρ Kb Ks Kr c 5 (show (5 : ℕ) < 31 by decide)) $$ [HSt]
  · isplitr; · iexact HR
    iexact HSt
  iintro HSt
  iapply (recv_step m ρ Kb Ks Kr c 6 (show (6 : ℕ) < 31 by decide)) $$ [HSt]
  · isplitr; · iexact HR
    iexact HSt
  iintro HSt
  iapply (recv_step m ρ Kb Ks Kr c 7 (show (7 : ℕ) < 31 by decide)) $$ [HSt]
  · isplitr; · iexact HR
    iexact HSt
  iintro HSt
  iapply (recv_step m ρ Kb Ks Kr c 8 (show (8 : ℕ) < 31 by decide)) $$ [HSt]
  · isplitr; · iexact HR
    iexact HSt
  iintro HSt
  iapply (recv_step m ρ Kb Ks Kr c 9 (show (9 : ℕ) < 31 by decide)) $$ [HSt]
  · isplitr; · iexact HR
    iexact HSt
  iintro HSt
  iapply (recv_step m ρ Kb Ks Kr c 10 (show (10 : ℕ) < 31 by decide)) $$ [HSt]
  · isplitr; · iexact HR
    iexact HSt
  iintro HSt
  iapply (recv_step m ρ Kb Ks Kr c 11 (show (11 : ℕ) < 31 by decide)) $$ [HSt]
  · isplitr; · iexact HR
    iexact HSt
  iintro HSt
  iapply (recv_step m ρ Kb Ks Kr c 12 (show (12 : ℕ) < 31 by decide)) $$ [HSt]
  · isplitr; · iexact HR
    iexact HSt
  iintro HSt
  iapply (recv_step m ρ Kb Ks Kr c 13 (show (13 : ℕ) < 31 by decide)) $$ [HSt]
  · isplitr; · iexact HR
    iexact HSt
  iintro HSt
  iapply (recv_step m ρ Kb Ks Kr c 14 (show (14 : ℕ) < 31 by decide)) $$ [HSt]
  · isplitr; · iexact HR
    iexact HSt
  iintro HSt
  iapply (recv_step m ρ Kb Ks Kr c 15 (show (15 : ℕ) < 31 by decide)) $$ [HSt]
  · isplitr; · iexact HR
    iexact HSt
  iintro HSt
  iapply (recv_step m ρ Kb Ks Kr c 16 (show (16 : ℕ) < 31 by decide)) $$ [HSt]
  · isplitr; · iexact HR
    iexact HSt
  iintro HSt
  iapply (recv_step m ρ Kb Ks Kr c 17 (show (17 : ℕ) < 31 by decide)) $$ [HSt]
  · isplitr; · iexact HR
    iexact HSt
  iintro HSt
  iapply (recv_step m ρ Kb Ks Kr c 18 (show (18 : ℕ) < 31 by decide)) $$ [HSt]
  · isplitr; · iexact HR
    iexact HSt
  iintro HSt
  iapply (recv_step m ρ Kb Ks Kr c 19 (show (19 : ℕ) < 31 by decide)) $$ [HSt]
  · isplitr; · iexact HR
    iexact HSt
  iintro HSt
  iapply (recv_step m ρ Kb Ks Kr c 20 (show (20 : ℕ) < 31 by decide)) $$ [HSt]
  · isplitr; · iexact HR
    iexact HSt
  iintro HSt
  iapply (recv_step m ρ Kb Ks Kr c 21 (show (21 : ℕ) < 31 by decide)) $$ [HSt]
  · isplitr; · iexact HR
    iexact HSt
  iintro HSt
  iapply (recv_step m ρ Kb Ks Kr c 22 (show (22 : ℕ) < 31 by decide)) $$ [HSt]
  · isplitr; · iexact HR
    iexact HSt
  iintro HSt
  iapply (recv_step m ρ Kb Ks Kr c 23 (show (23 : ℕ) < 31 by decide)) $$ [HSt]
  · isplitr; · iexact HR
    iexact HSt
  iintro HSt
  iapply (recv_step m ρ Kb Ks Kr c 24 (show (24 : ℕ) < 31 by decide)) $$ [HSt]
  · isplitr; · iexact HR
    iexact HSt
  iintro HSt
  iapply (recv_step m ρ Kb Ks Kr c 25 (show (25 : ℕ) < 31 by decide)) $$ [HSt]
  · isplitr; · iexact HR
    iexact HSt
  iintro HSt
  iapply (recv_step m ρ Kb Ks Kr c 26 (show (26 : ℕ) < 31 by decide)) $$ [HSt]
  · isplitr; · iexact HR
    iexact HSt
  iintro HSt
  iapply (recv_step m ρ Kb Ks Kr c 27 (show (27 : ℕ) < 31 by decide)) $$ [HSt]
  · isplitr; · iexact HR
    iexact HSt
  iintro HSt
  iapply (recv_step m ρ Kb Ks Kr c 28 (show (28 : ℕ) < 31 by decide)) $$ [HSt]
  · isplitr; · iexact HR
    iexact HSt
  iintro HSt
  iapply (recv_step m ρ Kb Ks Kr c 29 (show (29 : ℕ) < 31 by decide)) $$ [HSt]
  · isplitr; · iexact HR
    iexact HSt
  iintro HSt
  iapply (recv_step m ρ Kb Ks Kr c 30 (show (30 : ℕ) < 31 by decide)) $$ [HSt]
  · isplitr; · iexact HR
    iexact HSt
  iintro HSt
  ihave Hre := (recvSt_elim m ρ c) $$ HSt
  icases Hre with ⟨HOw, Hslots, HatV⟩
  ihave Hcomm := (comm_split (F := F) c (commV m ρ c)).2 $$ Hslots
  -- the maximum of the accumulator and the slots, stored
  unfold accPts
  iapply (wp_load 𝒱₀ (c : Thread nD τ) none Set.univ (m := aM) (by rw [View.set_whole]; exact Finset.subset_univ _)) $$ Hkeep; iintro Hkeep
  rw [read_acc]
  iapply (wp_load 𝒱₀ (c : Thread nD τ) none Set.univ (m := cM) (Finset.subset_univ _)) $$ Hcomm; iintro Hcomm
  rw [read_comm]
  iapply (wp_load 𝒱₀ (c : Thread nD τ) none Set.univ (m := oM) (Finset.subset_univ _)) $$ Hout; iintro Hout
  iapply (wp_store 𝒱₀ (c : Thread nD τ) none Set.univ (m := oM) (r := rA) (Mk := Finset.univ) (Finset.subset_univ _)) $$ Hout; iintro Hout
  rw [write_out]
  -- the 31 send waits
  ihave HSt := (sendwSt_intro m ρ c) $$ [HOw HcS HatS]
  · isplitl [HOw]; · iexact HOw
    isplitl [HcS]; · iexact HcS
    iexact HatS
  iapply (sendw_step m ρ Kb Ks Kr c 0 (show (0 : ℕ) < 31 by decide)) $$ [HSt]
  · isplitr; · iexact HR
    iexact HSt
  iintro HSt
  iapply (sendw_step m ρ Kb Ks Kr c 1 (show (1 : ℕ) < 31 by decide)) $$ [HSt]
  · isplitr; · iexact HR
    iexact HSt
  iintro HSt
  iapply (sendw_step m ρ Kb Ks Kr c 2 (show (2 : ℕ) < 31 by decide)) $$ [HSt]
  · isplitr; · iexact HR
    iexact HSt
  iintro HSt
  iapply (sendw_step m ρ Kb Ks Kr c 3 (show (3 : ℕ) < 31 by decide)) $$ [HSt]
  · isplitr; · iexact HR
    iexact HSt
  iintro HSt
  iapply (sendw_step m ρ Kb Ks Kr c 4 (show (4 : ℕ) < 31 by decide)) $$ [HSt]
  · isplitr; · iexact HR
    iexact HSt
  iintro HSt
  iapply (sendw_step m ρ Kb Ks Kr c 5 (show (5 : ℕ) < 31 by decide)) $$ [HSt]
  · isplitr; · iexact HR
    iexact HSt
  iintro HSt
  iapply (sendw_step m ρ Kb Ks Kr c 6 (show (6 : ℕ) < 31 by decide)) $$ [HSt]
  · isplitr; · iexact HR
    iexact HSt
  iintro HSt
  iapply (sendw_step m ρ Kb Ks Kr c 7 (show (7 : ℕ) < 31 by decide)) $$ [HSt]
  · isplitr; · iexact HR
    iexact HSt
  iintro HSt
  iapply (sendw_step m ρ Kb Ks Kr c 8 (show (8 : ℕ) < 31 by decide)) $$ [HSt]
  · isplitr; · iexact HR
    iexact HSt
  iintro HSt
  iapply (sendw_step m ρ Kb Ks Kr c 9 (show (9 : ℕ) < 31 by decide)) $$ [HSt]
  · isplitr; · iexact HR
    iexact HSt
  iintro HSt
  iapply (sendw_step m ρ Kb Ks Kr c 10 (show (10 : ℕ) < 31 by decide)) $$ [HSt]
  · isplitr; · iexact HR
    iexact HSt
  iintro HSt
  iapply (sendw_step m ρ Kb Ks Kr c 11 (show (11 : ℕ) < 31 by decide)) $$ [HSt]
  · isplitr; · iexact HR
    iexact HSt
  iintro HSt
  iapply (sendw_step m ρ Kb Ks Kr c 12 (show (12 : ℕ) < 31 by decide)) $$ [HSt]
  · isplitr; · iexact HR
    iexact HSt
  iintro HSt
  iapply (sendw_step m ρ Kb Ks Kr c 13 (show (13 : ℕ) < 31 by decide)) $$ [HSt]
  · isplitr; · iexact HR
    iexact HSt
  iintro HSt
  iapply (sendw_step m ρ Kb Ks Kr c 14 (show (14 : ℕ) < 31 by decide)) $$ [HSt]
  · isplitr; · iexact HR
    iexact HSt
  iintro HSt
  iapply (sendw_step m ρ Kb Ks Kr c 15 (show (15 : ℕ) < 31 by decide)) $$ [HSt]
  · isplitr; · iexact HR
    iexact HSt
  iintro HSt
  iapply (sendw_step m ρ Kb Ks Kr c 16 (show (16 : ℕ) < 31 by decide)) $$ [HSt]
  · isplitr; · iexact HR
    iexact HSt
  iintro HSt
  iapply (sendw_step m ρ Kb Ks Kr c 17 (show (17 : ℕ) < 31 by decide)) $$ [HSt]
  · isplitr; · iexact HR
    iexact HSt
  iintro HSt
  iapply (sendw_step m ρ Kb Ks Kr c 18 (show (18 : ℕ) < 31 by decide)) $$ [HSt]
  · isplitr; · iexact HR
    iexact HSt
  iintro HSt
  iapply (sendw_step m ρ Kb Ks Kr c 19 (show (19 : ℕ) < 31 by decide)) $$ [HSt]
  · isplitr; · iexact HR
    iexact HSt
  iintro HSt
  iapply (sendw_step m ρ Kb Ks Kr c 20 (show (20 : ℕ) < 31 by decide)) $$ [HSt]
  · isplitr; · iexact HR
    iexact HSt
  iintro HSt
  iapply (sendw_step m ρ Kb Ks Kr c 21 (show (21 : ℕ) < 31 by decide)) $$ [HSt]
  · isplitr; · iexact HR
    iexact HSt
  iintro HSt
  iapply (sendw_step m ρ Kb Ks Kr c 22 (show (22 : ℕ) < 31 by decide)) $$ [HSt]
  · isplitr; · iexact HR
    iexact HSt
  iintro HSt
  iapply (sendw_step m ρ Kb Ks Kr c 23 (show (23 : ℕ) < 31 by decide)) $$ [HSt]
  · isplitr; · iexact HR
    iexact HSt
  iintro HSt
  iapply (sendw_step m ρ Kb Ks Kr c 24 (show (24 : ℕ) < 31 by decide)) $$ [HSt]
  · isplitr; · iexact HR
    iexact HSt
  iintro HSt
  iapply (sendw_step m ρ Kb Ks Kr c 25 (show (25 : ℕ) < 31 by decide)) $$ [HSt]
  · isplitr; · iexact HR
    iexact HSt
  iintro HSt
  iapply (sendw_step m ρ Kb Ks Kr c 26 (show (26 : ℕ) < 31 by decide)) $$ [HSt]
  · isplitr; · iexact HR
    iexact HSt
  iintro HSt
  iapply (sendw_step m ρ Kb Ks Kr c 27 (show (27 : ℕ) < 31 by decide)) $$ [HSt]
  · isplitr; · iexact HR
    iexact HSt
  iintro HSt
  iapply (sendw_step m ρ Kb Ks Kr c 28 (show (28 : ℕ) < 31 by decide)) $$ [HSt]
  · isplitr; · iexact HR
    iexact HSt
  iintro HSt
  iapply (sendw_step m ρ Kb Ks Kr c 29 (show (29 : ℕ) < 31 by decide)) $$ [HSt]
  · isplitr; · iexact HR
    iexact HSt
  iintro HSt
  iapply (sendw_step m ρ Kb Ks Kr c 30 (show (30 : ℕ) < 31 by decide)) $$ [HSt]
  · isplitr; · iexact HR
    iexact HSt
  iintro HSt
  ihave Hwe := (sendwSt_elim m ρ c) $$ HSt
  icases Hwe with ⟨HOw, Hshares, HatS⟩
  iapply (use_ent (acc_split m ρ c).2) $$ [Hkeep Hshares]
  · unfold accPts
    isplitl [Hkeep]; · iexact Hkeep
    iexact Hshares
  iintro Hacc
  -- the 62 own cells close
  imod (close_sends m ρ Kb Ks Kr c) $$ [HatS] with HzS
  · isplitr; · iexact HR
    iexact HatS
  imod (close_recvs m ρ Kb Ks Kr c) $$ [HatV] with HzV
  · isplitr; · iexact HR
    iexact HatV
  rw [wp_ret]; imodintro
  iapply Hk
  unfold bodyPost Φ₁ Dat.owesAt Pipeline.owesWithin
  rw [show (dats m ρ 0 c).owed t₀.succ = 0 from rfl]
  isplitl [Hacc Hcomm HzS HzV]
  · isplitl [Hacc]; · iexact Hacc
    isplitl [Hcomm]; · iexact Hcomm
    isplitl [HzS]; · iexact HzS
    iexact HzV
  icases HOw with ⟨%W', HO⟩
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%Kb, %Ks, %Kr, Hg⟩, Hcr, Hlev⟩, Hacc, Hcomm⟩, Ho, Hx, Hout⟩
  iapply (sound_body m ρ Kb Ks Kr c fun _ => bodyPost m ρ c)
  unfold bodyPre
  isplitr []
  · isplitl [Hg Hcr Hlev Hacc Hcomm]
    · isplitl [Hg]; · iexact Hg
      isplitl [Hcr]; · iexact Hcr
      isplitl [Hlev]; · iexact Hlev
      isplitl [Hacc]; · iexact Hacc
      iexact Hcomm
    isplitl [Ho]; · iexact Ho
    isplitl [Hx] <;> iassumption
  · iintro H; iexact H

end Cert.Kernel.Hand

end
-- ==== Proof.Kernel.Launch.lean ====
/-
  The launch of the all-to-all maximum on the 32 devices: the protocol's ghost state made and dealt, each device's body run
  from it, and what the argument and result arrays hold in every final state.
-/
import proofs.«900925_g7700000000000926_dist_max_ax0_shard0_i_m512_n256_v7x_i32_f32_1_alg».proof.Proof.Kernel.Data
import proofs.«900925_g7700000000000926_dist_max_ax0_shard0_i_m512_n256_v7x_i32_f32_1_alg».proof.Proof.Kernel.Tables
import proofs.«900925_g7700000000000926_dist_max_ax0_shard0_i_m512_n256_v7x_i32_f32_1_alg».proof.Proof.Kernel.Slots
import proofs.«900925_g7700000000000926_dist_max_ax0_shard0_i_m512_n256_v7x_i32_f32_1_alg».proof.Proof.Kernel.Levels
import proofs.«900925_g7700000000000926_dist_max_ax0_shard0_i_m512_n256_v7x_i32_f32_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens the launch element is made of -/

/-- The protocol's cells, indexed: a device's barrier cell, its 31 send cells, its 31 receive cells. -/
abbrev CellIx : Type := Dev nD ⊕ (Dev nD × Fin 31) ⊕ (Dev nD × Fin 31)

def kcell : CellIx → GSem nD τ sig
  | .inl c => barCell c
  | .inr (.inl cj) => sendCell cj.1 cj.2
  | .inr (.inr cj) => recvCell cj.1 cj.2

theorem cell_dev {c c' : Dev nD} {s s' : SemLoc sig} (h : (((c : Thread nD τ), s) : GSem nD τ sig) = ((c' : Thread nD τ), s')) : c = c' :=
  congrArg (fun g : GSem nD τ sig => g.1.1) h
theorem cell_sem {c c' : Dev nD} {s s' : SemLoc sig} (h : (((c : Thread nD τ), s) : GSem nD τ sig) = ((c' : Thread nD τ), s')) : s = s' :=
  congrArg Prod.snd h

theorem kcell_injective : Function.Injective kcell := by
  rintro (c | ⟨c, j⟩ | ⟨c, j⟩) (c' | ⟨c', j'⟩ | ⟨c', j'⟩) h
  · rw [cell_dev h]
  · exact absurd (cell_sem h).symm (send_ne_bar j')
  · exact absurd (cell_sem h).symm (recv_ne_bar j')
  · exact absurd (cell_sem h) (send_ne_bar j)
  · have h1 : c = c' := cell_dev h
    have h2 : j = j' := sendS_injective (SemLoc.dma.inj (cell_sem h))
    rw [h1, h2]
  · exact absurd (cell_sem h) (send_ne_recv j j')
  · exact absurd (cell_sem h) (recv_ne_bar j)
  · exact absurd (cell_sem h).symm (send_ne_recv j' j)
  · have h1 : c = c' := cell_dev h
    have h2 : j = j' := recvS_injective (SemLoc.dma.inj (cell_sem h))
    rw [h1, h2]

def protoCells : Finset (GSem nD τ sig) := Finset.univ.map ⟨kcell, kcell_injective⟩

/-- The duty tokens as minted: every duty `d` of a barrier cell, the one duty of each send and of each receive cell. -/
abbrev TokIx : Type := (Dev nD × Fin 31) ⊕ (Dev nD × Fin 31) ⊕ (Dev nD × Fin 31)

def ktok : TokIx → GSem nD τ sig × ℕ × Fin 31
  | .inl cd => (barCell cd.1, 0, cd.2)
  | .inr (.inl cj) => (sendCell cj.1 cj.2, 0, 0)
  | .inr (.inr cj) => (recvCell cj.1 cj.2, 0, 0)

theorem ktok_injective : Function.Injective ktok := by
  rintro (⟨c, d⟩ | ⟨c, j⟩ | ⟨c, j⟩) (⟨c', d'⟩ | ⟨c', j'⟩ | ⟨c', j'⟩) h
  · have h1 : c = c' := Sum.inl.inj (kcell_injective (a₁ := .inl c) (a₂ := .inl c') (congrArg Prod.fst h))
    have h2 : d = d' := congrArg (fun x : GSem nD τ sig × ℕ × Fin 31 => x.2.2) h
    rw [h1, h2]
  · exact absurd (kcell_injective (a₁ := .inl c) (a₂ := .inr (.inl (c', j'))) (congrArg Prod.fst h)) (fun e => by cases e)
  · exact absurd (kcell_injective (a₁ := .inl c) (a₂ := .inr (.inr (c', j'))) (congrArg Prod.fst h)) (fun e => by cases e)
  · exact absurd (kcell_injective (a₁ := .inr (.inl (c, j))) (a₂ := .inl c') (congrArg Prod.fst h)) (fun e => by cases e)
  · rw [Sum.inl.inj (Sum.inr.inj (kcell_injective (a₁ := .inr (.inl (c, j))) (a₂ := .inr (.inl (c', j'))) (congrArg Prod.fst h)))]
  · exact absurd (kcell_injective (a₁ := .inr (.inl (c, j))) (a₂ := .inr (.inr (c', j'))) (congrArg Prod.fst h)) (fun e => by cases e)
  · exact absurd (kcell_injective (a₁ := .inr (.inr (c, j))) (a₂ := .inl c') (congrArg Prod.fst h)) (fun e => by cases e)
  · exact absurd (kcell_injective (a₁ := .inr (.inr (c, j))) (a₂ := .inr (.inl (c', j'))) (congrArg Prod.fst h)) (fun e => by cases e)
  · rw [Sum.inr.inj (Sum.inr.inj (kcell_injective (a₁ := .inr (.inr (c, j))) (a₂ := .inr (.inr (c', j'))) (congrArg Prod.fst h)))]

def protoToks : Finset (GSem nD τ sig × ℕ × Fin 31) := Finset.univ.map ⟨ktok, ktok_injective⟩

def u₀ : UU :=
  (initOf (Pipeline.cells cfgs cellOf_inj) (Pipeline.launchToks cfgs cellOf_inj), initOf protoCells protoToks)

/-- An assertion about a cell, on each of device `c`'s 63 cells. -/
def own63 (Φ : GSem nD τ sig → sProp 𝕄) (c : Dev nD) : sProp 𝕄 :=
  iprop(Φ (barCell c) ∗ (bigSep Finset.univ fun j : Fin 31 => Φ (sendCell c j)) ∗ (bigSep Finset.univ fun j : Fin 31 => Φ (recvCell c j)))

/-- An assertion over all the protocol's cells, device by device. -/
theorem bigSep_cells (Φ : GSem nD τ sig → sProp 𝕄) : bigSep protoCells Φ = bigSep Finset.univ (own63 Φ) := by
  unfold protoCells own63
  rw [bigSep_map, bigSep_univ_sum, bigSep_univ_sum, bigSep_univ_prod, bigSep_univ_prod, bigSep_sep', bigSep_sep']
  rfl

/-- The duty tokens of device `c`'s own cells. -/
def toks (c : Dev nD) : sProp 𝕄 :=
  iprop((bigSep Finset.univ fun d : Fin 31 => dutyTok ER (barCell c) 0 d)
    ∗ (bigSep Finset.univ fun j : Fin 31 => dutyTok ER (sendCell c j) 0 (0 : Fin 31))
    ∗ (bigSep Finset.univ fun j : Fin 31 => dutyTok ER (recvCell c j) 0 (0 : Fin 31)))

theorem bigSep_toks : bigSep protoToks (fun x => (dutyTok ER x.1 x.2.1 x.2.2 : sProp 𝕄)) = bigSep Finset.univ fun c : Dev nD => toks c := by
  unfold protoToks toks
  rw [bigSep_map, bigSep_univ_sum, bigSep_univ_sum, bigSep_univ_prod, bigSep_univ_prod, bigSep_univ_prod, bigSep_sep', bigSep_sep']
  rfl

/-- What the launch element deals device `c`: its 63 cells' round states, that each has reached round 0, its positions, and
    the tokens of its own cells' duties. -/
def G (c : Dev nD) : sProp 𝕄 :=
  iprop(own63 (fun g => roundState ER (Rd m ρ) g 0) c ∗ own63 (fun g => reached ER g 0) c ∗ own63 (fun g => atPos ER g 0 ∅ 0) c ∗ toks c)

/-- What the global step makes of it. -/
def G' (c : Dev nD) : sProp 𝕄 := iprop(∃ Kb Ks Kr, ghost m ρ Kb Ks Kr c)

theorem fund : BI.own (ER (initOf protoCells protoToks)) ⊢ (|==> bigSep Finset.univ (G m ρ) : sProp 𝕄) := by
  iintro HX
  imod (Rounds.fund ER (Rd m ρ) protoCells protoToks) $$ HX with ⟨Hst, Hr, Hat, Htok⟩
  imodintro
  ihave Hst' := (Entails.of_eq (bigSep_cells fun g => roundState ER (Rd m ρ) g 0)) $$ Hst
  ihave Hr' := (Entails.of_eq (bigSep_cells (F := F) fun g => reached ER g 0)) $$ Hr
  ihave Hat' := (Entails.of_eq (bigSep_cells (F := F) fun g => atPos ER g 0 ∅ 0)) $$ Hat
  ihave Htok' := (Entails.of_eq (bigSep_toks (F := F))) $$ Htok
  unfold G; simp only [bigSep_sep']
  isplitl [Hst']; · iexact Hst'
  isplitl [Hr']; · iexact Hr'
  isplitl [Hat']; · iexact Hat'
  iexact Htok'

/-! ### The global step: every cell's invariant allocated, the tokens dealt to their payers -/

/-- The 62 own semaphores counted as 31 and 31. -/
def e62 : Fin 31 ⊕ Fin 31 ≃ Fin 62 := (finSumFinEquiv : Fin 31 ⊕ Fin 31 ≃ Fin (31 + 31))
theorem e62_inl_val (j : Fin 31) : (e62 (Sum.inl j)).val = j.val := rfl
theorem e62_inr_val (j : Fin 31) : (e62 (Sum.inr j)).val = 31 + j.val := rfl

/-- The kernel's own 62 semaphores are its send and its receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 31 => semVal (sendCell c j) 0) ∗ (bigSep Finset.univ fun j : Fin 31 => semVal (recvCell c j) 0)) := by
  unfold Pipeline.ownSems0
  rw [bigSep_univ_equiv e62, bigSep_univ_sum]
  have hS : ∀ j : Fin 31, osem (e62 (Sum.inl j)) = SemLoc.dma (sendS j) := fun j => by
    show (if h : (e62 (Sum.inl j)).val < 31 then SemLoc.dma (sendS ⟨(e62 (Sum.inl j)).val, h⟩) else _) = _
    rw [dif_pos (show (e62 (Sum.inl j)).val < 31 from j.isLt)]
    rfl
  have hR : ∀ j : Fin 31, osem (e62 (Sum.inr j)) = SemLoc.dma (recvS j) := fun j => by
    show (if h : (e62 (Sum.inr j)).val < 31 then _ else SemLoc.dma (recvS ⟨(e62 (Sum.inr j)).val - 31, _⟩)) = _
    rw [dif_neg (show ¬ (e62 (Sum.inr j)).val < 31 from by rw [e62_inr_val]; omega)]
    exact congrArg (fun k => SemLoc.dma (recvS k)) (Fin.ext (by show (e62 (Sum.inr j)).val - 31 = j.val; rw [e62_inr_val]; omega))
  simp only [hS, hR]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (own63 (fun g => semVal g 0) c : sProp 𝕄) := by
  rw [ownSems0_eq, unscopedSems0_eq]
  unfold own63
  iintro ⟨⟨HS, HV⟩, HB⟩
  isplitl [HB]; · iexact HB
  isplitl [HS] <;> iassumption

theorem own63_sep (Φ Ψ : GSem nD τ sig → sProp 𝕄) (c : Dev nD) :
    iprop(own63 Φ c ∗ own63 Ψ c) ⊢ own63 (fun g => iprop(Φ g ∗ Ψ g)) c := by
  unfold own63
  rw [bigSep_sep', bigSep_sep']
  iintro ⟨⟨H1, H2, H3⟩, H4, H5, H6⟩
  isplitl [H1 H4]; · isplitl [H1] <;> iassumption
  isplitl [H2 H5]; · isplitl [H2] <;> iassumption
  isplitl [H3] <;> iassumption

theorem own63_mono {Φ Ψ : GSem nD τ sig → sProp 𝕄} (c : Dev nD) (h : ∀ g, Φ g ⊢ Ψ g) : own63 Φ c ⊢ own63 Ψ c := by
  unfold own63
  exact sep_mono (h _) (sep_mono (bigSep_mono fun j _ => h _) (bigSep_mono fun j _ => h _))

theorem own63_fupd (Φ : GSem nD τ sig → sProp 𝕄) (c : Dev nD) :
    own63 (fun g => iprop(|={Set.univ}=> Φ g)) c ⊢ |={Set.univ}=> own63 Φ c := by
  unfold own63
  iintro ⟨H1, H2, H3⟩
  imod H1
  imod (bigSep_fupd Finset.univ fun j : Fin 31 => Φ (sendCell c j)) $$ H2 with H2
  imod (bigSep_fupd Finset.univ fun j : Fin 31 => Φ (recvCell c j)) $$ H3 with H3
  imodintro
  isplitl [H1]; · iexact H1
  isplitl [H2] <;> iassumption

/-- What a device holds once its own 63 cells' invariants are allocated. -/
def mid (c : Dev nD) : sProp 𝕄 :=
  iprop(own63 (fun g => iprop(∃ κ : ℕ, cellInv ER (Rd m ρ) κ g)) c ∗ own63 (fun g => reached ER g 0) c ∗ own63 (fun g => atPos ER g 0 ∅ 0) c ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> mid m ρ c := by
  unfold G mid
  iintro ⟨Hos, Hus, Hst, Hr, Hat, Htok⟩
  ihave Hv := (sems0_eq (F := F) c) $$ [Hos Hus]
  · isplitl [Hos] <;> iassumption
  imod (show iprop(own63 (fun g => semVal g 0) c ∗ own63 (fun g => roundState ER (Rd m ρ) g 0) c)
      ⊢ (|={Set.univ}=> own63 (fun g => iprop(∃ κ : ℕ, cellInv ER (Rd m ρ) κ g)) c : sProp 𝕄) from
        ((own63_sep _ _ c).trans (own63_mono c fun g => (Rounds.body_intro ER (Rd m ρ) g).trans inv_alloc)).trans (own63_fupd _ c)) $$ [Hv Hst] with Hinv
  · isplitl [Hv] <;> iassumption
  imodintro
  isplitl [Hinv]; · iexact Hinv
  isplitl [Hr]; · iexact Hr
  isplitl [Hat]; · iexact Hat
  iexact Htok

/-- An assertion on every device's 63 cells, family by family. -/
theorem bigSep_own63 (Φ : GSem nD τ sig → sProp 𝕄) :
    bigSep Finset.univ (own63 Φ) = iprop((bigSep Finset.univ fun c : Dev nD => Φ (barCell c))
      ∗ (bigSep Finset.univ fun cj : Dev nD × Fin 31 => Φ (sendCell cj.1 cj.2))
      ∗ (bigSep Finset.univ fun cj : Dev nD × Fin 31 => Φ (recvCell cj.1 cj.2))) := by
  unfold own63
  rw [bigSep_sep', bigSep_sep', bigSep_univ_prod (fun cj : Dev nD × Fin 31 => Φ (sendCell cj.1 cj.2)),
    bigSep_univ_prod (fun cj : Dev nD × Fin 31 => Φ (recvCell cj.1 cj.2))]

/-! The tokens dealt: duty `back j` of the `j`-th peer's barrier cell and the receive duty of the `j`-th peer's slot `j` go to
    the device that pays them. -/

/-- `(c, j) ↦ (peer c j, back j)`, its own inverse. -/
def barEquiv : Dev nD × Fin 31 ≃ Dev nD × Fin 31 where
  toFun cj := (peer cj.1 cj.2, back cj.2)
  invFun cj := (peer cj.1 cj.2, back cj.2)
  left_inv cj := by obtain ⟨c, j⟩ := cj; show (peer (peer c j) (back j), back (back j)) = (c, j); rw [peer_back, back_back]
  right_inv cj := by obtain ⟨c, j⟩ := cj; show (peer (peer c j) (back j), back (back j)) = (c, j); rw [peer_back, back_back]

/-- `(c, j) ↦ (peer c j, j)`, inverse `(c, j) ↦ (srcOf c j, j)`. -/
def recvEquiv : Dev nD × Fin 31 ≃ Dev nD × Fin 31 where
  toFun cj := (peer cj.1 cj.2, cj.2)
  invFun cj := (srcOf cj.1 cj.2, cj.2)
  left_inv cj := by obtain ⟨c, j⟩ := cj; show (srcOf (peer c j) j, j) = (c, j); rw [srcOf_peer]
  right_inv cj := by obtain ⟨c, j⟩ := cj; show (peer (srcOf c j) j, j) = (c, j); rw [peer_srcOf]

theorem toks_around : (bigSep Finset.univ fun c : Dev nD => (toks c : sProp 𝕄)) ⊢ bigSep Finset.univ fun c : Dev nD => payToks c := by
  have hB : (bigSep Finset.univ fun c : Dev nD => bigSep Finset.univ fun d : Fin 31 => (dutyTok ER (barCell c) 0 d : sProp 𝕄))
      = bigSep Finset.univ fun c : Dev nD => bigSep Finset.univ fun j : Fin 31 => (dutyTok ER (barCell (peer c j)) 0 (back j) : sProp 𝕄) :=
    ((bigSep_univ_prod (fun cd : Dev nD × Fin 31 => (dutyTok ER (barCell cd.1) 0 cd.2 : sProp 𝕄))).symm.trans
      (bigSep_univ_equiv barEquiv _)).trans (bigSep_univ_prod _)
  have hR : (bigSep Finset.univ fun c : Dev nD => bigSep Finset.univ fun j : Fin 31 => (dutyTok ER (recvCell c j) 0 (0 : Fin 31) : sProp 𝕄))
      = bigSep Finset.univ fun c : Dev nD => bigSep Finset.univ fun j : Fin 31 => (dutyTok ER (recvCell (peer c j) j) 0 (0 : Fin 31) : sProp 𝕄) :=
    ((bigSep_univ_prod (fun cd : Dev nD × Fin 31 => (dutyTok ER (recvCell cd.1 cd.2) 0 (0 : Fin 31) : sProp 𝕄))).symm.trans
      (bigSep_univ_equiv recvEquiv _)).trans (bigSep_univ_prod _)
  unfold toks payToks
  rw [bigSep_sep', bigSep_sep', bigSep_sep', bigSep_sep', hB, hR]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (Kb : Dev nD → ℕ) (Ks Kr : Dev nD × Fin 31 → ℕ) (c : Dev nD) :
    iprop(records m ρ Kb Ks Kr ∗ (positions c ∗ payToks c)) ⊢ G' m ρ c := by
  unfold G' ghost
  iintro H
  iexists Kb, Ks, Kr
  iexact H

theorem regroup : (bigSep Finset.univ (mid m ρ) : sProp 𝕄) ⊢ bigSep Finset.univ (G' m ρ) := by
  unfold mid
  rw [bigSep_sep', bigSep_sep', bigSep_sep', bigSep_own63, bigSep_own63]
  iintro ⟨⟨HIb, HIs, HIr⟩, ⟨#HRb, #HRs, #HRr⟩, Hat, Htok⟩
  ihave HKb := (BI.bigSep_exists_pi Finset.univ (fun (c : Dev nD) (κ : ℕ) => (cellInv ER (Rd m ρ) κ (barCell c) : sProp 𝕄))) $$ HIb
  ihave HKs := (BI.bigSep_exists_pi Finset.univ (fun (cj : Dev nD × Fin 31) (κ : ℕ) => (cellInv ER (Rd m ρ) κ (sendCell cj.1 cj.2) : sProp 𝕄))) $$ HIs
  ihave HKr := (BI.bigSep_exists_pi Finset.univ (fun (cj : Dev nD × Fin 31) (κ : ℕ) => (cellInv ER (Rd m ρ) κ (recvCell cj.1 cj.2) : sProp 𝕄))) $$ HIr
  icases HKb with ⟨%Kb, #HIb⟩
  icases HKs with ⟨%Ks, #HIs⟩
  icases HKr with ⟨%Kr, #HIr⟩
  ihave Htk := (toks_around (F := F)) $$ Htok
  iapply (bigSep_with_persistent (R := records m ρ Kb Ks Kr) fun c _ => ghost_intro m ρ Kb Ks Kr c)
  isplitr
  · unfold records
    isplitl; · iexact HIb
    isplitl; · iexact HIs
    isplitl; · iexact HIr
    isplitl; · iexact HRb
    isplitl; · iexact HRs
    iexact HRr
  · rw [bigSep_sep']
    isplitl [Hat]
    · iexact Hat
    · iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Ha⟩, ⟨%f', Hc⟩⟩
  isplitl [Hs]; · iexact Hs
  isplitl [Ha]
  · iexists f; iexact Ha
  · iexists f'; iexact Hc

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Ha, Hc, HzS, HzV⟩
  isplitr; · iempintro
  isplitl [HzS HzV]
  · isplitl [HzS] <;> iassumption
  isplitl [Ha]
  · iexists (accV m ρ c); iexact Ha
  · iexists (commV m ρ c); iexact Hc

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters: every weakly fair execution of @main on the 32 devices terminates, and every final
    state has each device's arrays at the computed contents — given each device's body (the body obligation). -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maximum of the device's row-maximum and its 31 slots. -/
theorem finalA_out (c : Dev nD) : finalA m ρ c (1 : Fin 2) = outAt m ρ c := by
  have h1 := (dats (F := F) m ρ 0 c).arrAt_succ (1 : Fin 2) t₀
  rw [flush0_1 t₀, if_pos rfl] at h1
  refine h1.trans ?_
  have h2 : (dats (F := F) m ρ 0 c).flushed (1 : Fin 2) t₀ = outAt m ρ c := rfl
  rw [h2]
  exact Memref.write_access_unit_zero_univ (Elt F) main_v1 (funext fun a => Nat.zero_mul _) _ _ _

/-- info: 'Cert.Kernel.Hand.run_main' depends on axioms: [propext, Classical.choice, Quot.sound] -/
#guard_msgs in #print axioms run_main

/-- info: 'Cert.Kernel.Hand.finalA_out' depends on axioms: [propext, Classical.choice, Quot.sound] -/
#guard_msgs in #print axioms finalA_out

end Cert.Kernel.Hand

end
-- ==== Proof.Kernel.Final.lean ====
/-
  The run of the all-to-all maximum read as values: in every final state each device's result is the maximum of its
  row-maximum and its 31 slots, and its argument is unchanged.
-/
import proofs.«900925_g7700000000000926_dist_max_ax0_shard0_i_m512_n256_v7x_i32_f32_1_alg».proof.Proof.Kernel.Launch

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  OrdCont.mono (θ_run defs (onTc (τ := τ) (main (F := F))) (s₀ m ρ))
    (fun r (h : QC m ρ r) c => ⟨(h c 1).trans (finalA_out m ρ c), (h c 0).trans (finalA_x m ρ c)⟩)
    (run_main m ρ hbody)

end Cert.Kernel.Hand

end
-- ==== Proof.KernelIdeal.Peers.lean ====
/-
  The all-to-all pattern of the kernel on the ring of 32 devices: device `c`'s `j`-th peer is `c + j + 1` (mod 32), for
  `j = 0 … 30` — every other device exactly once —, and the device whose `j`-th peer is `c` is `c - j - 1` (mod 32).
-/
import proofs.«900925_g7700000000000926_dist_max_ax0_shard0_i_m512_n256_v7x_i32_f32_1_alg».proof.KernelIdeal

namespace Cert.KernelIdeal.Hand

open Cert.KernelIdeal
open Idealize.ShloMosaic

/-- The `j`-th device after `c` on the ring, `j = 0 … 30`: the device `c` signals `j`-th and copies to `j`-th. -/
def peer (c : Dev nD) (j : Fin 31) : Dev nD := ⟨(c.val + j.val + 1) % 32, Nat.mod_lt _ (by decide)⟩

/-- The device whose `j`-th peer is `c`: the one whose copy lands in `c`'s slot `j`. -/
def srcOf (c : Dev nD) (j : Fin 31) : Dev nD := ⟨(c.val + 31 - j.val) % 32, Nat.mod_lt _ (by decide)⟩

/-- The index at which `peer c j` counts `c` among ITS peers: `c = peer (peer c j) (30 - j)`. -/
def back (j : Fin 31) : Fin 31 := ⟨30 - j.val, by omega⟩

theorem srcOf_peer (c : Dev nD) (j : Fin 31) : srcOf (peer c j) j = c := by
  apply Fin.ext; show ((c.val + j.val + 1) % 32 + 31 - j.val) % 32 = c.val
  have hc : c.val < 32 := c.isLt; have := j.isLt; omega
theorem peer_srcOf (c : Dev nD) (j : Fin 31) : peer (srcOf c j) j = c := by
  apply Fin.ext; show ((c.val + 31 - j.val) % 32 + j.val + 1) % 32 = c.val
  have hc : c.val < 32 := c.isLt; have := j.isLt; omega
theorem peer_back (c : Dev nD) (j : Fin 31) : peer (peer c j) (back j) = c := by
  apply Fin.ext; show ((c.val + j.val + 1) % 32 + (30 - j.val) + 1) % 32 = c.val
  have hc : c.val < 32 := c.isLt; have := j.isLt; omega
theorem srcOf_eq_peer_back (c : Dev nD) (j : Fin 31) : srcOf c j = peer c (back j) := by
  apply Fin.ext; show (c.val + 31 - j.val) % 32 = (c.val + (30 - j.val) + 1) % 32
  have hc : c.val < 32 := c.isLt; have := j.isLt; omega
theorem back_back (j : Fin 31) : back (back j) = j := by
  apply Fin.ext; show 30 - (30 - j.val) = j.val; have := j.isLt; omega
theorem peer_ne (c : Dev nD) (j : Fin 31) : peer c j ≠ c := by
  intro h; have := congrArg Fin.val h
  change (c.val + j.val + 1) % 32 = c.val at this
  have hc : c.val < 32 := c.isLt; have := j.isLt; omega
theorem peer_injective (c : Dev nD) : Function.Injective (peer c) := by
  intro j j' h; have := congrArg Fin.val h
  change (c.val + j.val + 1) % 32 = (c.val + j'.val + 1) % 32 at this
  apply Fin.ext; have hc : c.val < 32 := c.isLt; have := j.isLt; have := j'.isLt; omega
theorem peer_eq_iff (c d : Dev nD) (j : Fin 31) : peer d j = c ↔ d = srcOf c j :=
  ⟨fun h => by rw [← h, srcOf_peer], fun h => by rw [h, peer_srcOf]⟩
/-- Every device other than `c` is exactly one of `c`'s peers. -/
theorem exists_peer (c d : Dev nD) (h : d ≠ c) : ∃ j : Fin 31, peer c j = d := by
  have hc : c.val < 32 := c.isLt; have hd : d.val < 32 := d.isLt
  have hne : d.val ≠ c.val := fun e => h (Fin.ext e)
  refine ⟨⟨(d.val + 31 - c.val) % 32, ?_⟩, ?_⟩
  · show (d.val + 31 - c.val) % 32 < 31; omega
  · apply Fin.ext; show (c.val + (d.val + 31 - c.val) % 32 + 1) % 32 = d.val; omega

end Cert.KernelIdeal.Hand
-- ==== Proof.KernelIdeal.DevTable.lean ====
import proofs.«900925_g7700000000000926_dist_max_ax0_shard0_i_m512_n256_v7x_i32_f32_1_alg».proof.Proof.KernelIdeal.Peers
import proofs.«900925_g7700000000000926_dist_max_ax0_shard0_i_m512_n256_v7x_i32_f32_1_alg».proof.Proof.Gen.KernelIdeal
import Idealize.ShloMosaic.Lib.Decide

namespace Cert.KernelIdeal.Hand

open Cert.KernelIdeal Cert.KernelIdeal.Gen
open Idealize.ShloMosaic

/-! The closed form of each printed device chain, decided over the 32 devices: the n-th signal and the n-th copy both address the n-th peer. -/
theorem dev1_val : ∀ c : Dev nD, k0_dev1 c = (c.val + 0 + 1) % 32 := by decide +kernel
theorem dev1_eq (c : Dev nD) : (⟨k0_dev1 c, k0_dev1_lt c⟩ : Dev nD) = peer c ⟨0, by decide⟩ := Fin.ext (dev1_val c)
theorem dev2_val : ∀ c : Dev nD, k0_dev2 c = (c.val + 1 + 1) % 32 := by decide +kernel
theorem dev2_eq (c : Dev nD) : (⟨k0_dev2 c, k0_dev2_lt c⟩ : Dev nD) = peer c ⟨1, by decide⟩ := Fin.ext (dev2_val c)
theorem dev3_val : ∀ c : Dev nD, k0_dev3 c = (c.val + 2 + 1) % 32 := by decide +kernel
theorem dev3_eq (c : Dev nD) : (⟨k0_dev3 c, k0_dev3_lt c⟩ : Dev nD) = peer c ⟨2, by decide⟩ := Fin.ext (dev3_val c)
theorem dev4_val : ∀ c : Dev nD, k0_dev4 c = (c.val + 3 + 1) % 32 := by decide +kernel
theorem dev4_eq (c : Dev nD) : (⟨k0_dev4 c, k0_dev4_lt c⟩ : Dev nD) = peer c ⟨3, by decide⟩ := Fin.ext (dev4_val c)
theorem dev5_val : ∀ c : Dev nD, k0_dev5 c = (c.val + 4 + 1) % 32 := by decide +kernel
theorem dev5_eq (c : Dev nD) : (⟨k0_dev5 c, k0_dev5_lt c⟩ : Dev nD) = peer c ⟨4, by decide⟩ := Fin.ext (dev5_val c)
theorem dev6_val : ∀ c : Dev nD, k0_dev6 c = (c.val + 5 + 1) % 32 := by decide +kernel
theorem dev6_eq (c : Dev nD) : (⟨k0_dev6 c, k0_dev6_lt c⟩ : Dev nD) = peer c ⟨5, by decide⟩ := Fin.ext (dev6_val c)
theorem dev7_val : ∀ c : Dev nD, k0_dev7 c = (c.val + 6 + 1) % 32 := by decide +kernel
theorem dev7_eq (c : Dev nD) : (⟨k0_dev7 c, k0_dev7_lt c⟩ : Dev nD) = peer c ⟨6, by decide⟩ := Fin.ext (dev7_val c)
theorem dev8_val : ∀ c : Dev nD, k0_dev8 c = (c.val + 7 + 1) % 32 := by decide +kernel
theorem dev8_eq (c : Dev nD) : (⟨k0_dev8 c, k0_dev8_lt c⟩ : Dev nD) = peer c ⟨7, by decide⟩ := Fin.ext (dev8_val c)
theorem dev9_val : ∀ c : Dev nD, k0_dev9 c = (c.val + 8 + 1) % 32 := by decide +kernel
theorem dev9_eq (c : Dev nD) : (⟨k0_dev9 c, k0_dev9_lt c⟩ : Dev nD) = peer c ⟨8, by decide⟩ := Fin.ext (dev9_val c)
theorem dev10_val : ∀ c : Dev nD, k0_dev10 c = (c.val + 9 + 1) % 32 := by decide +kernel
theorem dev10_eq (c : Dev nD) : (⟨k0_dev10 c, k0_dev10_lt c⟩ : Dev nD) = peer c ⟨9, by decide⟩ := Fin.ext (dev10_val c)
theorem dev11_val : ∀ c : Dev nD, k0_dev11 c = (c.val + 10 + 1) % 32 := by decide +kernel
theorem dev11_eq (c : Dev nD) : (⟨k0_dev11 c, k0_dev11_lt c⟩ : Dev nD) = peer c ⟨10, by decide⟩ := Fin.ext (dev11_val c)
theorem dev12_val : ∀ c : Dev nD, k0_dev12 c = (c.val + 11 + 1) % 32 := by decide +kernel
theorem dev12_eq (c : Dev nD) : (⟨k0_dev12 c, k0_dev12_lt c⟩ : Dev nD) = peer c ⟨11, by decide⟩ := Fin.ext (dev12_val c)
theorem dev13_val : ∀ c : Dev nD, k0_dev13 c = (c.val + 12 + 1) % 32 := by decide +kernel
theorem dev13_eq (c : Dev nD) : (⟨k0_dev13 c, k0_dev13_lt c⟩ : Dev nD) = peer c ⟨12, by decide⟩ := Fin.ext (dev13_val c)
theorem dev14_val : ∀ c : Dev nD, k0_dev14 c = (c.val + 13 + 1) % 32 := by decide +kernel
theorem dev14_eq (c : Dev nD) : (⟨k0_dev14 c, k0_dev14_lt c⟩ : Dev nD) = peer c ⟨13, by decide⟩ := Fin.ext (dev14_val c)
theorem dev15_val : ∀ c : Dev nD, k0_dev15 c = (c.val + 14 + 1) % 32 := by decide +kernel
theorem dev15_eq (c : Dev nD) : (⟨k0_dev15 c, k0_dev15_lt c⟩ : Dev nD) = peer c ⟨14, by decide⟩ := Fin.ext (dev15_val c)
theorem dev16_val : ∀ c : Dev nD, k0_dev16 c = (c.val + 15 + 1) % 32 := by decide +kernel
theorem dev16_eq (c : Dev nD) : (⟨k0_dev16 c, k0_dev16_lt c⟩ : Dev nD) = peer c ⟨15, by decide⟩ := Fin.ext (dev16_val c)
theorem dev17_val : ∀ c : Dev nD, k0_dev17 c = (c.val + 16 + 1) % 32 := by decide +kernel
theorem dev17_eq (c : Dev nD) : (⟨k0_dev17 c, k0_dev17_lt c⟩ : Dev nD) = peer c ⟨16, by decide⟩ := Fin.ext (dev17_val c)
theorem dev18_val : ∀ c : Dev nD, k0_dev18 c = (c.val + 17 + 1) % 32 := by decide +kernel
theorem dev18_eq (c : Dev nD) : (⟨k0_dev18 c, k0_dev18_lt c⟩ : Dev nD) = peer c ⟨17, by decide⟩ := Fin.ext (dev18_val c)
theorem dev19_val : ∀ c : Dev nD, k0_dev19 c = (c.val + 18 + 1) % 32 := by decide +kernel
theorem dev19_eq (c : Dev nD) : (⟨k0_dev19 c, k0_dev19_lt c⟩ : Dev nD) = peer c ⟨18, by decide⟩ := Fin.ext (dev19_val c)
theorem dev20_val : ∀ c : Dev nD, k0_dev20 c = (c.val + 19 + 1) % 32 := by decide +kernel
theorem dev20_eq (c : Dev nD) : (⟨k0_dev20 c, k0_dev20_lt c⟩ : Dev nD) = peer c ⟨19, by decide⟩ := Fin.ext (dev20_val c)
theorem dev21_val : ∀ c : Dev nD, k0_dev21 c = (c.val + 20 + 1) % 32 := by decide +kernel
theorem dev21_eq (c : Dev nD) : (⟨k0_dev21 c, k0_dev21_lt c⟩ : Dev nD) = peer c ⟨20, by decide⟩ := Fin.ext (dev21_val c)
theorem dev22_val : ∀ c : Dev nD, k0_dev22 c = (c.val + 21 + 1) % 32 := by decide +kernel
theorem dev22_eq (c : Dev nD) : (⟨k0_dev22 c, k0_dev22_lt c⟩ : Dev nD) = peer c ⟨21, by decide⟩ := Fin.ext (dev22_val c)
theorem dev23_val : ∀ c : Dev nD, k0_dev23 c = (c.val + 22 + 1) % 32 := by decide +kernel
theorem dev23_eq (c : Dev nD) : (⟨k0_dev23 c, k0_dev23_lt c⟩ : Dev nD) = peer c ⟨22, by decide⟩ := Fin.ext (dev23_val c)
theorem dev24_val : ∀ c : Dev nD, k0_dev24 c = (c.val + 23 + 1) % 32 := by decide +kernel
theorem dev24_eq (c : Dev nD) : (⟨k0_dev24 c, k0_dev24_lt c⟩ : Dev nD) = peer c ⟨23, by decide⟩ := Fin.ext (dev24_val c)
theorem dev25_val : ∀ c : Dev nD, k0_dev25 c = (c.val + 24 + 1) % 32 := by decide +kernel
theorem dev25_eq (c : Dev nD) : (⟨k0_dev25 c, k0_dev25_lt c⟩ : Dev nD) = peer c ⟨24, by decide⟩ := Fin.ext (dev25_val c)
theorem dev26_val : ∀ c : Dev nD, k0_dev26 c = (c.val + 25 + 1) % 32 := by decide +kernel
theorem dev26_eq (c : Dev nD) : (⟨k0_dev26 c, k0_dev26_lt c⟩ : Dev nD) = peer c ⟨25, by decide⟩ := Fin.ext (dev26_val c)
theorem dev27_val : ∀ c : Dev nD, k0_dev27 c = (c.val + 26 + 1) % 32 := by decide +kernel
theorem dev27_eq (c : Dev nD) : (⟨k0_dev27 c, k0_dev27_lt c⟩ : Dev nD) = peer c ⟨26, by decide⟩ := Fin.ext (dev27_val c)
theorem dev28_val : ∀ c : Dev nD, k0_dev28 c = (c.val + 27 + 1) % 32 := by decide +kernel
theorem dev28_eq (c : Dev nD) : (⟨k0_dev28 c, k0_dev28_lt c⟩ : Dev nD) = peer c ⟨27, by decide⟩ := Fin.ext (dev28_val c)
theorem dev29_val : ∀ c : Dev nD, k0_dev29 c = (c.val + 28 + 1) % 32 := by decide +kernel
theorem dev29_eq (c : Dev nD) : (⟨k0_dev29 c, k0_dev29_lt c⟩ : Dev nD) = peer c ⟨28, by decide⟩ := Fin.ext (dev29_val c)
theorem dev30_val : ∀ c : Dev nD, k0_dev30 c = (c.val + 29 + 1) % 32 := by decide +kernel
theorem dev30_eq (c : Dev nD) : (⟨k0_dev30 c, k0_dev30_lt c⟩ : Dev nD) = peer c ⟨29, by decide⟩ := Fin.ext (dev30_val c)
theorem dev31_val : ∀ c : Dev nD, k0_dev31 c = (c.val + 30 + 1) % 32 := by decide +kernel
theorem dev31_eq (c : Dev nD) : (⟨k0_dev31 c, k0_dev31_lt c⟩ : Dev nD) = peer c ⟨30, by decide⟩ := Fin.ext (dev31_val c)
theorem dev32_val : ∀ c : Dev nD, k0_dev32 c = (c.val + 0 + 1) % 32 := by decide +kernel
theorem dev32_eq (c : Dev nD) : (⟨k0_dev32 c, k0_dev32_lt c⟩ : Dev nD) = peer c ⟨0, by decide⟩ := Fin.ext (dev32_val c)
theorem dev33_val : ∀ c : Dev nD, k0_dev33 c = (c.val + 1 + 1) % 32 := by decide +kernel
theorem dev33_eq (c : Dev nD) : (⟨k0_dev33 c, k0_dev33_lt c⟩ : Dev nD) = peer c ⟨1, by decide⟩ := Fin.ext (dev33_val c)
theorem dev34_val : ∀ c : Dev nD, k0_dev34 c = (c.val + 2 + 1) % 32 := by decide +kernel
theorem dev34_eq (c : Dev nD) : (⟨k0_dev34 c, k0_dev34_lt c⟩ : Dev nD) = peer c ⟨2, by decide⟩ := Fin.ext (dev34_val c)
theorem dev35_val : ∀ c : Dev nD, k0_dev35 c = (c.val + 3 + 1) % 32 := by decide +kernel
theorem dev35_eq (c : Dev nD) : (⟨k0_dev35 c, k0_dev35_lt c⟩ : Dev nD) = peer c ⟨3, by decide⟩ := Fin.ext (dev35_val c)
theorem dev36_val : ∀ c : Dev nD, k0_dev36 c = (c.val + 4 + 1) % 32 := by decide +kernel
theorem dev36_eq (c : Dev nD) : (⟨k0_dev36 c, k0_dev36_lt c⟩ : Dev nD) = peer c ⟨4, by decide⟩ := Fin.ext (dev36_val c)
theorem dev37_val : ∀ c : Dev nD, k0_dev37 c = (c.val + 5 + 1) % 32 := by decide +kernel
theorem dev37_eq (c : Dev nD) : (⟨k0_dev37 c, k0_dev37_lt c⟩ : Dev nD) = peer c ⟨5, by decide⟩ := Fin.ext (dev37_val c)
theorem dev38_val : ∀ c : Dev nD, k0_dev38 c = (c.val + 6 + 1) % 32 := by decide +kernel
theorem dev38_eq (c : Dev nD) : (⟨k0_dev38 c, k0_dev38_lt c⟩ : Dev nD) = peer c ⟨6, by decide⟩ := Fin.ext (dev38_val c)
theorem dev39_val : ∀ c : Dev nD, k0_dev39 c = (c.val + 7 + 1) % 32 := by decide +kernel
theorem dev39_eq (c : Dev nD) : (⟨k0_dev39 c, k0_dev39_lt c⟩ : Dev nD) = peer c ⟨7, by decide⟩ := Fin.ext (dev39_val c)
theorem dev40_val : ∀ c : Dev nD, k0_dev40 c = (c.val + 8 + 1) % 32 := by decide +kernel
theorem dev40_eq (c : Dev nD) : (⟨k0_dev40 c, k0_dev40_lt c⟩ : Dev nD) = peer c ⟨8, by decide⟩ := Fin.ext (dev40_val c)
theorem dev41_val : ∀ c : Dev nD, k0_dev41 c = (c.val + 9 + 1) % 32 := by decide +kernel
theorem dev41_eq (c : Dev nD) : (⟨k0_dev41 c, k0_dev41_lt c⟩ : Dev nD) = peer c ⟨9, by decide⟩ := Fin.ext (dev41_val c)
theorem dev42_val : ∀ c : Dev nD, k0_dev42 c = (c.val + 10 + 1) % 32 := by decide +kernel
theorem dev42_eq (c : Dev nD) : (⟨k0_dev42 c, k0_dev42_lt c⟩ : Dev nD) = peer c ⟨10, by decide⟩ := Fin.ext (dev42_val c)
theorem dev43_val : ∀ c : Dev nD, k0_dev43 c = (c.val + 11 + 1) % 32 := by decide +kernel
theorem dev43_eq (c : Dev nD) : (⟨k0_dev43 c, k0_dev43_lt c⟩ : Dev nD) = peer c ⟨11, by decide⟩ := Fin.ext (dev43_val c)
theorem dev44_val : ∀ c : Dev nD, k0_dev44 c = (c.val + 12 + 1) % 32 := by decide +kernel
theorem dev44_eq (c : Dev nD) : (⟨k0_dev44 c, k0_dev44_lt c⟩ : Dev nD) = peer c ⟨12, by decide⟩ := Fin.ext (dev44_val c)
theorem dev45_val : ∀ c : Dev nD, k0_dev45 c = (c.val + 13 + 1) % 32 := by decide +kernel
theorem dev45_eq (c : Dev nD) : (⟨k0_dev45 c, k0_dev45_lt c⟩ : Dev nD) = peer c ⟨13, by decide⟩ := Fin.ext (dev45_val c)
theorem dev46_val : ∀ c : Dev nD, k0_dev46 c = (c.val + 14 + 1) % 32 := by decide +kernel
theorem dev46_eq (c : Dev nD) : (⟨k0_dev46 c, k0_dev46_lt c⟩ : Dev nD) = peer c ⟨14, by decide⟩ := Fin.ext (dev46_val c)
theorem dev47_val : ∀ c : Dev nD, k0_dev47 c = (c.val + 15 + 1) % 32 := by decide +kernel
theorem dev47_eq (c : Dev nD) : (⟨k0_dev47 c, k0_dev47_lt c⟩ : Dev nD) = peer c ⟨15, by decide⟩ := Fin.ext (dev47_val c)
theorem dev48_val : ∀ c : Dev nD, k0_dev48 c = (c.val + 16 + 1) % 32 := by decide +kernel
theorem dev48_eq (c : Dev nD) : (⟨k0_dev48 c, k0_dev48_lt c⟩ : Dev nD) = peer c ⟨16, by decide⟩ := Fin.ext (dev48_val c)
theorem dev49_val : ∀ c : Dev nD, k0_dev49 c = (c.val + 17 + 1) % 32 := by decide +kernel
theorem dev49_eq (c : Dev nD) : (⟨k0_dev49 c, k0_dev49_lt c⟩ : Dev nD) = peer c ⟨17, by decide⟩ := Fin.ext (dev49_val c)
theorem dev50_val : ∀ c : Dev nD, k0_dev50 c = (c.val + 18 + 1) % 32 := by decide +kernel
theorem dev50_eq (c : Dev nD) : (⟨k0_dev50 c, k0_dev50_lt c⟩ : Dev nD) = peer c ⟨18, by decide⟩ := Fin.ext (dev50_val c)
theorem dev51_val : ∀ c : Dev nD, k0_dev51 c = (c.val + 19 + 1) % 32 := by decide +kernel
theorem dev51_eq (c : Dev nD) : (⟨k0_dev51 c, k0_dev51_lt c⟩ : Dev nD) = peer c ⟨19, by decide⟩ := Fin.ext (dev51_val c)
theorem dev52_val : ∀ c : Dev nD, k0_dev52 c = (c.val + 20 + 1) % 32 := by decide +kernel
theorem dev52_eq (c : Dev nD) : (⟨k0_dev52 c, k0_dev52_lt c⟩ : Dev nD) = peer c ⟨20, by decide⟩ := Fin.ext (dev52_val c)
theorem dev53_val : ∀ c : Dev nD, k0_dev53 c = (c.val + 21 + 1) % 32 := by decide +kernel
theorem dev53_eq (c : Dev nD) : (⟨k0_dev53 c, k0_dev53_lt c⟩ : Dev nD) = peer c ⟨21, by decide⟩ := Fin.ext (dev53_val c)
theorem dev54_val : ∀ c : Dev nD, k0_dev54 c = (c.val + 22 + 1) % 32 := by decide +kernel
theorem dev54_eq (c : Dev nD) : (⟨k0_dev54 c, k0_dev54_lt c⟩ : Dev nD) = peer c ⟨22, by decide⟩ := Fin.ext (dev54_val c)
theorem dev55_val : ∀ c : Dev nD, k0_dev55 c = (c.val + 23 + 1) % 32 := by decide +kernel
theorem dev55_eq (c : Dev nD) : (⟨k0_dev55 c, k0_dev55_lt c⟩ : Dev nD) = peer c ⟨23, by decide⟩ := Fin.ext (dev55_val c)
theorem dev56_val : ∀ c : Dev nD, k0_dev56 c = (c.val + 24 + 1) % 32 := by decide +kernel
theorem dev56_eq (c : Dev nD) : (⟨k0_dev56 c, k0_dev56_lt c⟩ : Dev nD) = peer c ⟨24, by decide⟩ := Fin.ext (dev56_val c)
theorem dev57_val : ∀ c : Dev nD, k0_dev57 c = (c.val + 25 + 1) % 32 := by decide +kernel
theorem dev57_eq (c : Dev nD) : (⟨k0_dev57 c, k0_dev57_lt c⟩ : Dev nD) = peer c ⟨25, by decide⟩ := Fin.ext (dev57_val c)
theorem dev58_val : ∀ c : Dev nD, k0_dev58 c = (c.val + 26 + 1) % 32 := by decide +kernel
theorem dev58_eq (c : Dev nD) : (⟨k0_dev58 c, k0_dev58_lt c⟩ : Dev nD) = peer c ⟨26, by decide⟩ := Fin.ext (dev58_val c)
theorem dev59_val : ∀ c : Dev nD, k0_dev59 c = (c.val + 27 + 1) % 32 := by decide +kernel
theorem dev59_eq (c : Dev nD) : (⟨k0_dev59 c, k0_dev59_lt c⟩ : Dev nD) = peer c ⟨27, by decide⟩ := Fin.ext (dev59_val c)
theorem dev60_val : ∀ c : Dev nD, k0_dev60 c = (c.val + 28 + 1) % 32 := by decide +kernel
theorem dev60_eq (c : Dev nD) : (⟨k0_dev60 c, k0_dev60_lt c⟩ : Dev nD) = peer c ⟨28, by decide⟩ := Fin.ext (dev60_val c)
theorem dev61_val : ∀ c : Dev nD, k0_dev61 c = (c.val + 29 + 1) % 32 := by decide +kernel
theorem dev61_eq (c : Dev nD) : (⟨k0_dev61 c, k0_dev61_lt c⟩ : Dev nD) = peer c ⟨29, by decide⟩ := Fin.ext (dev61_val c)
theorem dev62_val : ∀ c : Dev nD, k0_dev62 c = (c.val + 30 + 1) % 32 := by decide +kernel
theorem dev62_eq (c : Dev nD) : (⟨k0_dev62 c, k0_dev62_lt c⟩ : Dev nD) = peer c ⟨30, by decide⟩ := Fin.ext (dev62_val c)

end Cert.KernelIdeal.Hand
-- ==== Proof.KernelIdeal.Cells.lean ====
/-
  The all-to-all maximum on 32 devices: the names its proof is written over.
  Every device `c` holds its row-maximum `accV c` (a 1×256 row) in its accumulator, tells each of the 31 other devices
  — through their barrier cell — that its landing slots exist, waits to be told so by all 31, copies the accumulator into
  slot `j` of device `peer c j`, waits for its own 31 slots to be filled (slot `j` by device `srcOf c j`), and takes the
  maximum of its accumulator and the 31 slots.
  Cells (semaphores seen through rounds): a device's barrier cell has the 31 duties `d : Fin 31` of one unit each, duty `d`
  paid by `peer c d` and handing over that device's slot `d`; its `j`-th send cell and `j`-th receive cell have one duty
  each, of the row's transfer credit, handing back a share of the accumulator and the filled slot.
-/
import proofs.«900925_g7700000000000926_dist_max_ax0_shard0_i_m512_n256_v7x_i32_f32_1_alg».proof.Proof.KernelIdeal.DevTable
import proofs.«900925_g7700000000000926_dist_max_ax0_shard0_i_m512_n256_v7x_i32_f32_1_alg».proof.Proof.Gen.KernelIdeal.Skeleton
import proofs.«900925_g7700000000000926_dist_max_ax0_shard0_i_m512_n256_v7x_i32_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## Memrefs, semaphores, cells -/

abbrev xM : Memref sig .tc .vmem S512x256 .f32 := Memref.whole cc0_stg0_0
abbrev oM : Memref sig .tc .vmem S1x256 .f32 := Memref.whole cc0_stg1_0
/-- the accumulator (the row-maximum of the device's block) -/
abbrev aM : Memref sig .tc .vmem S1x256 .f32 := Memref.whole cc0_scratch0
/-- the 31 landing slots -/
abbrev cM : Memref sig .tc .vmem S31x1x256 .f32 := Memref.whole cc0_scratch1

theorem slot_inb (j : Fin 31) : ∀ a, (![j.val, 0, 0] : Fin 3 → Nat) a + S1x1x256.size a ≤ S31x1x256.size a := by
  intro a; have := j.isLt; fin_cases a <;> simp [Shape.size] <;> try omega
theorem sem_inb (j : Fin 31) : ∀ a, (![j.val] : Fin 1 → Nat) a + S1.size a ≤ S31.size a := by
  intro a; have := j.isLt; fin_cases a <;> simp [Shape.size] <;> try omega

/-- Landing slot `j`, as the body names it: row `j` of the slots' buffer as a 1×256 memref. -/
abbrev slotM (j : Fin 31) : Memref sig .tc .vmem S1x256 .f32 :=
  ((cM : Memref sig .tc .vmem S31x1x256 .f32).slice (Rect.unit (s := S31x1x256) ![j.val, 0, 0] S1x1x256.size (slot_inb j)) (fun _ => rfl)).squeeze S1x256 squeezes_S1x1x256_S1x256

abbrev barS : Sem sig := (SemArray.scalar (sig.barrier 0 rfl) : Sems sig S_).sem
abbrev sendS (j : Fin 31) : DmaSem sig := ((cc0_scratch2.slice (Rect.unit (s := S31) ![j.val] S1.size (sem_inb j))).squeeze S_ squeezes_S1_S_).sem
abbrev recvS (j : Fin 31) : DmaSem sig := ((cc0_scratch3.slice (Rect.unit (s := S31) ![j.val] S1.size (sem_inb j))).squeeze S_ squeezes_S1_S_).sem

abbrev barCell (c : Dev nD) : GSem nD τ sig := ((c : Thread nD τ), .reg barS)
abbrev sendCell (c : Dev nD) (j : Fin 31) : GSem nD τ sig := ((c : Thread nD τ), .dma (sendS j))
abbrev recvCell (c : Dev nD) (j : Fin 31) : GSem nD τ sig := ((c : Thread nD τ), .dma (recvS j))

/-- The transfer credit of one 1×256 row. -/
abbrev N : ℕ := (aM : Memref sig .tc .vmem S1x256 .f32).view.dmaCredit
theorem N_pos : 0 < N := View.dmaCredit_pos _ (by decide)

/-- Which slot a DMA semaphore serves: `(false, j)` the `j`-th send semaphore, `(true, j)` the `j`-th receive semaphore. -/
def slotOf (q : DmaSem sig) : Option (Bool × Fin 31) :=
  if h : 2 ≤ q.val ∧ q.val < 33 then some (false, ⟨q.val - 2, by omega⟩)
  else if h' : 33 ≤ q.val ∧ q.val < 64 then some (true, ⟨q.val - 33, by omega⟩) else none

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s row-maximum: what its accumulator holds from the first store on. -/
def accV (c : Dev nD) : (cc0_scratch0 : Ref sig .tc).ty.Contents (Elt F) := k0_pay1 (xstg m ρ c)

/-- What device `c`'s 31 slots hold once all have landed: slot `j` the row-maximum of `srcOf c j`. -/
def commV (c : Dev nD) : (cc0_scratch1 : Ref sig .tc).ty.Contents (Elt F) :=
  fun i => accV m ρ (srcOf c (i 0)) (ValueIdx.ix2 (0 : Fin 1) (i 2))

/-- The kernel's result on device `c`. -/
def outAt (c : Dev nD) : (cc0_stg1_0 : Ref sig .tc).ty.Contents (Elt F) := k0_pay2 (accV m ρ c) (commV m ρ c)

/-! ## Points-tos -/

/-- slot `j` of device `c` at contents `f` (a valuation of the whole slots' buffer, read on the slot's elements only) -/
def slotPts (c : Dev nD) (j : Fin 31) (f : Buf (Elt F) ((slotM j).view.loc (c : Thread nD τ))) : sProp 𝕄 :=
  (slotM j).view.loc (c : Thread nD τ) ↦[(slotM j).view.set]{fullShare} f
/-- the accumulator of device `c` holding its row-maximum, at share `q` -/
def accPts (c : Dev nD) (q : PosShare TreeShare) : sProp 𝕄 :=
  (aM : Memref sig .tc .vmem S1x256 .f32).view.loc (c : Thread nD τ) ↦[(aM : Memref sig .tc .vmem S1x256 .f32).view.set]{q} accV m ρ c
/-- the share of the accumulator lent to the `j`-th copy -/
abbrev accShare (j : Fin 31) : PosShare TreeShare := Transfers.shareTok fullShare 31 j
/-- the share of the accumulator the device keeps while its 31 copies read it -/
abbrev accKeep : PosShare TreeShare := Transfers.shareDrop fullShare 31

/-! ## The schedule -/

/-- Duty `d` of `c`'s barrier cell, paid by `peer c d`: that device's slot `d` (at any contents) and that it has reached
    round 0 of its `d`-th receive cell — what `c`'s `d`-th copy needs. -/
def barPay (c : Dev nD) (d : Fin 31) : sProp 𝕄 :=
  iprop((∃ f, slotPts (F := F) (peer c d) d f) ∗ reached ER (recvCell (peer c d) d) 0)
/-- What the landing in slot `j` hands `c`: the slot holding `srcOf c j`'s row-maximum. -/
def recvPay (c : Dev nD) (j : Fin 31) : sProp 𝕄 := slotPts c j (commV m ρ c)
/-- What the `j`-th copy's departure hands back: its share of the accumulator. -/
def sendPay (c : Dev nD) (j : Fin 31) : sProp 𝕄 := accPts m ρ c (accShare j)

/-- One round, round 0: a barrier cell has the 31 duties of one unit each; a send or receive cell one duty (named 0) of a
    row's credit. -/
def Rd : Rounds.Schedule (GSem nD τ sig) (Fin 31) 𝕄 where
  duties g r :=
    if r = 0 ∧ g.1.2 = .tc then
      (match g.2 with
       | .reg s => if s = barS then Finset.univ else ∅
       | .dma q => if (slotOf q).isSome then {0} else ∅)
    else ∅
  unitless _ := False
  amount g _ _ := match g.2 with | .reg _ => 1 | .dma _ => N
  payload g _ d := match g.2 with
    | .reg _ => barPay g.1.1 d
    | .dma q => match slotOf q with
      | some (false, j) => sendPay m ρ g.1.1 j
      | some (true, j) => recvPay m ρ g.1.1 j
      | none => iprop(emp)
  amount_pos g _ _ _ := by
    cases g.2 with
    | reg _ => exact Nat.one_pos
    | dma _ => exact N_pos

/-! ## What each device owes at launch, and the levels -/

/-- After its first `k` signals device `c` still owes the barrier cells of its peers `k … 30` one unit each, -/
def owedBar (c : Dev nD) (k : ℕ) : CellTallies nD τ sig Unit :=
  ((Finset.univ.filter fun j : Fin 31 => k ≤ j.val).sum fun j => tallyAt (barCell (peer c j)) () 1)
/-- and after its first `k` copies the receive cells `k … 30` of the peers a row's credit each. -/
def owedRecv (c : Dev nD) (k : ℕ) : CellTallies nD τ sig Unit :=
  ((Finset.univ.filter fun j : Fin 31 => k ≤ j.val).sum fun j => tallyAt (recvCell (peer c j) j) () N)
def O₀ (c : Dev nD) : CellTallies nD τ sig Unit := owedRecv c 0 + owedBar c 0

def L (g : GSem nD τ sig) : Finset Unit := if g.1.2 = .tc then {()} else ∅
/-- barrier cells at 1, receive cells at 2, everything else (staging, send) at 0. -/
def lv (g : GSem nD τ sig) (_ : Unit) : ℕ :=
  match g.2 with
  | .reg s => if s = barS then 1 else 0
  | .dma q => match slotOf q with | some (true, _) => 2 | _ => 0

end Cert.KernelIdeal.Hand

end
-- ==== Proof.KernelIdeal.Data.lean ====
/-
  The ghost state of the all-to-all maximum and the pipeline's proof data for its one grid point.
  Every device is given ALL the cells' invariants and that every cell has reached round 0 (persistent facts), its own
  positions in its 63 cells, and the tokens of the 93 duties it pays: one duty of each peer's barrier cell, its own 31
  send duties, and the receive duty of slot `j` of its `j`-th peer.
-/
import proofs.«900925_g7700000000000926_dist_max_ax0_shard0_i_m512_n256_v7x_i32_f32_1_alg».proof.Proof.KernelIdeal.Cells

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Ghost state -/

/-- The invariants of all cells under the names they were allocated at, and that each has reached round 0. -/
def records (Kb : Dev nD → ℕ) (Ks Kr : Dev nD × Fin 31 → ℕ) : sProp 𝕄 :=
  iprop((bigSep Finset.univ fun c : Dev nD => cellInv ER (Rd m ρ) (Kb c) (barCell c))
    ∗ (bigSep Finset.univ fun cj : Dev nD × Fin 31 => cellInv ER (Rd m ρ) (Ks cj) (sendCell cj.1 cj.2))
    ∗ (bigSep Finset.univ fun cj : Dev nD × Fin 31 => cellInv ER (Rd m ρ) (Kr cj) (recvCell cj.1 cj.2))
    ∗ (bigSep Finset.univ fun c : Dev nD => reached ER (barCell c) 0)
    ∗ (bigSep Finset.univ fun cj : Dev nD × Fin 31 => reached ER (sendCell cj.1 cj.2) 0)
    ∗ (bigSep Finset.univ fun cj : Dev nD × Fin 31 => reached ER (recvCell cj.1 cj.2) 0))

instance records_persistent (Kb : Dev nD → ℕ) (Ks Kr : Dev nD × Fin 31 → ℕ) : BI.Persistent (records m ρ Kb Ks Kr) := by
  unfold records; infer_instance

/-- The duty tokens device `c` pays with: duty `back j` of its `j`-th peer's barrier cell, its own `j`-th send duty, the
    receive duty of slot `j` of its `j`-th peer. -/
def payToks (c : Dev nD) : sProp 𝕄 :=
  iprop((bigSep Finset.univ fun j : Fin 31 => dutyTok ER (barCell (peer c j)) 0 (back j))
    ∗ (bigSep Finset.univ fun j : Fin 31 => dutyTok ER (sendCell c j) 0 (0 : Fin 31))
    ∗ (bigSep Finset.univ fun j : Fin 31 => dutyTok ER (recvCell (peer c j) j) 0 (0 : Fin 31)))

/-- Device `c`'s positions: round 0, nothing taken, of its barrier cell and its 31 + 31 transfer cells. -/
def positions (c : Dev nD) : sProp 𝕄 :=
  iprop(atPos ER (barCell c) 0 ∅ 0
    ∗ (bigSep Finset.univ fun j : Fin 31 => atPos ER (sendCell c j) 0 ∅ 0)
    ∗ (bigSep Finset.univ fun j : Fin 31 => atPos ER (recvCell c j) 0 ∅ 0))

def ghost (Kb : Dev nD → ℕ) (Ks Kr : Dev nD × Fin 31 → ℕ) (c : Dev nD) : sProp 𝕄 :=
  iprop(records m ρ Kb Ks Kr ∗ positions c ∗ payToks c)

/-- The credit device `c` is launched with: the 31 units of its barrier cell and a row's credit on each receive cell. -/
def creds (c : Dev nD) : sProp 𝕄 :=
  iprop(cred (tallyAt (barCell c) () 31) ∗ bigSep Finset.univ fun j : Fin 31 => cred (tallyAt (recvCell c j) () N))

/-- What device `c`'s body starts from, beside its buffers. -/
def start (c : Dev nD) : sProp 𝕄 :=
  iprop((∃ Kb Ks Kr, ghost m ρ Kb Ks Kr c) ∗ creds c ∗ levAts L lv)

abbrev accBuf (c : Dev nD) (f : Buf (Elt F) ((c : Thread nD τ).loc cc0_scratch0)) : sProp 𝕄 := ((c : Thread nD τ).loc cc0_scratch0) ↦{fullShare} f
abbrev commBuf (c : Dev nD) (f : Buf (Elt F) ((c : Thread nD τ).loc cc0_scratch1)) : sProp 𝕄 := ((c : Thread nD τ).loc cc0_scratch1) ↦{fullShare} f

def Φ₀ (c : Dev nD) : sProp 𝕄 := iprop(start m ρ c ∗ (∃ f, accBuf c f) ∗ (∃ f, commBuf c f))
/-- After the point: the accumulator at the row-maximum, the slots at the peers' row-maxima, the 62 own cells at zero. -/
def Φ₁ (c : Dev nD) : sProp 𝕄 :=
  iprop(accBuf c (accV m ρ c) ∗ commBuf c (commV m ρ c)
    ∗ (bigSep Finset.univ fun j : Fin 31 => semVal (sendCell c j) 0) ∗ (bigSep Finset.univ fun j : Fin 31 => semVal (recvCell c j) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- The kernel's own (scoped) semaphores as the launch theorem indexes them: the 31 send, then the 31 receive semaphores. -/
abbrev osem : Fin 62 → SemLoc sig := fun i =>
  if h : i.val < 31 then .dma (sendS ⟨i.val, h⟩) else .dma (recvS ⟨i.val - 31, by have := i.isLt; omega⟩)

end Cert.KernelIdeal.Hand

end
-- ==== Proof.KernelIdeal.Tables.lean ====
/-
  The schedule of the all-to-all maximum read cell by cell: which duties each cell has at round 0, their amounts and payloads.
-/
import proofs.«900925_g7700000000000926_dist_max_ax0_shard0_i_m512_n256_v7x_i32_f32_1_alg».proof.Proof.KernelIdeal.Cells

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which slot a semaphore serves -/

/-- The `j`-th send semaphore is semaphore `2 + j`, -/
theorem sendS_val (j : Fin 31) : (sendS j).val = 2 + j.val := by revert j; decide
/-- and the `j`-th receive semaphore is semaphore `33 + j`. -/
theorem recvS_val (j : Fin 31) : (recvS j).val = 33 + j.val := by revert j; decide

theorem slotOf_send (j : Fin 31) : slotOf (sendS j) = some (false, j) := by
  have hv := sendS_val j; have hj := j.isLt
  unfold slotOf
  rw [dif_pos (by omega)]
  exact congrArg some (Prod.ext rfl (Fin.ext (by show (sendS j).val - 2 = j.val; omega)))
theorem slotOf_recv (j : Fin 31) : slotOf (recvS j) = some (true, j) := by
  have hv := recvS_val j; have hj := j.isLt
  unfold slotOf
  rw [dif_neg (by omega), dif_pos (by omega)]
  exact congrArg some (Prod.ext rfl (Fin.ext (by show (recvS j).val - 33 = j.val; omega)))
theorem sendS_injective : Function.Injective sendS := by
  intro j j' h
  have := congrArg Fin.val h
  rw [sendS_val, sendS_val] at this
  exact Fin.ext (by omega)
theorem recvS_injective : Function.Injective recvS := by
  intro j j' h
  have := congrArg Fin.val h
  rw [recvS_val, recvS_val] at this
  exact Fin.ext (by omega)
theorem send_ne_recv (j j' : Fin 31) : (SemLoc.dma (sendS j) : SemLoc sig) ≠ .dma (recvS j') := by
  intro h
  have h' : sendS j = recvS j' := by injection h
  have := congrArg Fin.val h'
  rw [sendS_val, recvS_val] at this
  have := j.isLt; omega
theorem send_ne_bar (j : Fin 31) : (SemLoc.dma (sendS j) : SemLoc sig) ≠ .reg barS := fun h => by cases h
theorem recv_ne_bar (j : Fin 31) : (SemLoc.dma (recvS j) : SemLoc sig) ≠ .reg barS := fun h => by cases h

instance Rd_payload_storable (g : GSem nD τ sig) (r : ℕ) (d : Fin 31) :
    BI.Storable (upEmb : UEmb _ 𝕄) ((Rd (F := F) m ρ).payload g r d) := by
  obtain ⟨t, s⟩ := g
  cases s with
  | reg s => show BI.Storable upEmb (barPay t.1 d); unfold barPay slotPts; infer_instance
  | dma q =>
    show BI.Storable upEmb (match slotOf q with
      | some (false, j) => sendPay m ρ t.1 j
      | some (true, j) => recvPay m ρ t.1 j
      | none => iprop(emp))
    unfold sendPay recvPay accPts slotPts
    split <;> infer_instance

section Sched
variable (c : Dev nD) (j : Fin 31)

theorem duties_bar : (Rd (F := F) m ρ).duties (barCell c) 0 = Finset.univ := by
  show (if (0 : ℕ) = 0 ∧ ((c : Thread nD τ)).2 = .tc then (if barS = barS then (Finset.univ : Finset (Fin 31)) else ∅) else ∅) = Finset.univ
  rw [if_pos ⟨rfl, rfl⟩, if_pos rfl]
theorem duties_send : (Rd (F := F) m ρ).duties (sendCell c j) 0 = {0} := by
  show (if (0 : ℕ) = 0 ∧ ((c : Thread nD τ)).2 = .tc then (if (slotOf (sendS j)).isSome then ({0} : Finset (Fin 31)) else ∅) else ∅) = {0}
  rw [if_pos ⟨rfl, rfl⟩, slotOf_send]; exact if_pos rfl
theorem duties_recv : (Rd (F := F) m ρ).duties (recvCell c j) 0 = {0} := by
  show (if (0 : ℕ) = 0 ∧ ((c : Thread nD τ)).2 = .tc then (if (slotOf (recvS j)).isSome then ({0} : Finset (Fin 31)) else ∅) else ∅) = {0}
  rw [if_pos ⟨rfl, rfl⟩, slotOf_recv]; exact if_pos rfl
theorem duties_later (g : GSem nD τ sig) : ∀ r, 1 ≤ r → (Rd (F := F) m ρ).duties g r = ∅ :=
  fun r hr => by dsimp only [Rd]; rw [if_neg fun h => by omega]

theorem amount_bar (d : Fin 31) : (Rd (F := F) m ρ).amount (barCell c) 0 d = 1 := rfl
theorem amount_send (d : Fin 31) : (Rd (F := F) m ρ).amount (sendCell c j) 0 d = N := rfl
theorem amount_recv (d : Fin 31) : (Rd (F := F) m ρ).amount (recvCell c j) 0 d = N := rfl

theorem expect_bar : (Rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : Fin 31) : (Rd (F := F) m ρ).payload (barCell c) 0 d = barPay c d := rfl
theorem payload_send (d : Fin 31) : (Rd (F := F) m ρ).payload (sendCell c j) 0 d = sendPay m ρ c j := by
  show (match slotOf (sendS j) with
      | some (false, j) => sendPay m ρ c j
      | some (true, j) => recvPay m ρ c j
      | none => iprop(emp)) = sendPay m ρ c j
  rw [slotOf_send]
theorem payload_recv (d : Fin 31) : (Rd (F := F) m ρ).payload (recvCell c j) 0 d = recvPay m ρ c j := by
  show (match slotOf (recvS j) with
      | some (false, j) => sendPay m ρ c j
      | some (true, j) => recvPay m ρ c j
      | none => iprop(emp)) = recvPay m ρ c j
  rw [slotOf_recv]

/-- The rest of a barrier cell's round with no duty taken: all 31 peers' slots. -/
theorem rest_bar : bigSep ((Rd (F := F) m ρ).duties (barCell c) 0 \ ∅) (fun d => (Rd (F := F) m ρ).payload (barCell c) 0 d)
    = bigSep Finset.univ (fun d : Fin 31 => barPay (F := F) c d) := by
  rw [Finset.sdiff_empty, duties_bar]
  exact bigSep_congr fun d _ => payload_bar m ρ c d
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

end Sched

end Cert.KernelIdeal.Hand

end
-- ==== Proof.KernelIdeal.Slots.lean ====
/-
  The slots' buffer by slots and the accumulator by shares: splitting and joining the two scratch buffers of a device, and
  what a landed row makes of a slot.
-/
import proofs.«900925_g7700000000000926_dist_max_ax0_shard0_i_m512_n256_v7x_i32_f32_1_alg».proof.Proof.KernelIdeal.Cells
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A slot's view lives in the slots' buffer. -/
theorem slot_loc (c : Dev nD) (j : Fin 31) : (slotM j).view.loc (c : Thread nD τ) = (c : Thread nD τ).loc cc0_scratch1 := rfl

/-- The elements of slot `j` are the unit-stride rectangle of row `j` of the slots' buffer (a squeeze keeps the elements). -/
theorem slot_set (j : Fin 31) :
    ((slotM j).view.set : Finset S31x1x256.Idx) = (Rect.unit (s := S31x1x256) ![j.val, 0, 0] S1x1x256.size (slot_inb j)).set := by
  exact (View.set_reshape _ _).trans (View.set_slice_whole cc0_scratch1 _)

/-- An element of the slots' buffer lies in slot `j` exactly when its first coordinate is `j`. -/
theorem mem_slot_set (j : Fin 31) (i : S31x1x256.Idx) :
    i ∈ ((slotM j).view.set : Finset S31x1x256.Idx) ↔ (i 0).val = j.val := by
  rw [slot_set, Rect.mem_set_unit]
  constructor
  · intro h
    have h0 : j.val ≤ (i 0).val ∧ (i 0).val < j.val + 1 := h 0
    omega
  · intro h a
    fin_cases a
    · show j.val ≤ (i 0).val ∧ (i 0).val < j.val + 1
      omega
    · have h1 : (i 1).val < 1 := (i 1).isLt
      show 0 ≤ (i 1).val ∧ (i 1).val < 0 + 1
      omega
    · have h2 : (i 2).val < 256 := (i 2).isLt
      show 0 ≤ (i 2).val ∧ (i 2).val < 0 + 256
      omega

/-- Different slots share no element. -/
theorem slot_disjoint (j j' : Fin 31) (h : j ≠ j') :
    Disjoint ((slotM j).view.set : Finset S31x1x256.Idx) ((slotM j').view.set : Finset S31x1x256.Idx) := by
  rw [Finset.disjoint_left]
  intro i hi hi'
  rw [mem_slot_set] at hi hi'
  exact h (Fin.ext (hi.symm.trans hi'))

/-- Every element of the slots' buffer lies in a slot: the one its first coordinate names. -/
theorem slot_cover : (Finset.univ : Finset S31x1x256.Idx)
    = Finset.univ.biUnion (fun j : Fin 31 => ((slotM j).view.set : Finset S31x1x256.Idx)) := by
  ext i
  simp only [Finset.mem_univ, Finset.mem_biUnion, true_and, true_iff]
  exact ⟨⟨(i 0).val, (i 0).isLt⟩, (mem_slot_set _ i).mpr rfl⟩

/-- The slots' buffer at full share is its 31 slots (their element sets tile the buffer). -/
theorem comm_split (c : Dev nD) (f : Buf (Elt F) ((c : Thread nD τ).loc cc0_scratch1)) :
    ((((c : Thread nD τ).loc cc0_scratch1) ↦{fullShare} f) : sProp 𝕄) ⊣⊢ bigSep Finset.univ (fun j : Fin 31 => slotPts (F := F) c j f) := by
  have hb : ((((c : Thread nD τ).loc cc0_scratch1)
        ↦[Finset.univ.biUnion (fun j : Fin 31 => ((slotM j).view.set : Finset S31x1x256.Idx))]{fullShare} f) : sProp 𝕄)
      = bigSep Finset.univ (fun j : Fin 31 => (((c : Thread nD τ).loc cc0_scratch1) ↦[((slotM j).view.set : Finset S31x1x256.Idx)]{fullShare} f)) :=
    pointsTo_biUnion Finset.univ _ (fun j _ j' _ h => slot_disjoint j j' h)
  rw [← slot_cover] at hb
  exact ⟨Entails.of_eq hb, Entails.of_eq hb.symm⟩

/-- Row-major matching of a `1×256` index with the `1×1×256` shape keeps the column. -/
theorem squeeze_col (h : S1x256.numel = S1x1x256.numel) (y : S1x256.Idx) :
    ((Shape.reshapeEquiv h y) 2).val = (y 1).val := by
  have e := Shape.rowMajor_reshapeEquiv h y
  rw [Shape.rowMajor_val_three, Shape.rowMajor_val_two] at e
  have h0 : ((Shape.reshapeEquiv h y) 0).val < 1 := (Shape.reshapeEquiv h y 0).isLt
  have h1 : ((Shape.reshapeEquiv h y) 1).val < 1 := (Shape.reshapeEquiv h y 1).isLt
  have h2 : (y 0).val < 1 := (y 0).isLt
  have e' : (((Shape.reshapeEquiv h y) 0).val * 1 + ((Shape.reshapeEquiv h y) 1).val) * 256 + ((Shape.reshapeEquiv h y) 2).val
      = (y 0).val * 256 + (y 1).val := e
  omega

/-- Index `y` of slot `j` sits in row `j` of the slots' buffer. -/
theorem slot_emb_row (j : Fin 31) (y : S1x256.Idx) : (((slotM j).view.emb y : S31x1x256.Idx) 0).val = j.val :=
  (mem_slot_set j _).mp ((slotM j).view.emb_mem_set y)

/-- Index `y` of slot `j` sits at column `y 1` of the slots' buffer. -/
theorem slot_emb_col (j : Fin 31) (y : S1x256.Idx) : (((slotM j).view.emb y : S31x1x256.Idx) 2).val = (y 1).val := by
  show (0 + 1 * ((Shape.reshapeEquiv squeezes_S1x1x256_S1x256.numel_eq y) 2).val) = (y 1).val
  rw [squeeze_col]; omega

omit [FloatOps F] in
/-- A row `g` written through slot `j` is read back, at the element under the slot's index `y`, as `g y`. -/
theorem slot_write_emb (j : Fin 31) (fd : (slotM j).view.ty.Contents (Elt F)) (g : (cc0_scratch0 : Ref sig .tc).ty.Contents (Elt F))
    (y : S1x256.Idx) :
    (slotM j).view.write (Elt F) fd ((aM : Memref sig .tc .vmem S1x256 .f32).view.read (Elt F) g) Finset.univ ((slotM j).view.emb y) = g y := by
  rw [View.write_emb_of_mem _ _ (Finset.mem_univ y)]
  rfl

/-- A row-maximum copied into slot `j` of `c`, whatever the buffer held: on the slot's elements the buffer now reads as `commV c`
    if the row came from `srcOf c j`. -/
theorem slot_landed (c : Dev nD) (j : Fin 31) (fd : Buf (Elt F) ((slotM j).view.loc (c : Thread nD τ))) :
    slotPts c j ((slotM j).view.write (Elt F) fd ((aM : Memref sig .tc .vmem S1x256 .f32).view.read (Elt F) (accV m ρ (srcOf c j))) Finset.univ)
      = slotPts c j (commV m ρ c) := by
  unfold slotPts
  refine pointsTo_congr fun i hi => ?_
  obtain ⟨y, rfl⟩ := View.exists_emb_of_mem_set _ hi
  refine (slot_write_emb j fd _ y).trans ?_
  have hrow : ((slotM j).view.emb y : S31x1x256.Idx) 0 = j := Fin.ext (slot_emb_row j y)
  have hcol : (((slotM j).view.emb y : S31x1x256.Idx) 2 : Fin 256) = (y 1 : Fin 256) := Fin.ext (slot_emb_col j y)
  have hy : ValueIdx.ix2 (n0 := 1) (n1 := 256) (0 : Fin 1) (y 1) = y := by
    refine (ValueIdx.eq_ix2 y).symm ▸ ?_
    congr 1; exact Subsingleton.elim _ _
  show _ = accV m ρ (srcOf c (((slotM j).view.emb y : S31x1x256.Idx) 0)) (ValueIdx.ix2 (0 : Fin 1) (((slotM j).view.emb y : S31x1x256.Idx) 2))
  rw [hrow, hcol, hy]

/-- A slot's transfer credit is a row's. -/
theorem slot_credit (j : Fin 31) : (slotM j).view.dmaCredit = N := rfl

/-- The accumulator whole is the kept share and the 31 lent shares. -/
theorem acc_split (c : Dev nD) :
    ((((c : Thread nD τ).loc cc0_scratch0) ↦{fullShare} accV m ρ c) : sProp 𝕄)
      ⊣⊢ iprop(accPts m ρ c accKeep ∗ bigSep Finset.univ (fun j : Fin 31 => accPts m ρ c (accShare j))) := by
  have hs : (aM : Memref sig .tc .vmem S1x256 .f32).view.set = Finset.univ := View.set_whole _
  unfold accPts
  rw [hs]
  exact Transfers.pointsTo_toks fullShare 31

/-! ## Whole-buffer reads and writes of the body's loads and stores -/

abbrev rX : Rect S512x256 := Rect.unit (s := S512x256) ![0, 0] S512x256.size inb_S512x256_S512x256_0_0
abbrev rA : Rect S1x256 := Rect.unit (s := S1x256) ![0, 0] S1x256.size inb_S1x256_S1x256_0_0
abbrev rC : Rect S31x1x256 := Rect.unit (s := S31x1x256) ![0, 0, 0] S31x1x256.size inb_S31x1x256_S31x1x256_0_0_0

theorem zero2 : (![0, 0] : Fin 2 → Nat) = fun _ => 0 := funext fun a => by fin_cases a <;> rfl
theorem zero3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 zero2 _ f
omit [FloatOps F] in
theorem read_acc (f : (cc0_scratch0 : Ref sig .tc).ty.Contents (Elt F)) : (aM : Memref sig .tc .vmem S1x256 .f32).view.readAt (Elt F) rA.toLoadRect f = f :=
  Memref.readAt_unit_zero (Elt F) cc0_scratch0 zero2 _ f
omit [FloatOps F] in
theorem read_comm (f : (cc0_scratch1 : Ref sig .tc).ty.Contents (Elt F)) : (cM : Memref sig .tc .vmem S31x1x256 .f32).view.readAt (Elt F) rC.toLoadRect f = f :=
  Memref.readAt_unit_zero (Elt F) cc0_scratch1 zero3 _ f
omit [FloatOps F] in
theorem read_out (f : (cc0_stg1_0 : Ref sig .tc).ty.Contents (Elt F)) : (oM : Memref sig .tc .vmem S1x256 .f32).view.readAt (Elt F) rA.toLoadRect f = f :=
  Memref.readAt_unit_zero (Elt F) cc0_stg1_0 zero2 _ f
omit [FloatOps F] in
theorem write_acc (f w : (cc0_scratch0 : Ref sig .tc).ty.Contents (Elt F)) :
    ((aM : Memref sig .tc .vmem S1x256 .f32).access rA : View sig .tc _ _ _).write (Elt F) f w Finset.univ = w :=
  Memref.write_access_unit_zero_univ (Elt F) cc0_scratch0 zero2 _ f w
omit [FloatOps F] in
theorem write_out (f w : (cc0_stg1_0 : Ref sig .tc).ty.Contents (Elt F)) :
    ((oM : Memref sig .tc .vmem S1x256 .f32).access rA : View sig .tc _ _ _).write (Elt F) f w Finset.univ = w :=
  Memref.write_access_unit_zero_univ (Elt F) cc0_stg1_0 zero2 _ f w

/-- info: 'Cert.KernelIdeal.Hand.comm_split' depends on axioms: [propext, Classical.choice, Quot.sound] -/
#guard_msgs in #print axioms comm_split
/-- info: 'Cert.KernelIdeal.Hand.slot_landed' depends on axioms: [propext, Classical.choice, Quot.sound] -/
#guard_msgs in #print axioms slot_landed
/-- info: 'Cert.KernelIdeal.Hand.acc_split' depends on axioms: [propext, Classical.choice, Quot.sound] -/
#guard_msgs in #print axioms acc_split

end Cert.KernelIdeal.Hand

end
-- ==== Proof.KernelIdeal.Levels.lean ====
/-
  Why no wait of the all-to-all maximum can deadlock: barrier cells sit at level 1, receive cells at level 2, staging and send
  cells at level 0, and a device waits on a cell only while everything it still owes sits strictly higher. And the credit
  each device is launched with: what the others owe its cells.
-/
import proofs.«900925_g7700000000000926_dist_max_ax0_shard0_i_m512_n256_v7x_i32_f32_1_alg».proof.Proof.KernelIdeal.Data
import proofs.«900925_g7700000000000926_dist_max_ax0_shard0_i_m512_n256_v7x_i32_f32_1_alg».proof.Proof.KernelIdeal.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## What is owed, summand by summand -/

theorem owedBar_apply (c : Dev nD) (k : ℕ) (g : GSem nD τ sig) (u : Unit) :
    owedBar c k g u = ∑ j ∈ Finset.univ.filter (fun j : Fin 31 => k ≤ j.val), tallyAt (barCell (peer c j)) () 1 g u := by
  unfold owedBar; rw [Finset.sum_apply, Finsupp.finsetSum_apply]
theorem owedRecv_apply (c : Dev nD) (k : ℕ) (g : GSem nD τ sig) (u : Unit) :
    owedRecv c k g u = ∑ j ∈ Finset.univ.filter (fun j : Fin 31 => k ≤ j.val), tallyAt (recvCell (peer c j) j) () N g u := by
  unfold owedRecv; rw [Finset.sum_apply, Finsupp.finsetSum_apply]

/-- A barrier due is owed to a peer's barrier cell, -/
theorem owedBar_pos {c : Dev nD} {k : ℕ} {g : GSem nD τ sig} {u : Unit} (h : 0 < owedBar c k g u) : ∃ j : Fin 31, g = barCell (peer c j) := by
  rw [owedBar_apply] at h
  obtain ⟨j, _, hj⟩ := Finset.exists_ne_zero_of_sum_ne_zero (Nat.pos_iff_ne_zero.mp h)
  rw [tallyAt_apply] at hj
  by_cases hg : g = barCell (peer c j) ∧ u = ()
  · exact ⟨j, hg.1⟩
  · rw [if_neg hg] at hj; exact absurd rfl hj
/-- and a transfer due to slot `j`'s receive cell of the `j`-th peer. -/
theorem owedRecv_pos {c : Dev nD} {k : ℕ} {g : GSem nD τ sig} {u : Unit} (h : 0 < owedRecv c k g u) : ∃ j : Fin 31, g = recvCell (peer c j) j := by
  rw [owedRecv_apply] at h
  obtain ⟨j, _, hj⟩ := Finset.exists_ne_zero_of_sum_ne_zero (Nat.pos_iff_ne_zero.mp h)
  rw [tallyAt_apply] at hj
  by_cases hg : g = recvCell (peer c j) j ∧ u = ()
  · exact ⟨j, hg.1⟩
  · rw [if_neg hg] at hj; exact absurd rfl hj

theorem O₀_pos {c : Dev nD} {g : GSem nD τ sig} {u : Unit} (h : 0 < O₀ c g u) :
    (∃ j : Fin 31, g = recvCell (peer c j) j) ∨ ∃ j : Fin 31, g = barCell (peer c j) := by
  unfold O₀ at h
  rw [Pi.add_apply, Finsupp.add_apply] at h
  rcases (show 0 < owedRecv c 0 g u ∨ 0 < owedBar c 0 g u by omega) with h | h
  · exact .inl (owedRecv_pos h)
  · exact .inr (owedBar_pos h)

theorem filter_31 : (Finset.univ.filter fun j : Fin 31 => 31 ≤ j.val) = ∅ :=
  Finset.filter_false_of_mem fun j _ => by have := j.isLt; omega
theorem filter_succ (k : ℕ) (hk : k < 31) :
    (Finset.univ.filter fun j : Fin 31 => k ≤ j.val) = insert ⟨k, hk⟩ (Finset.univ.filter fun j : Fin 31 => k + 1 ≤ j.val) := by
  ext j
  simp only [Finset.mem_filter, Finset.mem_univ, true_and, Finset.mem_insert]
  constructor
  · intro h
    by_cases e : j.val = k
    · exact .inl (Fin.ext e)
    · exact .inr (by omega)
  · rintro (rfl | h)
    · exact Nat.le_refl _
    · omega
theorem not_mem_filter_succ (k : ℕ) (hk : k < 31) : (⟨k, hk⟩ : Fin 31) ∉ Finset.univ.filter fun j : Fin 31 => k + 1 ≤ j.val := by
  simp only [Finset.mem_filter, Finset.mem_univ, true_and]; omega

theorem owedBar_31 (c : Dev nD) : owedBar c 31 = 0 := by
  unfold owedBar; rw [filter_31, Finset.sum_empty]
theorem owedRecv_31 (c : Dev nD) : owedRecv c 31 = 0 := by
  unfold owedRecv; rw [filter_31, Finset.sum_empty]
/-- Peeling the `k`-th summand: what is owed from `k` on is what is owed from `k + 1` on and the `k`-th peer's due. -/
theorem owedBar_succ (c : Dev nD) (k : ℕ) (hk : k < 31) : owedBar c k = owedBar c (k + 1) + tallyAt (barCell (peer c ⟨k, hk⟩)) () 1 := by
  unfold owedBar; rw [filter_succ k hk, Finset.sum_insert (not_mem_filter_succ k hk), add_comm]
theorem owedRecv_succ (c : Dev nD) (k : ℕ) (hk : k < 31) : owedRecv c k = owedRecv c (k + 1) + tallyAt (recvCell (peer c ⟨k, hk⟩) ⟨k, hk⟩) () N := by
  unfold owedRecv; rw [filter_succ k hk, Finset.sum_insert (not_mem_filter_succ k hk), add_comm]

/-! ## The levels of the cells -/

theorem lv_bar (c : Dev nD) : lv (barCell c) () = 1 := by
  show (if barS = barS then 1 else 0) = 1
  rw [if_pos rfl]
theorem lv_recv (c : Dev nD) (j : Fin 31) : lv (recvCell c j) () = 2 := by
  show (match slotOf (recvS j) with | some (true, _) => 2 | _ => 0) = 2
  rw [slotOf_recv]
theorem lv_stage (c : Dev nD) (q : DmaSem sig) (hq : slotOf q = none) : lv ((c : Thread nD τ), .dma q) () = 0 := by
  show (match slotOf q with | some (true, _) => 2 | _ => 0) = 0
  rw [hq]

/-- A wait on a staging semaphore (level 0), owing everything or nothing. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ <;> exact Finset.mem_singleton_self _)
      (fun p hp => by rw [Finset.mem_singleton.mp hp, lv_stage c q hq])
      (fun g u hg => by
        rcases O₀_pos hg with ⟨j, rfl⟩ | ⟨j, rfl⟩
        · rw [lv_recv]; decide
        · rw [lv_bar]; decide)
  · rw [MayWait_zero]; iintro -; iempintro

/-- At its barrier wait (level 1) a device owes its peers' receive cells only (level 2). -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by
      obtain ⟨j, rfl⟩ := owedRecv_pos hg
      exact Finset.mem_singleton_self _)
    (fun p hp => by rw [Finset.mem_singleton.mp hp]; exact le_of_eq (lv_bar c))
    (fun g u hg => by
      obtain ⟨j, rfl⟩ := owedRecv_pos hg
      rw [lv_recv]; decide)

/-! ## The launch credit -/

theorem barCell_eq_iff {a b : Dev nD} : barCell a = barCell b ↔ a = b :=
  ⟨fun h => Fin.ext (congrArg (fun g : GSem nD τ sig => g.1.1.val) h), fun h => h ▸ rfl⟩
theorem recvCell_eq_iff {a b : Dev nD} {j j' : Fin 31} : recvCell a j = recvCell b j' ↔ a = b ∧ j = j' :=
  ⟨fun h => ⟨Fin.ext (congrArg (fun g : GSem nD τ sig => g.1.1.val) h),
      recvS_injective (by have h2 : (SemLoc.dma (recvS j) : SemLoc sig) = .dma (recvS j') := congrArg Prod.snd h; injection h2)⟩,
    fun h => by rw [h.1, h.2]⟩
theorem recvCell_ne_barCell (a b : Dev nD) (j : Fin 31) : recvCell a j ≠ barCell b := fun h => recv_ne_bar j (congrArg Prod.snd h)

/-- What device `d` owes device `c`'s barrier cell: one unit unless `d = c` (`c` is exactly one of `d`'s peers). -/
theorem owed_bar (d c : Dev nD) : O₀ d (barCell c) () = if d = c then 0 else 1 := by
  unfold O₀
  rw [Pi.add_apply, Finsupp.add_apply, owedRecv_apply, owedBar_apply,
    Finset.sum_eq_zero (fun j _ => by rw [tallyAt_ne_cell (recvCell_ne_barCell _ _ _).symm]; rfl), Nat.zero_add]
  by_cases h : d = c
  · subst h
    rw [if_pos rfl]
    exact Finset.sum_eq_zero fun j _ => by rw [tallyAt_apply, if_neg (fun h' => peer_ne d j (barCell_eq_iff.mp h'.1).symm)]
  · rw [if_neg h]
    obtain ⟨j₀, hj₀⟩ := exists_peer d c (Ne.symm h)
    rw [Finset.sum_eq_single_of_mem j₀ (Finset.mem_filter.mpr ⟨Finset.mem_univ _, Nat.zero_le _⟩)
      (fun j _ hne => by rw [tallyAt_apply, if_neg (fun h' => hne (peer_injective d ((barCell_eq_iff.mp h'.1).symm.trans hj₀.symm)))]),
      tallyAt_apply, if_pos ⟨by rw [hj₀], rfl⟩]

/-- What device `d` owes the receive cell of device `c`'s slot `j`: a row's credit if `c` is `d`'s `j`-th peer. -/
theorem owed_recv (d c : Dev nD) (j : Fin 31) : O₀ d (recvCell c j) () = if d = srcOf c j then N else 0 := by
  unfold O₀
  rw [Pi.add_apply, Finsupp.add_apply, owedRecv_apply, owedBar_apply,
    Finset.sum_eq_zero (s := Finset.univ.filter fun j : Fin 31 => 0 ≤ j.val) (f := fun j' => tallyAt (barCell (peer d j')) () 1 (recvCell c j) ())
      (fun j' _ => by rw [tallyAt_ne_cell (recvCell_ne_barCell _ _ _)]; rfl), Nat.add_zero,
    Finset.sum_eq_single_of_mem j (Finset.mem_filter.mpr ⟨Finset.mem_univ _, Nat.zero_le _⟩)
      (fun j' _ hne => by rw [tallyAt_apply, if_neg (fun h' => hne (recvCell_eq_iff.mp h'.1).2.symm)]), tallyAt_apply]
  by_cases h : d = srcOf c j
  · rw [if_pos h, if_pos ⟨by rw [h, peer_srcOf], rfl⟩]
  · rw [if_neg h, if_neg (fun h' => h ((peer_eq_iff c d j).mp (recvCell_eq_iff.mp h'.1).1.symm))]

theorem card_others (c : Dev nD) : (∑ d : Dev nD, if d = c then 0 else 1) = 31 := by revert c; decide

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, card_others]

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (srcOf c j) fun _ => N, if_pos (Finset.mem_univ _)]

/-- The 31 receive semaphores among a device's semaphores. -/
def recvSems : Finset (SemLoc sig) := Finset.univ.map ⟨fun j : Fin 31 => SemLoc.dma (recvS j), fun j j' h => recvS_injective (by injection h)⟩

/-- The launch credit: 31 units on the barrier cell (one from each peer), a row's credit on each receive cell. -/
theorem launch_creds (c : Dev nD) : (Pipeline.launchCred O₀ c : sProp 𝕄) ⊢ creds (F := F) c := by
  unfold Pipeline.launchCred creds
  rw [bigSep_univ_at _ (SemLoc.reg barS), launch_bar]
  refine sep_mono_right ?_
  refine (bigSep_subset (t := recvSems) fun sm hsm => ?_).trans ?_
  · obtain ⟨j, _, rfl⟩ := Finset.mem_map.mp hsm
    exact Finset.mem_erase.mpr ⟨recv_ne_bar j, Finset.mem_univ _⟩
  · unfold recvSems
    rw [bigSep_map]
    exact Entails.of_eq (bigSep_congr fun j _ => by rw [← launch_recv]; rfl)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Hand

end
-- ==== Proof.KernelIdeal.Steps.lean ====
/-
  One step of each kind of the all-to-all maximum's protocol, stated over what is left to do: after `k` of the 31 steps of a
  phase the device holds the resources of the peers `k … 30` (and what the steps `0 … k-1` gave it), and a step moves `k` on.
-/
import proofs.«900925_g7700000000000926_dist_max_ax0_shard0_i_m512_n256_v7x_i32_f32_1_alg».proof.Proof.KernelIdeal.Data
import proofs.«900925_g7700000000000926_dist_max_ax0_shard0_i_m512_n256_v7x_i32_f32_1_alg».proof.Proof.KernelIdeal.Tables
import proofs.«900925_g7700000000000926_dist_max_ax0_shard0_i_m512_n256_v7x_i32_f32_1_alg».proof.Proof.KernelIdeal.Slots
import proofs.«900925_g7700000000000926_dist_max_ax0_shard0_i_m512_n256_v7x_i32_f32_1_alg».proof.Proof.KernelIdeal.Levels

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The peers from `k` on, and those below `k` -/

def fromK (k : ℕ) : Finset (Fin 31) := Finset.univ.filter fun j : Fin 31 => k ≤ j.val
def belowK (k : ℕ) : Finset (Fin 31) := Finset.univ.filter fun j : Fin 31 => j.val < k

theorem fromK_zero : fromK 0 = Finset.univ := by ext j; simp [fromK]
theorem fromK_31 : fromK 31 = ∅ := by
  ext j; have := j.isLt; simp only [fromK, Finset.mem_filter, Finset.mem_univ, true_and, Finset.notMem_empty, iff_false]; omega
theorem belowK_zero : belowK 0 = ∅ := by ext j; simp [belowK]
theorem belowK_31 : belowK 31 = Finset.univ := by
  ext j; have := j.isLt; simp only [belowK, Finset.mem_filter, Finset.mem_univ, true_and, iff_true]; omega
theorem fromK_succ (k : ℕ) (hk : k < 31) : fromK k = insert (⟨k, hk⟩ : Fin 31) (fromK (k + 1)) := by
  ext j; simp only [fromK, Finset.mem_filter, Finset.mem_univ, true_and, Finset.mem_insert, Fin.ext_iff]; omega
theorem belowK_succ (k : ℕ) (hk : k < 31) : belowK (k + 1) = insert (⟨k, hk⟩ : Fin 31) (belowK k) := by
  ext j; simp only [belowK, Finset.mem_filter, Finset.mem_univ, true_and, Finset.mem_insert, Fin.ext_iff]; omega
theorem notMem_fromK (k : ℕ) (hk : k < 31) : (⟨k, hk⟩ : Fin 31) ∉ fromK (k + 1) := by
  simp only [fromK, Finset.mem_filter, Finset.mem_univ, true_and]; omega
theorem notMem_belowK (k : ℕ) (hk : k < 31) : (⟨k, hk⟩ : Fin 31) ∉ belowK k := by
  simp only [belowK, Finset.mem_filter, Finset.mem_univ, true_and]; omega

omit [FloatOps F] in
theorem bigSep_fromK_succ (k : ℕ) (hk : k < 31) (Φ : Fin 31 → sProp 𝕄) :
    bigSep (fromK k) Φ = iprop(Φ ⟨k, hk⟩ ∗ bigSep (fromK (k + 1)) Φ) := by
  rw [fromK_succ k hk, BI.bigSep_insert (notMem_fromK k hk)]; rfl
omit [FloatOps F] in
theorem bigSep_belowK_succ (k : ℕ) (hk : k < 31) (Φ : Fin 31 → sProp 𝕄) :
    bigSep (belowK (k + 1)) Φ = iprop(Φ ⟨k, hk⟩ ∗ bigSep (belowK k) Φ) := by
  rw [belowK_succ k hk, BI.bigSep_insert (notMem_belowK k hk)]; rfl

/-! ## Reading the records -/

section Records
variable (Kb : Dev nD → ℕ) (Ks Kr : Dev nD × Fin 31 → ℕ)

omit [FloatOps F] in
theorem univ_at {I : Type} [Fintype I] [DecidableEq I] (Φ : I → sProp 𝕄) (i : I) : (bigSep Finset.univ Φ : sProp 𝕄) ⊢ Φ i :=
  bigSep_elim (Finset.mem_univ i)

theorem rec_bar (c : Dev nD) : records m ρ Kb Ks Kr ⊢ cellInv ER (Rd m ρ) (Kb c) (barCell c) := by
  unfold records; iintro ⟨H1, -⟩
  iapply (univ_at (F := F) (fun c : Dev nD => cellInv ER (Rd m ρ) (Kb c) (barCell c)) c); iexact H1
theorem rec_send (c : Dev nD) (j : Fin 31) : records m ρ Kb Ks Kr ⊢ cellInv ER (Rd m ρ) (Ks (c, j)) (sendCell c j) := by
  unfold records; iintro ⟨-, H2, -⟩
  iapply (univ_at (F := F) (fun cj : Dev nD × Fin 31 => cellInv ER (Rd m ρ) (Ks cj) (sendCell cj.1 cj.2)) (c, j)); iexact H2
theorem rec_recv (c : Dev nD) (j : Fin 31) : records m ρ Kb Ks Kr ⊢ cellInv ER (Rd m ρ) (Kr (c, j)) (recvCell c j) := by
  unfold records; iintro ⟨-, -, H3, -⟩
  iapply (univ_at (F := F) (fun cj : Dev nD × Fin 31 => cellInv ER (Rd m ρ) (Kr cj) (recvCell cj.1 cj.2)) (c, j)); iexact H3
theorem rec_rbar (c : Dev nD) : records m ρ Kb Ks Kr ⊢ reached ER (barCell c) 0 := by
  unfold records; iintro ⟨-, -, -, H4, -⟩
  iapply (univ_at (F := F) (fun c : Dev nD => (reached ER (barCell c) 0 : sProp 𝕄)) c); iexact H4
theorem rec_rsend (c : Dev nD) (j : Fin 31) : records m ρ Kb Ks Kr ⊢ reached ER (sendCell c j) 0 := by
  unfold records; iintro ⟨-, -, -, -, H5, -⟩
  iapply (univ_at (F := F) (fun cj : Dev nD × Fin 31 => (reached ER (sendCell cj.1 cj.2) 0 : sProp 𝕄)) (c, j)); iexact H5
theorem rec_rrecv (c : Dev nD) (j : Fin 31) : records m ρ Kb Ks Kr ⊢ reached ER (recvCell c j) 0 := by
  unfold records; iintro ⟨-, -, -, -, -, H6⟩
  iapply (univ_at (F := F) (fun cj : Dev nD × Fin 31 => (reached ER (recvCell cj.1 cj.2) 0 : sProp 𝕄)) (c, j)); iexact H6

/-! ## The signals -/

/-- After `k` signals: what is still owed, the tokens of the barrier duties still to pay, and the slots still to hand over
    (the `j`-th signal hands over slot `back j`). -/
def SigSt (c : Dev nD) (k : ℕ) (W : Waits sig Unit) (f : Buf (Elt F) ((c : Thread nD τ).loc cc0_scratch1)) : sProp 𝕄 :=
  iprop(owes (c : Thread nD τ) (owedRecv c 0 + owedBar c k) W
    ∗ bigSep (fromK k) (fun j => dutyTok ER (barCell (peer c j)) 0 (back j))
    ∗ bigSep (fromK k) (fun j => slotPts (F := F) c (back j) f))

theorem sig_step (c : Dev nD) (k : ℕ) (hk : k < 31) (W : Waits sig Unit) (f : Buf (Elt F) ((c : Thread nD τ).loc cc0_scratch1))
    {α : Type} {Q : α → sProp 𝕄} {kont : PUnit → Prog (TpuEff nD τ sig (Elt F) Λ₀ .tc) α} :
    iprop(records m ρ Kb Ks Kr ∗ SigSt c k W f)
      ⊢ iprop((SigSt c (k + 1) W f -∗ wp frame (wpE (defs₀ (F := F)) 𝒱₀ c none) Set.univ (kont ⟨⟩) Q)
          -∗ wp frame (wpE (defs₀ (F := F)) 𝒱₀ c none) Set.univ
              (.op (.semSignal ((peer c ⟨k, hk⟩ : Dev nD) : Thread nD τ) barS (1#32).toNat) kont) Q) := by
  unfold SigSt
  rw [bigSep_fromK_succ k hk, bigSep_fromK_succ k hk]
  iintro ⟨#HR, HO, ⟨Ht, Hts⟩, ⟨Hs, Hss⟩⟩ Hk
  iapply (Rounds.wp_signal 𝒱₀ ER (Rd m ρ) (c : Thread nD τ) none (dst := ((peer c ⟨k, hk⟩ : Dev nD) : Thread nD τ)) (κ := Kb (peer c ⟨k, hk⟩))
      (d := back ⟨k, hk⟩) (by rw [duties_bar]; exact Finset.mem_univ _) ((amount_bar m ρ (peer c ⟨k, hk⟩) _).trans (by decide)) ()
      (O₀ := owedRecv c 0 + owedBar c k) (owedRecv c 0 + owedBar c (k + 1)) (by rw [owedBar_succ c k hk, ← add_assoc]; rfl)) $$ [HO Ht Hs]
  · isplitr; · iapply (rec_bar m ρ Kb Ks Kr (peer c ⟨k, hk⟩)); iexact HR
    isplitl [HO]; · iexact HO
    isplitl [Ht]; · iexact Ht
    isplitl [Hs]
    · rw [payload_bar]; unfold barPay; rw [peer_back]
      isplitl [Hs]; · iexists f; iexact Hs
      iapply (rec_rrecv m ρ Kb Ks Kr c (back ⟨k, hk⟩)); iexact HR
    · iapply (rec_rbar m ρ Kb Ks Kr (peer c ⟨k, hk⟩)); iexact HR
  iintro HO
  iapply Hk
  isplitl [HO]; · iexact HO
  isplitl [Hts]; · iexact Hts
  iexact Hss

/-! ## The copies -/

/-- After `k` copies: what is still owed (the receive cells of the peers `k … 30`), those peers' slots, the accumulator's shares
    still to lend, the send and receive duty tokens still to pay, and the departure credit of the copies made. -/
def SendSt (c : Dev nD) (k : ℕ) (W : Waits sig Unit) : sProp 𝕄 :=
  iprop(owes (c : Thread nD τ) (owedRecv c k) W
    ∗ bigSep (fromK k) (fun j => barPay (F := F) c j)
    ∗ bigSep (fromK k) (fun j => accPts m ρ c (accShare j))
    ∗ bigSep (fromK k) (fun j => dutyTok ER (sendCell c j) 0 (0 : Fin 31))
    ∗ bigSep (fromK k) (fun j => dutyTok ER (recvCell (peer c j) j) 0 (0 : Fin 31))
    ∗ bigSep (belowK k) (fun j => cred (tallyAt (sendCell c j) () N)))

set_option maxHeartbeats 1600000 in
theorem send_step (c : Dev nD) (k : ℕ) (hk : k < 31) (W : Waits sig Unit) (n : Dev nD) (hn : n = peer c ⟨k, hk⟩)
    {hsc : (slotM ⟨k, hk⟩ : Memref sig (Dev.tc n : Thread nD τ).2.kind .vmem S1x256 .f32).view.ref.isScScratch = false}
    {hsrc : (aM : Memref sig .tc .vmem S1x256 .f32).view.WordExact} {hdst : (slotM ⟨k, hk⟩ : Memref sig .tc .vmem S1x256 .f32).view.WordExact}
    {hsem : DmaTarget.Typed .vmem (.dma (recvS ⟨k, hk⟩)) (.remote (Dev.tc n : Thread nD τ) (slotM ⟨k, hk⟩ : Memref sig .tc .vmem S1x256 .f32) (.dma (sendS ⟨k, hk⟩)) hsc)}
    {α : Type} {Q : α → sProp 𝕄} {kont : PUnit → Prog (TpuEff nD τ sig (Elt F) Λ₀ .tc) α} :
    iprop(records m ρ Kb Ks Kr ∗ SendSt m ρ c k W)
      ⊢ iprop((SendSt m ρ c (k + 1) W -∗ wp frame (wpE (defs₀ (F := F)) 𝒱₀ c none) Set.univ (kont ⟨⟩) Q)
          -∗ wp frame (wpE (defs₀ (F := F)) 𝒱₀ c none) Set.univ
              (.op (.enqueueDma aM (.remote (Dev.tc n : Thread nD τ) (slotM ⟨k, hk⟩) (.dma (sendS ⟨k, hk⟩)) hsc) (.dma (recvS ⟨k, hk⟩)) hsrc hdst hsem) kont) Q) := by
  subst hn
  unfold SendSt
  rw [bigSep_fromK_succ k hk, bigSep_fromK_succ k hk, bigSep_fromK_succ k hk, bigSep_fromK_succ k hk, bigSep_belowK_succ k hk]
  iintro ⟨#HR, HO, ⟨Hb, Hbs⟩, ⟨Ha, Has⟩, ⟨Hts, Htss⟩, ⟨Htr, Htrs⟩, Hcs⟩ Hk
  unfold barPay
  icases Hb with ⟨⟨%fn, Hslot⟩, #Hreach⟩
  unfold slotPts accPts
  iapply (Rounds.wp_send_pointsTo 𝒱₀ ER (Rd m ρ) (c : Thread nD τ) none (c' := ((peer c ⟨k, hk⟩ : Dev nD) : Thread nD τ)) (κ₁ := Ks (c, ⟨k, hk⟩)) (κ₂ := Kr (peer c ⟨k, hk⟩, ⟨k, hk⟩))
      (r₁ := 0) (r₂ := 0) (d₁ := 0) (d₂ := 0) (fd := fn) (q := accShare ⟨k, hk⟩)
      (src := (aM : Memref sig .tc .vmem S1x256 .f32)) (dst := (slotM ⟨k, hk⟩ : Memref sig .tc .vmem S1x256 .f32)) (sS := .dma (sendS ⟨k, hk⟩)) (sem := .dma (recvS ⟨k, hk⟩))
      (by rw [duties_send]; exact Finset.mem_singleton_self _) (by rw [duties_recv]; exact Finset.mem_singleton_self _)
      () () N (slot_credit ⟨k, hk⟩) (amount_send m ρ c ⟨k, hk⟩ 0) (amount_recv m ρ (peer c ⟨k, hk⟩) ⟨k, hk⟩ 0)
      (owedRecv c (k + 1)) (owedRecv_succ c k hk) (W := W)
      (by rw [payload_send]; unfold sendPay accPts; exact BI.Entails.refl _)
      (by
        rw [payload_recv]; unfold recvPay
        have h := slot_landed m ρ (peer c ⟨k, hk⟩) ⟨k, hk⟩ fn
        rw [srcOf_peer] at h
        unfold slotPts at h
        rw [h]; exact BI.Entails.refl _)) $$ [HO Ha Hslot Hts Htr]
  · isplitr; · iapply (rec_send m ρ Kb Ks Kr c ⟨k, hk⟩); iexact HR
    isplitr; · iapply (rec_recv m ρ Kb Ks Kr (peer c ⟨k, hk⟩) ⟨k, hk⟩); iexact HR
    isplitl [Ha]; · iexact Ha
    isplitl [Hslot]; · iexact Hslot
    isplitl [HO]; · iexact HO
    isplitl [Hts]; · iexact Hts
    isplitr; · iapply (rec_rsend m ρ Kb Ks Kr c ⟨k, hk⟩); iexact HR
    isplitl [Htr]; · iexact Htr
    iexact Hreach
  iintro ⟨Hc, HO⟩
  iapply Hk
  isplitl [HO]; · iexact HO
  isplitl [Hbs]; · iexact Hbs
  isplitl [Has]; · iexact Has
  isplitl [Htss]; · iexact Htss
  isplitl [Htrs]; · iexact Htrs
  isplitl [Hc]; · iexact Hc
  iexact Hcs

/-! ## The waits on the receive cells -/

/-- After `k` receive waits: the credit and positions of the receive cells `k … 30`, the slots `0 … k-1` filled, those cells
    past their round. The device owes nothing. -/
def RecvSt (c : Dev nD) (k : ℕ) : sProp 𝕄 :=
  iprop((∃ W : Waits sig Unit, owes (c : Thread nD τ) 0 W)
    ∗ bigSep (fromK k) (fun j => cred (tallyAt (recvCell c j) () N))
    ∗ bigSep (fromK k) (fun j => atPos ER (recvCell c j) 0 ∅ 0)
    ∗ bigSep (belowK k) (fun j => slotPts c j (commV m ρ c))
    ∗ bigSep (belowK k) (fun j => atPos ER (recvCell c j) (0 + 1) ∅ 0))

theorem recv_step (c : Dev nD) (k : ℕ) (hk : k < 31)
    {hsrc : (aM : Memref sig .tc .vmem S1x256 .f32).view.WordExact} {hdst : (slotM ⟨k, hk⟩ : Memref sig .tc .vmem S1x256 .f32).view.WordExact}
    {α : Type} {Q : α → sProp 𝕄} {kont : PUnit → Prog (TpuEff nD τ sig (Elt F) Λ₀ .tc) α} :
    iprop(records m ρ Kb Ks Kr ∗ RecvSt m ρ c k)
      ⊢ iprop((RecvSt m ρ c (k + 1) -∗ wp frame (wpE (defs₀ (F := F)) 𝒱₀ c none) Set.univ (kont ⟨⟩) Q)
          -∗ wp frame (wpE (defs₀ (F := F)) 𝒱₀ c none) Set.univ
              (.op (.waitDma2 (recvS ⟨k, hk⟩) aM (slotM ⟨k, hk⟩) hsrc hdst) kont) Q) := by
  unfold RecvSt
  rw [bigSep_fromK_succ k hk, bigSep_fromK_succ k hk, bigSep_belowK_succ k hk, bigSep_belowK_succ k hk]
  iintro ⟨#HR, ⟨%W, HO⟩, ⟨Hc, Hcs⟩, ⟨Hat, Hats⟩, Hsl, Hps⟩ Hk
  ihave Hc' := (Entails.of_eq (show (cred (tallyAt (recvCell c ⟨k, hk⟩) () N) : sProp 𝕄)
      = cred (tallyAt (recvCell c ⟨k, hk⟩) () (slotM ⟨k, hk⟩ : Memref sig .tc .vmem S1x256 .f32).view.dmaCredit) by rw [slot_credit])) $$ Hc
  iapply (Rounds.wp_wait_rest_token 𝒱₀ ER (Rd m ρ) (c : Thread nD τ) none (κ := Kr (c, ⟨k, hk⟩))
      (wpE_waitDma2_eq 𝒱₀ (c : Thread nD τ) none Set.univ) (Set.mem_univ _) () (O := 0) (W := W) (R := 0) (m := 0) (T := ∅)
      (by rw [Nat.zero_add, expect_recv, slot_credit])) $$ [Hc' HO Hat]
  · isplitr; · iapply (rec_recv m ρ Kb Ks Kr c ⟨k, hk⟩); iexact HR
    isplitl [Hc']; · iexact Hc'
    isplitl [HO]; · iexact HO
    isplitr; · rw [MayWait_zero]; iempintro
    iexact Hat
  iintro ⟨HO, Hat, -, Hpay⟩
  ihave Hslot := (Entails.of_eq (rest_recv m ρ c ⟨k, hk⟩)) $$ Hpay
  unfold recvPay
  iapply Hk
  isplitl [HO]; · iexists _; iexact HO
  isplitl [Hcs]; · iexact Hcs
  isplitl [Hats]; · iexact Hats
  isplitl [Hslot Hsl]
  · isplitl [Hslot]; · iexact Hslot
    iexact Hsl
  isplitl [Hat]; · iexact Hat
  iexact Hps

/-! ## The waits on the send cells -/

/-- After `k` send waits: the departure credit and positions of the send cells `k … 30`, the lent shares `0 … k-1` of the
    accumulator back, those cells past their round. -/
def SendwSt (c : Dev nD) (k : ℕ) : sProp 𝕄 :=
  iprop((∃ W : Waits sig Unit, owes (c : Thread nD τ) 0 W)
    ∗ bigSep (fromK k) (fun j => cred (tallyAt (sendCell c j) () N))
    ∗ bigSep (fromK k) (fun j => atPos ER (sendCell c j) 0 ∅ 0)
    ∗ bigSep (belowK k) (fun j => accPts m ρ c (accShare j))
    ∗ bigSep (belowK k) (fun j => atPos ER (sendCell c j) (0 + 1) ∅ 0))

theorem sendw_step (c : Dev nD) (k : ℕ) (hk : k < 31)
    {hsrc : (slotM ⟨k, hk⟩ : Memref sig .tc .vmem S1x256 .f32).view.WordExact} {hdst : (aM : Memref sig .tc .vmem S1x256 .f32).view.WordExact}
    {α : Type} {Q : α → sProp 𝕄} {kont : PUnit → Prog (TpuEff nD τ sig (Elt F) Λ₀ .tc) α} :
    iprop(records m ρ Kb Ks Kr ∗ SendwSt m ρ c k)
      ⊢ iprop((SendwSt m ρ c (k + 1) -∗ wp frame (wpE (defs₀ (F := F)) 𝒱₀ c none) Set.univ (kont ⟨⟩) Q)
          -∗ wp frame (wpE (defs₀ (F := F)) 𝒱₀ c none) Set.univ
              (.op (.waitDma2 (sendS ⟨k, hk⟩) (slotM ⟨k, hk⟩) aM hsrc hdst) kont) Q) := by
  unfold SendwSt
  rw [bigSep_fromK_succ k hk, bigSep_fromK_succ k hk, bigSep_belowK_succ k hk, bigSep_belowK_succ k hk]
  iintro ⟨#HR, ⟨%W, HO⟩, ⟨Hc, Hcs⟩, ⟨Hat, Hats⟩, Hsl, Hps⟩ Hk
  iapply (Rounds.wp_wait_rest_token 𝒱₀ ER (Rd m ρ) (c : Thread nD τ) none (κ := Ks (c, ⟨k, hk⟩))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (rec_send m ρ Kb Ks Kr c ⟨k, hk⟩); iexact HR
    isplitl [Hc]; · iexact Hc
    isplitl [HO]; · iexact HO
    isplitr; · rw [MayWait_zero]; iempintro
    iexact Hat
  iintro ⟨HO, Hat, -, Hpay⟩
  ihave Hacc := (Entails.of_eq (rest_send m ρ c ⟨k, hk⟩)) $$ Hpay
  unfold sendPay
  iapply Hk
  isplitl [HO]; · iexists _; iexact HO
  isplitl [Hcs]; · iexact Hcs
  isplitl [Hats]; · iexact Hats
  isplitl [Hacc Hsl]
  · isplitl [Hacc]; · iexact Hacc
    iexact Hsl
  isplitl [Hat]; · iexact Hat
  iexact Hps

end Records

end Cert.KernelIdeal.Hand

end
-- ==== Proof.KernelIdeal.Close.lean ====
/-
  After its waits a device's 31 send cells and 31 receive cells are past their only round: each closes, and its counter at
  zero is the device's again.
-/
import proofs.«900925_g7700000000000926_dist_max_ax0_shard0_i_m512_n256_v7x_i32_f32_1_alg».proof.Proof.KernelIdeal.Steps

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (Kb : Dev nD → ℕ) (Ks Kr : Dev nD × Fin 31 → ℕ)

/-- One send cell past its only round closes: with the cell's invariant from the records, its counter at zero is the owner's. -/
theorem close_send (c : Dev nD) (j : Fin 31) :
    iprop(records m ρ Kb Ks Kr ∗ atPos ER (sendCell c j) (0 + 1) ∅ 0) ⊢ (|={Set.univ}=> semVal (sendCell c j) 0 : sProp 𝕄) := by
  iintro ⟨#HR, Hat⟩
  iapply (Rounds.cell_close ER (Rd m ρ) (κ := Ks (c, j)) (Set.mem_univ _) (fun h => h) (R := 0 + 1) (duties_later m ρ (sendCell c j)))
  isplitr
  · iapply (rec_send m ρ Kb Ks Kr c j); iexact HR
  · iexact Hat

/-- One receive cell past its only round closes likewise. -/
theorem close_recv (c : Dev nD) (j : Fin 31) :
    iprop(records m ρ Kb Ks Kr ∗ atPos ER (recvCell c j) (0 + 1) ∅ 0) ⊢ (|={Set.univ}=> semVal (recvCell c j) 0 : sProp 𝕄) := by
  iintro ⟨#HR, Hat⟩
  iapply (Rounds.cell_close ER (Rd m ρ) (κ := Kr (c, j)) (Set.mem_univ _) (fun h => h) (R := 0 + 1) (duties_later m ρ (recvCell c j)))
  isplitr
  · iapply (rec_recv m ρ Kb Ks Kr c j); iexact HR
  · iexact Hat

/-- The persistent records beside a family of 31 assertions stand beside each member. -/
theorem records_each (Φ : Fin 31 → sProp 𝕄) :
    iprop(records m ρ Kb Ks Kr ∗ bigSep Finset.univ Φ) ⊢ bigSep Finset.univ (fun j : Fin 31 => iprop(records m ρ Kb Ks Kr ∗ Φ j)) := by
  rw [bigSep_sep']
  iintro ⟨#HR, HΦ⟩
  isplitr
  · iapply (bigSep_of_persistent Finset.univ (records m ρ Kb Ks Kr)); iexact HR
  · iexact HΦ

theorem close_sends (c : Dev nD) :
    iprop(records m ρ Kb Ks Kr ∗ bigSep Finset.univ (fun j : Fin 31 => atPos ER (sendCell c j) (0 + 1) ∅ 0))
      ⊢ (|={Set.univ}=> bigSep Finset.univ (fun j : Fin 31 => semVal (sendCell c j) 0) : sProp 𝕄) :=
  ((records_each m ρ Kb Ks Kr _).trans (bigSep_mono fun j _ => close_send m ρ Kb Ks Kr c j)).trans (bigSep_fupd Finset.univ _)

theorem close_recvs (c : Dev nD) :
    iprop(records m ρ Kb Ks Kr ∗ bigSep Finset.univ (fun j : Fin 31 => atPos ER (recvCell c j) (0 + 1) ∅ 0))
      ⊢ (|={Set.univ}=> bigSep Finset.univ (fun j : Fin 31 => semVal (recvCell c j) 0) : sProp 𝕄) :=
  ((records_each m ρ Kb Ks Kr _).trans (bigSep_mono fun j _ => close_recv m ρ Kb Ks Kr c j)).trans (bigSep_fupd Finset.univ _)

end

/-- info: 'Cert.KernelIdeal.Hand.close_sends' depends on axioms: [propext, Classical.choice, Quot.sound] -/
#guard_msgs in #print axioms close_sends
/-- info: 'Cert.KernelIdeal.Hand.close_recvs' depends on axioms: [propext, Classical.choice, Quot.sound] -/
#guard_msgs in #print axioms close_recvs

end Cert.KernelIdeal.Hand

end
-- ==== Proof.KernelIdeal.Body.lean ====
/-
  One device's body of the all-to-all maximum, run from its ghost state: the 31 signals, the row-maximum, the barrier wait, the
  31 copies, the 31 receive waits, the maximum over the accumulator and the slots, the 31 send waits; and the pipeline's
  body obligation from it.
-/
import proofs.«900925_g7700000000000926_dist_max_ax0_shard0_i_m512_n256_v7x_i32_f32_1_alg».proof.Proof.KernelIdeal.Steps
import proofs.«900925_g7700000000000926_dist_max_ax0_shard0_i_m512_n256_v7x_i32_f32_1_alg».proof.Proof.KernelIdeal.Close

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (Kb : Dev nD → ℕ) (Ks Kr : Dev nD × Fin 31 → ℕ)

/-- `back` as a permutation of the 31 peer indices (it is its own inverse). -/
def backEquiv : Fin 31 ≃ Fin 31 := ⟨back, back, back_back, back_back⟩

omit [FloatOps F] in
/-- Using an entailment forwards on a hypothesis matched up to unfolding. -/
theorem use_ent {A B G : sProp 𝕄} (h : A ⊢ B) : A ⊢ iprop((B -∗ G) -∗ G) := by
  iintro HA HG; iapply HG; iapply h; iexact HA

/-! ## Entering and leaving the four phases -/

theorem sigSt_intro (c : Dev nD) (W : Waits sig Unit) (f : Buf (Elt F) ((c : Thread nD τ).loc cc0_scratch1)) :
    iprop(owes (c : Thread nD τ) (O₀ c) W ∗ (bigSep Finset.univ fun j : Fin 31 => dutyTok ER (barCell (peer c j)) 0 (back j))
        ∗ (bigSep Finset.univ fun j : Fin 31 => slotPts (F := F) c j f))
      ⊢ SigSt (F := F) c 0 W f := by
  unfold SigSt O₀; rw [fromK_zero, bigSep_univ_equiv backEquiv (fun j => slotPts (F := F) c j f)]
  exact BI.Entails.refl _

theorem sigSt_elim (c : Dev nD) (W : Waits sig Unit) (f : Buf (Elt F) ((c : Thread nD τ).loc cc0_scratch1)) :
    SigSt (F := F) c 31 W f ⊢ owes (c : Thread nD τ) (owedRecv c 0) W := by
  unfold SigSt; rw [owedBar_31, add_zero]
  iintro ⟨HO, -⟩; iexact HO

theorem sendSt_intro (c : Dev nD) (W : Waits sig Unit) :
    iprop(owes (c : Thread nD τ) (owedRecv c 0) W ∗ (bigSep Finset.univ fun j : Fin 31 => barPay (F := F) c j)
        ∗ (bigSep Finset.univ fun j : Fin 31 => accPts m ρ c (accShare j))
        ∗ (bigSep Finset.univ fun j : Fin 31 => dutyTok ER (sendCell c j) 0 (0 : Fin 31))
        ∗ (bigSep Finset.univ fun j : Fin 31 => dutyTok ER (recvCell (peer c j) j) 0 (0 : Fin 31)))
      ⊢ SendSt m ρ c 0 W := by
  unfold SendSt; rw [fromK_zero, belowK_zero, bigSep_empty]
  iintro ⟨H1, H2, H3, H4, H5⟩
  isplitl [H1]; · iexact H1
  isplitl [H2]; · iexact H2
  isplitl [H3]; · iexact H3
  isplitl [H4]; · iexact H4
  isplitl [H5]; · iexact H5
  iempintro

theorem sendSt_elim (c : Dev nD) (W : Waits sig Unit) :
    SendSt m ρ c 31 W ⊢ iprop(owes (c : Thread nD τ) 0 W ∗ bigSep Finset.univ fun j : Fin 31 => cred (tallyAt (sendCell c j) () N)) := by
  unfold SendSt; rw [owedRecv_31, belowK_31]
  iintro ⟨HO, -, -, -, -, Hc⟩
  isplitl [HO]; · iexact HO
  iexact Hc

theorem recvSt_intro (c : Dev nD) (W : Waits sig Unit) :
    iprop(owes (c : Thread nD τ) 0 W ∗ (bigSep Finset.univ fun j : Fin 31 => cred (tallyAt (recvCell c j) () N))
        ∗ (bigSep Finset.univ fun j : Fin 31 => atPos ER (recvCell c j) 0 ∅ 0))
      ⊢ RecvSt m ρ c 0 := by
  unfold RecvSt; rw [fromK_zero, belowK_zero, bigSep_empty, bigSep_empty]
  iintro ⟨H1, H2, H3⟩
  isplitl [H1]; · iexists W; iexact H1
  isplitl [H2]; · iexact H2
  isplitl [H3]; · iexact H3
  isplitl; · iempintro
  iempintro

theorem recvSt_elim (c : Dev nD) :
    RecvSt m ρ c 31 ⊢ iprop((∃ W : Waits sig Unit, owes (c : Thread nD τ) 0 W)
      ∗ (bigSep Finset.univ fun j : Fin 31 => slotPts c j (commV m ρ c))
      ∗ (bigSep Finset.univ fun j : Fin 31 => atPos ER (recvCell c j) (0 + 1) ∅ 0)) := by
  unfold RecvSt; rw [belowK_31]
  iintro ⟨H1, -, -, H4, H5⟩
  isplitl [H1]; · iexact H1
  isplitl [H4]; · iexact H4
  iexact H5

theorem sendwSt_intro (c : Dev nD) :
    iprop((∃ W : Waits sig Unit, owes (c : Thread nD τ) 0 W) ∗ (bigSep Finset.univ fun j : Fin 31 => cred (tallyAt (sendCell c j) () N))
        ∗ (bigSep Finset.univ fun j : Fin 31 => atPos ER (sendCell c j) 0 ∅ 0))
      ⊢ SendwSt m ρ c 0 := by
  unfold SendwSt; rw [fromK_zero, belowK_zero, bigSep_empty, bigSep_empty]
  iintro ⟨H1, H2, H3⟩
  isplitl [H1]; · iexact H1
  isplitl [H2]; · iexact H2
  isplitl [H3]; · iexact H3
  isplitl; · iempintro
  iempintro

theorem sendwSt_elim (c : Dev nD) :
    SendwSt m ρ c 31 ⊢ iprop((∃ W : Waits sig Unit, owes (c : Thread nD τ) 0 W)
      ∗ (bigSep Finset.univ fun j : Fin 31 => accPts m ρ c (accShare j))
      ∗ (bigSep Finset.univ fun j : Fin 31 => atPos ER (sendCell c j) (0 + 1) ∅ 0)) := by
  unfold SendwSt; rw [belowK_31]
  iintro ⟨H1, -, -, H4, H5⟩
  isplitl [H1]; · iexact H1
  isplitl [H4]; · iexact H4
  iexact H5

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := by rw [fin_N t]; rfl

def bodyPre (c : Dev nD) : sProp 𝕄 :=
  iprop((ghost m ρ Kb Ks Kr c ∗ creds c ∗ levAts L lv ∗ (∃ f, accBuf c f) ∗ (∃ f, commBuf c f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 100000 in
set_option maxHeartbeats 16000000 in
/-- The body, from `bodyPre` to `bodyPost`: each of its 125 protocol steps one instance of a step of Steps.lean. -/
theorem sound_body (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part46_eq_skeleton]; unfold k0_part46_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c]
  unfold bodyPre ghost positions payToks creds
  iintro ⟨⟨⟨⟨#HR, ⟨HatB, HatS, HatV⟩, ⟨HtB, HtS, HtV⟩⟩, ⟨HcB, HcV⟩, #Hlev, ⟨%fa, Hacc⟩, ⟨%fc, Hcomm⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the slots' buffer by slots, and the 31 signals
  ihave Hsl := (comm_split (F := F) c fc).1 $$ Hcomm
  ihave HSt := (sigSt_intro (F := F) c W fc) $$ [HO HtB Hsl]
  · isplitl [HO]; · iexact HO
    isplitl [HtB]; · iexact HtB
    iexact Hsl
  iapply (sig_step m ρ Kb Ks Kr c 0 (show (0 : ℕ) < 31 by decide) W fc) $$ [HSt]
  · isplitr; · iexact HR
    iexact HSt
  iintro HSt
  iapply (sig_step m ρ Kb Ks Kr c 1 (show (1 : ℕ) < 31 by decide) W fc) $$ [HSt]
  · isplitr; · iexact HR
    iexact HSt
  iintro HSt
  iapply (sig_step m ρ Kb Ks Kr c 2 (show (2 : ℕ) < 31 by decide) W fc) $$ [HSt]
  · isplitr; · iexact HR
    iexact HSt
  iintro HSt
  iapply (sig_step m ρ Kb Ks Kr c 3 (show (3 : ℕ) < 31 by decide) W fc) $$ [HSt]
  · isplitr; · iexact HR
    iexact HSt
  iintro HSt
  iapply (sig_step m ρ Kb Ks Kr c 4 (show (4 : ℕ) < 31 by decide) W fc) $$ [HSt]
  · isplitr; · iexact HR
    iexact HSt
  iintro HSt
  iapply (sig_step m ρ Kb Ks Kr c 5 (show (5 : ℕ) < 31 by decide) W fc) $$ [HSt]
  · isplitr; · iexact HR
    iexact HSt
  iintro HSt
  iapply (sig_step m ρ Kb Ks Kr c 6 (show (6 : ℕ) < 31 by decide) W fc) $$ [HSt]
  · isplitr; · iexact HR
    iexact HSt
  iintro HSt
  iapply (sig_step m ρ Kb Ks Kr c 7 (show (7 : ℕ) < 31 by decide) W fc) $$ [HSt]
  · isplitr; · iexact HR
    iexact HSt
  iintro HSt
  iapply (sig_step m ρ Kb Ks Kr c 8 (show (8 : ℕ) < 31 by decide) W fc) $$ [HSt]
  · isplitr; · iexact HR
    iexact HSt
  iintro HSt
  iapply (sig_step m ρ Kb Ks Kr c 9 (show (9 : ℕ) < 31 by decide) W fc) $$ [HSt]
  · isplitr; · iexact HR
    iexact HSt
  iintro HSt
  iapply (sig_step m ρ Kb Ks Kr c 10 (show (10 : ℕ) < 31 by decide) W fc) $$ [HSt]
  · isplitr; · iexact HR
    iexact HSt
  iintro HSt
  iapply (sig_step m ρ Kb Ks Kr c 11 (show (11 : ℕ) < 31 by decide) W fc) $$ [HSt]
  · isplitr; · iexact HR
    iexact HSt
  iintro HSt
  iapply (sig_step m ρ Kb Ks Kr c 12 (show (12 : ℕ) < 31 by decide) W fc) $$ [HSt]
  · isplitr; · iexact HR
    iexact HSt
  iintro HSt
  iapply (sig_step m ρ Kb Ks Kr c 13 (show (13 : ℕ) < 31 by decide) W fc) $$ [HSt]
  · isplitr; · iexact HR
    iexact HSt
  iintro HSt
  iapply (sig_step m ρ Kb Ks Kr c 14 (show (14 : ℕ) < 31 by decide) W fc) $$ [HSt]
  · isplitr; · iexact HR
    iexact HSt
  iintro HSt
  iapply (sig_step m ρ Kb Ks Kr c 15 (show (15 : ℕ) < 31 by decide) W fc) $$ [HSt]
  · isplitr; · iexact HR
    iexact HSt
  iintro HSt
  iapply (sig_step m ρ Kb Ks Kr c 16 (show (16 : ℕ) < 31 by decide) W fc) $$ [HSt]
  · isplitr; · iexact HR
    iexact HSt
  iintro HSt
  iapply (sig_step m ρ Kb Ks Kr c 17 (show (17 : ℕ) < 31 by decide) W fc) $$ [HSt]
  · isplitr; · iexact HR
    iexact HSt
  iintro HSt
  iapply (sig_step m ρ Kb Ks Kr c 18 (show (18 : ℕ) < 31 by decide) W fc) $$ [HSt]
  · isplitr; · iexact HR
    iexact HSt
  iintro HSt
  iapply (sig_step m ρ Kb Ks Kr c 19 (show (19 : ℕ) < 31 by decide) W fc) $$ [HSt]
  · isplitr; · iexact HR
    iexact HSt
  iintro HSt
  iapply (sig_step m ρ Kb Ks Kr c 20 (show (20 : ℕ) < 31 by decide) W fc) $$ [HSt]
  · isplitr; · iexact HR
    iexact HSt
  iintro HSt
  iapply (sig_step m ρ Kb Ks Kr c 21 (show (21 : ℕ) < 31 by decide) W fc) $$ [HSt]
  · isplitr; · iexact HR
    iexact HSt
  iintro HSt
  iapply (sig_step m ρ Kb Ks Kr c 22 (show (22 : ℕ) < 31 by decide) W fc) $$ [HSt]
  · isplitr; · iexact HR
    iexact HSt
  iintro HSt
  iapply (sig_step m ρ Kb Ks Kr c 23 (show (23 : ℕ) < 31 by decide) W fc) $$ [HSt]
  · isplitr; · iexact HR
    iexact HSt
  iintro HSt
  iapply (sig_step m ρ Kb Ks Kr c 24 (show (24 : ℕ) < 31 by decide) W fc) $$ [HSt]
  · isplitr; · iexact HR
    iexact HSt
  iintro HSt
  iapply (sig_step m ρ Kb Ks Kr c 25 (show (25 : ℕ) < 31 by decide) W fc) $$ [HSt]
  · isplitr; · iexact HR
    iexact HSt
  iintro HSt
  iapply (sig_step m ρ Kb Ks Kr c 26 (show (26 : ℕ) < 31 by decide) W fc) $$ [HSt]
  · isplitr; · iexact HR
    iexact HSt
  iintro HSt
  iapply (sig_step m ρ Kb Ks Kr c 27 (show (27 : ℕ) < 31 by decide) W fc) $$ [HSt]
  · isplitr; · iexact HR
    iexact HSt
  iintro HSt
  iapply (sig_step m ρ Kb Ks Kr c 28 (show (28 : ℕ) < 31 by decide) W fc) $$ [HSt]
  · isplitr; · iexact HR
    iexact HSt
  iintro HSt
  iapply (sig_step m ρ Kb Ks Kr c 29 (show (29 : ℕ) < 31 by decide) W fc) $$ [HSt]
  · isplitr; · iexact HR
    iexact HSt
  iintro HSt
  iapply (sig_step m ρ Kb Ks Kr c 30 (show (30 : ℕ) < 31 by decide) W fc) $$ [HSt]
  · isplitr; · iexact HR
    iexact HSt
  iintro HSt
  ihave HO := (sigSt_elim (F := F) c W fc) $$ HSt
  -- the row-maximum into the accumulator
  iapply (wp_load 𝒱₀ (c : Thread nD τ) none Set.univ (m := xM) (Finset.subset_univ _)) $$ Hx; iintro Hx
  rw [read_x]
  iapply (wp_load 𝒱₀ (c : Thread nD τ) none Set.univ (m := aM) (Finset.subset_univ _)) $$ Hacc; iintro Hacc
  iapply (wp_store 𝒱₀ (c : Thread nD τ) none Set.univ (m := aM) (r := rA) (Mk := Finset.univ) (Finset.subset_univ _)) $$ Hacc; iintro Hacc
  rw [write_acc]
  -- the barrier wait: every peer's slot comes with it
  iapply (Rounds.wp_wait_rest_token 𝒱₀ ER (Rd m ρ) (c : Thread nD τ) none (κ := Kb c)
      (wpE_semWait_eq 𝒱₀ (c : Thread nD τ) none Set.univ) (Set.mem_univ _) () (O := owedRecv c 0) (W := W) (R := 0) (m := 0) (T := ∅)
      (by rw [expect_bar]; decide)) $$ [HcB HO HatB]
  · isplitr; · iapply (rec_bar m ρ Kb Ks Kr c); iexact HR
    isplitl [HcB]; · iexact HcB
    isplitl [HO]; · iexact HO
    isplitr; · iapply (mayWait_bar (F := F) c); iexact Hlev
    iexact HatB
  iintro ⟨HO, HatB, -, Hpay⟩
  ihave Hbp := (Entails.of_eq (rest_bar m ρ c)) $$ Hpay
  -- the accumulator by shares, and the 31 copies
  iapply (use_ent (acc_split m ρ c).1) $$ [Hacc]
  · iexact Hacc
  iintro ⟨Hkeep, Hshares⟩
  ihave HSt := (sendSt_intro m ρ c (insert (SemLoc.reg barS, ()) W)) $$ [HO Hbp Hshares HtS HtV]
  · isplitl [HO]; · iexact HO
    isplitl [Hbp]; · iexact Hbp
    isplitl [Hshares]; · iexact Hshares
    isplitl [HtS]; · iexact HtS
    iexact HtV
  iapply (send_step m ρ Kb Ks Kr c 0 (show (0 : ℕ) < 31 by decide) (insert (SemLoc.reg barS, ()) W) _ (dev32_eq c)) $$ [HSt]
  · isplitr; · iexact HR
    iexact HSt
  iintro HSt
  iapply (send_step m ρ Kb Ks Kr c 1 (show (1 : ℕ) < 31 by decide) (insert (SemLoc.reg barS, ()) W) _ (dev33_eq c)) $$ [HSt]
  · isplitr; · iexact HR
    iexact HSt
  iintro HSt
  iapply (send_step m ρ Kb Ks Kr c 2 (show (2 : ℕ) < 31 by decide) (insert (SemLoc.reg barS, ()) W) _ (dev34_eq c)) $$ [HSt]
  · isplitr; · iexact HR
    iexact HSt
  iintro HSt
  iapply (send_step m ρ Kb Ks Kr c 3 (show (3 : ℕ) < 31 by decide) (insert (SemLoc.reg barS, ()) W) _ (dev35_eq c)) $$ [HSt]
  · isplitr; · iexact HR
    iexact HSt
  iintro HSt
  iapply (send_step m ρ Kb Ks Kr c 4 (show (4 : ℕ) < 31 by decide) (insert (SemLoc.reg barS, ()) W) _ (dev36_eq c)) $$ [HSt]
  · isplitr; · iexact HR
    iexact HSt
  iintro HSt
  iapply (send_step m ρ Kb Ks Kr c 5 (show (5 : ℕ) < 31 by decide) (insert (SemLoc.reg barS, ()) W) _ (dev37_eq c)) $$ [HSt]
  · isplitr; · iexact HR
    iexact HSt
  iintro HSt
  iapply (send_step m ρ Kb Ks Kr c 6 (show (6 : ℕ) < 31 by decide) (insert (SemLoc.reg barS, ()) W) _ (dev38_eq c)) $$ [HSt]
  · isplitr; · iexact HR
    iexact HSt
  iintro HSt
  iapply (send_step m ρ Kb Ks Kr c 7 (show (7 : ℕ) < 31 by decide) (insert (SemLoc.reg barS, ()) W) _ (dev39_eq c)) $$ [HSt]
  · isplitr; · iexact HR
    iexact HSt
  iintro HSt
  iapply (send_step m ρ Kb Ks Kr c 8 (show (8 : ℕ) < 31 by decide) (insert (SemLoc.reg barS, ()) W) _ (dev40_eq c)) $$ [HSt]
  · isplitr; · iexact HR
    iexact HSt
  iintro HSt
  iapply (send_step m ρ Kb Ks Kr c 9 (show (9 : ℕ) < 31 by decide) (insert (SemLoc.reg barS, ()) W) _ (dev41_eq c)) $$ [HSt]
  · isplitr; · iexact HR
    iexact HSt
  iintro HSt
  iapply (send_step m ρ Kb Ks Kr c 10 (show (10 : ℕ) < 31 by decide) (insert (SemLoc.reg barS, ()) W) _ (dev42_eq c)) $$ [HSt]
  · isplitr; · iexact HR
    iexact HSt
  iintro HSt
  iapply (send_step m ρ Kb Ks Kr c 11 (show (11 : ℕ) < 31 by decide) (insert (SemLoc.reg barS, ()) W) _ (dev43_eq c)) $$ [HSt]
  · isplitr; · iexact HR
    iexact HSt
  iintro HSt
  iapply (send_step m ρ Kb Ks Kr c 12 (show (12 : ℕ) < 31 by decide) (insert (SemLoc.reg barS, ()) W) _ (dev44_eq c)) $$ [HSt]
  · isplitr; · iexact HR
    iexact HSt
  iintro HSt
  iapply (send_step m ρ Kb Ks Kr c 13 (show (13 : ℕ) < 31 by decide) (insert (SemLoc.reg barS, ()) W) _ (dev45_eq c)) $$ [HSt]
  · isplitr; · iexact HR
    iexact HSt
  iintro HSt
  iapply (send_step m ρ Kb Ks Kr c 14 (show (14 : ℕ) < 31 by decide) (insert (SemLoc.reg barS, ()) W) _ (dev46_eq c)) $$ [HSt]
  · isplitr; · iexact HR
    iexact HSt
  iintro HSt
  iapply (send_step m ρ Kb Ks Kr c 15 (show (15 : ℕ) < 31 by decide) (insert (SemLoc.reg barS, ()) W) _ (dev47_eq c)) $$ [HSt]
  · isplitr; · iexact HR
    iexact HSt
  iintro HSt
  iapply (send_step m ρ Kb Ks Kr c 16 (show (16 : ℕ) < 31 by decide) (insert (SemLoc.reg barS, ()) W) _ (dev48_eq c)) $$ [HSt]
  · isplitr; · iexact HR
    iexact HSt
  iintro HSt
  iapply (send_step m ρ Kb Ks Kr c 17 (show (17 : ℕ) < 31 by decide) (insert (SemLoc.reg barS, ()) W) _ (dev49_eq c)) $$ [HSt]
  · isplitr; · iexact HR
    iexact HSt
  iintro HSt
  iapply (send_step m ρ Kb Ks Kr c 18 (show (18 : ℕ) < 31 by decide) (insert (SemLoc.reg barS, ()) W) _ (dev50_eq c)) $$ [HSt]
  · isplitr; · iexact HR
    iexact HSt
  iintro HSt
  iapply (send_step m ρ Kb Ks Kr c 19 (show (19 : ℕ) < 31 by decide) (insert (SemLoc.reg barS, ()) W) _ (dev51_eq c)) $$ [HSt]
  · isplitr; · iexact HR
    iexact HSt
  iintro HSt
  iapply (send_step m ρ Kb Ks Kr c 20 (show (20 : ℕ) < 31 by decide) (insert (SemLoc.reg barS, ()) W) _ (dev52_eq c)) $$ [HSt]
  · isplitr; · iexact HR
    iexact HSt
  iintro HSt
  iapply (send_step m ρ Kb Ks Kr c 21 (show (21 : ℕ) < 31 by decide) (insert (SemLoc.reg barS, ()) W) _ (dev53_eq c)) $$ [HSt]
  · isplitr; · iexact HR
    iexact HSt
  iintro HSt
  iapply (send_step m ρ Kb Ks Kr c 22 (show (22 : ℕ) < 31 by decide) (insert (SemLoc.reg barS, ()) W) _ (dev54_eq c)) $$ [HSt]
  · isplitr; · iexact HR
    iexact HSt
  iintro HSt
  iapply (send_step m ρ Kb Ks Kr c 23 (show (23 : ℕ) < 31 by decide) (insert (SemLoc.reg barS, ()) W) _ (dev55_eq c)) $$ [HSt]
  · isplitr; · iexact HR
    iexact HSt
  iintro HSt
  iapply (send_step m ρ Kb Ks Kr c 24 (show (24 : ℕ) < 31 by decide) (insert (SemLoc.reg barS, ()) W) _ (dev56_eq c)) $$ [HSt]
  · isplitr; · iexact HR
    iexact HSt
  iintro HSt
  iapply (send_step m ρ Kb Ks Kr c 25 (show (25 : ℕ) < 31 by decide) (insert (SemLoc.reg barS, ()) W) _ (dev57_eq c)) $$ [HSt]
  · isplitr; · iexact HR
    iexact HSt
  iintro HSt
  iapply (send_step m ρ Kb Ks Kr c 26 (show (26 : ℕ) < 31 by decide) (insert (SemLoc.reg barS, ()) W) _ (dev58_eq c)) $$ [HSt]
  · isplitr; · iexact HR
    iexact HSt
  iintro HSt
  iapply (send_step m ρ Kb Ks Kr c 27 (show (27 : ℕ) < 31 by decide) (insert (SemLoc.reg barS, ()) W) _ (dev59_eq c)) $$ [HSt]
  · isplitr; · iexact HR
    iexact HSt
  iintro HSt
  iapply (send_step m ρ Kb Ks Kr c 28 (show (28 : ℕ) < 31 by decide) (insert (SemLoc.reg barS, ()) W) _ (dev60_eq c)) $$ [HSt]
  · isplitr; · iexact HR
    iexact HSt
  iintro HSt
  iapply (send_step m ρ Kb Ks Kr c 29 (show (29 : ℕ) < 31 by decide) (insert (SemLoc.reg barS, ()) W) _ (dev61_eq c)) $$ [HSt]
  · isplitr; · iexact HR
    iexact HSt
  iintro HSt
  iapply (send_step m ρ Kb Ks Kr c 30 (show (30 : ℕ) < 31 by decide) (insert (SemLoc.reg barS, ()) W) _ (dev62_eq c)) $$ [HSt]
  · isplitr; · iexact HR
    iexact HSt
  iintro HSt
  ihave Hse := (sendSt_elim m ρ c (insert (SemLoc.reg barS, ()) W)) $$ HSt
  icases Hse with ⟨HO, HcS⟩
  -- the 31 receive waits
  ihave HSt := (recvSt_intro m ρ c (insert (SemLoc.reg barS, ()) W)) $$ [HO HcV HatV]
  · isplitl [HO]; · iexact HO
    isplitl [HcV]; · iexact HcV
    iexact HatV
  iapply (recv_step m ρ Kb Ks Kr c 0 (show (0 : ℕ) < 31 by decide)) $$ [HSt]
  · isplitr; · iexact HR
    iexact HSt
  iintro HSt
  iapply (recv_step m ρ Kb Ks Kr c 1 (show (1 : ℕ) < 31 by decide)) $$ [HSt]
  · isplitr; · iexact HR
    iexact HSt
  iintro HSt
  iapply (recv_step m ρ Kb Ks Kr c 2 (show (2 : ℕ) < 31 by decide)) $$ [HSt]
  · isplitr; · iexact HR
    iexact HSt
  iintro HSt
  iapply (recv_step m ρ Kb Ks Kr c 3 (show (3 : ℕ) < 31 by decide)) $$ [HSt]
  · isplitr; · iexact HR
    iexact HSt
  iintro HSt
  iapply (recv_step m ρ Kb Ks Kr c 4 (show (4 : ℕ) < 31 by decide)) $$ [HSt]
  · isplitr; · iexact HR
    iexact HSt
  iintro HSt
  iapply (recv_step m ρ Kb Ks Kr c 5 (show (5 : ℕ) < 31 by decide)) $$ [HSt]
  · isplitr; · iexact HR
    iexact HSt
  iintro HSt
  iapply (recv_step m ρ Kb Ks Kr c 6 (show (6 : ℕ) < 31 by decide)) $$ [HSt]
  · isplitr; · iexact HR
    iexact HSt
  iintro HSt
  iapply (recv_step m ρ Kb Ks Kr c 7 (show (7 : ℕ) < 31 by decide)) $$ [HSt]
  · isplitr; · iexact HR
    iexact HSt
  iintro HSt
  iapply (recv_step m ρ Kb Ks Kr c 8 (show (8 : ℕ) < 31 by decide)) $$ [HSt]
  · isplitr; · iexact HR
    iexact HSt
  iintro HSt
  iapply (recv_step m ρ Kb Ks Kr c 9 (show (9 : ℕ) < 31 by decide)) $$ [HSt]
  · isplitr; · iexact HR
    iexact HSt
  iintro HSt
  iapply (recv_step m ρ Kb Ks Kr c 10 (show (10 : ℕ) < 31 by decide)) $$ [HSt]
  · isplitr; · iexact HR
    iexact HSt
  iintro HSt
  iapply (recv_step m ρ Kb Ks Kr c 11 (show (11 : ℕ) < 31 by decide)) $$ [HSt]
  · isplitr; · iexact HR
    iexact HSt
  iintro HSt
  iapply (recv_step m ρ Kb Ks Kr c 12 (show (12 : ℕ) < 31 by decide)) $$ [HSt]
  · isplitr; · iexact HR
    iexact HSt
  iintro HSt
  iapply (recv_step m ρ Kb Ks Kr c 13 (show (13 : ℕ) < 31 by decide)) $$ [HSt]
  · isplitr; · iexact HR
    iexact HSt
  iintro HSt
  iapply (recv_step m ρ Kb Ks Kr c 14 (show (14 : ℕ) < 31 by decide)) $$ [HSt]
  · isplitr; · iexact HR
    iexact HSt
  iintro HSt
  iapply (recv_step m ρ Kb Ks Kr c 15 (show (15 : ℕ) < 31 by decide)) $$ [HSt]
  · isplitr; · iexact HR
    iexact HSt
  iintro HSt
  iapply (recv_step m ρ Kb Ks Kr c 16 (show (16 : ℕ) < 31 by decide)) $$ [HSt]
  · isplitr; · iexact HR
    iexact HSt
  iintro HSt
  iapply (recv_step m ρ Kb Ks Kr c 17 (show (17 : ℕ) < 31 by decide)) $$ [HSt]
  · isplitr; · iexact HR
    iexact HSt
  iintro HSt
  iapply (recv_step m ρ Kb Ks Kr c 18 (show (18 : ℕ) < 31 by decide)) $$ [HSt]
  · isplitr; · iexact HR
    iexact HSt
  iintro HSt
  iapply (recv_step m ρ Kb Ks Kr c 19 (show (19 : ℕ) < 31 by decide)) $$ [HSt]
  · isplitr; · iexact HR
    iexact HSt
  iintro HSt
  iapply (recv_step m ρ Kb Ks Kr c 20 (show (20 : ℕ) < 31 by decide)) $$ [HSt]
  · isplitr; · iexact HR
    iexact HSt
  iintro HSt
  iapply (recv_step m ρ Kb Ks Kr c 21 (show (21 : ℕ) < 31 by decide)) $$ [HSt]
  · isplitr; · iexact HR
    iexact HSt
  iintro HSt
  iapply (recv_step m ρ Kb Ks Kr c 22 (show (22 : ℕ) < 31 by decide)) $$ [HSt]
  · isplitr; · iexact HR
    iexact HSt
  iintro HSt
  iapply (recv_step m ρ Kb Ks Kr c 23 (show (23 : ℕ) < 31 by decide)) $$ [HSt]
  · isplitr; · iexact HR
    iexact HSt
  iintro HSt
  iapply (recv_step m ρ Kb Ks Kr c 24 (show (24 : ℕ) < 31 by decide)) $$ [HSt]
  · isplitr; · iexact HR
    iexact HSt
  iintro HSt
  iapply (recv_step m ρ Kb Ks Kr c 25 (show (25 : ℕ) < 31 by decide)) $$ [HSt]
  · isplitr; · iexact HR
    iexact HSt
  iintro HSt
  iapply (recv_step m ρ Kb Ks Kr c 26 (show (26 : ℕ) < 31 by decide)) $$ [HSt]
  · isplitr; · iexact HR
    iexact HSt
  iintro HSt
  iapply (recv_step m ρ Kb Ks Kr c 27 (show (27 : ℕ) < 31 by decide)) $$ [HSt]
  · isplitr; · iexact HR
    iexact HSt
  iintro HSt
  iapply (recv_step m ρ Kb Ks Kr c 28 (show (28 : ℕ) < 31 by decide)) $$ [HSt]
  · isplitr; · iexact HR
    iexact HSt
  iintro HSt
  iapply (recv_step m ρ Kb Ks Kr c 29 (show (29 : ℕ) < 31 by decide)) $$ [HSt]
  · isplitr; · iexact HR
    iexact HSt
  iintro HSt
  iapply (recv_step m ρ Kb Ks Kr c 30 (show (30 : ℕ) < 31 by decide)) $$ [HSt]
  · isplitr; · iexact HR
    iexact HSt
  iintro HSt
  ihave Hre := (recvSt_elim m ρ c) $$ HSt
  icases Hre with ⟨HOw, Hslots, HatV⟩
  ihave Hcomm := (comm_split (F := F) c (commV m ρ c)).2 $$ Hslots
  -- the maximum of the accumulator and the slots, stored
  unfold accPts
  iapply (wp_load 𝒱₀ (c : Thread nD τ) none Set.univ (m := aM) (by rw [View.set_whole]; exact Finset.subset_univ _)) $$ Hkeep; iintro Hkeep
  rw [read_acc]
  iapply (wp_load 𝒱₀ (c : Thread nD τ) none Set.univ (m := cM) (Finset.subset_univ _)) $$ Hcomm; iintro Hcomm
  rw [read_comm]
  iapply (wp_load 𝒱₀ (c : Thread nD τ) none Set.univ (m := oM) (Finset.subset_univ _)) $$ Hout; iintro Hout
  iapply (wp_store 𝒱₀ (c : Thread nD τ) none Set.univ (m := oM) (r := rA) (Mk := Finset.univ) (Finset.subset_univ _)) $$ Hout; iintro Hout
  rw [write_out]
  -- the 31 send waits
  ihave HSt := (sendwSt_intro m ρ c) $$ [HOw HcS HatS]
  · isplitl [HOw]; · iexact HOw
    isplitl [HcS]; · iexact HcS
    iexact HatS
  iapply (sendw_step m ρ Kb Ks Kr c 0 (show (0 : ℕ) < 31 by decide)) $$ [HSt]
  · isplitr; · iexact HR
    iexact HSt
  iintro HSt
  iapply (sendw_step m ρ Kb Ks Kr c 1 (show (1 : ℕ) < 31 by decide)) $$ [HSt]
  · isplitr; · iexact HR
    iexact HSt
  iintro HSt
  iapply (sendw_step m ρ Kb Ks Kr c 2 (show (2 : ℕ) < 31 by decide)) $$ [HSt]
  · isplitr; · iexact HR
    iexact HSt
  iintro HSt
  iapply (sendw_step m ρ Kb Ks Kr c 3 (show (3 : ℕ) < 31 by decide)) $$ [HSt]
  · isplitr; · iexact HR
    iexact HSt
  iintro HSt
  iapply (sendw_step m ρ Kb Ks Kr c 4 (show (4 : ℕ) < 31 by decide)) $$ [HSt]
  · isplitr; · iexact HR
    iexact HSt
  iintro HSt
  iapply (sendw_step m ρ Kb Ks Kr c 5 (show (5 : ℕ) < 31 by decide)) $$ [HSt]
  · isplitr; · iexact HR
    iexact HSt
  iintro HSt
  iapply (sendw_step m ρ Kb Ks Kr c 6 (show (6 : ℕ) < 31 by decide)) $$ [HSt]
  · isplitr; · iexact HR
    iexact HSt
  iintro HSt
  iapply (sendw_step m ρ Kb Ks Kr c 7 (show (7 : ℕ) < 31 by decide)) $$ [HSt]
  · isplitr; · iexact HR
    iexact HSt
  iintro HSt
  iapply (sendw_step m ρ Kb Ks Kr c 8 (show (8 : ℕ) < 31 by decide)) $$ [HSt]
  · isplitr; · iexact HR
    iexact HSt
  iintro HSt
  iapply (sendw_step m ρ Kb Ks Kr c 9 (show (9 : ℕ) < 31 by decide)) $$ [HSt]
  · isplitr; · iexact HR
    iexact HSt
  iintro HSt
  iapply (sendw_step m ρ Kb Ks Kr c 10 (show (10 : ℕ) < 31 by decide)) $$ [HSt]
  · isplitr; · iexact HR
    iexact HSt
  iintro HSt
  iapply (sendw_step m ρ Kb Ks Kr c 11 (show (11 : ℕ) < 31 by decide)) $$ [HSt]
  · isplitr; · iexact HR
    iexact HSt
  iintro HSt
  iapply (sendw_step m ρ Kb Ks Kr c 12 (show (12 : ℕ) < 31 by decide)) $$ [HSt]
  · isplitr; · iexact HR
    iexact HSt
  iintro HSt
  iapply (sendw_step m ρ Kb Ks Kr c 13 (show (13 : ℕ) < 31 by decide)) $$ [HSt]
  · isplitr; · iexact HR
    iexact HSt
  iintro HSt
  iapply (sendw_step m ρ Kb Ks Kr c 14 (show (14 : ℕ) < 31 by decide)) $$ [HSt]
  · isplitr; · iexact HR
    iexact HSt
  iintro HSt
  iapply (sendw_step m ρ Kb Ks Kr c 15 (show (15 : ℕ) < 31 by decide)) $$ [HSt]
  · isplitr; · iexact HR
    iexact HSt
  iintro HSt
  iapply (sendw_step m ρ Kb Ks Kr c 16 (show (16 : ℕ) < 31 by decide)) $$ [HSt]
  · isplitr; · iexact HR
    iexact HSt
  iintro HSt
  iapply (sendw_step m ρ Kb Ks Kr c 17 (show (17 : ℕ) < 31 by decide)) $$ [HSt]
  · isplitr; · iexact HR
    iexact HSt
  iintro HSt
  iapply (sendw_step m ρ Kb Ks Kr c 18 (show (18 : ℕ) < 31 by decide)) $$ [HSt]
  · isplitr; · iexact HR
    iexact HSt
  iintro HSt
  iapply (sendw_step m ρ Kb Ks Kr c 19 (show (19 : ℕ) < 31 by decide)) $$ [HSt]
  · isplitr; · iexact HR
    iexact HSt
  iintro HSt
  iapply (sendw_step m ρ Kb Ks Kr c 20 (show (20 : ℕ) < 31 by decide)) $$ [HSt]
  · isplitr; · iexact HR
    iexact HSt
  iintro HSt
  iapply (sendw_step m ρ Kb Ks Kr c 21 (show (21 : ℕ) < 31 by decide)) $$ [HSt]
  · isplitr; · iexact HR
    iexact HSt
  iintro HSt
  iapply (sendw_step m ρ Kb Ks Kr c 22 (show (22 : ℕ) < 31 by decide)) $$ [HSt]
  · isplitr; · iexact HR
    iexact HSt
  iintro HSt
  iapply (sendw_step m ρ Kb Ks Kr c 23 (show (23 : ℕ) < 31 by decide)) $$ [HSt]
  · isplitr; · iexact HR
    iexact HSt
  iintro HSt
  iapply (sendw_step m ρ Kb Ks Kr c 24 (show (24 : ℕ) < 31 by decide)) $$ [HSt]
  · isplitr; · iexact HR
    iexact HSt
  iintro HSt
  iapply (sendw_step m ρ Kb Ks Kr c 25 (show (25 : ℕ) < 31 by decide)) $$ [HSt]
  · isplitr; · iexact HR
    iexact HSt
  iintro HSt
  iapply (sendw_step m ρ Kb Ks Kr c 26 (show (26 : ℕ) < 31 by decide)) $$ [HSt]
  · isplitr; · iexact HR
    iexact HSt
  iintro HSt
  iapply (sendw_step m ρ Kb Ks Kr c 27 (show (27 : ℕ) < 31 by decide)) $$ [HSt]
  · isplitr; · iexact HR
    iexact HSt
  iintro HSt
  iapply (sendw_step m ρ Kb Ks Kr c 28 (show (28 : ℕ) < 31 by decide)) $$ [HSt]
  · isplitr; · iexact HR
    iexact HSt
  iintro HSt
  iapply (sendw_step m ρ Kb Ks Kr c 29 (show (29 : ℕ) < 31 by decide)) $$ [HSt]
  · isplitr; · iexact HR
    iexact HSt
  iintro HSt
  iapply (sendw_step m ρ Kb Ks Kr c 30 (show (30 : ℕ) < 31 by decide)) $$ [HSt]
  · isplitr; · iexact HR
    iexact HSt
  iintro HSt
  ihave Hwe := (sendwSt_elim m ρ c) $$ HSt
  icases Hwe with ⟨HOw, Hshares, HatS⟩
  iapply (use_ent (acc_split m ρ c).2) $$ [Hkeep Hshares]
  · unfold accPts
    isplitl [Hkeep]; · iexact Hkeep
    iexact Hshares
  iintro Hacc
  -- the 62 own cells close
  imod (close_sends m ρ Kb Ks Kr c) $$ [HatS] with HzS
  · isplitr; · iexact HR
    iexact HatS
  imod (close_recvs m ρ Kb Ks Kr c) $$ [HatV] with HzV
  · isplitr; · iexact HR
    iexact HatV
  rw [wp_ret]; imodintro
  iapply Hk
  unfold bodyPost Φ₁ Dat.owesAt Pipeline.owesWithin
  rw [show (dats m ρ 0 c).owed t₀.succ = 0 from rfl]
  isplitl [Hacc Hcomm HzS HzV]
  · isplitl [Hacc]; · iexact Hacc
    isplitl [Hcomm]; · iexact Hcomm
    isplitl [HzS]; · iexact HzS
    iexact HzV
  icases HOw with ⟨%W', HO⟩
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%Kb, %Ks, %Kr, Hg⟩, Hcr, Hlev⟩, Hacc, Hcomm⟩, Ho, Hx, Hout⟩
  iapply (sound_body m ρ Kb Ks Kr c fun _ => bodyPost m ρ c)
  unfold bodyPre
  isplitr []
  · isplitl [Hg Hcr Hlev Hacc Hcomm]
    · isplitl [Hg]; · iexact Hg
      isplitl [Hcr]; · iexact Hcr
      isplitl [Hlev]; · iexact Hlev
      isplitl [Hacc]; · iexact Hacc
      iexact Hcomm
    isplitl [Ho]; · iexact Ho
    isplitl [Hx] <;> iassumption
  · iintro H; iexact H

end Cert.KernelIdeal.Hand

end
-- ==== Proof.KernelIdeal.Launch.lean ====
/-
  The launch of the all-to-all maximum on the 32 devices: the protocol's ghost state made and dealt, each device's body run
  from it, and what the argument and result arrays hold in every final state.
-/
import proofs.«900925_g7700000000000926_dist_max_ax0_shard0_i_m512_n256_v7x_i32_f32_1_alg».proof.Proof.KernelIdeal.Data
import proofs.«900925_g7700000000000926_dist_max_ax0_shard0_i_m512_n256_v7x_i32_f32_1_alg».proof.Proof.KernelIdeal.Tables
import proofs.«900925_g7700000000000926_dist_max_ax0_shard0_i_m512_n256_v7x_i32_f32_1_alg».proof.Proof.KernelIdeal.Slots
import proofs.«900925_g7700000000000926_dist_max_ax0_shard0_i_m512_n256_v7x_i32_f32_1_alg».proof.Proof.KernelIdeal.Levels
import proofs.«900925_g7700000000000926_dist_max_ax0_shard0_i_m512_n256_v7x_i32_f32_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens the launch element is made of -/

/-- The protocol's cells, indexed: a device's barrier cell, its 31 send cells, its 31 receive cells. -/
abbrev CellIx : Type := Dev nD ⊕ (Dev nD × Fin 31) ⊕ (Dev nD × Fin 31)

def kcell : CellIx → GSem nD τ sig
  | .inl c => barCell c
  | .inr (.inl cj) => sendCell cj.1 cj.2
  | .inr (.inr cj) => recvCell cj.1 cj.2

theorem cell_dev {c c' : Dev nD} {s s' : SemLoc sig} (h : (((c : Thread nD τ), s) : GSem nD τ sig) = ((c' : Thread nD τ), s')) : c = c' :=
  congrArg (fun g : GSem nD τ sig => g.1.1) h
theorem cell_sem {c c' : Dev nD} {s s' : SemLoc sig} (h : (((c : Thread nD τ), s) : GSem nD τ sig) = ((c' : Thread nD τ), s')) : s = s' :=
  congrArg Prod.snd h

theorem kcell_injective : Function.Injective kcell := by
  rintro (c | ⟨c, j⟩ | ⟨c, j⟩) (c' | ⟨c', j'⟩ | ⟨c', j'⟩) h
  · rw [cell_dev h]
  · exact absurd (cell_sem h).symm (send_ne_bar j')
  · exact absurd (cell_sem h).symm (recv_ne_bar j')
  · exact absurd (cell_sem h) (send_ne_bar j)
  · have h1 : c = c' := cell_dev h
    have h2 : j = j' := sendS_injective (SemLoc.dma.inj (cell_sem h))
    rw [h1, h2]
  · exact absurd (cell_sem h) (send_ne_recv j j')
  · exact absurd (cell_sem h) (recv_ne_bar j)
  · exact absurd (cell_sem h).symm (send_ne_recv j' j)
  · have h1 : c = c' := cell_dev h
    have h2 : j = j' := recvS_injective (SemLoc.dma.inj (cell_sem h))
    rw [h1, h2]

def protoCells : Finset (GSem nD τ sig) := Finset.univ.map ⟨kcell, kcell_injective⟩

/-- The duty tokens as minted: every duty `d` of a barrier cell, the one duty of each send and of each receive cell. -/
abbrev TokIx : Type := (Dev nD × Fin 31) ⊕ (Dev nD × Fin 31) ⊕ (Dev nD × Fin 31)

def ktok : TokIx → GSem nD τ sig × ℕ × Fin 31
  | .inl cd => (barCell cd.1, 0, cd.2)
  | .inr (.inl cj) => (sendCell cj.1 cj.2, 0, 0)
  | .inr (.inr cj) => (recvCell cj.1 cj.2, 0, 0)

theorem ktok_injective : Function.Injective ktok := by
  rintro (⟨c, d⟩ | ⟨c, j⟩ | ⟨c, j⟩) (⟨c', d'⟩ | ⟨c', j'⟩ | ⟨c', j'⟩) h
  · have h1 : c = c' := Sum.inl.inj (kcell_injective (a₁ := .inl c) (a₂ := .inl c') (congrArg Prod.fst h))
    have h2 : d = d' := congrArg (fun x : GSem nD τ sig × ℕ × Fin 31 => x.2.2) h
    rw [h1, h2]
  · exact absurd (kcell_injective (a₁ := .inl c) (a₂ := .inr (.inl (c', j'))) (congrArg Prod.fst h)) (fun e => by cases e)
  · exact absurd (kcell_injective (a₁ := .inl c) (a₂ := .inr (.inr (c', j'))) (congrArg Prod.fst h)) (fun e => by cases e)
  · exact absurd (kcell_injective (a₁ := .inr (.inl (c, j))) (a₂ := .inl c') (congrArg Prod.fst h)) (fun e => by cases e)
  · rw [Sum.inl.inj (Sum.inr.inj (kcell_injective (a₁ := .inr (.inl (c, j))) (a₂ := .inr (.inl (c', j'))) (congrArg Prod.fst h)))]
  · exact absurd (kcell_injective (a₁ := .inr (.inl (c, j))) (a₂ := .inr (.inr (c', j'))) (congrArg Prod.fst h)) (fun e => by cases e)
  · exact absurd (kcell_injective (a₁ := .inr (.inr (c, j))) (a₂ := .inl c') (congrArg Prod.fst h)) (fun e => by cases e)
  · exact absurd (kcell_injective (a₁ := .inr (.inr (c, j))) (a₂ := .inr (.inl (c', j'))) (congrArg Prod.fst h)) (fun e => by cases e)
  · rw [Sum.inr.inj (Sum.inr.inj (kcell_injective (a₁ := .inr (.inr (c, j))) (a₂ := .inr (.inr (c', j'))) (congrArg Prod.fst h)))]

def protoToks : Finset (GSem nD τ sig × ℕ × Fin 31) := Finset.univ.map ⟨ktok, ktok_injective⟩

def u₀ : UU :=
  (initOf (Pipeline.cells cfgs cellOf_inj) (Pipeline.launchToks cfgs cellOf_inj), initOf protoCells protoToks)

/-- An assertion about a cell, on each of device `c`'s 63 cells. -/
def own63 (Φ : GSem nD τ sig → sProp 𝕄) (c : Dev nD) : sProp 𝕄 :=
  iprop(Φ (barCell c) ∗ (bigSep Finset.univ fun j : Fin 31 => Φ (sendCell c j)) ∗ (bigSep Finset.univ fun j : Fin 31 => Φ (recvCell c j)))

/-- An assertion over all the protocol's cells, device by device. -/
theorem bigSep_cells (Φ : GSem nD τ sig → sProp 𝕄) : bigSep protoCells Φ = bigSep Finset.univ (own63 Φ) := by
  unfold protoCells own63
  rw [bigSep_map, bigSep_univ_sum, bigSep_univ_sum, bigSep_univ_prod, bigSep_univ_prod, bigSep_sep', bigSep_sep']
  rfl

/-- The duty tokens of device `c`'s own cells. -/
def toks (c : Dev nD) : sProp 𝕄 :=
  iprop((bigSep Finset.univ fun d : Fin 31 => dutyTok ER (barCell c) 0 d)
    ∗ (bigSep Finset.univ fun j : Fin 31 => dutyTok ER (sendCell c j) 0 (0 : Fin 31))
    ∗ (bigSep Finset.univ fun j : Fin 31 => dutyTok ER (recvCell c j) 0 (0 : Fin 31)))

theorem bigSep_toks : bigSep protoToks (fun x => (dutyTok ER x.1 x.2.1 x.2.2 : sProp 𝕄)) = bigSep Finset.univ fun c : Dev nD => toks c := by
  unfold protoToks toks
  rw [bigSep_map, bigSep_univ_sum, bigSep_univ_sum, bigSep_univ_prod, bigSep_univ_prod, bigSep_univ_prod, bigSep_sep', bigSep_sep']
  rfl

/-- What the launch element deals device `c`: its 63 cells' round states, that each has reached round 0, its positions, and
    the tokens of its own cells' duties. -/
def G (c : Dev nD) : sProp 𝕄 :=
  iprop(own63 (fun g => roundState ER (Rd m ρ) g 0) c ∗ own63 (fun g => reached ER g 0) c ∗ own63 (fun g => atPos ER g 0 ∅ 0) c ∗ toks c)

/-- What the global step makes of it. -/
def G' (c : Dev nD) : sProp 𝕄 := iprop(∃ Kb Ks Kr, ghost m ρ Kb Ks Kr c)

theorem fund : BI.own (ER (initOf protoCells protoToks)) ⊢ (|==> bigSep Finset.univ (G m ρ) : sProp 𝕄) := by
  iintro HX
  imod (Rounds.fund ER (Rd m ρ) protoCells protoToks) $$ HX with ⟨Hst, Hr, Hat, Htok⟩
  imodintro
  ihave Hst' := (Entails.of_eq (bigSep_cells fun g => roundState ER (Rd m ρ) g 0)) $$ Hst
  ihave Hr' := (Entails.of_eq (bigSep_cells (F := F) fun g => reached ER g 0)) $$ Hr
  ihave Hat' := (Entails.of_eq (bigSep_cells (F := F) fun g => atPos ER g 0 ∅ 0)) $$ Hat
  ihave Htok' := (Entails.of_eq (bigSep_toks (F := F))) $$ Htok
  unfold G; simp only [bigSep_sep']
  isplitl [Hst']; · iexact Hst'
  isplitl [Hr']; · iexact Hr'
  isplitl [Hat']; · iexact Hat'
  iexact Htok'

/-! ### The global step: every cell's invariant allocated, the tokens dealt to their payers -/

/-- The 62 own semaphores counted as 31 and 31. -/
def e62 : Fin 31 ⊕ Fin 31 ≃ Fin 62 := (finSumFinEquiv : Fin 31 ⊕ Fin 31 ≃ Fin (31 + 31))
theorem e62_inl_val (j : Fin 31) : (e62 (Sum.inl j)).val = j.val := rfl
theorem e62_inr_val (j : Fin 31) : (e62 (Sum.inr j)).val = 31 + j.val := rfl

/-- The kernel's own 62 semaphores are its send and its receive semaphores. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 31 => semVal (sendCell c j) 0) ∗ (bigSep Finset.univ fun j : Fin 31 => semVal (recvCell c j) 0)) := by
  unfold Pipeline.ownSems0
  rw [bigSep_univ_equiv e62, bigSep_univ_sum]
  have hS : ∀ j : Fin 31, osem (e62 (Sum.inl j)) = SemLoc.dma (sendS j) := fun j => by
    show (if h : (e62 (Sum.inl j)).val < 31 then SemLoc.dma (sendS ⟨(e62 (Sum.inl j)).val, h⟩) else _) = _
    rw [dif_pos (show (e62 (Sum.inl j)).val < 31 from j.isLt)]
    rfl
  have hR : ∀ j : Fin 31, osem (e62 (Sum.inr j)) = SemLoc.dma (recvS j) := fun j => by
    show (if h : (e62 (Sum.inr j)).val < 31 then _ else SemLoc.dma (recvS ⟨(e62 (Sum.inr j)).val - 31, _⟩)) = _
    rw [dif_neg (show ¬ (e62 (Sum.inr j)).val < 31 from by rw [e62_inr_val]; omega)]
    exact congrArg (fun k => SemLoc.dma (recvS k)) (Fin.ext (by show (e62 (Sum.inr j)).val - 31 = j.val; rw [e62_inr_val]; omega))
  simp only [hS, hR]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (own63 (fun g => semVal g 0) c : sProp 𝕄) := by
  rw [ownSems0_eq, unscopedSems0_eq]
  unfold own63
  iintro ⟨⟨HS, HV⟩, HB⟩
  isplitl [HB]; · iexact HB
  isplitl [HS] <;> iassumption

theorem own63_sep (Φ Ψ : GSem nD τ sig → sProp 𝕄) (c : Dev nD) :
    iprop(own63 Φ c ∗ own63 Ψ c) ⊢ own63 (fun g => iprop(Φ g ∗ Ψ g)) c := by
  unfold own63
  rw [bigSep_sep', bigSep_sep']
  iintro ⟨⟨H1, H2, H3⟩, H4, H5, H6⟩
  isplitl [H1 H4]; · isplitl [H1] <;> iassumption
  isplitl [H2 H5]; · isplitl [H2] <;> iassumption
  isplitl [H3] <;> iassumption

theorem own63_mono {Φ Ψ : GSem nD τ sig → sProp 𝕄} (c : Dev nD) (h : ∀ g, Φ g ⊢ Ψ g) : own63 Φ c ⊢ own63 Ψ c := by
  unfold own63
  exact sep_mono (h _) (sep_mono (bigSep_mono fun j _ => h _) (bigSep_mono fun j _ => h _))

theorem own63_fupd (Φ : GSem nD τ sig → sProp 𝕄) (c : Dev nD) :
    own63 (fun g => iprop(|={Set.univ}=> Φ g)) c ⊢ |={Set.univ}=> own63 Φ c := by
  unfold own63
  iintro ⟨H1, H2, H3⟩
  imod H1
  imod (bigSep_fupd Finset.univ fun j : Fin 31 => Φ (sendCell c j)) $$ H2 with H2
  imod (bigSep_fupd Finset.univ fun j : Fin 31 => Φ (recvCell c j)) $$ H3 with H3
  imodintro
  isplitl [H1]; · iexact H1
  isplitl [H2] <;> iassumption

/-- What a device holds once its own 63 cells' invariants are allocated. -/
def mid (c : Dev nD) : sProp 𝕄 :=
  iprop(own63 (fun g => iprop(∃ κ : ℕ, cellInv ER (Rd m ρ) κ g)) c ∗ own63 (fun g => reached ER g 0) c ∗ own63 (fun g => atPos ER g 0 ∅ 0) c ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> mid m ρ c := by
  unfold G mid
  iintro ⟨Hos, Hus, Hst, Hr, Hat, Htok⟩
  ihave Hv := (sems0_eq (F := F) c) $$ [Hos Hus]
  · isplitl [Hos] <;> iassumption
  imod (show iprop(own63 (fun g => semVal g 0) c ∗ own63 (fun g => roundState ER (Rd m ρ) g 0) c)
      ⊢ (|={Set.univ}=> own63 (fun g => iprop(∃ κ : ℕ, cellInv ER (Rd m ρ) κ g)) c : sProp 𝕄) from
        ((own63_sep _ _ c).trans (own63_mono c fun g => (Rounds.body_intro ER (Rd m ρ) g).trans inv_alloc)).trans (own63_fupd _ c)) $$ [Hv Hst] with Hinv
  · isplitl [Hv] <;> iassumption
  imodintro
  isplitl [Hinv]; · iexact Hinv
  isplitl [Hr]; · iexact Hr
  isplitl [Hat]; · iexact Hat
  iexact Htok

/-- An assertion on every device's 63 cells, family by family. -/
theorem bigSep_own63 (Φ : GSem nD τ sig → sProp 𝕄) :
    bigSep Finset.univ (own63 Φ) = iprop((bigSep Finset.univ fun c : Dev nD => Φ (barCell c))
      ∗ (bigSep Finset.univ fun cj : Dev nD × Fin 31 => Φ (sendCell cj.1 cj.2))
      ∗ (bigSep Finset.univ fun cj : Dev nD × Fin 31 => Φ (recvCell cj.1 cj.2))) := by
  unfold own63
  rw [bigSep_sep', bigSep_sep', bigSep_univ_prod (fun cj : Dev nD × Fin 31 => Φ (sendCell cj.1 cj.2)),
    bigSep_univ_prod (fun cj : Dev nD × Fin 31 => Φ (recvCell cj.1 cj.2))]

/-! The tokens dealt: duty `back j` of the `j`-th peer's barrier cell and the receive duty of the `j`-th peer's slot `j` go to
    the device that pays them. -/

/-- `(c, j) ↦ (peer c j, back j)`, its own inverse. -/
def barEquiv : Dev nD × Fin 31 ≃ Dev nD × Fin 31 where
  toFun cj := (peer cj.1 cj.2, back cj.2)
  invFun cj := (peer cj.1 cj.2, back cj.2)
  left_inv cj := by obtain ⟨c, j⟩ := cj; show (peer (peer c j) (back j), back (back j)) = (c, j); rw [peer_back, back_back]
  right_inv cj := by obtain ⟨c, j⟩ := cj; show (peer (peer c j) (back j), back (back j)) = (c, j); rw [peer_back, back_back]

/-- `(c, j) ↦ (peer c j, j)`, inverse `(c, j) ↦ (srcOf c j, j)`. -/
def recvEquiv : Dev nD × Fin 31 ≃ Dev nD × Fin 31 where
  toFun cj := (peer cj.1 cj.2, cj.2)
  invFun cj := (srcOf cj.1 cj.2, cj.2)
  left_inv cj := by obtain ⟨c, j⟩ := cj; show (srcOf (peer c j) j, j) = (c, j); rw [srcOf_peer]
  right_inv cj := by obtain ⟨c, j⟩ := cj; show (peer (srcOf c j) j, j) = (c, j); rw [peer_srcOf]

theorem toks_around : (bigSep Finset.univ fun c : Dev nD => (toks c : sProp 𝕄)) ⊢ bigSep Finset.univ fun c : Dev nD => payToks c := by
  have hB : (bigSep Finset.univ fun c : Dev nD => bigSep Finset.univ fun d : Fin 31 => (dutyTok ER (barCell c) 0 d : sProp 𝕄))
      = bigSep Finset.univ fun c : Dev nD => bigSep Finset.univ fun j : Fin 31 => (dutyTok ER (barCell (peer c j)) 0 (back j) : sProp 𝕄) :=
    ((bigSep_univ_prod (fun cd : Dev nD × Fin 31 => (dutyTok ER (barCell cd.1) 0 cd.2 : sProp 𝕄))).symm.trans
      (bigSep_univ_equiv barEquiv _)).trans (bigSep_univ_prod _)
  have hR : (bigSep Finset.univ fun c : Dev nD => bigSep Finset.univ fun j : Fin 31 => (dutyTok ER (recvCell c j) 0 (0 : Fin 31) : sProp 𝕄))
      = bigSep Finset.univ fun c : Dev nD => bigSep Finset.univ fun j : Fin 31 => (dutyTok ER (recvCell (peer c j) j) 0 (0 : Fin 31) : sProp 𝕄) :=
    ((bigSep_univ_prod (fun cd : Dev nD × Fin 31 => (dutyTok ER (recvCell cd.1 cd.2) 0 (0 : Fin 31) : sProp 𝕄))).symm.trans
      (bigSep_univ_equiv recvEquiv _)).trans (bigSep_univ_prod _)
  unfold toks payToks
  rw [bigSep_sep', bigSep_sep', bigSep_sep', bigSep_sep', hB, hR]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (Kb : Dev nD → ℕ) (Ks Kr : Dev nD × Fin 31 → ℕ) (c : Dev nD) :
    iprop(records m ρ Kb Ks Kr ∗ (positions c ∗ payToks c)) ⊢ G' m ρ c := by
  unfold G' ghost
  iintro H
  iexists Kb, Ks, Kr
  iexact H

theorem regroup : (bigSep Finset.univ (mid m ρ) : sProp 𝕄) ⊢ bigSep Finset.univ (G' m ρ) := by
  unfold mid
  rw [bigSep_sep', bigSep_sep', bigSep_sep', bigSep_own63, bigSep_own63]
  iintro ⟨⟨HIb, HIs, HIr⟩, ⟨#HRb, #HRs, #HRr⟩, Hat, Htok⟩
  ihave HKb := (BI.bigSep_exists_pi Finset.univ (fun (c : Dev nD) (κ : ℕ) => (cellInv ER (Rd m ρ) κ (barCell c) : sProp 𝕄))) $$ HIb
  ihave HKs := (BI.bigSep_exists_pi Finset.univ (fun (cj : Dev nD × Fin 31) (κ : ℕ) => (cellInv ER (Rd m ρ) κ (sendCell cj.1 cj.2) : sProp 𝕄))) $$ HIs
  ihave HKr := (BI.bigSep_exists_pi Finset.univ (fun (cj : Dev nD × Fin 31) (κ : ℕ) => (cellInv ER (Rd m ρ) κ (recvCell cj.1 cj.2) : sProp 𝕄))) $$ HIr
  icases HKb with ⟨%Kb, #HIb⟩
  icases HKs with ⟨%Ks, #HIs⟩
  icases HKr with ⟨%Kr, #HIr⟩
  ihave Htk := (toks_around (F := F)) $$ Htok
  iapply (bigSep_with_persistent (R := records m ρ Kb Ks Kr) fun c _ => ghost_intro m ρ Kb Ks Kr c)
  isplitr
  · unfold records
    isplitl; · iexact HIb
    isplitl; · iexact HIs
    isplitl; · iexact HIr
    isplitl; · iexact HRb
    isplitl; · iexact HRs
    iexact HRr
  · rw [bigSep_sep']
    isplitl [Hat]
    · iexact Hat
    · iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Ha⟩, ⟨%f', Hc⟩⟩
  isplitl [Hs]; · iexact Hs
  isplitl [Ha]
  · iexists f; iexact Ha
  · iexists f'; iexact Hc

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Ha, Hc, HzS, HzV⟩
  isplitr; · iempintro
  isplitl [HzS HzV]
  · isplitl [HzS] <;> iassumption
  isplitl [Ha]
  · iexists (accV m ρ c); iexact Ha
  · iexists (commV m ρ c); iexact Hc

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters: every weakly fair execution of @main on the 32 devices terminates, and every final
    state has each device's arrays at the computed contents — given each device's body (the body obligation). -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maximum of the device's row-maximum and its 31 slots. -/
theorem finalA_out (c : Dev nD) : finalA m ρ c (1 : Fin 2) = outAt m ρ c := by
  have h1 := (dats (F := F) m ρ 0 c).arrAt_succ (1 : Fin 2) t₀
  rw [flush0_1 t₀, if_pos rfl] at h1
  refine h1.trans ?_
  have h2 : (dats (F := F) m ρ 0 c).flushed (1 : Fin 2) t₀ = outAt m ρ c := rfl
  rw [h2]
  exact Memref.write_access_unit_zero_univ (Elt F) main_v1 (funext fun a => Nat.zero_mul _) _ _ _

/-- info: 'Cert.KernelIdeal.Hand.run_main' depends on axioms: [propext, Classical.choice, Quot.sound] -/
#guard_msgs in #print axioms run_main

/-- info: 'Cert.KernelIdeal.Hand.finalA_out' depends on axioms: [propext, Classical.choice, Quot.sound] -/
#guard_msgs in #print axioms finalA_out

end Cert.KernelIdeal.Hand

end
-- ==== Proof.KernelIdeal.Final.lean ====
/-
  The run of the all-to-all maximum read as values: in every final state each device's result is the maximum of its
  row-maximum and its 31 slots, and its argument is unchanged.
-/
import proofs.«900925_g7700000000000926_dist_max_ax0_shard0_i_m512_n256_v7x_i32_f32_1_alg».proof.Proof.KernelIdeal.Launch

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  OrdCont.mono (θ_run defs (onTc (τ := τ) (main (F := F))) (s₀ m ρ))
    (fun r (h : QC m ρ r) c => ⟨(h c 1).trans (finalA_out m ρ c), (h c 0).trans (finalA_x m ρ c)⟩)
    (run_main m ρ hbody)

end Cert.KernelIdeal.Hand

end
-- ==== Proof.Value.lean ====
/-
  The all-to-all maximum against the reference: the maximum, over the 32 devices, of the row-maxima of their blocks is the
  column maximum of the whole array; the reference's frame and run; and the algebraic claim from the kernel's run.

  Over the extended reals a maximum folded from −∞ lies below a bound exactly when every value folded does, so two such
  maxima are equal as soon as they fold the same values, in whatever order and grouping. Device `c`'s result at column `q`
  folds its own block's column `q` and, through the 31 slots, the column `q` of the block of every other device (slot `j`
  comes from device `c - j - 1`, and these are all the devices but `c`); block `d` is rows `512 d … 512 d + 511` of the
  whole array; so the result folds column `q` of all 16384 rows, which is what the reference's reduce folds.
-/
import proofs.«900925_g7700000000000926_dist_max_ax0_shard0_i_m512_n256_v7x_i32_f32_1_alg».proof.Defs
import proofs.«900925_g7700000000000926_dist_max_ax0_shard0_i_m512_n256_v7x_i32_f32_1_alg».proof.Proof.KernelIdeal.Cells
import proofs.«900925_g7700000000000926_dist_max_ax0_shard0_i_m512_n256_v7x_i32_f32_1_alg».proof.Proof.Gen.ReferenceIdeal
import proofs.«900925_g7700000000000926_dist_max_ax0_shard0_i_m512_n256_v7x_i32_f32_1_alg».proof.Proof.Gen.ReferenceIdeal.Run
import proofs.«900925_g7700000000000926_dist_max_ax0_shard0_i_m512_n256_v7x_i32_f32_1_alg».proof.Proof.Gen.ReferenceIdeal.Read
import proofs.«900925_g7700000000000926_dist_max_ax0_shard0_i_m512_n256_v7x_i32_f32_1_alg».proof.Proof.Gen.Pre_finite_inputs_Kernel
import proofs.«900925_g7700000000000926_dist_max_ax0_shard0_i_m512_n256_v7x_i32_f32_1_alg».proof.Proof.Gen.Pre_finite_inputs_ReferenceIdeal
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws
import Idealize.ShloMosaic.PureOps.Reduce
import Idealize.ShloMosaic.Lib.StableHlo.Run

noncomputable section

namespace Cert.Bridge

open Idealize.ShloMosaic Idealize.ShloMosaic.TcCoe Idealize.SL.Sem
open Idealize.ShloMosaic.ValueIdx
open Cert.KernelIdeal.Hand

/-! ## A maximum taken in stages -/

/-- The word of −∞ denotes the least extended real. -/
theorem negInf_eq_bot : Ideal.ofBits .f32 0xFF800000#32 = (⊥ : EReal) := by
  simp [Ideal.ofBits, Ideal.ieee]

/-- A maximum folded from −∞ over finitely many values lies below `z` exactly when every value does. -/
theorem fold_max_le_iff {n : Nat} (f : Fin n → EReal) (z : EReal) :
    (Finset.univ : Finset (Fin n)).fold max (Ideal.ofBits .f32 0xFF800000#32) f ≤ z ↔ ∀ k, f k ≤ z := by
  rw [Finset.fold_max_le, negInf_eq_bot]
  exact ⟨fun h k => h.2 k (Finset.mem_univ k), fun h => ⟨bot_le, fun k _ => h k⟩⟩

/-- Two extended reals with the same upper bounds are equal. -/
theorem eq_of_le_iff {x y : EReal} (h : ∀ z, x ≤ z ↔ y ≤ z) : x = y :=
  le_antisymm ((h y).2 le_rfl) ((h x).1 le_rfl)

/-- The reduced column index `q` with row `k` put back is `(k, q)`. -/
theorem lift_rows {R C : Nat} (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- A vector reduction by maximum over the rows, from −∞, read at column `q`: below `z` exactly when every entry of the
    column is. -/
theorem multiReduction_max_rows_le_iff {R C : Nat} (x : FVec Ideal ⟨2, ![R, C]⟩ .f32)
    (h : (⟨2, ![R, C]⟩ : Shape).Reduces [0] (⟨1, ![C]⟩ : Shape)) (hφ : FKind.Formats .f32)
    (hacc : (0xFF800000#32 : BitVec FTy.f32.bits) = FKind.maximumf.neutral .f32 hφ) (q : Fin C) (z : EReal) :
    multiReduction .maximumf [0] (⟨1, ![C]⟩ : Shape) x 0xFF800000#32 h hφ hacc (ix1 q) ≤ z
      ↔ ∀ r : Fin R, x (ix2 r q) ≤ z := by
  rw [Ideal.multiReduction_maximumf_single x _ h hφ hacc (ix1 q)]
  refine (fold_max_le_iff (n := R) (fun k => x (h.lift (ix1 q) k)) z).trans ?_
  exact forall_congr' fun k => by rw [lift_rows h q k]

/-- The host's reduce by maximum over the rows, from −∞, read at column `q`: the same. -/
theorem hostReduce_max_rows_le_iff {R C : Nat} (x : FVec Ideal ⟨2, ![R, C]⟩ .f32)
    (h' : (⟨2, ![R, C]⟩ : Shape).ReducesTo [0] (⟨1, ![C]⟩ : Shape)) (h : (⟨2, ![R, C]⟩ : Shape).Reduces [0] (⟨1, ![C]⟩ : Shape))
    (hu : 0 < (⟨0, ![]⟩ : Shape).numel) (q : Fin C) (z : EReal) :
    Host.reduce FloatOps.maximumf x (constant (F := Ideal) (⟨0, ![]⟩ : Shape) .f32 0xFF800000#32) h' hu (ix1 q) ≤ z
      ↔ ∀ r : Fin R, x (ix2 r q) ≤ z := by
  rw [Host.reduce_eq_fold_single FloatOps.maximumf x _ h' h hu (ix1 q)]
  refine (fold_max_le_iff (n := R) (fun k => x (h.lift (ix1 q) k)) z).trans ?_
  exact forall_congr' fun k => by rw [lift_rows h q k]

/-- Every row of 16384 is row `r` of block `d`, for one of the 32 blocks of 512 rows. -/
theorem forall_rows_iff (P : Fin 16384 → Prop) :
    (∀ k, P k) ↔ ∀ (d : Fin 32) (r : Fin 512), P ⟨d.val * 512 + r.val, by have := d.isLt; have := r.isLt; omega⟩ := by
  refine ⟨fun h d r => h _, fun h k => ?_⟩
  have hk := k.isLt
  have e := h ⟨k.val / 512, by omega⟩ ⟨k.val % 512, Nat.mod_lt _ (by decide)⟩
  have hv : (⟨k.val / 512 * 512 + k.val % 512, by omega⟩ : Fin 16384) = k := Fin.ext (by show k.val / 512 * 512 + k.val % 512 = k.val; omega)
  rw [hv] at e; exact e

/-- Entry `(r, q)` of block `d` of a matrix cut along its rows into 32 blocks of 512 is entry `(512 d + r, q)` of the matrix. -/
theorem block_rows_apply {α : Type} (X : (⟨2, ![16384, 256]⟩ : Shape).Idx → α) (d : Fin 32)
    (h : Layout.Tiles ⟨2, ![512, 256]⟩ ⟨2, ![16384, 256]⟩ 0 32) (r : Fin 512) (q : Fin 256) :
    Layout.block ⟨2, ![512, 256]⟩ ⟨2, ![16384, 256]⟩ 0 32 d X h (ix2 r q)
      = X (ix2 (⟨d.val * 512 + r.val, by have := d.isLt; have := r.isLt; omega⟩ : Fin 16384) q) := by
  rw [Layout.block_apply]
  refine congrArg X (funext fun a => Fin.ext ?_)
  have hv := Layout.idx_rows_val h d (ix2 r q)
  fin_cases a
  · exact hv.1
  · exact hv.2

/-! ## The kernel's two payloads at a column -/

/-- The row-maximum of a 512×256 block at column `q`: below `z` exactly when the block's column `q` is. -/
theorem pay1_le_iff (x : (⟨2, ![512, 256]⟩ : Shape).Idx → EReal) (q : Fin 256) (z : EReal) :
    Cert.KernelIdeal.Gen.k0_pay1 (F := Ideal) x (ix2 (0 : Fin 1) q) ≤ z ↔ ∀ r : Fin 512, x (ix2 r q) ≤ z := by
  have e : Cert.KernelIdeal.Gen.k0_pay1 (F := Ideal) x (ix2 (0 : Fin 1) q)
      = multiReduction (F := Ideal) .maximumf [0] (⟨1, ![256]⟩ : Shape)
          (shapeCast (⟨2, ![512, 256]⟩ : Shape) x Cert.KernelIdeal.Gen.shapeCasts_S512x256_S512x256) 0xFF800000#32
          Cert.KernelIdeal.Gen.reduces_S512x256_S256 (.inl rfl) rfl (ix1 q) := by
    unfold Cert.KernelIdeal.Gen.k0_pay1
    refine (congrFun (shapeCast_self _ _) _).trans ?_
    exact shapeCast_a_1a_apply _ _ (0 : Fin 1) q
  rw [e]
  refine (multiReduction_max_rows_le_iff _ _ _ _ q z).trans (forall_congr' fun r => ?_)
  rw [shapeCast_self]

/-- The result row at column `q`: below `z` exactly when the accumulator's entry and every slot's entry at `q` are. -/
theorem pay2_le_iff (a : (⟨2, ![1, 256]⟩ : Shape).Idx → EReal) (b : (⟨3, ![31, 1, 256]⟩ : Shape).Idx → EReal) (q : Fin 256)
    (z : EReal) :
    Cert.KernelIdeal.Gen.k0_pay2 (F := Ideal) a b (ix2 (0 : Fin 1) q) ≤ z
      ↔ a (ix2 (0 : Fin 1) q) ≤ z ∧ ∀ j : Fin 31, b (ix3 j (0 : Fin 1) q) ≤ z := by
  have e : Cert.KernelIdeal.Gen.k0_pay2 (F := Ideal) a b (ix2 (0 : Fin 1) q)
      = max (a (ix2 (0 : Fin 1) q)) (multiReduction (F := Ideal) .maximumf [0] (⟨1, ![256]⟩ : Shape)
          (shapeCast (⟨2, ![31, 256]⟩ : Shape) b Cert.KernelIdeal.Gen.shapeCasts_S31x1x256_S31x256) 0xFF800000#32
          Cert.KernelIdeal.Gen.reduces_S31x256_S256 (.inl rfl) rfl (ix1 q)) := by
    unfold Cert.KernelIdeal.Gen.k0_pay2
    exact congrArg (max (a (ix2 (0 : Fin 1) q))) (shapeCast_a_1a_apply _ _ (0 : Fin 1) q)
  rw [e, max_le_iff]
  refine and_congr Iff.rfl ((multiReduction_max_rows_le_iff _ _ _ _ q z).trans (forall_congr' fun j => ?_))
  rw [shapeCast_apply b _ (ix2 j q) (ix3 j (0 : Fin 1) q) (by
    rw [Shape.rowMajor_val_three, Shape.rowMajor_val_two]
    show (j.val * 1 + 0) * 256 + q.val = j.val * 256 + q.val
    rw [Nat.mul_one, Nat.add_zero])]

/-! ## The devices a result folds -/

/-- Device `c` and the sources of its 31 slots are all the devices. -/
theorem forall_dev_iff (c : Dev Cert.KernelIdeal.nD) (P : Dev Cert.KernelIdeal.nD → Prop) :
    (P c ∧ ∀ j : Fin 31, P (srcOf c j)) ↔ ∀ d, P d := by
  refine ⟨fun h d => ?_, fun h => ⟨h c, fun j => h _⟩⟩
  by_cases hd : d = c
  · rw [hd]; exact h.1
  · obtain ⟨j, rfl⟩ := exists_peer c d hd
    have e := h.2 (back j)
    rwa [srcOf_eq_peer_back, back_back] at e

/-! ## The kernel's result at a column -/

section Kernel

variable (m : (ℓ : Loc Cert.KernelIdeal.nD Cert.KernelIdeal.τ Cert.KernelIdeal.sig) → Buf (Elt Ideal) ℓ)
  (ρ : Dev Cert.KernelIdeal.nD → PrngReg)

/-- A device's staged block is its argument buffer: the window's view is the whole buffer. -/
theorem xstg_eq (c : Dev Cert.KernelIdeal.nD) :
    xstg (F := Ideal) m ρ c
      = m ((c.tc : Thread Cert.KernelIdeal.nD Cert.KernelIdeal.τ).loc Cert.KernelIdeal.main_arg0) :=
  Memref.read_access_unit_zero (Elt Ideal) Cert.KernelIdeal.main_arg0 (funext fun a => Nat.zero_mul _) _ _

/-- Device `c`'s result at column `q` is below `z` exactly when column `q` of every device's block is. -/
theorem outAt_le_iff (c : Dev Cert.KernelIdeal.nD) (q : Fin 256) (z : EReal) :
    (show EReal from outAt (F := Ideal) m ρ c (ix2 (0 : Fin 1) q)) ≤ z
      ↔ ∀ (d : Dev Cert.KernelIdeal.nD) (r : Fin 512), (show EReal from xstg (F := Ideal) m ρ d (ix2 r q)) ≤ z := by
  refine (pay2_le_iff (accV (F := Ideal) m ρ c) (commV (F := Ideal) m ρ c) q z).trans ?_
  refine Iff.trans ?_ (forall_dev_iff c (fun d => ∀ r : Fin 512, (show EReal from xstg (F := Ideal) m ρ d (ix2 r q)) ≤ z))
  exact and_congr (pay1_le_iff (xstg (F := Ideal) m ρ c) q z)
    (forall_congr' fun j => pay1_le_iff (xstg (F := Ideal) m ρ (srcOf c j)) q z)

/-- With every device's argument its block of the whole array `X`, device `c`'s result at column `q` is below `z` exactly
    when column `q` of `X` is. -/
theorem outAt_le_iff_whole (X : (⟨2, ![16384, 256]⟩ : Shape).Idx → EReal)
    (hX : ∀ c : Dev Cert.KernelIdeal.nD,
      m ((c.tc : Thread Cert.KernelIdeal.nD Cert.KernelIdeal.τ).loc Cert.KernelIdeal.main_arg0)
        = Layout.block ⟨2, ![512, 256]⟩ ⟨2, ![16384, 256]⟩ 0 32 c X)
    (c : Dev Cert.KernelIdeal.nD) (q : Fin 256) (z : EReal) :
    (show EReal from outAt (F := Ideal) m ρ c (ix2 (0 : Fin 1) q)) ≤ z ↔ ∀ k : Fin 16384, X (ix2 k q) ≤ z := by
  refine (outAt_le_iff m ρ c q z).trans (Iff.trans ?_ (forall_rows_iff fun k => X (ix2 k q) ≤ z).symm)
  refine forall_congr' fun d => forall_congr' fun r => ?_
  rw [xstg_eq m ρ d, hX d, block_rows_apply X d _ r q]

end Kernel

/-! ## The reference's result at a column -/

/-- The reference's result at column `q` is below `z` exactly when column `q` of its argument is. -/
theorem ref_le_iff (X : (⟨2, ![16384, 256]⟩ : Shape).Idx → EReal) (q : Fin 256) (z : EReal) :
    Cert.ReferenceIdeal.Read.val_main_v1 (F := Ideal) X (ix2 (0 : Fin 1) q) ≤ z ↔ ∀ k : Fin 16384, X (ix2 k q) ≤ z := by
  rw [Cert.ReferenceIdeal.Read.val_main_v1_apply]
  have hi : Cert.ReferenceIdeal.Read.idx_main_v1 (ix2 (0 : Fin 1) q) = ix1 q :=
    funext fun a => match a with | ⟨0, _⟩ => rfl
  rw [hi]
  exact hostReduce_max_rows_le_iff X _ (by decide) _ q z

/-! ## The two sides are equal -/

/-- Every device's result is the reference's. -/
theorem outAt_eq_ref (m : (ℓ : Loc Cert.KernelIdeal.nD Cert.KernelIdeal.τ Cert.KernelIdeal.sig) → Buf (Elt Ideal) ℓ)
    (ρ : Dev Cert.KernelIdeal.nD → PrngReg) (X : (⟨2, ![16384, 256]⟩ : Shape).Idx → EReal)
    (hX : ∀ c : Dev Cert.KernelIdeal.nD,
      m ((c.tc : Thread Cert.KernelIdeal.nD Cert.KernelIdeal.τ).loc Cert.KernelIdeal.main_arg0)
        = Layout.block ⟨2, ![512, 256]⟩ ⟨2, ![16384, 256]⟩ 0 32 c X)
    (c : Dev Cert.KernelIdeal.nD) :
    outAt (F := Ideal) m ρ c = Cert.ReferenceIdeal.Read.val_main_v1 (F := Ideal) X := by
  have key : ∀ q : Fin 256, (show EReal from outAt (F := Ideal) m ρ c (ix2 (0 : Fin 1) q))
      = Cert.ReferenceIdeal.Read.val_main_v1 (F := Ideal) X (ix2 (0 : Fin 1) q) :=
    fun q => eq_of_le_iff fun z => (outAt_le_iff_whole m ρ X hX c q z).trans (ref_le_iff X q z).symm
  funext (i : (⟨2, ![1, 256]⟩ : Shape).Idx)
  have h0 : i 0 = (0 : Fin 1) := Fin.ext (by have h : (i 0).val < 1 := (i 0).isLt; show (i 0).val = 0; omega)
  have hi : i = ix2 (0 : Fin 1) (i 1) := (eq_ix2 i).trans (congrArg (fun a => ix2 a (i 1)) h0)
  rw [hi]
  exact key (i 1)

/-! ## The claims -/

/-- The reference runs and leaves its argument unchanged. -/
theorem frame_ref : Cert.frame_ReferenceIdeal :=
  fun m ρ _ => (θ_run Cert.ReferenceIdeal.defs _ _).mono (fun _ h c => (h c).2) (Cert.ReferenceIdeal.Value.run (F := Ideal) m ρ)

/-- The algebraic claim, from the kernel's run with every device's result named `outAt` and its argument unchanged. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = outAt (F := Ideal) m ρ c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal :=
  fun m g m' g' _ hagree =>
    ⟨Cert.ReferenceIdeal.Read.val_main_v1 (F := Ideal)
        (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (outAt_eq_ref m g _ hagree c), (h c).2⟩) (hrun m g),
      (θ_run (Cert.ReferenceIdeal.defs (F := Ideal)) _ _).mono
        (fun _ h => ⟨(h 0).1.trans (Cert.ReferenceIdeal.Read.val_main_v1_eq _), (h 0).2⟩)
        (Cert.ReferenceIdeal.Value.run (F := Ideal) m' g')⟩

end Cert.Bridge

end
-- ==== Proof.lean ====
/-
  The maximum over the rows of a 16384×256 array cut into 32 blocks of rows, one per device: every device takes the
  row-maximum of its block, the 32 devices exchange their row-maxima all-to-all — each signals the 31 others that its landing
  slots exist, waits to have been signalled by all 31, copies its row-maximum into one slot of each, and waits for its own 31
  slots —, and each takes the maximum of its own row-maximum and the 31 it received: the maximum over all 16384 rows, which is
  what the reference computes on one device. The maximum of extended reals is exact and indifferent to order and grouping, so
  no finiteness is used.
  Both printed kernels (word-level and idealized) run to the end on the 32 devices without fault and leave the argument
  unchanged (the protocol's proof: Proof/Kernel*/Cells … Final); the idealization rewrote nothing; and the idealized kernel's
  result on every device is the reference's (Proof/Value).
-/
import proofs.«900925_g7700000000000926_dist_max_ax0_shard0_i_m512_n256_v7x_i32_f32_1_alg».proof.Defs
import proofs.«900925_g7700000000000926_dist_max_ax0_shard0_i_m512_n256_v7x_i32_f32_1_alg».proof.Proof.Kernel.Body
import proofs.«900925_g7700000000000926_dist_max_ax0_shard0_i_m512_n256_v7x_i32_f32_1_alg».proof.Proof.Kernel.Final
import proofs.«900925_g7700000000000926_dist_max_ax0_shard0_i_m512_n256_v7x_i32_f32_1_alg».proof.Proof.KernelIdeal.Body
import proofs.«900925_g7700000000000926_dist_max_ax0_shard0_i_m512_n256_v7x_i32_f32_1_alg».proof.Proof.KernelIdeal.Final
import proofs.«900925_g7700000000000926_dist_max_ax0_shard0_i_m512_n256_v7x_i32_f32_1_alg».proof.Proof.Value
import proofs.«900925_g7700000000000926_dist_max_ax0_shard0_i_m512_n256_v7x_i32_f32_1_alg».proof.Proof.Gen.Kernel
import proofs.«900925_g7700000000000926_dist_max_ax0_shard0_i_m512_n256_v7x_i32_f32_1_alg».proof.Proof.Gen.KernelIdeal
import proofs.«900925_g7700000000000926_dist_max_ax0_shard0_i_m512_n256_v7x_i32_f32_1_alg».proof.Proof.Gen.ReferenceIdeal
import proofs.«900925_g7700000000000926_dist_max_ax0_shard0_i_m512_n256_v7x_i32_f32_1_alg».proof.Proof.Gen.Pre_finite_inputs_Kernel
import proofs.«900925_g7700000000000926_dist_max_ax0_shard0_i_m512_n256_v7x_i32_f32_1_alg».proof.Proof.Gen.Pre_finite_inputs_ReferenceIdeal
import Idealize.ShloMosaic.Adequacy
import Idealize.ShloMosaic.Init

noncomputable section

namespace Cert.Proof

open Idealize.ShloMosaic Idealize.SL.Sem

/-- The word-level kernel runs on the 32 devices and leaves every device's block unchanged. -/
theorem frame_k : Cert.frame_Kernel := fun m ρ _ =>
  (θ_run (Cert.Kernel.defs (F := Bits)) _ _).mono (fun _ h c => (h c).2)
    (Cert.Kernel.Hand.run_values (F := Bits) m ρ (Cert.Kernel.Hand.body_obligation m ρ))

/-- So does the idealized kernel. -/
theorem frame_ki : Cert.frame_KernelIdeal := fun m ρ _ =>
  (θ_run (Cert.KernelIdeal.defs (F := Ideal)) _ _).mono (fun _ h c => (h c).2)
    (Cert.KernelIdeal.Hand.run_values (F := Ideal) m ρ (Cert.KernelIdeal.Hand.body_obligation m ρ))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.Bridge.frame_ref, trivial,
    Cert.Bridge.algebraic_of_run fun m ρ => Cert.KernelIdeal.Hand.run_values (F := Ideal) m ρ (Cert.KernelIdeal.Hand.body_obligation m ρ)⟩

end Cert.Proof

end
